-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  IdealRules.truncf_extf.Statement Cert.KernelIdeal.S2000x256 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S64x64 .f32) (main_arg10 : FVec F S64 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg6 : FVec F S64 .f32) (main_arg7 : FVec F S64 .f32) (main_arg8 : FVec F S64x64 .f32) (main_arg9 : FVec F S64x64 .f32) (main_arg10 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_v33

def fn {F : FTy → Type} [FloatOps F] (main_arg0 : FVec F S100000x64 .f32) (main_arg1 : IVec S2x1600000 32) (main_arg2 : IVec S100000 32) (main_arg3 : FVec F S64x64 .f32) (main_arg4 : FVec F S64x64 .f32) (main_arg5 : FVec F S64 .f32) (main_arg6 : FVec F S64 .f32) (main_arg7 : FVec F S64 .f32) (main_arg8 : FVec F S64x64 .f32) (main_arg9 : FVec F S64x64 .f32) (main_arg10 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S1600000x64 : Shape := ⟨2, ![1600000, 64]⟩
abbrev S128x64 : Shape := ⟨2, ![128, 64]⟩
abbrev S1x64 : Shape := ⟨2, ![1, 64]⟩
abbrev S5000x64 : Shape := ⟨2, ![5000, 64]⟩
abbrev S5000x1 : Shape := ⟨2, ![5000, 1]⟩
abbrev S5000x128 : Shape := ⟨2, ![5000, 128]⟩
abbrev S50000x128 : Shape := ⟨2, ![50000, 128]⟩
abbrev S128 : Shape := ⟨1, ![128]⟩
abbrev S1x128 : Shape := ⟨2, ![1, 128]⟩
abbrev S256x64 : Shape := ⟨2, ![256, 64]⟩
abbrev S1x256 : Shape := ⟨2, ![1, 256]⟩
abbrev S2000x64 : Shape := ⟨2, ![2000, 64]⟩
abbrev S2000x1 : Shape := ⟨2, ![2000, 1]⟩
abbrev S2000x128 : Shape := ⟨2, ![2000, 128]⟩
abbrev S2000x256 : Shape := ⟨2, ![2000, 256]⟩
abbrev S256 : Shape := ⟨1, ![256]⟩
abbrev S256x1 : Shape := ⟨2, ![256, 1]⟩

abbrev nBuf : Space → Nat
  | .hbm => 98
  | .vmem => 34
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000, .i32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64x64, .f32⟩
  | .hbm, ⟨9, _⟩ => ⟨S64x64, .f32⟩
  | .hbm, ⟨10, _⟩ => ⟨S64, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x64, .f32⟩
  | .hbm, ⟨37, _⟩ => ⟨S_, .f32⟩
  | .hbm, ⟨38, _⟩ => ⟨S100000x64, .f32⟩
  | .hbm, ⟨39, _⟩ => ⟨S1600000x1, .i32⟩
  | .hbm, ⟨40, _⟩ => ⟨S100000x64, .f32⟩
  | .hbm, ⟨41, _⟩ => ⟨S64x64, .f32⟩
  | .hbm, ⟨42, _⟩ => ⟨S64x64, .f32⟩
  | .hbm, ⟨43, _⟩ => ⟨S128x64, .f32⟩
  | .hbm, ⟨44, _⟩ => ⟨S1x64, .f32⟩
  | .hbm, ⟨45, _⟩ => ⟨S100000x64, .f32⟩
  | .hbm, ⟨46, _⟩ => ⟨S1x64, .f32⟩
  | .hbm, ⟨47, _⟩ => ⟨S1x64, .f32⟩
  | .hbm, ⟨48, _⟩ => ⟨S64, .f32⟩
  | .hbm, ⟨49, _⟩ => ⟨S_, .f32⟩
  | .hbm, ⟨50, _⟩ => ⟨S64, .f32⟩
  | .hbm, ⟨51, _⟩ => ⟨S64, .f32⟩
  | .hbm, ⟨52, _⟩ => ⟨S64, .f32⟩
  | .hbm, ⟨53, _⟩ => ⟨S_, .f32⟩
  | .hbm, ⟨54, _⟩ => ⟨S64, .f32⟩
  | .hbm, ⟨55, _⟩ => ⟨S64, .f32⟩
  | .hbm, ⟨56, _⟩ => ⟨S64, .f32⟩
  | .hbm, ⟨57, _⟩ => ⟨S64, .f32⟩
  | .hbm, ⟨58, _⟩ => ⟨S_, .f32⟩
  | .hbm, ⟨59, _⟩ => ⟨S64, .f32⟩
  | .hbm, ⟨60, _⟩ => ⟨S64, .f32⟩
  | .hbm, ⟨61, _⟩ => ⟨S64, .f32⟩
  | .hbm, ⟨62, _⟩ => ⟨S64, .f32⟩
  | .hbm, ⟨63, _⟩ => ⟨S64, .f32⟩
  | .hbm, ⟨64, _⟩ => ⟨S64, .f32⟩
  | .hbm, ⟨65, _⟩ => ⟨S50000x128, .f32⟩
  | .hbm, ⟨66, _⟩ => ⟨S128, .f32⟩
  | .hbm, ⟨67, _⟩ => ⟨S1x128, .f32⟩
  | .hbm, ⟨68, _⟩ => ⟨S128, .f32⟩
  | .hbm, ⟨69, _⟩ => ⟨S1x128, .f32⟩
  | .hbm, ⟨70, _⟩ => ⟨S50000x128, .f32⟩
  | .hbm, ⟨71, _⟩ => ⟨S100000x64, .f32⟩
  | .hbm, ⟨72, _⟩ => ⟨S_, .i32⟩
  | .hbm, ⟨73, _⟩ => ⟨S1600000, .i32⟩
  | .hbm, ⟨74, _⟩ => ⟨S1600000, .i1⟩
  | .hbm, ⟨75, _⟩ => ⟨S_, .i32⟩
  | .hbm, ⟨76, _⟩ => ⟨S1600000, .i32⟩
  | .hbm, ⟨77, _⟩ => ⟨S1600000, .i32⟩
  | .hbm, ⟨78, _⟩ => ⟨S1600000, .i32⟩
  | .hbm, ⟨79, _⟩ => ⟨S1600000x1, .i32⟩
  | .hbm, ⟨80, _⟩ => ⟨S1600000x64, .f32⟩
  | .hbm, ⟨81, _⟩ => ⟨S_, .f32⟩
  | .hbm, ⟨82, _⟩ => ⟨S100000x64, .f32⟩
  | .hbm, ⟨83, _⟩ => ⟨S1600000x1, .i32⟩
  | .hbm, ⟨84, _⟩ => ⟨S100000x64, .f32⟩
  | .hbm, ⟨85, _⟩ => ⟨S64x64, .f32⟩
  | .hbm, ⟨86, _⟩ => ⟨S64x64, .f32⟩
  | .hbm, ⟨87, _⟩ => ⟨S128x64, .f32⟩
  | .hbm, ⟨88, _⟩ => ⟨S1x64, .f32⟩
  | .hbm, ⟨89, _⟩ => ⟨S100000x1, .i32⟩
  | .hbm, ⟨90, _⟩ => ⟨S256x64, .f32⟩
  | .hbm, ⟨91, _⟩ => ⟨S1x256, .f32⟩
  | .hbm, ⟨92, _⟩ => ⟨S256x1, .f32⟩
  | .hbm, ⟨93, _⟩ => ⟨S_, .f32⟩
  | .hbm, ⟨94, _⟩ => ⟨S256x1, .f32⟩
  | .hbm, ⟨95, _⟩ => ⟨S256x1, .f32⟩
  | .hbm, ⟨96, _⟩ => ⟨S256x64, .f32⟩
  | .hbm, ⟨97, _⟩ => ⟨S256x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x1, .f32⟩
  | .local _ .vmem, ⟨5, _⟩ => ⟨S5000x1, .f32⟩
  | .local _ .vmem, ⟨6, _⟩ => ⟨S128x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S1x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S5000x128, .f32⟩
  | .local _ .vmem, ⟨15, _⟩ => ⟨S5000x128, .f32⟩
  | .local _ .vmem, ⟨16, _⟩ => ⟨S1x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S2000x64, .f32⟩
  | .local _ .vmem, ⟨21, _⟩ => ⟨S2000x64, .f32⟩
  | .local _ .vmem, ⟨22, _⟩ => ⟨S2000x64, .f32⟩
  | .local _ .vmem, ⟨23, _⟩ => ⟨S2000x64, .f32⟩
  | .local _ .vmem, ⟨24, _⟩ => ⟨S2000x1, .f32⟩
  | .local _ .vmem, ⟨25, _⟩ => ⟨S2000x1, .f32⟩
  | .local _ .vmem, ⟨26, _⟩ => ⟨S128x64, .f32⟩
  | .local _ .vmem, ⟨27, _⟩ => ⟨S1x64, .f32⟩
  | .local _ .vmem, ⟨28, _⟩ => ⟨S2000x1, .i32⟩
  | .local _ .vmem, ⟨29, _⟩ => ⟨S2000x1, .i32⟩
  | .local _ .vmem, ⟨30, _⟩ => ⟨S256x64, .f32⟩
  | .local _ .vmem, ⟨31, _⟩ => ⟨S1x256, .f32⟩
  | .local _ .vmem, ⟨32, _⟩ => ⟨S256x64, .f32⟩
  | .local _ .vmem, ⟨33, _⟩ => ⟨S1x256, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27_0 : Ref sig .tc := ⟨.hbm, 45, rfl⟩
abbrev main_v27_1 : Ref sig .tc := ⟨.hbm, 46, rfl⟩
abbrev main_v27_2 : Ref sig .tc := ⟨.hbm, 47, rfl⟩
abbrev main_v28 : Ref sig .tc := ⟨.hbm, 48, rfl⟩
abbrev main_cst_5 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_6 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_7 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_c_8 : Ref sig .tc := ⟨.hbm, 72, rfl⟩
abbrev main_v49 : Ref sig .tc := ⟨.hbm, 73, rfl⟩
abbrev main_v50 : Ref sig .tc := ⟨.hbm, 74, rfl⟩
abbrev main_c_9 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_10 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64_0 : Ref sig .tc := ⟨.hbm, 90, rfl⟩
abbrev main_v64_1 : Ref sig .tc := ⟨.hbm, 91, rfl⟩
abbrev main_v65 : Ref sig .tc := ⟨.hbm, 92, rfl⟩
abbrev main_cst_11 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg3_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc2_stg6_0 : Ref sig .tc := ⟨.vmem, 30, rfl⟩
abbrev cc2_stg7_0 : Ref sig .tc := ⟨.vmem, 31, rfl⟩
abbrev cc2_scratch0 : Ref sig .tc := ⟨.vmem, 32, rfl⟩
abbrev cc2_scratch1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem3_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem4_0 : DmaSem sig := 25
abbrev cc2_sem5_0 : DmaSem sig := 26
abbrev cc2_sem5_1 : DmaSem sig := 27
abbrev cc2_sem6_0 : DmaSem sig := 28
abbrev cc2_sem7_0 : DmaSem sig := 29

abbrev nD : Nat := 1
abbrev τ : Topo := Topo.v7x

variable {F : FTy → Type} [FloatOps F]

abbrev grid0 : Pipeline.Grid := ⟨1, ![20], ![false]⟩

def k0_cond2 (i : grid0.Coords) : BitVec 1 :=
  let arg0 : BitVec 32 := BitVec.ofNat 32 (i 0).val
  let c19_i32 : BitVec 32 := 19#32
  let v36 : BitVec 1 := Scalar.cmpi .eq arg0 c19_i32
  let v37 : BitVec 32 := Scalar.extui v36
  let c0_i32_22 : BitVec 32 := 0#32
  let v38 : BitVec 1 := Scalar.cmpi .ne v37 c0_i32_22
  v38

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def k2_cond2 (i : grid2.Coords) : BitVec 1 :=
  let arg0 : BitVec 32 := BitVec.ofNat 32 (i 0).val
  let c49_i32 : BitVec 32 := 49#32
  let v44 : BitVec 1 := Scalar.cmpi .eq arg0 c49_i32
  let v45 : BitVec 32 := Scalar.extui v44
  let c0_i32_22 : BitVec 32 := 0#32
  let v46 : BitVec 1 := Scalar.cmpi .ne v45 c0_i32_22
  v46

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x1 .i32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S256x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  transposes_S64x64_S64x64_1_0 : S64x64.Transposes [1, 0] S64x64
  concatenates_S64x64_S64x64_S128x64_d0 : Shape.Concatenates [S64x64, S64x64] S128x64 0
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  concatenates_S5000x64_S5000x64_S5000x128_d1 : Shape.Concatenates [S5000x64, S5000x64] S5000x128 1
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  broadcasts_S1x64_S5000x64 : S1x64.Broadcasts S5000x64
  reduces_S5000x64_S64 : S5000x64.Reduces [0] S64
  shapeCasts_S1x64_S64 : S1x64.ShapeCasts S64
  bcast_S_S64 : S_.BroadcastsInDim S64 (![] : Fin 0 → Fin S64.rank)
  shapeCasts_S100000x64_S50000x128 : S100000x64.ShapeCasts S50000x128
  concatenates_S64_S64_S128_d0 : Shape.Concatenates [S64, S64] S128 0
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S50000x128_S100000x64 : S50000x128.ShapeCasts S100000x64
  shapeCasts_S100000_S100000x1 : S100000.ShapeCasts S100000x1
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  concatenates_S2000x64_S2000x64_S2000x128_d1 : Shape.Concatenates [S2000x64, S2000x64] S2000x128 1
  broadcasts_S1x64_S2000x64 : S1x64.Broadcasts S2000x64
  iota_S2000x256_d1_w32 : S2000x256.Iotas .tc 32 [1]
  broadcasts_S2000x1_S2000x256 : S2000x1.Broadcasts S2000x256
  natLt_1_32 : 1 < 32
  reduces_S2000x256_S256 : S2000x256.Reduces [0] S256
  shapeCasts_S256_S1x256 : S256.ShapeCasts S1x256
  shapeCasts_S1x256_S256x1 : S1x256.ShapeCasts S256x1
  bcast_S_S256x1 : S_.BroadcastsInDim S256x1 (![] : Fin 0 → Fin S256x1.rank)
  bcast_S256x1_S256x64_0_1 : S256x1.BroadcastsInDim S256x64 (![0, 1] : Fin 2 → Fin S256x64.rank)
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x128_S128x64_S5000x64_1_0_0_1_n_n_wf : DotDims.WF S5000x128 S128x64 S5000x64 [1] [0] [0] [1] [] []
  dot_S2000x128_S128x64_S2000x64_1_0_0_1_n_n_wf : DotDims.WF S2000x128 S128x64 S2000x64 [1] [0] [0] [1] [] []
  dot_S2000x256_S2000x64_S256x64_0_0_1_1_n_n_wf : DotDims.WF S2000x256 S2000x64 S256x64 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x64.size a ≤ S100000x64.size a
  hwx2_1 : ∀ i : grid2.Coords, EltTy.bits .f32 = 32 ∨ (Rect.block (s := S100000x64) S2000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S100000x1.size a
  hwx2_2 : ∀ i : grid2.Coords, EltTy.bits .f32 = 32 ∨ (Rect.block (s := S100000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x1.size a ≤ S100000x1.size a
  hwx2_5 : ∀ i : grid2.Coords, EltTy.bits .i32 = 32 ∨ (Rect.block (s := S100000x1) S2000x1.size (cc2_transform_5 i) (hinb2_5 i)).WholeWords (EltTy.packing .i32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S256x64.size a ≤ S256x64.size a
  hwx2_6 : ∀ i : grid2.Coords, EltTy.bits .f32 = 32 ∨ (Rect.block (s := S256x64) S256x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x256.size a ≤ S1x256.size a
  hwx2_7 : ∀ i : grid2.Coords, EltTy.bits .f32 = 32 ∨ (Rect.block (s := S1x256) S1x256.size (cc2_transform_7 i) (hinb2_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S2000x256_S2000x64_S256x64_0_0_1_1_n_n : DotDims S2000x256 S2000x64 S256x64 where
  lhsContracting := [0]
  rhsContracting := [0]
  lhsNonContracting := [1]
  rhsNonContracting := [1]
  lhsBatch := []
  rhsBatch := []
  wf := dot_S2000x256_S2000x64_S256x64_0_0_1_1_n_n_wf

abbrev win0_0 : Pipeline.Window sig grid0 :=
  Pipeline.Window.ofSpec (Memref.whole main_v22) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v25) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27_0) S5000x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v27_1) S1x64.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v27_2) S1x64.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | ⟨_ + 8, h⟩ => absurd h (Nat.not_lt.2 (Nat.le_add_left _ _))

abbrev win1_0 : Pipeline.Window sig grid1 :=
  Pipeline.Window.ofSpec (Memref.whole main_v42) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S2000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v61) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v62) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v63) S2000x1.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v64_0) S256x64.size cc2_transform_6 reads2_6 true true 1 stage2_6 sem2_6
    hrank2 hreads2_6 hinb2_6 nbuf2_6 (Memref.isWhole_whole _) hwx2_6 hstage2_6

abbrev win2_7 : Pipeline.Window sig grid2 :=
  Pipeline.Window.ofSpec (Memref.whole main_v64_1) S1x256.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev idle2 : Fin 8 → grid2.Coords → Bool := fun | 0 => fun _ => false | 1 => fun _ => false | 2 => fun _ => false | 3 => fun _ => false | 4 => fun _ => false | 5 => fun _ => false | 6 => fun i => !(k2_cond2 i == 1#1) | 7 => fun i => !(k2_cond2 i == 1#1) | ⟨_ + 8, h⟩ => absurd h (Nat.not_lt.2 (Nat.le_add_left _ _))

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S256 : Shape := ⟨1, ![256]⟩
abbrev S256x64 : Shape := ⟨2, ![256, 64]⟩
abbrev S256x1 : Shape := ⟨2, ![256, 1]⟩

abbrev nBuf : Space → Nat
  | .hbm => 130
  | .vmem => 0
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S64x64, .f32⟩
  | 4 => ⟨S64x64, .f32⟩
  | 5 => ⟨S64, .f32⟩
  | 6 => ⟨S64, .f32⟩
  | 7 => ⟨S64, .f32⟩
  | 8 => ⟨S64x64, .f32⟩
  | 9 => ⟨S64x64, .f32⟩
  | 10 => ⟨S64, .f32⟩
  | 11 => ⟨S1x1600000, .i32⟩
  | 12 => ⟨S1600000, .i32⟩
  | 13 => ⟨S1x1600000, .i32⟩
  | 14 => ⟨S1600000, .i32⟩
  | 15 => ⟨S_, .f32⟩
  | 16 => ⟨S1600000, .f32⟩
  | 17 => ⟨S_, .f32⟩
  | 18 => ⟨S100000, .f32⟩
  | 19 => ⟨S1600000x1, .i32⟩
  | 20 => ⟨S100000, .f32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S1600000x64, .f32⟩
  | 30 => ⟨S_, .f32⟩
  | 31 => ⟨S100000x64, .f32⟩
  | 32 => ⟨S1600000x1, .i32⟩
  | 33 => ⟨S100000x64, .f32⟩
  | 34 => ⟨S_, .f32⟩
  | 35 => ⟨S100000, .f32⟩
  | 36 => ⟨S100000, .f32⟩
  | 37 => ⟨S100000x1, .f32⟩
  | 38 => ⟨S100000x64, .f32⟩
  | 39 => ⟨S100000x64, .f32⟩
  | 40 => ⟨S64x64, .f32⟩
  | 41 => ⟨S100000x64, .f32⟩
  | 42 => ⟨S1x64, .f32⟩
  | 43 => ⟨S100000x64, .f32⟩
  | 44 => ⟨S100000x64, .f32⟩
  | 45 => ⟨S64x64, .f32⟩
  | 46 => ⟨S100000x64, .f32⟩
  | 47 => ⟨S100000x64, .f32⟩
  | 48 => ⟨S_, .f32⟩
  | 49 => ⟨S64, .f32⟩
  | 50 => ⟨S_, .f32⟩
  | 51 => ⟨S64, .f32⟩
  | 52 => ⟨S64, .f32⟩
  | 53 => ⟨S1x64, .f32⟩
  | 54 => ⟨S100000x64, .f32⟩
  | 55 => ⟨S100000x64, .f32⟩
  | 56 => ⟨S100000x64, .f32⟩
  | 57 => ⟨S_, .f32⟩
  | 58 => ⟨S64, .f32⟩
  | 59 => ⟨S_, .f32⟩
  | 60 => ⟨S64, .f32⟩
  | 61 => ⟨S64, .f32⟩
  | 62 => ⟨S1x64, .f32⟩
  | 63 => ⟨S100000x64, .f32⟩
  | 64 => ⟨S100000x64, .f32⟩
  | 65 => ⟨S_, .f32⟩
  | 66 => ⟨S64, .f32⟩
  | 67 => ⟨S64, .f32⟩
  | 68 => ⟨S64, .f32⟩
  | 69 => ⟨S1x64, .f32⟩
  | 70 => ⟨S100000x64, .f32⟩
  | 71 => ⟨S100000x64, .f32⟩
  | 72 => ⟨S1x64, .f32⟩
  | 73 => ⟨S100000x64, .f32⟩
  | 74 => ⟨S100000x64, .f32⟩
  | 75 => ⟨S1x64, .f32⟩
  | 76 => ⟨S100000x64, .f32⟩
  | 77 => ⟨S100000x64, .f32⟩
  | 78 => ⟨S_, .f32⟩
  | 79 => ⟨S100000x64, .f32⟩
  | 80 => ⟨S100000x64, .f32⟩
  | 81 => ⟨S_, .f32⟩
  | 82 => ⟨S1600000, .f32⟩
  | 83 => ⟨S_, .f32⟩
  | 84 => ⟨S100000, .f32⟩
  | 85 => ⟨S1600000x1, .i32⟩
  | 86 => ⟨S100000, .f32⟩
  | 87 => ⟨S_, .i32⟩
  | 88 => ⟨S1600000, .i32⟩
  | 89 => ⟨S1600000, .i1⟩
  | 90 => ⟨S_, .i32⟩
  | 91 => ⟨S1600000, .i32⟩
  | 92 => ⟨S1600000, .i32⟩
  | 93 => ⟨S1600000, .i32⟩
  | 94 => ⟨S1600000x1, .i32⟩
  | 95 => ⟨S1600000x64, .f32⟩
  | 96 => ⟨S_, .f32⟩
  | 97 => ⟨S100000x64, .f32⟩
  | 98 => ⟨S1600000x1, .i32⟩
  | 99 => ⟨S100000x64, .f32⟩
  | 100 => ⟨S_, .f32⟩
  | 101 => ⟨S100000, .f32⟩
  | 102 => ⟨S100000, .f32⟩
  | 103 => ⟨S100000x1, .f32⟩
  | 104 => ⟨S100000x64, .f32⟩
  | 105 => ⟨S100000x64, .f32⟩
  | 106 => ⟨S64x64, .f32⟩
  | 107 => ⟨S100000x64, .f32⟩
  | 108 => ⟨S1x64, .f32⟩
  | 109 => ⟨S100000x64, .f32⟩
  | 110 => ⟨S100000x64, .f32⟩
  | 111 => ⟨S64x64, .f32⟩
  | 112 => ⟨S100000x64, .f32⟩
  | 113 => ⟨S100000x64, .f32⟩
  | 114 => ⟨S_, .f32⟩
  | 115 => ⟨S100000, .f32⟩
  | 116 => ⟨S_, .f32⟩
  | 117 => ⟨S256, .f32⟩
  | 118 => ⟨S100000x1, .i32⟩
  | 119 => ⟨S256, .f32⟩
  | 120 => ⟨S_, .f32⟩
  | 121 => ⟨S256x64, .f32⟩
  | 122 => ⟨S100000x1, .i32⟩
  | 123 => ⟨S256x64, .f32⟩
  | 124 => ⟨S_, .f32⟩
  | 125 => ⟨S256, .f32⟩
  | 126 => ⟨S256, .f32⟩
  | 127 => ⟨S256x1, .f32⟩
  | _ => ⟨S100000x64, .f32⟩

abbrev hbmTy0_1 (i : Nat) : BufTy := match i % 128 with
  | 0 => ⟨S256x64, .f32⟩
  | 1 => ⟨S256x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_c_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_4 : Ref sig .tc := ⟨.hbm, 48, rfl⟩
abbrev main_v31 : Ref sig .tc := ⟨.hbm, 49, rfl⟩
abbrev main_cst_5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_6 : Ref sig .tc := ⟨.hbm, 57, rfl⟩
abbrev main_v38 : Ref sig .tc := ⟨.hbm, 58, rfl⟩
abbrev main_cst_7 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_8 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_call0_cst : Ref sig .tc := ⟨.hbm, 78, rfl⟩
abbrev main_call0_v0 : Ref sig .tc := ⟨.hbm, 79, rfl⟩
abbrev main_v56 : Ref sig .tc := ⟨.hbm, 80, rfl⟩
abbrev main_cst_9 : Ref sig .tc := ⟨.hbm, 81, rfl⟩
abbrev main_v57 : Ref sig .tc := ⟨.hbm, 82, rfl⟩
abbrev main_cst_10 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_c_11 : Ref sig .tc := ⟨.hbm, 87, rfl⟩
abbrev main_v61 : Ref sig .tc := ⟨.hbm, 88, rfl⟩
abbrev main_v62 : Ref sig .tc := ⟨.hbm, 89, rfl⟩
abbrev main_c_12 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_13 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_14 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_cst_15 : Ref sig .tc := ⟨.hbm, 114, rfl⟩
abbrev main_v84 : Ref sig .tc := ⟨.hbm, 115, rfl⟩
abbrev main_cst_16 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_cst_17 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_cst_18 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S256 : S_.BroadcastsInDim S256 (![] : Fin 0 → Fin S256.rank)
  bcast_S_S256x64 : S_.BroadcastsInDim S256x64 (![] : Fin 0 → Fin S256x64.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  scatter_S256_S100000x1_S100000_n_0_0_1_wf : ScatterDims.WF S256 S100000x1 S100000 [] [0] [0] 1
  scatter_S256x64_S100000x1_S100000x64_1_0_0_1_wf : ScatterDims.WF S256x64 S100000x1 S100000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf

class Facts : Prop extends Facts₀ where

variable [Facts]
-- ==== Proof.K.R0Base.lean ====
/- Region 0 (the statistics kernel, 20 grid points): what its three control cases share — the windows' blocks as
   the region finds them, the body's two branch conditions in closed form over the grid, where the output windows
   are idle, the staging and scratch memrefs, and the region invariant with the two accumulators split off. -/
import proofs.«400542_j69810398429749_3_alg».proof.Proof.Gen.Kernel.Launch
import proofs.«400542_j69810398429749_3_alg».proof.Proof.Gen.Kernel.Skeleton
import proofs.«400542_j69810398429749_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is the region-entry contents and whose body leaves the block in place: an unfetched point has
    the block index of the point before, so the block is the same. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is the region-entry contents and whose body leaves the block in place: an unfetched point has
    the block index of the point before, so the block is the same. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is the region-entry contents and whose body leaves the block in place: an unfetched point has
    the block index of the point before, so the block is the same. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is the region-entry contents and whose body leaves the block in place: an unfetched point has
    the block index of the point before, so the block is the same. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is the region-entry contents and whose body leaves the block in place: an unfetched point has
    the block index of the point before, so the block is the same. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's first conditional (the accumulators are zeroed under it), from the grid
    coordinates: the scalar chain `(i == 0) extended ≠ 0`. -/
abbrev cond0_0 (i : grid0.Coords) : Prop := (Scalar.cmpi .ne (Scalar.extui (Scalar.cmpi .eq (BitVec.ofNat 32 (i 0).val) 0#32)) 0#32) = 1#1
/-- It holds at the first point only — decided over the 20 points. -/
theorem hcond0_0 : ∀ t : Fin cfg0.N, cond0_0 (grid0.coords t) ↔ t.val = 0 :=
  (by decide +kernel : ∀ t : Fin grid0.N, cond0_0 (grid0.coords t) ↔ t.val = 0)

/-- The condition of the body's second conditional (the accumulators are copied to the outputs under it). -/
abbrev cond0_1 (i : grid0.Coords) : Prop := k0_cond2 i = 1#1
/-- It holds at the last point only — decided over the 20 points. -/
theorem hcond0_1 : ∀ t : Fin cfg0.N, cond0_1 (grid0.coords t) ↔ t.val = 19 :=
  (by decide +kernel : ∀ t : Fin grid0.N, cond0_1 (grid0.coords t) ↔ t.val = 19)

/-! ## Where the windows are idle -/

/-- Window 0 is never idle. -/
theorem liveAt0_0 : ∀ t : Fin cfg0.N, cfg0.idle 0 (grid0.coords t) = false := by decide +kernel
/-- Window 1 is never idle. -/
theorem liveAt0_1 : ∀ t : Fin cfg0.N, cfg0.idle 1 (grid0.coords t) = false := by decide +kernel
/-- Window 2 is never idle. -/
theorem liveAt0_2 : ∀ t : Fin cfg0.N, cfg0.idle 2 (grid0.coords t) = false := by decide +kernel
/-- Window 3 is never idle. -/
theorem liveAt0_3 : ∀ t : Fin cfg0.N, cfg0.idle 3 (grid0.coords t) = false := by decide +kernel
/-- Window 4 is never idle. -/
theorem liveAt0_4 : ∀ t : Fin cfg0.N, cfg0.idle 4 (grid0.coords t) = false := by decide +kernel
/-- Window 5 is never idle. -/
theorem liveAt0_5 : ∀ t : Fin cfg0.N, cfg0.idle 5 (grid0.coords t) = false := by decide +kernel

/-- At the point of case A output 6 is idle: the case stores nothing into it. -/
theorem idleAt0_6_A : ∀ t : Fin cfg0.N, cond0_0 (grid0.coords t) → ¬cond0_1 (grid0.coords t) → cfg0.idle 6 (grid0.coords t) = true := by decide +kernel
/-- At the point of case A output 6's block is not written back. -/
theorem noFlush0_6_A : ∀ t : Fin cfg0.N, cond0_0 (grid0.coords t) → ¬cond0_1 (grid0.coords t) → (cfg0.win 6).flush t = false := by decide +kernel
/-- At the points of case B output 6 is idle: the case stores nothing into it. -/
theorem idleAt0_6_B : ∀ t : Fin cfg0.N, ¬cond0_0 (grid0.coords t) → ¬cond0_1 (grid0.coords t) → cfg0.idle 6 (grid0.coords t) = true := by decide +kernel
/-- At the points of case B output 6's block is not written back. -/
theorem noFlush0_6_B : ∀ t : Fin cfg0.N, ¬cond0_0 (grid0.coords t) → ¬cond0_1 (grid0.coords t) → (cfg0.win 6).flush t = false := by decide +kernel
/-- At the point of case C output 6 is live: the case stores into it. -/
theorem liveAt0_6_C : ∀ t : Fin cfg0.N, ¬cond0_0 (grid0.coords t) → cond0_1 (grid0.coords t) → cfg0.idle 6 (grid0.coords t) = false := by decide +kernel

/-- At the point of case A output 7 is idle: the case stores nothing into it. -/
theorem idleAt0_7_A : ∀ t : Fin cfg0.N, cond0_0 (grid0.coords t) → ¬cond0_1 (grid0.coords t) → cfg0.idle 7 (grid0.coords t) = true := by decide +kernel
/-- At the point of case A output 7's block is not written back. -/
theorem noFlush0_7_A : ∀ t : Fin cfg0.N, cond0_0 (grid0.coords t) → ¬cond0_1 (grid0.coords t) → (cfg0.win 7).flush t = false := by decide +kernel
/-- At the points of case B output 7 is idle: the case stores nothing into it. -/
theorem idleAt0_7_B : ∀ t : Fin cfg0.N, ¬cond0_0 (grid0.coords t) → ¬cond0_1 (grid0.coords t) → cfg0.idle 7 (grid0.coords t) = true := by decide +kernel
/-- At the points of case B output 7's block is not written back. -/
theorem noFlush0_7_B : ∀ t : Fin cfg0.N, ¬cond0_0 (grid0.coords t) → ¬cond0_1 (grid0.coords t) → (cfg0.win 7).flush t = false := by decide +kernel
/-- At the point of case C output 7 is live: the case stores into it. -/
theorem liveAt0_7_C : ∀ t : Fin cfg0.N, ¬cond0_0 (grid0.coords t) → cond0_1 (grid0.coords t) → cfg0.idle 7 (grid0.coords t) = false := by decide +kernel

/-! ## The memrefs the body is called with -/

/-- One staging buffer of each output window, through which its contents are stated (the choice does not matter:
    reading back a covering list of pieces does not depend on the view). -/
abbrev VO0_5 : View sig .tc .vmem S5000x64 .f32 := (Memref.whole cc0_stg5_0 : Memref sig .tc .vmem S5000x64 .f32).view
abbrev VO0_6 : View sig .tc .vmem S1x64 .f32 := (Memref.whole cc0_stg6_0 : Memref sig .tc .vmem S1x64 .f32).view
abbrev VO0_7 : View sig .tc .vmem S1x64 .f32 := (Memref.whole cc0_stg7_0 : Memref sig .tc .vmem S1x64 .f32).view
/-- Each window's current staging memref at point `t`, spelled as the pipeline passes it, and its wholeness. -/
abbrev ms0_0 (t : Fin cfg0.N) : Memref sig .tc .vmem S5000x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5000x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S5000x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S5000x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x64 .f32 := win0_7.stage (cfg0.slots t 7)
abbrev hs0_7 (t : Fin cfg0.N) : (ms0_7 t).IsWhole := hstage0_7 ((cfg0.slots t 7).cast nbuf0_7)
/-- The two accumulators: whole scoped buffers of the kernel's own, passed beside the windows. -/
abbrev scM0_0 : Memref sig .tc .vmem S1x64 .f32 := Memref.whole cc0_scratch0
abbrev scM0_1 : Memref sig .tc .vmem S1x64 .f32 := Memref.whole cc0_scratch1
/-- The accumulators as views: what they hold between points is stated through these. -/
abbrev VS0_0 : View sig .tc .vmem S1x64 .f32 := scM0_0.view
abbrev VS0_1 : View sig .tc .vmem S1x64 .f32 := scM0_1.view

/-- The scoped buffers that are neither a staging buffer nor an accumulator of this call (the other two calls'
    staging buffers and accumulators), each whole at some contents: the body never touches them. -/
abbrev restScoped0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f) ∗ (∃ f : Buf (Elt F) ((c : Thread nD τ).loc cc2_stg6_0), ((c : Thread nD τ).loc cc2_stg6_0) ↦{fullShare} f) ∗ (∃ f : Buf (Elt F) ((c : Thread nD τ).loc cc2_stg7_0), ((c : Thread nD τ).loc cc2_stg7_0) ↦{fullShare} f) ∗ (∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f))

/-- The region invariant with the two accumulators as memrefs owned at some contents and the other scoped
    buffers kept as one term: what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ restScoped0 (F := F) c) ∗ (∃ r, prngReg c r)) := by
  unfold Pipeline.ΦA; rw [scopedRest0_eq]; simp only [scM0_0, scM0_1, owns_whole]; try rfl

end Cert.Kernel.Hand

end
-- ==== Proof.K.R0RunA.lean ====
/- Region 0, case A (the first conditional taken, the second not: the first grid point): the whole body run once, symbolically, with the
   lists of pieces each written buffer ends with as the witness. -/
import proofs.«400542_j69810398429749_3_alg».proof.Proof.K.R0Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- What the body's stores leave in each output's staging memref and in the two accumulators, as lists of pieces
    (last store first), in case A, together with the proof that on whole memrefs — the inputs' at their
    contents, the large output's at anything, the two small outputs' (which the case never stores into) at contents handed back untouched, both accumulators at anything (the case overwrites them before reading what matters) — the body runs to a
    continuation that holds the inputs' as they were and every written buffer with its pieces written. The printed body
    is its skeleton of memory operations over payloads, which is run operation by operation; each conditional is decided
    by the case's hypotheses. -/
noncomputable def kernelRun0_A (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : cond0_0 i) (hc1 : ¬cond0_1 i)
    (x0 : Vec F S5000x64 .f32) (x1 : Vec F S5000x64 .f32) (x2 : Vec F S5000x1 .f32) (x3 : Vec F S128x64 .f32) (x4 : Vec F S1x64 .f32) :
    Σ' (L5 : List (View.Piece (Elt F) S5000x64 .f32)) (L6 : List (View.Piece (Elt F) S1x64 .f32)) (L7 : List (View.Piece (Elt F) S1x64 .f32)) (LS0 : List (View.Piece (Elt F) S1x64 .f32)), { LS1 : List (View.Piece (Elt F) S1x64 .f32) //
      ∀ (xi6 : Vec F S1x64 .f32) (xi7 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xi6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__combine_stats_kernel i arg1 harg1 arg2 harg2 arg3 harg3 arg4 harg4 arg5 harg5 arg6 harg6 arg7 harg7 arg8 harg8 arg9 harg9 arg10 harg10) K } := by
  refine ⟨?_, [], [], ?_, ?_, fun xi6 xi7 E K => ?run⟩
  case run =>
    simp only [cc0__combine_stats_kernel_eq_skeleton]; unfold cc0__combine_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

end Cert.Kernel.Hand

end
-- ==== Proof.K.R0RunB.lean ====
/- Region 0, case B (neither conditional taken: the points strictly between the first and the last): the whole body run once, symbolically, with the
   lists of pieces each written buffer ends with as the witness. -/
import proofs.«400542_j69810398429749_3_alg».proof.Proof.K.R0Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- What the body's stores leave in each output's staging memref and in the two accumulators, as lists of pieces
    (last store first), in case B, together with the proof that on whole memrefs — the inputs' at their
    contents, the large output's at anything, the two small outputs' (which the case never stores into) at contents handed back untouched, both accumulators at the contents the point before left — the body runs to a
    continuation that holds the inputs' as they were and every written buffer with its pieces written. The printed body
    is its skeleton of memory operations over payloads, which is run operation by operation; each conditional is decided
    by the case's hypotheses. -/
noncomputable def kernelRun0_B (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : ¬cond0_1 i)
    (x0 : Vec F S5000x64 .f32) (x1 : Vec F S5000x64 .f32) (x2 : Vec F S5000x1 .f32) (x3 : Vec F S128x64 .f32) (x4 : Vec F S1x64 .f32) (xs0 : Vec F S1x64 .f32) (xs1 : Vec F S1x64 .f32) :
    Σ' (L5 : List (View.Piece (Elt F) S5000x64 .f32)) (L6 : List (View.Piece (Elt F) S1x64 .f32)) (L7 : List (View.Piece (Elt F) S1x64 .f32)) (LS0 : List (View.Piece (Elt F) S1x64 .f32)), { LS1 : List (View.Piece (Elt F) S1x64 .f32) //
      ∀ (xi6 : Vec F S1x64 .f32) (xi7 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xi6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__combine_stats_kernel i arg1 harg1 arg2 harg2 arg3 harg3 arg4 harg4 arg5 harg5 arg6 harg6 arg7 harg7 arg8 harg8 arg9 harg9 arg10 harg10) K } := by
  refine ⟨?_, [], [], ?_, ?_, fun xi6 xi7 E K => ?run⟩
  case run =>
    simp only [cc0__combine_stats_kernel_eq_skeleton]; unfold cc0__combine_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hf7; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

end Cert.Kernel.Hand

end
-- ==== Proof.K.R0RunC.lean ====
/- Region 0, case C (the first conditional not taken, the second taken: the last grid point): the whole body run once, symbolically, with the
   lists of pieces each written buffer ends with as the witness. -/
import proofs.«400542_j69810398429749_3_alg».proof.Proof.K.R0Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- What the body's stores leave in each output's staging memref and in the two accumulators, as lists of pieces
    (last store first), in case C, together with the proof that on whole memrefs — the inputs' at their
    contents, the three outputs' at anything, both accumulators at the contents the point before left — the body runs to a
    continuation that holds the inputs' as they were and every written buffer with its pieces written. The printed body
    is its skeleton of memory operations over payloads, which is run operation by operation; each conditional is decided
    by the case's hypotheses. -/
noncomputable def kernelRun0_C (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S5000x64 .f32) (x1 : Vec F S5000x64 .f32) (x2 : Vec F S5000x1 .f32) (x3 : Vec F S128x64 .f32) (x4 : Vec F S1x64 .f32) (xs0 : Vec F S1x64 .f32) (xs1 : Vec F S1x64 .f32) :
    Σ' (L5 : List (View.Piece (Elt F) S5000x64 .f32)) (L6 : List (View.Piece (Elt F) S1x64 .f32)) (L7 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__combine_stats_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0__combine_stats_kernel_eq_skeleton]; unfold cc0__combine_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]; · iexists _; iexact HS0
    iexists _; iexact HS1

end Cert.Kernel.Hand

end
-- ==== Proof.K.R0.lean ====
/- Region 0 (the statistics kernel, 20 grid points): what each control case leaves in the outputs and the two
   accumulators, the contents point by point, the pipeline's proof data, and the body obligation. -/
import proofs.«400542_j69810398429749_3_alg».proof.Proof.K.R0RunA
import proofs.«400542_j69810398429749_3_alg».proof.Proof.K.R0RunB
import proofs.«400542_j69810398429749_3_alg».proof.Proof.K.R0RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What each case leaves -/

/-- Case A's one store into output 5 tiles its block, so its pieces cover it. -/
theorem cover0_A_5 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : cond0_0 i) (hc1 : ¬cond0_1 i)
    (x0 : Vec F S5000x64 .f32) (x1 : Vec F S5000x64 .f32) (x2 : Vec F S5000x1 .f32) (x3 : Vec F S128x64 .f32) (x4 : Vec F S1x64 .f32) (y : S5000x64.Idx) :
    ∃ pc ∈ (kernelRun0_A c i arg1 harg1 arg2 harg2 arg3 harg3 arg4 harg4 arg5 harg5 arg6 harg6 arg7 harg7 arg8 harg8 arg9 harg9 arg10 harg10 hc0 hc1 x0 x1 x2 x3 x4).1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 x0 x1 x2 x3 x4).1 S5000x64.size (by sl_kernel_rfl) y

/-- What case A leaves in output 5's staging buffer: its pieces read back over junk. -/
def out0_A_5 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : cond0_0 i) (hc1 : ¬cond0_1 i)
    (x0 : Vec F S5000x64 .f32) (x1 : Vec F S5000x64 .f32) (x2 : Vec F S5000x1 .f32) (x3 : Vec F S128x64 .f32) (x4 : Vec F S1x64 .f32) : Vec F S5000x64 .f32 :=
  VO0_5.read (Elt F) (VO0_5.writes (Elt F) VO0_5.junk (kernelRun0_A c i arg1 harg1 arg2 harg2 arg3 harg3 arg4 harg4 arg5 harg5 arg6 harg6 arg7 harg7 arg8 harg8 arg9 harg9 arg10 harg10 hc0 hc1 x0 x1 x2 x3 x4).1)

/-- Case A stores nothing into output 6 (idle at its points, not written back there): no pieces — a placeholder
    that nothing consults. -/
def out0_A_6 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : cond0_0 i) (hc1 : ¬cond0_1 i)
    (x0 : Vec F S5000x64 .f32) (x1 : Vec F S5000x64 .f32) (x2 : Vec F S5000x1 .f32) (x3 : Vec F S128x64 .f32) (x4 : Vec F S1x64 .f32) : Vec F S1x64 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 hc0 hc1 x0 x1 x2 x3 x4).2.1)

/-- Case A stores nothing into output 7 (idle at its points, not written back there): no pieces — a placeholder
    that nothing consults. -/
def out0_A_7 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : cond0_0 i) (hc1 : ¬cond0_1 i)
    (x0 : Vec F S5000x64 .f32) (x1 : Vec F S5000x64 .f32) (x2 : Vec F S5000x1 .f32) (x3 : Vec F S128x64 .f32) (x4 : Vec F S1x64 .f32) : Vec F S1x64 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 hc0 hc1 x0 x1 x2 x3 x4).2.2.1)

/-- Case A's pieces for accumulator 0 cover it: every store into it is of the whole buffer. -/
theorem scover0_A_0 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : cond0_0 i) (hc1 : ¬cond0_1 i)
    (x0 : Vec F S5000x64 .f32) (x1 : Vec F S5000x64 .f32) (x2 : Vec F S5000x1 .f32) (x3 : Vec F S128x64 .f32) (x4 : Vec F S1x64 .f32) (y : S1x64.Idx) :
    ∃ pc ∈ (kernelRun0_A c i arg1 harg1 arg2 harg2 arg3 harg3 arg4 harg4 arg5 harg5 arg6 harg6 arg7 harg7 arg8 harg8 arg9 harg9 arg10 harg10 hc0 hc1 x0 x1 x2 x3 x4).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 x0 x1 x2 x3 x4).2.2.2.1 S1x64.size (by sl_kernel_rfl) y

/-- What case A leaves in accumulator 0: its pieces read back over junk. -/
def sout0_A_0 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : cond0_0 i) (hc1 : ¬cond0_1 i)
    (x0 : Vec F S5000x64 .f32) (x1 : Vec F S5000x64 .f32) (x2 : Vec F S5000x1 .f32) (x3 : Vec F S128x64 .f32) (x4 : Vec F S1x64 .f32) : Vec F S1x64 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 hc0 hc1 x0 x1 x2 x3 x4).2.2.2.1)

/-- Case A's pieces for accumulator 1 cover it: every store into it is of the whole buffer. -/
theorem scover0_A_1 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : cond0_0 i) (hc1 : ¬cond0_1 i)
    (x0 : Vec F S5000x64 .f32) (x1 : Vec F S5000x64 .f32) (x2 : Vec F S5000x1 .f32) (x3 : Vec F S128x64 .f32) (x4 : Vec F S1x64 .f32) (y : S1x64.Idx) :
    ∃ pc ∈ (kernelRun0_A c i arg1 harg1 arg2 harg2 arg3 harg3 arg4 harg4 arg5 harg5 arg6 harg6 arg7 harg7 arg8 harg8 arg9 harg9 arg10 harg10 hc0 hc1 x0 x1 x2 x3 x4).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 x0 x1 x2 x3 x4).2.2.2.2.1 S1x64.size (by sl_kernel_rfl) y

/-- What case A leaves in accumulator 1: its pieces read back over junk. -/
def sout0_A_1 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : cond0_0 i) (hc1 : ¬cond0_1 i)
    (x0 : Vec F S5000x64 .f32) (x1 : Vec F S5000x64 .f32) (x2 : Vec F S5000x1 .f32) (x3 : Vec F S128x64 .f32) (x4 : Vec F S1x64 .f32) : Vec F S1x64 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 hc0 hc1 x0 x1 x2 x3 x4).2.2.2.2.1)

/-- Case B's one store into output 5 tiles its block, so its pieces cover it. -/
theorem cover0_B_5 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : ¬cond0_1 i)
    (x0 : Vec F S5000x64 .f32) (x1 : Vec F S5000x64 .f32) (x2 : Vec F S5000x1 .f32) (x3 : Vec F S128x64 .f32) (x4 : Vec F S1x64 .f32) (xs0 : Vec F S1x64 .f32) (xs1 : Vec F S1x64 .f32) (y : S5000x64.Idx) :
    ∃ pc ∈ (kernelRun0_B c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 x0 x1 x2 x3 x4 xs0 xs1).1 S5000x64.size (by sl_kernel_rfl) y

/-- What case B leaves in output 5's staging buffer: its pieces read back over junk. -/
def out0_B_5 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : ¬cond0_1 i)
    (x0 : Vec F S5000x64 .f32) (x1 : Vec F S5000x64 .f32) (x2 : Vec F S5000x1 .f32) (x3 : Vec F S128x64 .f32) (x4 : Vec F S1x64 .f32) (xs0 : Vec F S1x64 .f32) (xs1 : Vec F S1x64 .f32) : Vec F S5000x64 .f32 :=
  VO0_5.read (Elt F) (VO0_5.writes (Elt F) VO0_5.junk (kernelRun0_B c i arg1 harg1 arg2 harg2 arg3 harg3 arg4 harg4 arg5 harg5 arg6 harg6 arg7 harg7 arg8 harg8 arg9 harg9 arg10 harg10 hc0 hc1 x0 x1 x2 x3 x4 xs0 xs1).1)

/-- Case B stores nothing into output 6 (idle at its points, not written back there): no pieces — a placeholder
    that nothing consults. -/
def out0_B_6 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : ¬cond0_1 i)
    (x0 : Vec F S5000x64 .f32) (x1 : Vec F S5000x64 .f32) (x2 : Vec F S5000x1 .f32) (x3 : Vec F S128x64 .f32) (x4 : Vec F S1x64 .f32) (xs0 : Vec F S1x64 .f32) (xs1 : Vec F S1x64 .f32) : Vec F S1x64 .f32 :=
  VO0_6.read (Elt F) (VO0_6.writes (Elt F) VO0_6.junk (kernelRun0_B c i arg1 harg1 arg2 harg2 arg3 harg3 arg4 harg4 arg5 harg5 arg6 harg6 arg7 harg7 arg8 harg8 arg9 harg9 arg10 harg10 hc0 hc1 x0 x1 x2 x3 x4 xs0 xs1).2.1)

/-- Case B stores nothing into output 7 (idle at its points, not written back there): no pieces — a placeholder
    that nothing consults. -/
def out0_B_7 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : ¬cond0_1 i)
    (x0 : Vec F S5000x64 .f32) (x1 : Vec F S5000x64 .f32) (x2 : Vec F S5000x1 .f32) (x3 : Vec F S128x64 .f32) (x4 : Vec F S1x64 .f32) (xs0 : Vec F S1x64 .f32) (xs1 : Vec F S1x64 .f32) : Vec F S1x64 .f32 :=
  VO0_7.read (Elt F) (VO0_7.writes (Elt F) VO0_7.junk (kernelRun0_B c i arg1 harg1 arg2 harg2 arg3 harg3 arg4 harg4 arg5 harg5 arg6 harg6 arg7 harg7 arg8 harg8 arg9 harg9 arg10 harg10 hc0 hc1 x0 x1 x2 x3 x4 xs0 xs1).2.2.1)

/-- Case B's pieces for accumulator 0 cover it: every store into it is of the whole buffer. -/
theorem scover0_B_0 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : ¬cond0_1 i)
    (x0 : Vec F S5000x64 .f32) (x1 : Vec F S5000x64 .f32) (x2 : Vec F S5000x1 .f32) (x3 : Vec F S128x64 .f32) (x4 : Vec F S1x64 .f32) (xs0 : Vec F S1x64 .f32) (xs1 : Vec F S1x64 .f32) (y : S1x64.Idx) :
    ∃ pc ∈ (kernelRun0_B c i arg1 harg1 arg2 harg2 arg3 harg3 arg4 harg4 arg5 harg5 arg6 harg6 arg7 harg7 arg8 harg8 arg9 harg9 arg10 harg10 hc0 hc1 x0 x1 x2 x3 x4 xs0 xs1).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 x0 x1 x2 x3 x4 xs0 xs1).2.2.2.1 S1x64.size (by sl_kernel_rfl) y

/-- What case B leaves in accumulator 0: its pieces read back over junk. -/
def sout0_B_0 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : ¬cond0_1 i)
    (x0 : Vec F S5000x64 .f32) (x1 : Vec F S5000x64 .f32) (x2 : Vec F S5000x1 .f32) (x3 : Vec F S128x64 .f32) (x4 : Vec F S1x64 .f32) (xs0 : Vec F S1x64 .f32) (xs1 : Vec F S1x64 .f32) : Vec F S1x64 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 hc0 hc1 x0 x1 x2 x3 x4 xs0 xs1).2.2.2.1)

/-- Case B's pieces for accumulator 1 cover it: every store into it is of the whole buffer. -/
theorem scover0_B_1 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : ¬cond0_1 i)
    (x0 : Vec F S5000x64 .f32) (x1 : Vec F S5000x64 .f32) (x2 : Vec F S5000x1 .f32) (x3 : Vec F S128x64 .f32) (x4 : Vec F S1x64 .f32) (xs0 : Vec F S1x64 .f32) (xs1 : Vec F S1x64 .f32) (y : S1x64.Idx) :
    ∃ pc ∈ (kernelRun0_B c i arg1 harg1 arg2 harg2 arg3 harg3 arg4 harg4 arg5 harg5 arg6 harg6 arg7 harg7 arg8 harg8 arg9 harg9 arg10 harg10 hc0 hc1 x0 x1 x2 x3 x4 xs0 xs1).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 x0 x1 x2 x3 x4 xs0 xs1).2.2.2.2.1 S1x64.size (by sl_kernel_rfl) y

/-- What case B leaves in accumulator 1: its pieces read back over junk. -/
def sout0_B_1 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : ¬cond0_1 i)
    (x0 : Vec F S5000x64 .f32) (x1 : Vec F S5000x64 .f32) (x2 : Vec F S5000x1 .f32) (x3 : Vec F S128x64 .f32) (x4 : Vec F S1x64 .f32) (xs0 : Vec F S1x64 .f32) (xs1 : Vec F S1x64 .f32) : Vec F S1x64 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 hc0 hc1 x0 x1 x2 x3 x4 xs0 xs1).2.2.2.2.1)

/-- Case C's one store into output 5 tiles its block, so its pieces cover it. -/
theorem cover0_C_5 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S5000x64 .f32) (x1 : Vec F S5000x64 .f32) (x2 : Vec F S5000x1 .f32) (x3 : Vec F S128x64 .f32) (x4 : Vec F S1x64 .f32) (xs0 : Vec F S1x64 .f32) (xs1 : Vec F S1x64 .f32) (y : S5000x64.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 xs0 xs1).1 S5000x64.size (by sl_kernel_rfl) y

/-- What case C leaves in output 5's staging buffer: its pieces read back over junk. -/
def out0_C_5 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S5000x64 .f32) (x1 : Vec F S5000x64 .f32) (x2 : Vec F S5000x1 .f32) (x3 : Vec F S128x64 .f32) (x4 : Vec F S1x64 .f32) (xs0 : Vec F S1x64 .f32) (xs1 : Vec F S1x64 .f32) : Vec F S5000x64 .f32 :=
  VO0_5.read (Elt F) (VO0_5.writes (Elt F) VO0_5.junk (kernelRun0_C c i arg1 harg1 arg2 harg2 arg3 harg3 arg4 harg4 arg5 harg5 arg6 harg6 arg7 harg7 arg8 harg8 arg9 harg9 arg10 harg10 hc0 hc1 x0 x1 x2 x3 x4 xs0 xs1).1)

/-- Case C's one store into output 6 tiles its block, so its pieces cover it. -/
theorem cover0_C_6 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S5000x64 .f32) (x1 : Vec F S5000x64 .f32) (x2 : Vec F S5000x1 .f32) (x3 : Vec F S128x64 .f32) (x4 : Vec F S1x64 .f32) (xs0 : Vec F S1x64 .f32) (xs1 : Vec F S1x64 .f32) (y : S1x64.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 xs0 xs1).2.1 S1x64.size (by sl_kernel_rfl) y

/-- What case C leaves in output 6's staging buffer: its pieces read back over junk. -/
def out0_C_6 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S5000x64 .f32) (x1 : Vec F S5000x64 .f32) (x2 : Vec F S5000x1 .f32) (x3 : Vec F S128x64 .f32) (x4 : Vec F S1x64 .f32) (xs0 : Vec F S1x64 .f32) (xs1 : Vec F S1x64 .f32) : Vec F S1x64 .f32 :=
  VO0_6.read (Elt F) (VO0_6.writes (Elt F) VO0_6.junk (kernelRun0_C c i arg1 harg1 arg2 harg2 arg3 harg3 arg4 harg4 arg5 harg5 arg6 harg6 arg7 harg7 arg8 harg8 arg9 harg9 arg10 harg10 hc0 hc1 x0 x1 x2 x3 x4 xs0 xs1).2.1)

/-- Case C's one store into output 7 tiles its block, so its pieces cover it. -/
theorem cover0_C_7 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S5000x64 .f32) (x1 : Vec F S5000x64 .f32) (x2 : Vec F S5000x1 .f32) (x3 : Vec F S128x64 .f32) (x4 : Vec F S1x64 .f32) (xs0 : Vec F S1x64 .f32) (xs1 : Vec F S1x64 .f32) (y : S1x64.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.1 S1x64.size (by sl_kernel_rfl) y

/-- What case C leaves in output 7's staging buffer: its pieces read back over junk. -/
def out0_C_7 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S5000x64 .f32) (x1 : Vec F S5000x64 .f32) (x2 : Vec F S5000x1 .f32) (x3 : Vec F S128x64 .f32) (x4 : Vec F S1x64 .f32) (xs0 : Vec F S1x64 .f32) (xs1 : Vec F S1x64 .f32) : Vec F S1x64 .f32 :=
  VO0_7.read (Elt F) (VO0_7.writes (Elt F) VO0_7.junk (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.1)

/-- Case C's pieces for accumulator 0 cover it: every store into it is of the whole buffer. -/
theorem scover0_C_0 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S5000x64 .f32) (x1 : Vec F S5000x64 .f32) (x2 : Vec F S5000x1 .f32) (x3 : Vec F S128x64 .f32) (x4 : Vec F S1x64 .f32) (xs0 : Vec F S1x64 .f32) (xs1 : Vec F S1x64 .f32) (y : S1x64.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.1 S1x64.size (by sl_kernel_rfl) y

/-- What case C leaves in accumulator 0: its pieces read back over junk. -/
def sout0_C_0 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S5000x64 .f32) (x1 : Vec F S5000x64 .f32) (x2 : Vec F S5000x1 .f32) (x3 : Vec F S128x64 .f32) (x4 : Vec F S1x64 .f32) (xs0 : Vec F S1x64 .f32) (xs1 : Vec F S1x64 .f32) : Vec F S1x64 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.1)

/-- Case C's pieces for accumulator 1 cover it: every store into it is of the whole buffer. -/
theorem scover0_C_1 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S5000x64 .f32) (x1 : Vec F S5000x64 .f32) (x2 : Vec F S5000x1 .f32) (x3 : Vec F S128x64 .f32) (x4 : Vec F S1x64 .f32) (xs0 : Vec F S1x64 .f32) (xs1 : Vec F S1x64 .f32) (y : S1x64.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.2.1 S1x64.size (by sl_kernel_rfl) y

/-- What case C leaves in accumulator 1: its pieces read back over junk. -/
def sout0_C_1 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S5000x64 .f32) (x1 : Vec F S5000x64 .f32) (x2 : Vec F S5000x1 .f32) (x3 : Vec F S128x64 .f32) (x4 : Vec F S1x64 .f32) (xs0 : Vec F S1x64 .f32) (xs1 : Vec F S1x64 .f32) : Vec F S1x64 .f32 :=
  VS0_1.read (Elt F) (VS0_1.writes (Elt F) VS0_1.junk (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.2.1)

/-! ## What the outputs and the accumulators hold after each point -/

/-- THE ACCUMULATION. What the three outputs' staging buffers and the two accumulators hold after the body at position
    `n` (a tuple: outputs 5, 6, 7, then accumulators 0, 1): the case the closed forms select at `n`, run at the point's
    memrefs and input blocks, the accumulators at what this leaves at `n - 1` (only the last two components feed the
    next point). -/
def outsAt0 (c : Dev nD) : (n : ℕ) → n < cfg0.N → Vec F S5000x64 .f32 × Vec F S1x64 .f32 × Vec F S1x64 .f32 × Vec F S1x64 .f32 × Vec F S1x64 .f32
  | 0, hn =>
      (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr rfl) (fun h => absurd ((hcond0_1 ⟨0, hn⟩).mp h) (show ¬((0 : ℕ) = 19) by decide)) (iblk0 V c 0 ⟨0, hn⟩) (iblk0 V c 1 ⟨0, hn⟩) (iblk0 V c 2 ⟨0, hn⟩) (iblk0 V c 3 ⟨0, hn⟩) (iblk0 V c 4 ⟨0, hn⟩),
       out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr rfl) (fun h => absurd ((hcond0_1 ⟨0, hn⟩).mp h) (show ¬((0 : ℕ) = 19) by decide)) (iblk0 V c 0 ⟨0, hn⟩) (iblk0 V c 1 ⟨0, hn⟩) (iblk0 V c 2 ⟨0, hn⟩) (iblk0 V c 3 ⟨0, hn⟩) (iblk0 V c 4 ⟨0, hn⟩),
       out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr rfl) (fun h => absurd ((hcond0_1 ⟨0, hn⟩).mp h) (show ¬((0 : ℕ) = 19) by decide)) (iblk0 V c 0 ⟨0, hn⟩) (iblk0 V c 1 ⟨0, hn⟩) (iblk0 V c 2 ⟨0, hn⟩) (iblk0 V c 3 ⟨0, hn⟩) (iblk0 V c 4 ⟨0, hn⟩),
       sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr rfl) (fun h => absurd ((hcond0_1 ⟨0, hn⟩).mp h) (show ¬((0 : ℕ) = 19) by decide)) (iblk0 V c 0 ⟨0, hn⟩) (iblk0 V c 1 ⟨0, hn⟩) (iblk0 V c 2 ⟨0, hn⟩) (iblk0 V c 3 ⟨0, hn⟩) (iblk0 V c 4 ⟨0, hn⟩),
       sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr rfl) (fun h => absurd ((hcond0_1 ⟨0, hn⟩).mp h) (show ¬((0 : ℕ) = 19) by decide)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h1 : n + 1 = 19 then
      (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2,
       out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2,
       out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2,
       sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2,
       sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2)
    else
      (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => absurd ((hcond0_0 ⟨n + 1, hn⟩).mp h) (Nat.succ_ne_zero n)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2,
       out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => absurd ((hcond0_0 ⟨n + 1, hn⟩).mp h) (Nat.succ_ne_zero n)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2,
       out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => absurd ((hcond0_0 ⟨n + 1, hn⟩).mp h) (Nat.succ_ne_zero n)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2,
       sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => absurd ((hcond0_0 ⟨n + 1, hn⟩).mp h) (Nat.succ_ne_zero n)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2,
       sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => absurd ((hcond0_0 ⟨n + 1, hn⟩).mp h) (Nat.succ_ne_zero n)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2)

/-- `outsAt0` at the point of case A: that case's contents. -/
theorem outsAt0_A (c : Dev nD) (t : Fin cfg0.N) (h0 : t.val = 0) :
    outsAt0 V c t.val t.isLt =
      (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => absurd ((hcond0_1 t).mp h) (by omega)) (iblk0 V c 0 t) (iblk0 V c 1 t) (iblk0 V c 2 t) (iblk0 V c 3 t) (iblk0 V c 4 t),
       out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => absurd ((hcond0_1 t).mp h) (by omega)) (iblk0 V c 0 t) (iblk0 V c 1 t) (iblk0 V c 2 t) (iblk0 V c 3 t) (iblk0 V c 4 t),
       out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => absurd ((hcond0_1 t).mp h) (by omega)) (iblk0 V c 0 t) (iblk0 V c 1 t) (iblk0 V c 2 t) (iblk0 V c 3 t) (iblk0 V c 4 t),
       sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => absurd ((hcond0_1 t).mp h) (by omega)) (iblk0 V c 0 t) (iblk0 V c 1 t) (iblk0 V c 2 t) (iblk0 V c 3 t) (iblk0 V c 4 t),
       sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => absurd ((hcond0_1 t).mp h) (by omega)) (iblk0 V c 0 t) (iblk0 V c 1 t) (iblk0 V c 2 t) (iblk0 V c 3 t) (iblk0 V c 4 t)) := by
  obtain ⟨n, hn⟩ := t
  cases n with
  | zero => exact rfl
  | succ n => exact absurd h0 (Nat.succ_ne_zero n)

/-- `outsAt0` at a point of case B: that case's contents, over what the point before left. -/
theorem outsAt0_B (c : Dev nD) (t : Fin cfg0.N) (h0 : ¬t.val = 0) (h1 : ¬t.val = 19) :
    outsAt0 V c t.val t.isLt =
      (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
       out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
       out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
       sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
       sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact absurd rfl h0
  | succ n => exact (dif_neg h1).trans rfl

/-- `outsAt0` at the point of case C: that case's contents, over what the point before left. -/
theorem outsAt0_C (c : Dev nD) (t : Fin cfg0.N) (h0 : ¬t.val = 0) (h1 : t.val = 19) :
    outsAt0 V c t.val t.isLt =
      (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
       out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
       out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
       sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
       sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact absurd rfl h0
  | succ n => exact (dif_pos h1).trans rfl

/-- The region invariant before position `n`: before the first point the launch's (every scoped buffer at anything);
    afterwards the two accumulators at what the point before left in them, the other scoped buffers at anything, and
    the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2.2.1) ∗ owns (c : Thread nD τ) scM0_1 fullShare ((outsAt0 V c n hn).2.2.2.2) ∗ restScoped0 (F := F) c) ∗ (∃ r, prngReg c r))

theorem PhiS0_zero (c : Dev nD) (n : ℕ) (h : n ≤ cfg0.N) (hz : n = 0) : PhiS0 V c n h = Pipeline.ΦA spec0 c := by
  subst hz; rfl

/-- After point `n` (before point `n + 1`): the accumulators at that point's contents. -/
theorem PhiS0_succ (c : Dev nD) (n : ℕ) (hn : n < cfg0.N) :
    PhiS0 V c (n + 1) hn = iprop(iprop(owns (c : Thread nD τ) scM0_0 fullShare ((outsAt0 V c n hn).2.2.2.1) ∗ owns (c : Thread nD τ) scM0_1 fullShare ((outsAt0 V c n hn).2.2.2.2) ∗ restScoped0 (F := F) c) ∗ (∃ r, prngReg c r)) := rfl

/-- Before a point that is not the first: the accumulators at what the point before left. -/
theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2.2.1) ∗ owns (c : Thread nD τ) scM0_1 fullShare ((outsAt0 V c (n - 1) (by omega)).2.2.2.2) ∗ restScoped0 (F := F) c) ∗ (∃ r, prngReg c r)) := by
  cases n with
  | zero => exact absurd rfl hz
  | succ n => rfl

/-! ## The pipeline's proof data -/

/-- The proof data of pipeline 0 on core `c`: the arrays as the region finds them; after the body at point `t` each
    input's buffer at its block and the outputs' at `outsAt0`'s components; the invariant `PhiS0`; nothing owed; full
    shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
    | ⟨6, _⟩ => (outsAt0 V c t.val t.isLt).2.1
    | ⟨7, _⟩ => (outsAt0 V c t.val t.isLt).2.2.1
  Φ t := PhiS0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- The invariant at a point's start, restated at the point's position. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]
theorem after0_6 (c : Dev nD) (t : Fin cfg0.N) : (dat0 V c).after 6 t = (outsAt0 V c t.val t.isLt).2.1 := by dsimp only [dat0]
theorem after0_7 (c : Dev nD) (t : Fin cfg0.N) : (dat0 V c).after 7 t = (outsAt0 V c t.val t.isLt).2.2.1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 8000000 in
/-- The body at any point: the inputs' memrefs hold their blocks; the closed forms say which case the point is in; the
    invariant hands the body the two accumulators at what the point before left (at anything at the first point) and
    takes them back at this point's contents, the other scoped buffers and the generator register pass through
    untouched; an output the case does not store is handed back as found; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ]
  have hN : t.val < 20 := lt_of_lt_of_eq t.isLt (show cfg0.N = 20 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  by_cases h0 : t.val = 0
  · have hc0 : cond0_0 (grid0.coords t) := (hcond0_0 t).mpr h0
    have hc1 : ¬cond0_1 (grid0.coords t) := fun h => absurd ((hcond0_1 t).mp h) (by omega)
    rw [Dat.leavesExact_idle (dat0 V c) 6 t (idleAt0_6_A t hc0 hc1) (noFlush0_6_A t hc0 hc1)]
    rw [Dat.leavesExact_idle (dat0 V c) 7 t (idleAt0_7_A t hc0 hc1) (noFlush0_7_A t hc0 hc1)]
    rw [outsAt0_A V c t h0]
    unfold out0_A_5 sout0_A_0 sout0_A_1; (try dsimp only)
    rw [PhiS0_castSucc V c t, PhiS0_zero V c _ _ h0, PhiA0_eq]
    · iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ _ _ hc0 hc1 (iblk0 V c 0 t) (iblk0 V c 1 t) (iblk0 V c 2 t) (iblk0 V c 3 t) (iblk0 V c 4 t)).2.2.2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, ⟨%e5, H5⟩, H6, H7, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _ _ _ _ _ _)
      isplitl [H6]; · iexists _; iexact H6
      iexists _; iexact H7
  · by_cases h1 : t.val = 19
    · have hc0 : ¬cond0_0 (grid0.coords t) := fun h => h0 ((hcond0_0 t).mp h)
      have hc1 : cond0_1 (grid0.coords t) := (hcond0_1 t).mpr h1
      rw [show (dat0 V c).leavesExact 6 t = owns (c : Thread nD τ) (ms0_6 t) fullShare ((dat0 V c).after 6 t) from by
        unfold Dat.leavesExact; rw [liveAt0_6_C t hc0 hc1], after0_6]
      rw [show (dat0 V c).leavesExact 7 t = owns (c : Thread nD τ) (ms0_7 t) fullShare ((dat0 V c).after 7 t) from by
        unfold Dat.leavesExact; rw [liveAt0_7_C t hc0 hc1], after0_7]
      rw [outsAt0_C V c t h0 h1]
      unfold out0_C_5 out0_C_6 out0_C_7 sout0_C_0 sout0_C_1; (try dsimp only)
      rw [PhiS0_castSucc V c t, PhiS0_pos V c _ _ h0]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_C c (grid0.coords t) _ _ _ _ _ _ _ _ _ _ _ _ _ _ _ _ _ _ _ _ hc0 hc1 (iblk0 V c 0 t) (iblk0 V c 1 t) (iblk0 V c 2 t) (iblk0 V c 3 t) (iblk0 V c 4 t) _ _).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, ⟨%e5, H5⟩, ⟨%e6, H6⟩, ⟨%e7, H7⟩, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_C_5 c _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_C_6 c _ _ _ _ _ _ _ _ _ _ _ _ _ _ _ _ _ _ _ _ _ _ _ _ _ _ _ _ _ _)
      unfold owns; iexists _; isplitr
      swap; · iexact H7
      ipureintro; exact View.read_writes_of_cover _ _ _ _ _ (cover0_C_7 c _ _ _ _ _ _ _ _ _ _ _ _ _ _ _ _ _ _ _ _ _ _ _ _ _ _ _ _ _ _)
    · have hc0 : ¬cond0_0 (grid0.coords t) := fun h => h0 ((hcond0_0 t).mp h)
      have hc1 : ¬cond0_1 (grid0.coords t) := fun h => h1 ((hcond0_1 t).mp h)
      rw [Dat.leavesExact_idle (dat0 V c) 6 t (idleAt0_6_B t hc0 hc1) (noFlush0_6_B t hc0 hc1)]
      rw [Dat.leavesExact_idle (dat0 V c) 7 t (idleAt0_7_B t hc0 hc1) (noFlush0_7_B t hc0 hc1)]
      rw [outsAt0_B V c t h0 h1]
      unfold out0_B_5 sout0_B_0 sout0_B_1; (try dsimp only)
      rw [PhiS0_castSucc V c t, PhiS0_pos V c _ _ h0]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ _ _ hc0 hc1 (iblk0 V c 0 t) (iblk0 V c 1 t) (iblk0 V c 2 t) (iblk0 V c 3 t) (iblk0 V c 4 t) _ _).2.2.2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, ⟨%e5, H5⟩, H6, H7, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _ _ _ _ _ _ _)
      isplitl [H6]; · iexists _; iexact H6
      iexists _; iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the launch's back: the accumulators' named contents are forgotten. -/
theorem Phi_out0 (c : Dev nD) (t : Fin (cfg0.N + 1)) (ht : t.val ≠ 0) : (dat0 V c).Φ t ⊢ (Pipeline.ΦA spec0 c : sProp 𝕄) := by
  rw [show (dat0 V c).Φ t = PhiS0 V c t.val (Nat.le_of_lt_succ t.isLt) from rfl, PhiS0_pos V c _ _ ht, PhiA0_eq]
  iintro ⟨⟨HS0, HS1, HR⟩, Hg⟩
  isplitl [HS0 HS1 HR]
  · isplitl [HS0]; · iexists _; iexact HS0
    isplitl [HS1]; · iexists _; iexact HS1
    iexact HR
  iexact Hg

/-- The same after the last point. -/
theorem hout0 (c : Dev nD) : (dat0 V c).Φ (Fin.last cfg0.N) ⊢ (Pipeline.ΦA spec0 c : sProp 𝕄) :=
  Phi_out0 V c _ (by rw [Fin.val_last]; have : cfg0.N = 20 := N_0; omega)

end Cert.Kernel.Hand

end
-- ==== Proof.K.R1.lean ====
/- Region 1 of @main (custom_call 1, the batch-norm-and-ReLU kernel, a grid of 10 points), stated at a parameter `V`: the
   TensorCore's buffer contents when the region is entered. The body loads its three input windows whole (the
   5000x128 block of the activations, and the 1x128 scale and shift rows, whose block index never moves), computes, and
   stores its one output window whole; it keeps nothing from point to point. So what it leaves in the output's staging
   buffer is a closed function of the three input blocks at the point, and what it finds in an input's staging buffer is
   that window's block at the point, fetched there or not. This file states the blocks, that closed function, the body's
   triple, the pipeline's proof data and its body obligation. -/
import proofs.«400542_j69810398429749_3_alg».proof.Proof.Gen.Kernel.Launch
import proofs.«400542_j69810398429749_3_alg».proof.Proof.Gen.Kernel.Skeleton
import proofs.«400542_j69810398429749_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for ANY proof data whose array is `V`'s
    (`hA`) and whose body leaves the block in place (`hafter`): the window is uncut and never idle, and where it is not
    fetched its block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the scale row, fetched at the first point only: its block index is constant) likewise. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the shift row, fetched at the first point only: its block index is constant) likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole 5000x128 block (the activations' load, the output's load and store). -/
abbrev r1_0 : Rect S5000x128 := Rect.unit (s := S5000x128) ![0, 0] S5000x128.size inb_S5000x128_S5000x128_0_0
/-- The whole 1x128 row (the scale's and the shift's loads). -/
abbrev r1_1 : Rect S1x128 := Rect.unit (s := S1x128) ![0, 0] S1x128.size inb_S1x128_S1x128_0_0

/-! ## What the body leaves in the output window's buffer -/

/-- Window 3's staging buffer after the body, from the three input windows' blocks: its one store, of
    `max (x0 * scale + shift) 0` with the rows broadcast along the 5000 rows. -/
def out1_3 (x0 : Vec F S5000x128 .f32) (x1 : Vec F S1x128 .f32) (x2 : Vec F S1x128 .f32) : Vec F S5000x128 .f32 :=
  View.canon [⟨r1_0, k1_pay1 (View.ld x0 r1_0) (View.ld x1 r1_1) (View.ld x2 r1_1)⟩]

/-- That one store is of the whole buffer, so it covers it. -/
theorem cover1_3 (p0 : Vec F S5000x128 .f32) (y : S5000x128.Idx) :
    ∃ pc ∈ ([⟨r1_0, p0⟩] : List (View.Piece (Elt F) S5000x128 .f32)), y ∈ pc.1.set :=
  View.cover_of_tiled [⟨r1_0, p0⟩] S5000x128.size (by rfl) y

/-! ## The body's triple -/

set_option maxHeartbeats 1000000 in
/-- The kernel body on whole staging memrefs, the three inputs' at read contents `x0 x1 x2` and the output's at anything,
    runs to the continuation holding the inputs' as they were and the output's at `out1_3` of the inputs'. -/
theorem sound_kernel1 (c : Dev nD) (E : Set ℕ) (i : grid1.Coords)
    (arg0 : Memref sig .tc .vmem S5000x128 .f32) (harg0 : arg0.IsWhole) (arg1 : Memref sig .tc .vmem S1x128 .f32) (harg1 : arg1.IsWhole)
    (arg2 : Memref sig .tc .vmem S1x128 .f32) (harg2 : arg2.IsWhole) (arg3 : Memref sig .tc .vmem S5000x128 .f32) (harg3 : arg3.IsWhole)
    (x0 : Vec F S5000x128 .f32) (x1 : Vec F S1x128 .f32) (x2 : Vec F S1x128 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out1_3 x0 x1 x2)) -∗ K ⟨⟩))
      ⊢ wp frame (wpE (defs₀ (F := F)) Variants.none c none) E (cc1__bn_relu_kernel i arg0 harg0 arg1 harg1 arg2 harg2 arg3 harg3) K := by
  simp only [cc1__bn_relu_kernel_eq_skeleton]; unfold cc1__bn_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them (`V`); after the body at point `t`
    each input's buffer at its block and the output's at `out1_3` of the input blocks; the invariant only the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the region's ends -/

/-- The invariant is the same at every point: entering the region establishes it as it stands, -/
theorem hin1 (c : Dev nD) : (Pipeline.ΦA spec1 c : sProp 𝕄) ⊢ (dat1 V c).Φ 0 := .rfl

/-- and leaving it gives it back as it stands. -/
theorem hout1 (c : Dev nD) : (dat1 V c).Φ (Fin.last cfg1.N) ⊢ (Pipeline.ΦA spec1 c : sProp 𝕄) := .rfl

end Cert.Kernel.Hand

end
-- ==== Proof.K.R2Base.lean ====
/- Region 2 (the pooling call, 50 grid points): what its three whole-body runs share — the windows' blocks as
   the region finds them, the body's two branch conditions in closed form over the grid, where the two output
   windows are idle, the staging and scratch memrefs by name, and the region invariant with this call's two
   scratch accumulators split off as owned memrefs. -/
import proofs.«400542_j69810398429749_3_alg».proof.Proof.Gen.Kernel.Launch
import proofs.«400542_j69810398429749_3_alg».proof.Proof.Gen.Kernel.Skeleton
import proofs.«400542_j69810398429749_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether the pipeline fetched it there
    or not (unfetched, the block index has not moved), for any proof data whose array is the entry contents and
    whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, whether the pipeline fetched it there
    or not (unfetched, the block index has not moved), for any proof data whose array is the entry contents and
    whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, whether the pipeline fetched it there
    or not (unfetched, the block index has not moved), for any proof data whose array is the entry contents and
    whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, whether the pipeline fetched it there
    or not (unfetched, the block index has not moved), for any proof data whose array is the entry contents and
    whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, whether the pipeline fetched it there
    or not (unfetched, the block index has not moved), for any proof data whose array is the entry contents and
    whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, whether the pipeline fetched it there
    or not (unfetched, the block index has not moved), for any proof data whose array is the entry contents and
    whose body leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The condition of the body's first conditional (the reset of the two accumulators), from the grid coordinate:
    the scalar comparison chain the body computes, substituted. -/
abbrev cond2_0 (i : grid2.Coords) : Prop := (Scalar.cmpi .ne (Scalar.extui (Scalar.cmpi .eq (BitVec.ofNat 32 (i 0).val) 0#32)) 0#32) = 1#1
/-- It holds at the first of the 50 points only. -/
theorem hcond2_0 : ∀ t : Fin cfg2.N, cond2_0 (grid2.coords t) ↔ t.val % 50 = 0 :=
  (by decide +kernel : ∀ t : Fin grid2.N, cond2_0 (grid2.coords t) ↔ t.val % 50 = 0)

/-- The condition of the body's second conditional (the copy of the accumulators to the outputs). -/
abbrev cond2_1 (i : grid2.Coords) : Prop := k2_cond2 i = 1#1
/-- It holds at the last of the 50 points only. -/
theorem hcond2_1 : ∀ t : Fin cfg2.N, cond2_1 (grid2.coords t) ↔ t.val % 50 = 49 :=
  (by decide +kernel : ∀ t : Fin grid2.N, cond2_1 (grid2.coords t) ↔ t.val % 50 = 49)

/-! ## Where the windows are idle -/

/-- Window 0 is never idle (an input). -/
theorem liveAt2_0 : ∀ t : Fin cfg2.N, cfg2.idle 0 (grid2.coords t) = false := by decide +kernel
/-- Window 1 is never idle (an input). -/
theorem liveAt2_1 : ∀ t : Fin cfg2.N, cfg2.idle 1 (grid2.coords t) = false := by decide +kernel
/-- Window 2 is never idle (an input). -/
theorem liveAt2_2 : ∀ t : Fin cfg2.N, cfg2.idle 2 (grid2.coords t) = false := by decide +kernel
/-- Window 3 is never idle (an input). -/
theorem liveAt2_3 : ∀ t : Fin cfg2.N, cfg2.idle 3 (grid2.coords t) = false := by decide +kernel
/-- Window 4 is never idle (an input). -/
theorem liveAt2_4 : ∀ t : Fin cfg2.N, cfg2.idle 4 (grid2.coords t) = false := by decide +kernel
/-- Window 5 is never idle (an input). -/
theorem liveAt2_5 : ∀ t : Fin cfg2.N, cfg2.idle 5 (grid2.coords t) = false := by decide +kernel
/-- At the points of case A output 6 is idle: the case stores nothing into it. -/
theorem idleAt2_6_A : ∀ t : Fin cfg2.N, cond2_0 (grid2.coords t) → ¬cond2_1 (grid2.coords t) → cfg2.idle 6 (grid2.coords t) = true := by decide +kernel
/-- At the points of case A the pipeline does not write output 6's block back. -/
theorem noFlush2_6_A : ∀ t : Fin cfg2.N, cond2_0 (grid2.coords t) → ¬cond2_1 (grid2.coords t) → (cfg2.win 6).flush t = false := by decide +kernel
/-- At the points of case B output 6 is idle: the case stores nothing into it. -/
theorem idleAt2_6_B : ∀ t : Fin cfg2.N, ¬cond2_0 (grid2.coords t) → ¬cond2_1 (grid2.coords t) → cfg2.idle 6 (grid2.coords t) = true := by decide +kernel
/-- At the points of case B the pipeline does not write output 6's block back. -/
theorem noFlush2_6_B : ∀ t : Fin cfg2.N, ¬cond2_0 (grid2.coords t) → ¬cond2_1 (grid2.coords t) → (cfg2.win 6).flush t = false := by decide +kernel
/-- At the point of case C output 6 is live: the case stores it whole. -/
theorem liveAt2_6_C : ∀ t : Fin cfg2.N, ¬cond2_0 (grid2.coords t) → cond2_1 (grid2.coords t) → cfg2.idle 6 (grid2.coords t) = false := by decide +kernel
/-- At the points of case A output 7 is idle: the case stores nothing into it. -/
theorem idleAt2_7_A : ∀ t : Fin cfg2.N, cond2_0 (grid2.coords t) → ¬cond2_1 (grid2.coords t) → cfg2.idle 7 (grid2.coords t) = true := by decide +kernel
/-- At the points of case A the pipeline does not write output 7's block back. -/
theorem noFlush2_7_A : ∀ t : Fin cfg2.N, cond2_0 (grid2.coords t) → ¬cond2_1 (grid2.coords t) → (cfg2.win 7).flush t = false := by decide +kernel
/-- At the points of case B output 7 is idle: the case stores nothing into it. -/
theorem idleAt2_7_B : ∀ t : Fin cfg2.N, ¬cond2_0 (grid2.coords t) → ¬cond2_1 (grid2.coords t) → cfg2.idle 7 (grid2.coords t) = true := by decide +kernel
/-- At the points of case B the pipeline does not write output 7's block back. -/
theorem noFlush2_7_B : ∀ t : Fin cfg2.N, ¬cond2_0 (grid2.coords t) → ¬cond2_1 (grid2.coords t) → (cfg2.win 7).flush t = false := by decide +kernel
/-- At the point of case C output 7 is live: the case stores it whole. -/
theorem liveAt2_7_C : ∀ t : Fin cfg2.N, ¬cond2_0 (grid2.coords t) → cond2_1 (grid2.coords t) → cfg2.idle 7 (grid2.coords t) = false := by decide +kernel

/-! ## The staging and scratch memrefs -/

/-- One staging buffer of each output window, through which its contents are stated (any would do: the pieces cover it). -/
abbrev VO2_6 : View sig .tc .vmem S256x64 .f32 := (Memref.whole cc2_stg6_0 : Memref sig .tc .vmem S256x64 .f32).view
abbrev VO2_7 : View sig .tc .vmem S1x256 .f32 := (Memref.whole cc2_stg7_0 : Memref sig .tc .vmem S1x256 .f32).view
/-- Each window's current staging memref at point `t`, spelled as the pipeline passes it to the body, and its wholeness. -/
abbrev ms2_0 (t : Fin cfg2.N) : Memref sig .tc .vmem S2000x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2000x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2000x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S128x64 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x64 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S2000x1 .i32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S256x64 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x256 .f32 := win2_7.stage (cfg2.slots t 7)
abbrev hs2_7 (t : Fin cfg2.N) : (ms2_7 t).IsWhole := hstage2_7 ((cfg2.slots t 7).cast nbuf2_7)
/-- The two scratch accumulators: whole scoped buffers of this call's own, passed to the body beside the windows. -/
abbrev scM2_0 : Memref sig .tc .vmem S256x64 .f32 := Memref.whole cc2_scratch0
abbrev scM2_1 : Memref sig .tc .vmem S1x256 .f32 := Memref.whole cc2_scratch1
/-- Both are carried from one grid point to the next; as views, through which what they hold is stated. -/
abbrev VS2_0 : View sig .tc .vmem S256x64 .f32 := scM2_0.view
abbrev VS2_1 : View sig .tc .vmem S1x256 .f32 := scM2_1.view

/-! ## The region invariant -/

/-- The core's scoped buffers that belong to the other two calls (their staging buffers and scratch), each whole at
    some contents: they ride through this region untouched. -/
def restScoped2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The region invariant as the launch hands it over, with this call's two scratch accumulators split off as
    memrefs owned at some contents: the form the body's runs take them in and hand them back in. -/
theorem PhiA2_eq (c : Dev nD) :
    (Pipeline.ΦA spec2 c : sProp 𝕄)
      = iprop(iprop((∃ d, owns (c : Thread nD τ) scM2_0 fullShare d) ∗ (∃ d, owns (c : Thread nD τ) scM2_1 fullShare d) ∗ restScoped2 (F := F) c) ∗ (∃ r, prngReg c r)) := by
  unfold Pipeline.ΦA; rw [scopedRest2_eq]; simp only [scM2_0, scM2_1, owns_whole]
  unfold restScoped2
  refine BI.equiv_iff.mp ⟨?_, ?_⟩
  · show (_ : sProp 𝕄) ⊢ (_ : sProp 𝕄)
    iintro ⟨⟨R0, R1, R2, R3, R4, R5, R6, R7, R8, R9, R10, R11, R12, R13, R14, R15, R16, R17, R18, R19, HS0, HS1⟩, Hg⟩
    isplitr [Hg]
    swap; · iexact Hg
    isplitl [HS0]; · iexact HS0
    isplitl [HS1]; · iexact HS1
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    isplitl [R15]; · iexact R15
    isplitl [R16]; · iexact R16
    isplitl [R17]; · iexact R17
    isplitl [R18]; · iexact R18
    iexact R19
  · show (_ : sProp 𝕄) ⊢ (_ : sProp 𝕄)
    iintro ⟨⟨HS0, HS1, R0, R1, R2, R3, R4, R5, R6, R7, R8, R9, R10, R11, R12, R13, R14, R15, R16, R17, R18, R19⟩, Hg⟩
    isplitr [Hg]
    swap; · iexact Hg
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    isplitl [R15]; · iexact R15
    isplitl [R16]; · iexact R16
    isplitl [R17]; · iexact R17
    isplitl [R18]; · iexact R18
    isplitl [R19]; · iexact R19
    isplitl [HS0]; · iexact HS0
    iexact HS1

end Cert.Kernel.Hand

end
-- ==== Proof.K.R2RunA.lean ====
/- Region 2 (the pooling call): the whole-body run of its kernel in control case A. -/
import proofs.«400542_j69810398429749_3_alg».proof.Proof.K.R2Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

-- (the run's proof term is large: checking the definition walks it past the default budget)
set_option maxHeartbeats 1000000 in
/-- What the body's stores leave in the two output staging memrefs and the two scratch accumulators, as pieces (last
    store first), IN CASE A (the first conditional taken, the second not: the first grid point), together with the proof that on whole memrefs — the six
    inputs' at their contents `x·`, the two outputs' (idle here: not stored, not written back) at contents `xi·` handed back untouched,
    the two accumulators at anything (the case resets them before it reads them) — the body runs to the continuation holding the inputs' as they were
    and each accumulator with its pieces written. The body is rewritten to its sequence of memory operations over named
    payloads and run symbolically, each conditional decided by the case's hypotheses; the piece lists are what that run finds. -/
noncomputable def kernelRun2_A (c : Dev nD) (i : grid2.Coords) (arg1 : Memref sig .tc .vmem S2000x64 .f32) (harg1 : arg1.IsWhole) (arg2 : Memref sig .tc .vmem S2000x64 .f32) (harg2 : arg2.IsWhole) (arg3 : Memref sig .tc .vmem S2000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2000x1 .i32) (harg6 : arg6.IsWhole) (arg7 : Memref sig .tc .vmem S256x64 .f32) (harg7 : arg7.IsWhole) (arg8 : Memref sig .tc .vmem S1x256 .f32) (harg8 : arg8.IsWhole) (arg9 : Memref sig .tc .vmem S256x64 .f32) (harg9 : arg9.IsWhole) (arg10 : Memref sig .tc .vmem S1x256 .f32) (harg10 : arg10.IsWhole) (hc0 : cond2_0 i) (hc1 : ¬cond2_1 i)
    (x0 : Vec F S2000x64 .f32) (x1 : Vec F S2000x64 .f32) (x2 : Vec F S2000x1 .f32) (x3 : Vec F S128x64 .f32) (x4 : Vec F S1x64 .f32) (x5 : Vec F S2000x1 .i32) :
    Σ' (L6 : List (View.Piece (Elt F) S256x64 .f32)) (L7 : List (View.Piece (Elt F) S1x256 .f32)) (LS0 : List (View.Piece (Elt F) S256x64 .f32)), { LS1 : List (View.Piece (Elt F) S1x256 .f32) //
      ∀ (xi6 : Vec F S256x64 .f32) (xi7 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xi7 ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc2__combine_pool_kernel i arg1 harg1 arg2 harg2 arg3 harg3 arg4 harg4 arg5 harg5 arg6 harg6 arg7 harg7 arg8 harg8 arg9 harg9 arg10 harg10) K } := by
  refine ⟨[], [], ?_, ?_, fun xi6 xi7 E K => ?run⟩
  case run =>
    simp only [cc2__combine_pool_kernel_eq_skeleton]; unfold cc2__combine_pool_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

end Cert.Kernel.Hand

end
-- ==== Proof.K.R2RunB.lean ====
/- Region 2 (the pooling call): the whole-body run of its kernel in control case B. -/
import proofs.«400542_j69810398429749_3_alg».proof.Proof.K.R2Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

-- (the run's proof term is large: checking the definition walks it past the default budget)
set_option maxHeartbeats 1000000 in
/-- What the body's stores leave in the two output staging memrefs and the two scratch accumulators, as pieces (last
    store first), IN CASE B (neither conditional taken: the points strictly between the first and the last), together with the proof that on whole memrefs — the six
    inputs' at their contents `x·`, the two outputs' (idle here: not stored, not written back) at contents `xi·` handed back untouched,
    the two accumulators at what the point before left (`xs·`) — the body runs to the continuation holding the inputs' as they were
    and each accumulator with its pieces written. The body is rewritten to its sequence of memory operations over named
    payloads and run symbolically, each conditional decided by the case's hypotheses; the piece lists are what that run finds. -/
noncomputable def kernelRun2_B (c : Dev nD) (i : grid2.Coords) (arg1 : Memref sig .tc .vmem S2000x64 .f32) (harg1 : arg1.IsWhole) (arg2 : Memref sig .tc .vmem S2000x64 .f32) (harg2 : arg2.IsWhole) (arg3 : Memref sig .tc .vmem S2000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2000x1 .i32) (harg6 : arg6.IsWhole) (arg7 : Memref sig .tc .vmem S256x64 .f32) (harg7 : arg7.IsWhole) (arg8 : Memref sig .tc .vmem S1x256 .f32) (harg8 : arg8.IsWhole) (arg9 : Memref sig .tc .vmem S256x64 .f32) (harg9 : arg9.IsWhole) (arg10 : Memref sig .tc .vmem S1x256 .f32) (harg10 : arg10.IsWhole) (hc0 : ¬cond2_0 i) (hc1 : ¬cond2_1 i)
    (x0 : Vec F S2000x64 .f32) (x1 : Vec F S2000x64 .f32) (x2 : Vec F S2000x1 .f32) (x3 : Vec F S128x64 .f32) (x4 : Vec F S1x64 .f32) (x5 : Vec F S2000x1 .i32) (xs0 : Vec F S256x64 .f32) (xs1 : Vec F S1x256 .f32) :
    Σ' (L6 : List (View.Piece (Elt F) S256x64 .f32)) (L7 : List (View.Piece (Elt F) S1x256 .f32)) (LS0 : List (View.Piece (Elt F) S256x64 .f32)), { LS1 : List (View.Piece (Elt F) S1x256 .f32) //
      ∀ (xi6 : Vec F S256x64 .f32) (xi7 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xi7 ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc2__combine_pool_kernel i arg1 harg1 arg2 harg2 arg3 harg3 arg4 harg4 arg5 harg5 arg6 harg6 arg7 harg7 arg8 harg8 arg9 harg9 arg10 harg10) K } := by
  refine ⟨[], [], ?_, ?_, fun xi6 xi7 E K => ?run⟩
  case run =>
    simp only [cc2__combine_pool_kernel_eq_skeleton]; unfold cc2__combine_pool_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

end Cert.Kernel.Hand

end
-- ==== Proof.K.R2RunC.lean ====
/- Region 2 (the pooling call): the whole-body run of its kernel in control case C. -/
import proofs.«400542_j69810398429749_3_alg».proof.Proof.K.R2Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

-- (the run's proof term is large: checking the definition walks it past the default budget)
set_option maxHeartbeats 1000000 in
/-- What the body's stores leave in the two output staging memrefs and the two scratch accumulators, as pieces (last
    store first), IN CASE C (the first conditional not taken, the second taken: the last grid point), together with the proof that on whole memrefs — the six
    inputs' at their contents `x·`, the two outputs' at anything,
    the two accumulators at what the point before left (`xs·`) — the body runs to the continuation holding the inputs' as they were, each output's buffer with its pieces written
    and each accumulator with its pieces written. The body is rewritten to its sequence of memory operations over named
    payloads and run symbolically, each conditional decided by the case's hypotheses; the piece lists are what that run finds. -/
noncomputable def kernelRun2_C (c : Dev nD) (i : grid2.Coords) (arg1 : Memref sig .tc .vmem S2000x64 .f32) (harg1 : arg1.IsWhole) (arg2 : Memref sig .tc .vmem S2000x64 .f32) (harg2 : arg2.IsWhole) (arg3 : Memref sig .tc .vmem S2000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2000x1 .i32) (harg6 : arg6.IsWhole) (arg7 : Memref sig .tc .vmem S256x64 .f32) (harg7 : arg7.IsWhole) (arg8 : Memref sig .tc .vmem S1x256 .f32) (harg8 : arg8.IsWhole) (arg9 : Memref sig .tc .vmem S256x64 .f32) (harg9 : arg9.IsWhole) (arg10 : Memref sig .tc .vmem S1x256 .f32) (harg10 : arg10.IsWhole) (hc0 : ¬cond2_0 i) (hc1 : cond2_1 i)
    (x0 : Vec F S2000x64 .f32) (x1 : Vec F S2000x64 .f32) (x2 : Vec F S2000x1 .f32) (x3 : Vec F S128x64 .f32) (x4 : Vec F S1x64 .f32) (x5 : Vec F S2000x1 .i32) (xs0 : Vec F S256x64 .f32) (xs1 : Vec F S1x256 .f32) :
    Σ' (L6 : List (View.Piece (Elt F) S256x64 .f32)) (L7 : List (View.Piece (Elt F) S1x256 .f32)) (LS0 : List (View.Piece (Elt F) S256x64 .f32)), { LS1 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc2__combine_pool_kernel i arg1 harg1 arg2 harg2 arg3 harg3 arg4 harg4 arg5 harg5 arg6 harg6 arg7 harg7 arg8 harg8 arg9 harg9 arg10 harg10) K } := by
  refine ⟨?_, ?_, ?_, ?_, fun E K => ?run⟩
  case run =>
    simp only [cc2__combine_pool_kernel_eq_skeleton]; unfold cc2__combine_pool_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [HS0]; · iexists _; iexact HS0
    iexists _; iexact HS1

end Cert.Kernel.Hand

end
-- ==== Proof.K.R2.lean ====
/- Region 2 (the pooling call, 50 grid points): its half of the frame. What each control case leaves in the two
   output staging buffers and the two scratch accumulators (the pieces its run found, and that they cover), what these
   hold point by point along the grid, the pipeline's proof data with the accumulators carried in the invariant, and
   the body obligation at every point; the invariant is the launch's before the first point and gives it back after
   the last. -/
import proofs.«400542_j69810398429749_3_alg».proof.Proof.K.R2RunA
import proofs.«400542_j69810398429749_3_alg».proof.Proof.K.R2RunB
import proofs.«400542_j69810398429749_3_alg».proof.Proof.K.R2RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Case A stores nothing into output 6 (idle at its points, not written back there): no pieces — a placeholder
    (junk read back) that nothing consults. -/
def out2_A_6 (c : Dev nD) (i : grid2.Coords) (arg1 : Memref sig .tc .vmem S2000x64 .f32) (harg1 : arg1.IsWhole) (arg2 : Memref sig .tc .vmem S2000x64 .f32) (harg2 : arg2.IsWhole) (arg3 : Memref sig .tc .vmem S2000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2000x1 .i32) (harg6 : arg6.IsWhole) (arg7 : Memref sig .tc .vmem S256x64 .f32) (harg7 : arg7.IsWhole) (arg8 : Memref sig .tc .vmem S1x256 .f32) (harg8 : arg8.IsWhole) (arg9 : Memref sig .tc .vmem S256x64 .f32) (harg9 : arg9.IsWhole) (arg10 : Memref sig .tc .vmem S1x256 .f32) (harg10 : arg10.IsWhole) (hc0 : cond2_0 i) (hc1 : ¬cond2_1 i)
    (x0 : Vec F S2000x64 .f32) (x1 : Vec F S2000x64 .f32) (x2 : Vec F S2000x1 .f32) (x3 : Vec F S128x64 .f32) (x4 : Vec F S1x64 .f32) (x5 : Vec F S2000x1 .i32) : Vec F S256x64 .f32 :=
  VO2_6.read (Elt F) (VO2_6.writes (Elt F) VO2_6.junk (kernelRun2_A c i arg1 harg1 arg2 harg2 arg3 harg3 arg4 harg4 arg5 harg5 arg6 harg6 arg7 harg7 arg8 harg8 arg9 harg9 arg10 harg10 hc0 hc1 x0 x1 x2 x3 x4 x5).1)

/-- Case A stores nothing into output 7 (idle at its points, not written back there): no pieces — a placeholder
    (junk read back) that nothing consults. -/
def out2_A_7 (c : Dev nD) (i : grid2.Coords) (arg1 : Memref sig .tc .vmem S2000x64 .f32) (harg1 : arg1.IsWhole) (arg2 : Memref sig .tc .vmem S2000x64 .f32) (harg2 : arg2.IsWhole) (arg3 : Memref sig .tc .vmem S2000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2000x1 .i32) (harg6 : arg6.IsWhole) (arg7 : Memref sig .tc .vmem S256x64 .f32) (harg7 : arg7.IsWhole) (arg8 : Memref sig .tc .vmem S1x256 .f32) (harg8 : arg8.IsWhole) (arg9 : Memref sig .tc .vmem S256x64 .f32) (harg9 : arg9.IsWhole) (arg10 : Memref sig .tc .vmem S1x256 .f32) (harg10 : arg10.IsWhole) (hc0 : cond2_0 i) (hc1 : ¬cond2_1 i)
    (x0 : Vec F S2000x64 .f32) (x1 : Vec F S2000x64 .f32) (x2 : Vec F S2000x1 .f32) (x3 : Vec F S128x64 .f32) (x4 : Vec F S1x64 .f32) (x5 : Vec F S2000x1 .i32) : Vec F S1x256 .f32 :=
  VO2_7.read (Elt F) (VO2_7.writes (Elt F) VO2_7.junk (kernelRun2_A c i arg1 harg1 arg2 harg2 arg3 harg3 arg4 harg4 arg5 harg5 arg6 harg6 arg7 harg7 arg8 harg8 arg9 harg9 arg10 harg10 hc0 hc1 x0 x1 x2 x3 x4 x5).2.1)

/-- Case A's pieces for the first accumulator (256×64) cover it: whole stores, tiling it. -/
theorem scover2_A_0 (c : Dev nD) (i : grid2.Coords) (arg1 : Memref sig .tc .vmem S2000x64 .f32) (harg1 : arg1.IsWhole) (arg2 : Memref sig .tc .vmem S2000x64 .f32) (harg2 : arg2.IsWhole) (arg3 : Memref sig .tc .vmem S2000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2000x1 .i32) (harg6 : arg6.IsWhole) (arg7 : Memref sig .tc .vmem S256x64 .f32) (harg7 : arg7.IsWhole) (arg8 : Memref sig .tc .vmem S1x256 .f32) (harg8 : arg8.IsWhole) (arg9 : Memref sig .tc .vmem S256x64 .f32) (harg9 : arg9.IsWhole) (arg10 : Memref sig .tc .vmem S1x256 .f32) (harg10 : arg10.IsWhole) (hc0 : cond2_0 i) (hc1 : ¬cond2_1 i)
    (x0 : Vec F S2000x64 .f32) (x1 : Vec F S2000x64 .f32) (x2 : Vec F S2000x1 .f32) (x3 : Vec F S128x64 .f32) (x4 : Vec F S1x64 .f32) (x5 : Vec F S2000x1 .i32) (y : S256x64.Idx) :
    ∃ pc ∈ (kernelRun2_A c i arg1 harg1 arg2 harg2 arg3 harg3 arg4 harg4 arg5 harg5 arg6 harg6 arg7 harg7 arg8 harg8 arg9 harg9 arg10 harg10 hc0 hc1 x0 x1 x2 x3 x4 x5).2.2.1, y ∈ pc.1.set :=
  View.cover_of_tiledL (kernelRun2_A c i arg1 harg1 arg2 harg2 arg3 harg3 arg4 harg4 arg5 harg5 arg6 harg6 arg7 harg7 arg8 harg8 arg9 harg9 arg10 harg10 hc0 hc1 x0 x1 x2 x3 x4 x5).2.2.1 S256x64.size (by sl_kernel_rfl) y

/-- What case A leaves in the first accumulator: its pieces read back over junk. -/
def sout2_A_0 (c : Dev nD) (i : grid2.Coords) (arg1 : Memref sig .tc .vmem S2000x64 .f32) (harg1 : arg1.IsWhole) (arg2 : Memref sig .tc .vmem S2000x64 .f32) (harg2 : arg2.IsWhole) (arg3 : Memref sig .tc .vmem S2000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2000x1 .i32) (harg6 : arg6.IsWhole) (arg7 : Memref sig .tc .vmem S256x64 .f32) (harg7 : arg7.IsWhole) (arg8 : Memref sig .tc .vmem S1x256 .f32) (harg8 : arg8.IsWhole) (arg9 : Memref sig .tc .vmem S256x64 .f32) (harg9 : arg9.IsWhole) (arg10 : Memref sig .tc .vmem S1x256 .f32) (harg10 : arg10.IsWhole) (hc0 : cond2_0 i) (hc1 : ¬cond2_1 i)
    (x0 : Vec F S2000x64 .f32) (x1 : Vec F S2000x64 .f32) (x2 : Vec F S2000x1 .f32) (x3 : Vec F S128x64 .f32) (x4 : Vec F S1x64 .f32) (x5 : Vec F S2000x1 .i32) : Vec F S256x64 .f32 :=
  VS2_0.read (Elt F) (VS2_0.writes (Elt F) VS2_0.junk (kernelRun2_A c i arg1 harg1 arg2 harg2 arg3 harg3 arg4 harg4 arg5 harg5 arg6 harg6 arg7 harg7 arg8 harg8 arg9 harg9 arg10 harg10 hc0 hc1 x0 x1 x2 x3 x4 x5).2.2.1)

/-- Case A's pieces for the second accumulator (1×256) cover it: whole stores, tiling it. -/
theorem scover2_A_1 (c : Dev nD) (i : grid2.Coords) (arg1 : Memref sig .tc .vmem S2000x64 .f32) (harg1 : arg1.IsWhole) (arg2 : Memref sig .tc .vmem S2000x64 .f32) (harg2 : arg2.IsWhole) (arg3 : Memref sig .tc .vmem S2000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2000x1 .i32) (harg6 : arg6.IsWhole) (arg7 : Memref sig .tc .vmem S256x64 .f32) (harg7 : arg7.IsWhole) (arg8 : Memref sig .tc .vmem S1x256 .f32) (harg8 : arg8.IsWhole) (arg9 : Memref sig .tc .vmem S256x64 .f32) (harg9 : arg9.IsWhole) (arg10 : Memref sig .tc .vmem S1x256 .f32) (harg10 : arg10.IsWhole) (hc0 : cond2_0 i) (hc1 : ¬cond2_1 i)
    (x0 : Vec F S2000x64 .f32) (x1 : Vec F S2000x64 .f32) (x2 : Vec F S2000x1 .f32) (x3 : Vec F S128x64 .f32) (x4 : Vec F S1x64 .f32) (x5 : Vec F S2000x1 .i32) (y : S1x256.Idx) :
    ∃ pc ∈ (kernelRun2_A c i arg1 harg1 arg2 harg2 arg3 harg3 arg4 harg4 arg5 harg5 arg6 harg6 arg7 harg7 arg8 harg8 arg9 harg9 arg10 harg10 hc0 hc1 x0 x1 x2 x3 x4 x5).2.2.2.1, y ∈ pc.1.set :=
  View.cover_of_tiledL (kernelRun2_A c i arg1 harg1 arg2 harg2 arg3 harg3 arg4 harg4 arg5 harg5 arg6 harg6 arg7 harg7 arg8 harg8 arg9 harg9 arg10 harg10 hc0 hc1 x0 x1 x2 x3 x4 x5).2.2.2.1 S1x256.size (by sl_kernel_rfl) y

/-- What case A leaves in the second accumulator: its pieces read back over junk. -/
def sout2_A_1 (c : Dev nD) (i : grid2.Coords) (arg1 : Memref sig .tc .vmem S2000x64 .f32) (harg1 : arg1.IsWhole) (arg2 : Memref sig .tc .vmem S2000x64 .f32) (harg2 : arg2.IsWhole) (arg3 : Memref sig .tc .vmem S2000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2000x1 .i32) (harg6 : arg6.IsWhole) (arg7 : Memref sig .tc .vmem S256x64 .f32) (harg7 : arg7.IsWhole) (arg8 : Memref sig .tc .vmem S1x256 .f32) (harg8 : arg8.IsWhole) (arg9 : Memref sig .tc .vmem S256x64 .f32) (harg9 : arg9.IsWhole) (arg10 : Memref sig .tc .vmem S1x256 .f32) (harg10 : arg10.IsWhole) (hc0 : cond2_0 i) (hc1 : ¬cond2_1 i)
    (x0 : Vec F S2000x64 .f32) (x1 : Vec F S2000x64 .f32) (x2 : Vec F S2000x1 .f32) (x3 : Vec F S128x64 .f32) (x4 : Vec F S1x64 .f32) (x5 : Vec F S2000x1 .i32) : Vec F S1x256 .f32 :=
  VS2_1.read (Elt F) (VS2_1.writes (Elt F) VS2_1.junk (kernelRun2_A c i arg1 harg1 arg2 harg2 arg3 harg3 arg4 harg4 arg5 harg5 arg6 harg6 arg7 harg7 arg8 harg8 arg9 harg9 arg10 harg10 hc0 hc1 x0 x1 x2 x3 x4 x5).2.2.2.1)

/-- Case B stores nothing into output 6 (idle at its points, not written back there): no pieces — a placeholder
    (junk read back) that nothing consults. -/
def out2_B_6 (c : Dev nD) (i : grid2.Coords) (arg1 : Memref sig .tc .vmem S2000x64 .f32) (harg1 : arg1.IsWhole) (arg2 : Memref sig .tc .vmem S2000x64 .f32) (harg2 : arg2.IsWhole) (arg3 : Memref sig .tc .vmem S2000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2000x1 .i32) (harg6 : arg6.IsWhole) (arg7 : Memref sig .tc .vmem S256x64 .f32) (harg7 : arg7.IsWhole) (arg8 : Memref sig .tc .vmem S1x256 .f32) (harg8 : arg8.IsWhole) (arg9 : Memref sig .tc .vmem S256x64 .f32) (harg9 : arg9.IsWhole) (arg10 : Memref sig .tc .vmem S1x256 .f32) (harg10 : arg10.IsWhole) (hc0 : ¬cond2_0 i) (hc1 : ¬cond2_1 i)
    (x0 : Vec F S2000x64 .f32) (x1 : Vec F S2000x64 .f32) (x2 : Vec F S2000x1 .f32) (x3 : Vec F S128x64 .f32) (x4 : Vec F S1x64 .f32) (x5 : Vec F S2000x1 .i32) (xs0 : Vec F S256x64 .f32) (xs1 : Vec F S1x256 .f32) : Vec F S256x64 .f32 :=
  VO2_6.read (Elt F) (VO2_6.writes (Elt F) VO2_6.junk (kernelRun2_B c i arg1 harg1 arg2 harg2 arg3 harg3 arg4 harg4 arg5 harg5 arg6 harg6 arg7 harg7 arg8 harg8 arg9 harg9 arg10 harg10 hc0 hc1 x0 x1 x2 x3 x4 x5 xs0 xs1).1)

/-- Case B stores nothing into output 7 (idle at its points, not written back there): no pieces — a placeholder
    (junk read back) that nothing consults. -/
def out2_B_7 (c : Dev nD) (i : grid2.Coords) (arg1 : Memref sig .tc .vmem S2000x64 .f32) (harg1 : arg1.IsWhole) (arg2 : Memref sig .tc .vmem S2000x64 .f32) (harg2 : arg2.IsWhole) (arg3 : Memref sig .tc .vmem S2000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2000x1 .i32) (harg6 : arg6.IsWhole) (arg7 : Memref sig .tc .vmem S256x64 .f32) (harg7 : arg7.IsWhole) (arg8 : Memref sig .tc .vmem S1x256 .f32) (harg8 : arg8.IsWhole) (arg9 : Memref sig .tc .vmem S256x64 .f32) (harg9 : arg9.IsWhole) (arg10 : Memref sig .tc .vmem S1x256 .f32) (harg10 : arg10.IsWhole) (hc0 : ¬cond2_0 i) (hc1 : ¬cond2_1 i)
    (x0 : Vec F S2000x64 .f32) (x1 : Vec F S2000x64 .f32) (x2 : Vec F S2000x1 .f32) (x3 : Vec F S128x64 .f32) (x4 : Vec F S1x64 .f32) (x5 : Vec F S2000x1 .i32) (xs0 : Vec F S256x64 .f32) (xs1 : Vec F S1x256 .f32) : Vec F S1x256 .f32 :=
  VO2_7.read (Elt F) (VO2_7.writes (Elt F) VO2_7.junk (kernelRun2_B c i arg1 harg1 arg2 harg2 arg3 harg3 arg4 harg4 arg5 harg5 arg6 harg6 arg7 harg7 arg8 harg8 arg9 harg9 arg10 harg10 hc0 hc1 x0 x1 x2 x3 x4 x5 xs0 xs1).2.1)

/-- Case B's pieces for the first accumulator (256×64) cover it: whole stores, tiling it. -/
theorem scover2_B_0 (c : Dev nD) (i : grid2.Coords) (arg1 : Memref sig .tc .vmem S2000x64 .f32) (harg1 : arg1.IsWhole) (arg2 : Memref sig .tc .vmem S2000x64 .f32) (harg2 : arg2.IsWhole) (arg3 : Memref sig .tc .vmem S2000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2000x1 .i32) (harg6 : arg6.IsWhole) (arg7 : Memref sig .tc .vmem S256x64 .f32) (harg7 : arg7.IsWhole) (arg8 : Memref sig .tc .vmem S1x256 .f32) (harg8 : arg8.IsWhole) (arg9 : Memref sig .tc .vmem S256x64 .f32) (harg9 : arg9.IsWhole) (arg10 : Memref sig .tc .vmem S1x256 .f32) (harg10 : arg10.IsWhole) (hc0 : ¬cond2_0 i) (hc1 : ¬cond2_1 i)
    (x0 : Vec F S2000x64 .f32) (x1 : Vec F S2000x64 .f32) (x2 : Vec F S2000x1 .f32) (x3 : Vec F S128x64 .f32) (x4 : Vec F S1x64 .f32) (x5 : Vec F S2000x1 .i32) (xs0 : Vec F S256x64 .f32) (xs1 : Vec F S1x256 .f32) (y : S256x64.Idx) :
    ∃ pc ∈ (kernelRun2_B c i arg1 harg1 arg2 harg2 arg3 harg3 arg4 harg4 arg5 harg5 arg6 harg6 arg7 harg7 arg8 harg8 arg9 harg9 arg10 harg10 hc0 hc1 x0 x1 x2 x3 x4 x5 xs0 xs1).2.2.1, y ∈ pc.1.set :=
  View.cover_of_tiledL (kernelRun2_B c i arg1 harg1 arg2 harg2 arg3 harg3 arg4 harg4 arg5 harg5 arg6 harg6 arg7 harg7 arg8 harg8 arg9 harg9 arg10 harg10 hc0 hc1 x0 x1 x2 x3 x4 x5 xs0 xs1).2.2.1 S256x64.size (by sl_kernel_rfl) y

/-- What case B leaves in the first accumulator: its pieces read back over junk. -/
def sout2_B_0 (c : Dev nD) (i : grid2.Coords) (arg1 : Memref sig .tc .vmem S2000x64 .f32) (harg1 : arg1.IsWhole) (arg2 : Memref sig .tc .vmem S2000x64 .f32) (harg2 : arg2.IsWhole) (arg3 : Memref sig .tc .vmem S2000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2000x1 .i32) (harg6 : arg6.IsWhole) (arg7 : Memref sig .tc .vmem S256x64 .f32) (harg7 : arg7.IsWhole) (arg8 : Memref sig .tc .vmem S1x256 .f32) (harg8 : arg8.IsWhole) (arg9 : Memref sig .tc .vmem S256x64 .f32) (harg9 : arg9.IsWhole) (arg10 : Memref sig .tc .vmem S1x256 .f32) (harg10 : arg10.IsWhole) (hc0 : ¬cond2_0 i) (hc1 : ¬cond2_1 i)
    (x0 : Vec F S2000x64 .f32) (x1 : Vec F S2000x64 .f32) (x2 : Vec F S2000x1 .f32) (x3 : Vec F S128x64 .f32) (x4 : Vec F S1x64 .f32) (x5 : Vec F S2000x1 .i32) (xs0 : Vec F S256x64 .f32) (xs1 : Vec F S1x256 .f32) : Vec F S256x64 .f32 :=
  VS2_0.read (Elt F) (VS2_0.writes (Elt F) VS2_0.junk (kernelRun2_B c i arg1 harg1 arg2 harg2 arg3 harg3 arg4 harg4 arg5 harg5 arg6 harg6 arg7 harg7 arg8 harg8 arg9 harg9 arg10 harg10 hc0 hc1 x0 x1 x2 x3 x4 x5 xs0 xs1).2.2.1)

/-- Case B's pieces for the second accumulator (1×256) cover it: whole stores, tiling it. -/
theorem scover2_B_1 (c : Dev nD) (i : grid2.Coords) (arg1 : Memref sig .tc .vmem S2000x64 .f32) (harg1 : arg1.IsWhole) (arg2 : Memref sig .tc .vmem S2000x64 .f32) (harg2 : arg2.IsWhole) (arg3 : Memref sig .tc .vmem S2000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2000x1 .i32) (harg6 : arg6.IsWhole) (arg7 : Memref sig .tc .vmem S256x64 .f32) (harg7 : arg7.IsWhole) (arg8 : Memref sig .tc .vmem S1x256 .f32) (harg8 : arg8.IsWhole) (arg9 : Memref sig .tc .vmem S256x64 .f32) (harg9 : arg9.IsWhole) (arg10 : Memref sig .tc .vmem S1x256 .f32) (harg10 : arg10.IsWhole) (hc0 : ¬cond2_0 i) (hc1 : ¬cond2_1 i)
    (x0 : Vec F S2000x64 .f32) (x1 : Vec F S2000x64 .f32) (x2 : Vec F S2000x1 .f32) (x3 : Vec F S128x64 .f32) (x4 : Vec F S1x64 .f32) (x5 : Vec F S2000x1 .i32) (xs0 : Vec F S256x64 .f32) (xs1 : Vec F S1x256 .f32) (y : S1x256.Idx) :
    ∃ pc ∈ (kernelRun2_B c i arg1 harg1 arg2 harg2 arg3 harg3 arg4 harg4 arg5 harg5 arg6 harg6 arg7 harg7 arg8 harg8 arg9 harg9 arg10 harg10 hc0 hc1 x0 x1 x2 x3 x4 x5 xs0 xs1).2.2.2.1, y ∈ pc.1.set :=
  View.cover_of_tiledL (kernelRun2_B c i arg1 harg1 arg2 harg2 arg3 harg3 arg4 harg4 arg5 harg5 arg6 harg6 arg7 harg7 arg8 harg8 arg9 harg9 arg10 harg10 hc0 hc1 x0 x1 x2 x3 x4 x5 xs0 xs1).2.2.2.1 S1x256.size (by sl_kernel_rfl) y

/-- What case B leaves in the second accumulator: its pieces read back over junk. -/
def sout2_B_1 (c : Dev nD) (i : grid2.Coords) (arg1 : Memref sig .tc .vmem S2000x64 .f32) (harg1 : arg1.IsWhole) (arg2 : Memref sig .tc .vmem S2000x64 .f32) (harg2 : arg2.IsWhole) (arg3 : Memref sig .tc .vmem S2000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2000x1 .i32) (harg6 : arg6.IsWhole) (arg7 : Memref sig .tc .vmem S256x64 .f32) (harg7 : arg7.IsWhole) (arg8 : Memref sig .tc .vmem S1x256 .f32) (harg8 : arg8.IsWhole) (arg9 : Memref sig .tc .vmem S256x64 .f32) (harg9 : arg9.IsWhole) (arg10 : Memref sig .tc .vmem S1x256 .f32) (harg10 : arg10.IsWhole) (hc0 : ¬cond2_0 i) (hc1 : ¬cond2_1 i)
    (x0 : Vec F S2000x64 .f32) (x1 : Vec F S2000x64 .f32) (x2 : Vec F S2000x1 .f32) (x3 : Vec F S128x64 .f32) (x4 : Vec F S1x64 .f32) (x5 : Vec F S2000x1 .i32) (xs0 : Vec F S256x64 .f32) (xs1 : Vec F S1x256 .f32) : Vec F S1x256 .f32 :=
  VS2_1.read (Elt F) (VS2_1.writes (Elt F) VS2_1.junk (kernelRun2_B c i arg1 harg1 arg2 harg2 arg3 harg3 arg4 harg4 arg5 harg5 arg6 harg6 arg7 harg7 arg8 harg8 arg9 harg9 arg10 harg10 hc0 hc1 x0 x1 x2 x3 x4 x5 xs0 xs1).2.2.2.1)

/-- Case C's pieces for output 6 tile its block (one whole store), so they cover it. -/
theorem cover2_C_6 (c : Dev nD) (i : grid2.Coords) (arg1 : Memref sig .tc .vmem S2000x64 .f32) (harg1 : arg1.IsWhole) (arg2 : Memref sig .tc .vmem S2000x64 .f32) (harg2 : arg2.IsWhole) (arg3 : Memref sig .tc .vmem S2000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2000x1 .i32) (harg6 : arg6.IsWhole) (arg7 : Memref sig .tc .vmem S256x64 .f32) (harg7 : arg7.IsWhole) (arg8 : Memref sig .tc .vmem S1x256 .f32) (harg8 : arg8.IsWhole) (arg9 : Memref sig .tc .vmem S256x64 .f32) (harg9 : arg9.IsWhole) (arg10 : Memref sig .tc .vmem S1x256 .f32) (harg10 : arg10.IsWhole) (hc0 : ¬cond2_0 i) (hc1 : cond2_1 i)
    (x0 : Vec F S2000x64 .f32) (x1 : Vec F S2000x64 .f32) (x2 : Vec F S2000x1 .f32) (x3 : Vec F S128x64 .f32) (x4 : Vec F S1x64 .f32) (x5 : Vec F S2000x1 .i32) (xs0 : Vec F S256x64 .f32) (xs1 : Vec F S1x256 .f32) (y : S256x64.Idx) :
    ∃ pc ∈ (kernelRun2_C c i arg1 harg1 arg2 harg2 arg3 harg3 arg4 harg4 arg5 harg5 arg6 harg6 arg7 harg7 arg8 harg8 arg9 harg9 arg10 harg10 hc0 hc1 x0 x1 x2 x3 x4 x5 xs0 xs1).1, y ∈ pc.1.set :=
  View.cover_of_tiledL (kernelRun2_C c i arg1 harg1 arg2 harg2 arg3 harg3 arg4 harg4 arg5 harg5 arg6 harg6 arg7 harg7 arg8 harg8 arg9 harg9 arg10 harg10 hc0 hc1 x0 x1 x2 x3 x4 x5 xs0 xs1).1 S256x64.size (by sl_kernel_rfl) y

/-- What case C leaves in output 6's staging buffer: its pieces read back over junk. -/
def out2_C_6 (c : Dev nD) (i : grid2.Coords) (arg1 : Memref sig .tc .vmem S2000x64 .f32) (harg1 : arg1.IsWhole) (arg2 : Memref sig .tc .vmem S2000x64 .f32) (harg2 : arg2.IsWhole) (arg3 : Memref sig .tc .vmem S2000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2000x1 .i32) (harg6 : arg6.IsWhole) (arg7 : Memref sig .tc .vmem S256x64 .f32) (harg7 : arg7.IsWhole) (arg8 : Memref sig .tc .vmem S1x256 .f32) (harg8 : arg8.IsWhole) (arg9 : Memref sig .tc .vmem S256x64 .f32) (harg9 : arg9.IsWhole) (arg10 : Memref sig .tc .vmem S1x256 .f32) (harg10 : arg10.IsWhole) (hc0 : ¬cond2_0 i) (hc1 : cond2_1 i)
    (x0 : Vec F S2000x64 .f32) (x1 : Vec F S2000x64 .f32) (x2 : Vec F S2000x1 .f32) (x3 : Vec F S128x64 .f32) (x4 : Vec F S1x64 .f32) (x5 : Vec F S2000x1 .i32) (xs0 : Vec F S256x64 .f32) (xs1 : Vec F S1x256 .f32) : Vec F S256x64 .f32 :=
  VO2_6.read (Elt F) (VO2_6.writes (Elt F) VO2_6.junk (kernelRun2_C c i arg1 harg1 arg2 harg2 arg3 harg3 arg4 harg4 arg5 harg5 arg6 harg6 arg7 harg7 arg8 harg8 arg9 harg9 arg10 harg10 hc0 hc1 x0 x1 x2 x3 x4 x5 xs0 xs1).1)

/-- Case C's pieces for output 7 tile its block (one whole store), so they cover it. -/
theorem cover2_C_7 (c : Dev nD) (i : grid2.Coords) (arg1 : Memref sig .tc .vmem S2000x64 .f32) (harg1 : arg1.IsWhole) (arg2 : Memref sig .tc .vmem S2000x64 .f32) (harg2 : arg2.IsWhole) (arg3 : Memref sig .tc .vmem S2000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2000x1 .i32) (harg6 : arg6.IsWhole) (arg7 : Memref sig .tc .vmem S256x64 .f32) (harg7 : arg7.IsWhole) (arg8 : Memref sig .tc .vmem S1x256 .f32) (harg8 : arg8.IsWhole) (arg9 : Memref sig .tc .vmem S256x64 .f32) (harg9 : arg9.IsWhole) (arg10 : Memref sig .tc .vmem S1x256 .f32) (harg10 : arg10.IsWhole) (hc0 : ¬cond2_0 i) (hc1 : cond2_1 i)
    (x0 : Vec F S2000x64 .f32) (x1 : Vec F S2000x64 .f32) (x2 : Vec F S2000x1 .f32) (x3 : Vec F S128x64 .f32) (x4 : Vec F S1x64 .f32) (x5 : Vec F S2000x1 .i32) (xs0 : Vec F S256x64 .f32) (xs1 : Vec F S1x256 .f32) (y : S1x256.Idx) :
    ∃ pc ∈ (kernelRun2_C c i arg1 harg1 arg2 harg2 arg3 harg3 arg4 harg4 arg5 harg5 arg6 harg6 arg7 harg7 arg8 harg8 arg9 harg9 arg10 harg10 hc0 hc1 x0 x1 x2 x3 x4 x5 xs0 xs1).2.1, y ∈ pc.1.set :=
  View.cover_of_tiledL (kernelRun2_C c i arg1 harg1 arg2 harg2 arg3 harg3 arg4 harg4 arg5 harg5 arg6 harg6 arg7 harg7 arg8 harg8 arg9 harg9 arg10 harg10 hc0 hc1 x0 x1 x2 x3 x4 x5 xs0 xs1).2.1 S1x256.size (by sl_kernel_rfl) y

/-- What case C leaves in output 7's staging buffer: its pieces read back over junk. -/
def out2_C_7 (c : Dev nD) (i : grid2.Coords) (arg1 : Memref sig .tc .vmem S2000x64 .f32) (harg1 : arg1.IsWhole) (arg2 : Memref sig .tc .vmem S2000x64 .f32) (harg2 : arg2.IsWhole) (arg3 : Memref sig .tc .vmem S2000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2000x1 .i32) (harg6 : arg6.IsWhole) (arg7 : Memref sig .tc .vmem S256x64 .f32) (harg7 : arg7.IsWhole) (arg8 : Memref sig .tc .vmem S1x256 .f32) (harg8 : arg8.IsWhole) (arg9 : Memref sig .tc .vmem S256x64 .f32) (harg9 : arg9.IsWhole) (arg10 : Memref sig .tc .vmem S1x256 .f32) (harg10 : arg10.IsWhole) (hc0 : ¬cond2_0 i) (hc1 : cond2_1 i)
    (x0 : Vec F S2000x64 .f32) (x1 : Vec F S2000x64 .f32) (x2 : Vec F S2000x1 .f32) (x3 : Vec F S128x64 .f32) (x4 : Vec F S1x64 .f32) (x5 : Vec F S2000x1 .i32) (xs0 : Vec F S256x64 .f32) (xs1 : Vec F S1x256 .f32) : Vec F S1x256 .f32 :=
  VO2_7.read (Elt F) (VO2_7.writes (Elt F) VO2_7.junk (kernelRun2_C c i arg1 harg1 arg2 harg2 arg3 harg3 arg4 harg4 arg5 harg5 arg6 harg6 arg7 harg7 arg8 harg8 arg9 harg9 arg10 harg10 hc0 hc1 x0 x1 x2 x3 x4 x5 xs0 xs1).2.1)

/-- Case C's pieces for the first accumulator (256×64) cover it: whole stores, tiling it. -/
theorem scover2_C_0 (c : Dev nD) (i : grid2.Coords) (arg1 : Memref sig .tc .vmem S2000x64 .f32) (harg1 : arg1.IsWhole) (arg2 : Memref sig .tc .vmem S2000x64 .f32) (harg2 : arg2.IsWhole) (arg3 : Memref sig .tc .vmem S2000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2000x1 .i32) (harg6 : arg6.IsWhole) (arg7 : Memref sig .tc .vmem S256x64 .f32) (harg7 : arg7.IsWhole) (arg8 : Memref sig .tc .vmem S1x256 .f32) (harg8 : arg8.IsWhole) (arg9 : Memref sig .tc .vmem S256x64 .f32) (harg9 : arg9.IsWhole) (arg10 : Memref sig .tc .vmem S1x256 .f32) (harg10 : arg10.IsWhole) (hc0 : ¬cond2_0 i) (hc1 : cond2_1 i)
    (x0 : Vec F S2000x64 .f32) (x1 : Vec F S2000x64 .f32) (x2 : Vec F S2000x1 .f32) (x3 : Vec F S128x64 .f32) (x4 : Vec F S1x64 .f32) (x5 : Vec F S2000x1 .i32) (xs0 : Vec F S256x64 .f32) (xs1 : Vec F S1x256 .f32) (y : S256x64.Idx) :
    ∃ pc ∈ (kernelRun2_C c i arg1 harg1 arg2 harg2 arg3 harg3 arg4 harg4 arg5 harg5 arg6 harg6 arg7 harg7 arg8 harg8 arg9 harg9 arg10 harg10 hc0 hc1 x0 x1 x2 x3 x4 x5 xs0 xs1).2.2.1, y ∈ pc.1.set :=
  View.cover_of_tiledL (kernelRun2_C c i arg1 harg1 arg2 harg2 arg3 harg3 arg4 harg4 arg5 harg5 arg6 harg6 arg7 harg7 arg8 harg8 arg9 harg9 arg10 harg10 hc0 hc1 x0 x1 x2 x3 x4 x5 xs0 xs1).2.2.1 S256x64.size (by sl_kernel_rfl) y

/-- What case C leaves in the first accumulator: its pieces read back over junk. -/
def sout2_C_0 (c : Dev nD) (i : grid2.Coords) (arg1 : Memref sig .tc .vmem S2000x64 .f32) (harg1 : arg1.IsWhole) (arg2 : Memref sig .tc .vmem S2000x64 .f32) (harg2 : arg2.IsWhole) (arg3 : Memref sig .tc .vmem S2000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2000x1 .i32) (harg6 : arg6.IsWhole) (arg7 : Memref sig .tc .vmem S256x64 .f32) (harg7 : arg7.IsWhole) (arg8 : Memref sig .tc .vmem S1x256 .f32) (harg8 : arg8.IsWhole) (arg9 : Memref sig .tc .vmem S256x64 .f32) (harg9 : arg9.IsWhole) (arg10 : Memref sig .tc .vmem S1x256 .f32) (harg10 : arg10.IsWhole) (hc0 : ¬cond2_0 i) (hc1 : cond2_1 i)
    (x0 : Vec F S2000x64 .f32) (x1 : Vec F S2000x64 .f32) (x2 : Vec F S2000x1 .f32) (x3 : Vec F S128x64 .f32) (x4 : Vec F S1x64 .f32) (x5 : Vec F S2000x1 .i32) (xs0 : Vec F S256x64 .f32) (xs1 : Vec F S1x256 .f32) : Vec F S256x64 .f32 :=
  VS2_0.read (Elt F) (VS2_0.writes (Elt F) VS2_0.junk (kernelRun2_C c i arg1 harg1 arg2 harg2 arg3 harg3 arg4 harg4 arg5 harg5 arg6 harg6 arg7 harg7 arg8 harg8 arg9 harg9 arg10 harg10 hc0 hc1 x0 x1 x2 x3 x4 x5 xs0 xs1).2.2.1)

/-- Case C's pieces for the second accumulator (1×256) cover it: whole stores, tiling it. -/
theorem scover2_C_1 (c : Dev nD) (i : grid2.Coords) (arg1 : Memref sig .tc .vmem S2000x64 .f32) (harg1 : arg1.IsWhole) (arg2 : Memref sig .tc .vmem S2000x64 .f32) (harg2 : arg2.IsWhole) (arg3 : Memref sig .tc .vmem S2000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2000x1 .i32) (harg6 : arg6.IsWhole) (arg7 : Memref sig .tc .vmem S256x64 .f32) (harg7 : arg7.IsWhole) (arg8 : Memref sig .tc .vmem S1x256 .f32) (harg8 : arg8.IsWhole) (arg9 : Memref sig .tc .vmem S256x64 .f32) (harg9 : arg9.IsWhole) (arg10 : Memref sig .tc .vmem S1x256 .f32) (harg10 : arg10.IsWhole) (hc0 : ¬cond2_0 i) (hc1 : cond2_1 i)
    (x0 : Vec F S2000x64 .f32) (x1 : Vec F S2000x64 .f32) (x2 : Vec F S2000x1 .f32) (x3 : Vec F S128x64 .f32) (x4 : Vec F S1x64 .f32) (x5 : Vec F S2000x1 .i32) (xs0 : Vec F S256x64 .f32) (xs1 : Vec F S1x256 .f32) (y : S1x256.Idx) :
    ∃ pc ∈ (kernelRun2_C c i arg1 harg1 arg2 harg2 arg3 harg3 arg4 harg4 arg5 harg5 arg6 harg6 arg7 harg7 arg8 harg8 arg9 harg9 arg10 harg10 hc0 hc1 x0 x1 x2 x3 x4 x5 xs0 xs1).2.2.2.1, y ∈ pc.1.set :=
  View.cover_of_tiledL (kernelRun2_C c i arg1 harg1 arg2 harg2 arg3 harg3 arg4 harg4 arg5 harg5 arg6 harg6 arg7 harg7 arg8 harg8 arg9 harg9 arg10 harg10 hc0 hc1 x0 x1 x2 x3 x4 x5 xs0 xs1).2.2.2.1 S1x256.size (by sl_kernel_rfl) y

/-- What case C leaves in the second accumulator: its pieces read back over junk. -/
def sout2_C_1 (c : Dev nD) (i : grid2.Coords) (arg1 : Memref sig .tc .vmem S2000x64 .f32) (harg1 : arg1.IsWhole) (arg2 : Memref sig .tc .vmem S2000x64 .f32) (harg2 : arg2.IsWhole) (arg3 : Memref sig .tc .vmem S2000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2000x1 .i32) (harg6 : arg6.IsWhole) (arg7 : Memref sig .tc .vmem S256x64 .f32) (harg7 : arg7.IsWhole) (arg8 : Memref sig .tc .vmem S1x256 .f32) (harg8 : arg8.IsWhole) (arg9 : Memref sig .tc .vmem S256x64 .f32) (harg9 : arg9.IsWhole) (arg10 : Memref sig .tc .vmem S1x256 .f32) (harg10 : arg10.IsWhole) (hc0 : ¬cond2_0 i) (hc1 : cond2_1 i)
    (x0 : Vec F S2000x64 .f32) (x1 : Vec F S2000x64 .f32) (x2 : Vec F S2000x1 .f32) (x3 : Vec F S128x64 .f32) (x4 : Vec F S1x64 .f32) (x5 : Vec F S2000x1 .i32) (xs0 : Vec F S256x64 .f32) (xs1 : Vec F S1x256 .f32) : Vec F S1x256 .f32 :=
  VS2_1.read (Elt F) (VS2_1.writes (Elt F) VS2_1.junk (kernelRun2_C c i arg1 harg1 arg2 harg2 arg3 harg3 arg4 harg4 arg5 harg5 arg6 harg6 arg7 harg7 arg8 harg8 arg9 harg9 arg10 harg10 hc0 hc1 x0 x1 x2 x3 x4 x5 xs0 xs1).2.2.2.1)

/-! ## What the outputs and the accumulators hold after each point -/

/-- THE ACCUMULATION. What the two output staging buffers and the two scratch accumulators hold after the body at
    position `n` (output 6, output 7, first accumulator, second accumulator): the case the closed forms select at `n`,
    run at the point's memrefs and input blocks, the accumulators taken at what this leaves at `n - 1`. An assignment of
    the two conditions that no point meets is no case. -/
def outsAt2 (c : Dev nD) : (n : ℕ) → n < cfg2.N → Vec F S256x64 .f32 × Vec F S1x256 .f32 × Vec F S256x64 .f32 × Vec F S1x256 .f32
  | 0, hn => (out2_A_6 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩), out2_A_7 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩), sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩))
  | n + 1, hn =>
    if h0 : (n + 1) % 50 = 0 then
      if h1 : (n + 1) % 50 = 49 then
        False.elim (by have hN : n + 1 < 50 := lt_of_lt_of_eq hn (show cfg2.N = 50 from N_2); omega)
      else
        (out2_A_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩), out2_A_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩), sout2_A_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩))
    else
      if h1 : (n + 1) % 50 = 49 then
        (out2_C_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.1 (outsAt2 c n (Nat.lt_of_succ_lt hn)).2.2.2, out2_C_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.1 (outsAt2 c n (Nat.lt_of_succ_lt hn)).2.2.2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.1 (outsAt2 c n (Nat.lt_of_succ_lt hn)).2.2.2, sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.1 (outsAt2 c n (Nat.lt_of_succ_lt hn)).2.2.2)
      else
        (out2_B_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.1 (outsAt2 c n (Nat.lt_of_succ_lt hn)).2.2.2, out2_B_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.1 (outsAt2 c n (Nat.lt_of_succ_lt hn)).2.2.2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.1 (outsAt2 c n (Nat.lt_of_succ_lt hn)).2.2.2, sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.1 (outsAt2 c n (Nat.lt_of_succ_lt hn)).2.2.2)

/-- `outsAt2` at a point of case A: that case's contents. -/
theorem outsAt2_A (c : Dev nD) (t : Fin cfg2.N) (h0 : t.val % 50 = 0) (h1 : ¬t.val % 50 = 49) :
    outsAt2 V c t.val t.isLt = (out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t), out2_A_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t), sout2_A_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t)) := by
  obtain ⟨n, hn⟩ := t
  cases n with
  | zero => exact rfl
  | succ n => exact (dif_pos h0).trans ((dif_neg h1).trans rfl)

/-- `outsAt2` at a point of case B: that case's contents, over what the point before left in the accumulators. -/
theorem outsAt2_B (c : Dev nD) (t : Fin cfg2.N) (h0 : ¬t.val % 50 = 0) (h1 : ¬t.val % 50 = 49) :
    outsAt2 V c t.val t.isLt = (out2_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.1 (outsAt2 V c (t.val - 1) (Nat.lt_of_le_of_lt (Nat.sub_le _ _) t.isLt)).2.2.2, out2_B_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.1 (outsAt2 V c (t.val - 1) (Nat.lt_of_le_of_lt (Nat.sub_le _ _) t.isLt)).2.2.2, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.1 (outsAt2 V c (t.val - 1) (Nat.lt_of_le_of_lt (Nat.sub_le _ _) t.isLt)).2.2.2, sout2_B_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.1 (outsAt2 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt2` at a point of case C: that case's contents, over what the point before left in the accumulators. -/
theorem outsAt2_C (c : Dev nD) (t : Fin cfg2.N) (h0 : ¬t.val % 50 = 0) (h1 : t.val % 50 = 49) :
    outsAt2 V c t.val t.isLt = (out2_C_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.1 (outsAt2 V c (t.val - 1) (Nat.lt_of_le_of_lt (Nat.sub_le _ _) t.isLt)).2.2.2, out2_C_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.1 (outsAt2 V c (t.val - 1) (Nat.lt_of_le_of_lt (Nat.sub_le _ _) t.isLt)).2.2.2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.1 (outsAt2 V c (t.val - 1) (Nat.lt_of_le_of_lt (Nat.sub_le _ _) t.isLt)).2.2.2, sout2_C_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.1 (outsAt2 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The region invariant with the accumulators carried -/

/-- The region invariant before position `n`: before the first point the launch's (every scoped buffer at anything);
    afterwards the two accumulators at what the point before left in them, the other calls' scoped buffers at anything,
    and the generator register at some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2.2.1) ∗ owns (c : Thread nD τ) scM2_1 fullShare ((outsAt2 V c n hn).2.2.2) ∗ restScoped2 (F := F) c) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the accumulators at that point's contents. -/
theorem PhiS2_succ (c : Dev nD) (n : ℕ) (hn : n < cfg2.N) :
    PhiS2 V c (n + 1) hn = iprop(iprop(owns (c : Thread nD τ) scM2_0 fullShare ((outsAt2 V c n hn).2.2.1) ∗ owns (c : Thread nD τ) scM2_1 fullShare ((outsAt2 V c n hn).2.2.2) ∗ restScoped2 (F := F) c) ∗ (∃ r, prngReg c r)) := rfl

/-- Before a point that is not the first: the accumulators at what the point before left. -/
theorem PhiS2_pos (c : Dev nD) (n : ℕ) (h : n ≤ cfg2.N) (hz : n ≠ 0) :
    PhiS2 V c n h = iprop(iprop(owns (c : Thread nD τ) scM2_0 fullShare ((outsAt2 V c (n - 1) (by omega)).2.2.1) ∗ owns (c : Thread nD τ) scM2_1 fullShare ((outsAt2 V c (n - 1) (by omega)).2.2.2) ∗ restScoped2 (F := F) c) ∗ (∃ r, prngReg c r)) := by
  cases n with
  | zero => exact absurd rfl hz
  | succ n => rfl

/-! ## The pipeline's proof data -/

/-- The proof data of pipeline 2 on core `c`: the arrays as the region finds them; after the body at point `t` each
    input's buffer at its block and the two outputs' at `outsAt2`'s components; the invariant `PhiS2`; nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1
    | ⟨7, _⟩ => (outsAt2 V c t.val t.isLt).2.1
  Φ t := PhiS2 V c t.val (Nat.le_of_lt_succ t.isLt)
  q _ := fullShare
  owed _ := 0

/-- The proof data's arrays are the region-entry contents (the definition projected). -/
theorem A_eq2 (c : Dev nD) (w : Fin cfg2.W) : (dat2 V c).A w = V c (Pipeline.arrRef spec2 w) := by
  dsimp only [dat2]

/-- The invariant at a point's start, restated at the point's position. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outsAt2 V c t.val t.isLt).1 := by dsimp only [dat2]
theorem after2_7 (c : Dev nD) (t : Fin cfg2.N) : (dat2 V c).after 7 t = (outsAt2 V c t.val t.isLt).2.1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t)

set_option maxHeartbeats 4800000 in
/-- The body at any point. The inputs' memrefs hold their blocks; the closed forms say which case the point is in; the
    invariant hands the body the two accumulators — at anything at the first point, at what the point before left
    afterwards — and takes them back at this point's contents (their pieces cover them); the other calls' scoped
    buffers, the generator register and what the core owes pass through untouched; an output the case does not store
    is handed back as found, and the last point's two outputs at their pieces read back. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  have hN : t.val < 50 := lt_of_lt_of_eq t.isLt (show cfg2.N = 50 from N_2)
  by_cases h0 : t.val % 50 = 0
  · by_cases h1 : t.val % 50 = 49
    · exfalso; omega
    · -- case A: the first point
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t], after2_5]
      rw [Dat.leavesExact_idle (dat2 V c) 6 t (idleAt2_6_A t ((hcond2_0 t).mpr h0) (fun h => h1 ((hcond2_1 t).mp h))) (noFlush2_6_A t ((hcond2_0 t).mpr h0) (fun h => h1 ((hcond2_1 t).mp h)))]
      rw [Dat.leavesExact_idle (dat2 V c) 7 t (idleAt2_7_A t ((hcond2_0 t).mpr h0) (fun h => h1 ((hcond2_1 t).mp h))) (noFlush2_7_A t ((hcond2_0 t).mpr h0) (fun h => h1 ((hcond2_1 t).mp h)))]
      rw [outsAt2_A V c t h0 h1]
      unfold sout2_A_0 sout2_A_1; (try dsimp only)
      by_cases hz : t.val = 0
      · rw [PhiS2_castSucc V c t, PhiS2_zero V c _ _ hz, PhiA2_eq]
        iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun2_A c (grid2.coords t) _ _ _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t)).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        iintro ⟨H0, H1, H2, H3, H4, H5, H6, H7, ⟨%es0, HS0⟩, ⟨%es1, HS1⟩⟩
        isplitl [HS0 HS1 HR Hg]
        · isplitr [Hg]
          swap; · iexact Hg
          isplitl [HS0]
          · unfold owns; iexists _; isplitr
            swap; · iexact HS0
            ipureintro; exact View.read_writes_of_cover _ _ _ _ _ (scover2_A_0 c _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover2_A_1 c _ _ _ _ _ _ _ _ _ _ _ _ _ _ _ _ _ _ _ _ _ _ _ _ _ _ _ _ _)
          iexact HR
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        iexists _; iexact H7
      · exfalso; omega
  · by_cases h1 : t.val % 50 = 49
    · -- case C: the last point
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t], after2_5]
      rw [show (dat2 V c).leavesExact 6 t = owns (c : Thread nD τ) (ms2_6 t) fullShare ((dat2 V c).after 6 t) from by
        unfold Dat.leavesExact; rw [liveAt2_6_C t (fun h => h0 ((hcond2_0 t).mp h)) ((hcond2_1 t).mpr h1)], after2_6]
      rw [show (dat2 V c).leavesExact 7 t = owns (c : Thread nD τ) (ms2_7 t) fullShare ((dat2 V c).after 7 t) from by
        unfold Dat.leavesExact; rw [liveAt2_7_C t (fun h => h0 ((hcond2_0 t).mp h)) ((hcond2_1 t).mpr h1)], after2_7]
      rw [outsAt2_C V c t h0 h1]
      unfold out2_C_6 out2_C_7 sout2_C_0 sout2_C_1; (try dsimp only)
      by_cases hz : t.val = 0
      · exfalso; omega
      · rw [PhiS2_castSucc V c t, PhiS2_pos V c _ _ hz]
        iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun2_C c (grid2.coords t) _ _ _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (iblk2 V c 5 t) _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [HS0]; · iexact HS0
        isplitl [HS1]; · iexact HS1
        iintro ⟨H0, H1, H2, H3, H4, H5, ⟨%e6, H6⟩, ⟨%e7, H7⟩, ⟨%es0, HS0⟩, ⟨%es1, HS1⟩⟩
        isplitl [HS0 HS1 HR Hg]
        · isplitr [Hg]
          swap; · iexact Hg
          isplitl [HS0]
          · unfold owns; iexists _; isplitr
            swap; · iexact HS0
            ipureintro; exact View.read_writes_of_cover _ _ _ _ _ (scover2_C_0 c _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover2_C_1 c _ _ _ _ _ _ _ _ _ _ _ _ _ _ _ _ _ _ _ _ _ _ _ _ _ _ _ _ _ _ _)
          iexact HR
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover2_C_6 c _ _ _ _ _ _ _ _ _ _ _ _ _ _ _ _ _ _ _ _ _ _ _ _ _ _ _ _ _ _ _)
        unfold owns; iexists _; isplitr
        swap; · iexact H7
        ipureintro; exact View.read_writes_of_cover _ _ _ _ _ (cover2_C_7 c _ _ _ _ _ _ _ _ _ _ _ _ _ _ _ _ _ _ _ _ _ _ _ _ _ _ _ _ _ _ _)
    · -- case B: the points in between
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t], after2_5]
      rw [Dat.leavesExact_idle (dat2 V c) 6 t (idleAt2_6_B t (fun h => h0 ((hcond2_0 t).mp h)) (fun h => h1 ((hcond2_1 t).mp h))) (noFlush2_6_B t (fun h => h0 ((hcond2_0 t).mp h)) (fun h => h1 ((hcond2_1 t).mp h)))]
      rw [Dat.leavesExact_idle (dat2 V c) 7 t (idleAt2_7_B t (fun h => h0 ((hcond2_0 t).mp h)) (fun h => h1 ((hcond2_1 t).mp h))) (noFlush2_7_B t (fun h => h0 ((hcond2_0 t).mp h)) (fun h => h1 ((hcond2_1 t).mp h)))]
      rw [outsAt2_B V c t h0 h1]
      unfold sout2_B_0 sout2_B_1; (try dsimp only)
      by_cases hz : t.val = 0
      · exfalso; omega
      · rw [PhiS2_castSucc V c t, PhiS2_pos V c _ _ hz]
        iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun2_B c (grid2.coords t) _ _ _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) _ _).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        iintro ⟨H0, H1, H2, H3, H4, H5, H6, H7, ⟨%es0, HS0⟩, ⟨%es1, HS1⟩⟩
        isplitl [HS0 HS1 HR Hg]
        · isplitr [Hg]
          swap; · iexact Hg
          isplitl [HS0]
          · unfold owns; iexists _; isplitr
            swap; · iexact HS0
            ipureintro; exact View.read_writes_of_cover _ _ _ _ _ (scover2_B_0 c _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover2_B_1 c _ _ _ _ _ _ _ _ _ _ _ _ _ _ _ _ _ _ _ _ _ _ _ _ _ _ _ _ _ _ _)
          iexact HR
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        iexists _; iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : (Pipeline.ΦA spec2 c : sProp 𝕄) ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the launch's back: what the accumulators hold is forgotten. -/
theorem Phi_out2 (c : Dev nD) (t : Fin (cfg2.N + 1)) (ht : t.val ≠ 0) : (dat2 V c).Φ t ⊢ (Pipeline.ΦA spec2 c : sProp 𝕄) := by
  rw [show (dat2 V c).Φ t = PhiS2 V c t.val (Nat.le_of_lt_succ t.isLt) from rfl, PhiS2_pos V c _ _ ht, PhiA2_eq]
  iintro ⟨⟨HS0, HS1, HR⟩, Hg⟩
  isplitr [Hg]
  swap; · iexact Hg
  isplitl [HS0]; · iexists _; iexact HS0
  isplitl [HS1]; · iexists _; iexact HS1
  iexact HR

/-- The same after the last point. -/
theorem hout2 (c : Dev nD) : (dat2 V c).Φ (Fin.last cfg2.N) ⊢ (Pipeline.ΦA spec2 c : sProp 𝕄) :=
  Phi_out2 V c _ (by rw [Fin.val_last]; have : cfg2.N = 50 := N_2; omega)

end Cert.Kernel.Hand

end
-- ==== Proof.K.Run.lean ====
/- THE RUN of @main: host stretch 0, region 0, host stretch 1, region 1, host stretch 2, region 2, host stretch 3.
   The buffer contents at every boundary between two of these seven segments are written as a fold from the launch
   memory `m`: a host stretch takes a valuation to what its operations compute from it; a region takes it to the same
   valuation with the region's arrays replaced by what the pipeline's write-backs leave in them. Each region's half
   (the proof data, the body obligation, the invariant at its two ends) is taken at the contents its region is entered
   with. The thread state between two segments is "every unscoped buffer whole at the boundary's contents, the generator
   register at some state, nothing owed". From these: every weakly fair execution terminates and leaves every unscoped
   buffer at the last valuation (`run_all`); and since no host operation writes an argument array and no region writes
   one either (region 0 reads `main_arg0` through an input window, which is never written back), each argument
   array ends holding what it was launched with (`frame`). Nothing here depends on the generator registers `ρ`. -/
import proofs.«400542_j69810398429749_3_alg».proof.Proof.K.R0
import proofs.«400542_j69810398429749_3_alg».proof.Proof.K.R1
import proofs.«400542_j69810398429749_3_alg».proof.Proof.K.R2
import proofs.«400542_j69810398429749_3_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main -/

/-- Core `c`'s buffers at launch. -/
abbrev W0 : Dev nD → Valuation τ sig (Elt F) := fun c b => m (c, b)
/-- After `hostOps0` (region 0's entry). -/
abbrev W1 : Dev nD → Valuation τ sig (Elt F) := fun c => StableHlo.after hostOps0 (W0 m c)
/-- The same read at the TensorCore's references (what region 0's proof data take). -/
abbrev V1 : (c : Dev nD) → (b : Ref sig .tc) → Buf (Elt F) ((c : Thread nD τ).loc b) := fun c b => W1 m c b
/-- At region 0's exit: its arrays at what the pipeline leaves (the inputs as entered, each output's write-backs
    folded), every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m c b
/-- At region 0's exit each of its arrays holds what the pipeline leaves (`hF0`) and every other buffer what it
    held at entry (`hrest0`). -/
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After `hostOps1` (region 1's entry). -/
abbrev W3 : Dev nD → Valuation τ sig (Elt F) := fun c => StableHlo.after hostOps1 (W2 m c)
/-- The same read at the TensorCore's references (what region 1's proof data take). -/
abbrev V3 : (c : Dev nD) → (b : Ref sig .tc) → Buf (Elt F) ((c : Thread nD τ).loc b) := fun c b => W3 m c b
/-- At region 1's exit: its arrays at what the pipeline leaves (the inputs as entered, each output's write-backs
    folded), every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m c b
/-- At region 1's exit each of its arrays holds what the pipeline leaves (`hF1`) and every other buffer what it
    held at entry (`hrest1`). -/
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After `hostOps2` (region 2's entry). -/
abbrev W5 : Dev nD → Valuation τ sig (Elt F) := fun c => StableHlo.after hostOps2 (W4 m c)
/-- The same read at the TensorCore's references (what region 2's proof data take). -/
abbrev V5 : (c : Dev nD) → (b : Ref sig .tc) → Buf (Elt F) ((c : Thread nD τ).loc b) := fun c b => W5 m c b
/-- At region 2's exit: its arrays at what the pipeline leaves (the inputs as entered, each output's write-backs
    folded), every other buffer as entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m c b
/-- At region 2's exit each of its arrays holds what the pipeline leaves (`hF2`) and every other buffer what it
    held at entry (`hrest2`). -/
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-- After `hostOps3` (the end of @main). -/
abbrev W7 : Dev nD → Valuation τ sig (Elt F) := fun c => StableHlo.after hostOps3 (W6 m c)

/-! ### The arguments end as launched: no host operation writes one, and no region writes one (region 0 reads
    `main_arg0` through its input window 1, whose array is never written back; no other argument is a window), so the
    fold at an argument's buffer walks back to the launch memory -/

theorem W7_main_arg0 (c : Dev nD) : W7 m c (Proc.devRef .tc main_arg0) = m ((c : Thread nD τ).loc main_arg0) :=
  calc W7 m c (Proc.devRef .tc main_arg0)
    _ = W6 m c (Proc.devRef .tc main_arg0) := StableHlo.after_of_writes_sub hostOps3 _ hostOps3_writes (by decide)
    _ = W5 m c (Proc.devRef .tc main_arg0) := W6_of_ne m c main_arg0 (by decide)
    _ = W4 m c (Proc.devRef .tc main_arg0) := StableHlo.after_of_writes_sub hostOps2 _ hostOps2_writes (by decide)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := (W2_arr m c 1).trans (((dat0 (V1 m) c).arrAt_in 1 rfl _).trans (A_eq0 (V1 m) c 1))
    _ = W0 m c (Proc.devRef .tc main_arg0) := StableHlo.after_of_writes_sub hostOps0 _ hostOps0_writes (by decide)
    _ = m ((c : Thread nD τ).loc main_arg0) := rfl

theorem W7_main_arg1 (c : Dev nD) : W7 m c (Proc.devRef .tc main_arg1) = m ((c : Thread nD τ).loc main_arg1) :=
  calc W7 m c (Proc.devRef .tc main_arg1)
    _ = W6 m c (Proc.devRef .tc main_arg1) := StableHlo.after_of_writes_sub hostOps3 _ hostOps3_writes (by decide)
    _ = W5 m c (Proc.devRef .tc main_arg1) := W6_of_ne m c main_arg1 (by decide)
    _ = W4 m c (Proc.devRef .tc main_arg1) := StableHlo.after_of_writes_sub hostOps2 _ hostOps2_writes (by decide)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

theorem W7_main_arg2 (c : Dev nD) : W7 m c (Proc.devRef .tc main_arg2) = m ((c : Thread nD τ).loc main_arg2) :=
  calc W7 m c (Proc.devRef .tc main_arg2)
    _ = W6 m c (Proc.devRef .tc main_arg2) := StableHlo.after_of_writes_sub hostOps3 _ hostOps3_writes (by decide)
    _ = W5 m c (Proc.devRef .tc main_arg2) := W6_of_ne m c main_arg2 (by decide)
    _ = W4 m c (Proc.devRef .tc main_arg2) := StableHlo.after_of_writes_sub hostOps2 _ hostOps2_writes (by decide)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl

theorem W7_main_arg3 (c : Dev nD) : W7 m c (Proc.devRef .tc main_arg3) = m ((c : Thread nD τ).loc main_arg3) :=
  calc W7 m c (Proc.devRef .tc main_arg3)
    _ = W6 m c (Proc.devRef .tc main_arg3) := StableHlo.after_of_writes_sub hostOps3 _ hostOps3_writes (by decide)
    _ = W5 m c (Proc.devRef .tc main_arg3) := W6_of_ne m c main_arg3 (by decide)
    _ = W4 m c (Proc.devRef .tc main_arg3) := StableHlo.after_of_writes_sub hostOps2 _ hostOps2_writes (by decide)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl

theorem W7_main_arg4 (c : Dev nD) : W7 m c (Proc.devRef .tc main_arg4) = m ((c : Thread nD τ).loc main_arg4) :=
  calc W7 m c (Proc.devRef .tc main_arg4)
    _ = W6 m c (Proc.devRef .tc main_arg4) := StableHlo.after_of_writes_sub hostOps3 _ hostOps3_writes (by decide)
    _ = W5 m c (Proc.devRef .tc main_arg4) := W6_of_ne m c main_arg4 (by decide)
    _ = W4 m c (Proc.devRef .tc main_arg4) := StableHlo.after_of_writes_sub hostOps2 _ hostOps2_writes (by decide)
    _ = W3 m c (Proc.devRef .tc main_arg4) := W4_of_ne m c main_arg4 (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl

theorem W7_main_arg5 (c : Dev nD) : W7 m c (Proc.devRef .tc main_arg5) = m ((c : Thread nD τ).loc main_arg5) :=
  calc W7 m c (Proc.devRef .tc main_arg5)
    _ = W6 m c (Proc.devRef .tc main_arg5) := StableHlo.after_of_writes_sub hostOps3 _ hostOps3_writes (by decide)
    _ = W5 m c (Proc.devRef .tc main_arg5) := W6_of_ne m c main_arg5 (by decide)
    _ = W4 m c (Proc.devRef .tc main_arg5) := StableHlo.after_of_writes_sub hostOps2 _ hostOps2_writes (by decide)
    _ = W3 m c (Proc.devRef .tc main_arg5) := W4_of_ne m c main_arg5 (by decide)
    _ = W2 m c (Proc.devRef .tc main_arg5) := StableHlo.after_of_writes_sub hostOps1 _ hostOps1_writes (by decide)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl

theorem W7_main_arg6 (c : Dev nD) : W7 m c (Proc.devRef .tc main_arg6) = m ((c : Thread nD τ).loc main_arg6) :=
  calc W7 m c (Proc.devRef .tc main_arg6)
    _ = W6 m c (Proc.devRef .tc main_arg6) := StableHlo.after_of_writes_sub hostOps3 _ hostOps3_writes (by decide)
    _ = W5 m c (Proc.devRef .tc main_arg6) := W6_of_ne m c main_arg6 (by decide)
    _ = W4 m c (Proc.devRef .tc main_arg6) := StableHlo.after_of_writes_sub hostOps2 _ hostOps2_writes (by decide)
    _ = W3 m c (Proc.devRef .tc main_arg6) := W4_of_ne m c main_arg6 (by decide)
    _ = W2 m c (Proc.devRef .tc main_arg6) := StableHlo.after_of_writes_sub hostOps1 _ hostOps1_writes (by decide)
    _ = W1 m c (Proc.devRef .tc main_arg6) := W2_of_ne m c main_arg6 (by decide)
    _ = W0 m c (Proc.devRef .tc main_arg6) := StableHlo.after_of_writes_sub hostOps0 _ hostOps0_writes (by decide)
    _ = m ((c : Thread nD τ).loc main_arg6) := rfl

theorem W7_main_arg7 (c : Dev nD) : W7 m c (Proc.devRef .tc main_arg7) = m ((c : Thread nD τ).loc main_arg7) :=
  calc W7 m c (Proc.devRef .tc main_arg7)
    _ = W6 m c (Proc.devRef .tc main_arg7) := StableHlo.after_of_writes_sub hostOps3 _ hostOps3_writes (by decide)
    _ = W5 m c (Proc.devRef .tc main_arg7) := W6_of_ne m c main_arg7 (by decide)
    _ = W4 m c (Proc.devRef .tc main_arg7) := StableHlo.after_of_writes_sub hostOps2 _ hostOps2_writes (by decide)
    _ = W3 m c (Proc.devRef .tc main_arg7) := W4_of_ne m c main_arg7 (by decide)
    _ = W2 m c (Proc.devRef .tc main_arg7) := StableHlo.after_of_writes_sub hostOps1 _ hostOps1_writes (by decide)
    _ = W1 m c (Proc.devRef .tc main_arg7) := W2_of_ne m c main_arg7 (by decide)
    _ = W0 m c (Proc.devRef .tc main_arg7) := StableHlo.after_of_writes_sub hostOps0 _ hostOps0_writes (by decide)
    _ = m ((c : Thread nD τ).loc main_arg7) := rfl

theorem W7_main_arg8 (c : Dev nD) : W7 m c (Proc.devRef .tc main_arg8) = m ((c : Thread nD τ).loc main_arg8) :=
  calc W7 m c (Proc.devRef .tc main_arg8)
    _ = W6 m c (Proc.devRef .tc main_arg8) := StableHlo.after_of_writes_sub hostOps3 _ hostOps3_writes (by decide)
    _ = W5 m c (Proc.devRef .tc main_arg8) := W6_of_ne m c main_arg8 (by decide)
    _ = W4 m c (Proc.devRef .tc main_arg8) := StableHlo.after_of_writes_sub hostOps2 _ hostOps2_writes (by decide)
    _ = W3 m c (Proc.devRef .tc main_arg8) := W4_of_ne m c main_arg8 (by decide)
    _ = W2 m c (Proc.devRef .tc main_arg8) := StableHlo.after_of_writes_sub hostOps1 _ hostOps1_writes (by decide)
    _ = W1 m c (Proc.devRef .tc main_arg8) := W2_of_ne m c main_arg8 (by decide)
    _ = W0 m c (Proc.devRef .tc main_arg8) := StableHlo.after_of_writes_sub hostOps0 _ hostOps0_writes (by decide)
    _ = m ((c : Thread nD τ).loc main_arg8) := rfl

theorem W7_main_arg9 (c : Dev nD) : W7 m c (Proc.devRef .tc main_arg9) = m ((c : Thread nD τ).loc main_arg9) :=
  calc W7 m c (Proc.devRef .tc main_arg9)
    _ = W6 m c (Proc.devRef .tc main_arg9) := StableHlo.after_of_writes_sub hostOps3 _ hostOps3_writes (by decide)
    _ = W5 m c (Proc.devRef .tc main_arg9) := W6_of_ne m c main_arg9 (by decide)
    _ = W4 m c (Proc.devRef .tc main_arg9) := StableHlo.after_of_writes_sub hostOps2 _ hostOps2_writes (by decide)
    _ = W3 m c (Proc.devRef .tc main_arg9) := W4_of_ne m c main_arg9 (by decide)
    _ = W2 m c (Proc.devRef .tc main_arg9) := StableHlo.after_of_writes_sub hostOps1 _ hostOps1_writes (by decide)
    _ = W1 m c (Proc.devRef .tc main_arg9) := W2_of_ne m c main_arg9 (by decide)
    _ = W0 m c (Proc.devRef .tc main_arg9) := StableHlo.after_of_writes_sub hostOps0 _ hostOps0_writes (by decide)
    _ = m ((c : Thread nD τ).loc main_arg9) := rfl

theorem W7_main_arg10 (c : Dev nD) : W7 m c (Proc.devRef .tc main_arg10) = m ((c : Thread nD τ).loc main_arg10) :=
  calc W7 m c (Proc.devRef .tc main_arg10)
    _ = W6 m c (Proc.devRef .tc main_arg10) := StableHlo.after_of_writes_sub hostOps3 _ hostOps3_writes (by decide)
    _ = W5 m c (Proc.devRef .tc main_arg10) := W6_of_ne m c main_arg10 (by decide)
    _ = W4 m c (Proc.devRef .tc main_arg10) := StableHlo.after_of_writes_sub hostOps2 _ hostOps2_writes (by decide)
    _ = W3 m c (Proc.devRef .tc main_arg10) := W4_of_ne m c main_arg10 (by decide)
    _ = W2 m c (Proc.devRef .tc main_arg10) := StableHlo.after_of_writes_sub hostOps1 _ hostOps1_writes (by decide)
    _ = W1 m c (Proc.devRef .tc main_arg10) := W2_of_ne m c main_arg10 (by decide)
    _ = W0 m c (Proc.devRef .tc main_arg10) := StableHlo.after_of_writes_sub hostOps0 _ hostOps0_writes (by decide)
    _ = m ((c : Thread nD τ).loc main_arg10) := rfl

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that the pinned
    configuration at a numeral reduces to the printed one. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (a region's
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it runs to those
    references at what its operations compute from `W c`, which is the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W7`, the generator
    register at some state. -/
abbrev Tₙ (c : Dev nD) : sProp 𝕄 := iprop(StableHlo.held (c : Thread nD τ) (Pipeline.ucRefs τ sig) (W7 m c) ∗ ∃ r, prngReg c r)

/-! ## The regions as segments -/

-- a library lemma stated over `pin pcs a p` unifies with the pinned configuration only when unification may unfold plain
-- definitions in a metavariable's type
set_option backward.isDefEq.respectTransparency.types false in
/-- REGION 0 (custom_call 0) over the thread state: entered from every unscoped buffer at `W1`, left at `W2` (what the
    next host stretch is entered from). Its arrays are split out of the unscoped buffers and put back at the exit
    contents; the generator register goes into the region's invariant and comes back out; nothing is owed; the kernel
    has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun w => A_eq0 (V1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    show _ ⊢ (dat0 (V1 m) c).Φ 0
    refine BIBase.Entails.trans ?_ (hin0 (V1 m) c)
    unfold Pipeline.ΦA
    iintro ⟨Hp, -, Hr⟩
    isplitl [Hr]; · iexact Hr
    iexact Hp
  hout c := by
    rw [Pipeline.ownSems0_none]
    show (dat0 (V1 m) c).Φ (Fin.last cfg0.N) ⊢ _
    refine BIBase.Entails.trans (hout0 (V1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold plain
-- definitions in a metavariable's type
set_option backward.isDefEq.respectTransparency.types false in
/-- REGION 1 (custom_call 1) over the thread state: entered from every unscoped buffer at `W3`, left at `W4` (what the
    next host stretch is entered from). Its arrays are split out of the unscoped buffers and put back at the exit
    contents; the generator register goes into the region's invariant and comes back out; nothing is owed; the kernel
    has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun w => A_eq1 (V3 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    show _ ⊢ (dat1 (V3 m) c).Φ 0
    refine BIBase.Entails.trans ?_ (hin1 (V3 m) c)
    unfold Pipeline.ΦA
    iintro ⟨Hp, -, Hr⟩
    isplitl [Hr]; · iexact Hr
    iexact Hp
  hout c := by
    rw [Pipeline.ownSems0_none]
    show (dat1 (V3 m) c).Φ (Fin.last cfg1.N) ⊢ _
    refine BIBase.Entails.trans (hout1 (V3 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold plain
-- definitions in a metavariable's type
set_option backward.isDefEq.respectTransparency.types false in
/-- REGION 2 (custom_call 2) over the thread state: entered from every unscoped buffer at `W5`, left at `W6` (what the
    next host stretch is entered from). Its arrays are split out of the unscoped buffers and put back at the exit
    contents; the generator register goes into the region's invariant and comes back out; nothing is owed; the kernel
    has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun w => A_eq2 (V5 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    show _ ⊢ (dat2 (V5 m) c).Φ 0
    refine BIBase.Entails.trans ?_ (hin2 (V5 m) c)
    unfold Pipeline.ΦA
    iintro ⟨Hp, -, Hr⟩
    isplitl [Hr]; · iexact Hr
    iexact Hp
  hout c := by
    rw [Pipeline.ownSems0_none]
    show (dat2 (V5 m) c).Φ (Fin.last cfg2.N) ⊢ _
    refine BIBase.Entails.trans (hout2 (V5 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 7 segments in order: a host segment per stretch from its boundary's contents, a region per pallas_call. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]

/-- @main IS the run of the segments: it is the chain of its seven items, and the segments' run is the chain of their
    programs, which are those items. -/
theorem main_run (c : Dev nD) : main (F := F) c = Pipeline.Seg.run (segs m) := by
  rewrite [main_chain c, Pipeline.Seg.run_eq_chain,
    show (segs m).map Pipeline.Seg.prog = [
      StableHlo.seq hostOps0,
      Prog.lift (.customCall (Pipeline.entry 0) ()),
      StableHlo.seq hostOps1,
      Prog.lift (.customCall (Pipeline.entry 1) ()),
      StableHlo.seq hostOps2,
      Prog.lift (.customCall (Pipeline.entry 2) ()),
      StableHlo.seq hostOps3 ] from rfl]
  rfl

-- the launch theorem's implicit arguments are found by unifying its conclusion with this one, which takes unfolding plain
-- definitions in a metavariable's type
set_option backward.isDefEq.respectTransparency.types false in
/-- THE RUN: at the compiled mesh, from any memory `m` with zero counters and any generator registers, every weakly
    fair execution of @main on the TensorCores terminates, nothing faulting, and in every final state each core's
    unscoped buffers hold the last boundary's contents `W7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun c => by
        show iprop(StableHlo.held (c : Thread nD τ) (Pipeline.ucRefs τ sig) (W7 m c) ∗ R c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun _ h => h)

/-- THE FRAME: at the compiled mesh, from any memory with zero counters, every weakly fair execution of @main on the
    TensorCores terminates, nothing faulting, and every final state has each of the eleven argument arrays as launched:
    each is an unscoped buffer, which `run_all` reads at `W7`, and `W7` at an argument is the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (W7_main_arg0 m c),
      (h c _ (mem_uc main_arg1 (by decide))).trans (W7_main_arg1 m c),
      (h c _ (mem_uc main_arg2 (by decide))).trans (W7_main_arg2 m c),
      (h c _ (mem_uc main_arg3 (by decide))).trans (W7_main_arg3 m c),
      (h c _ (mem_uc main_arg4 (by decide))).trans (W7_main_arg4 m c),
      (h c _ (mem_uc main_arg5 (by decide))).trans (W7_main_arg5 m c),
      (h c _ (mem_uc main_arg6 (by decide))).trans (W7_main_arg6 m c),
      (h c _ (mem_uc main_arg7 (by decide))).trans (W7_main_arg7 m c),
      (h c _ (mem_uc main_arg8 (by decide))).trans (W7_main_arg8 m c),
      (h c _ (mem_uc main_arg9 (by decide))).trans (W7_main_arg9 m c),
      (h c _ (mem_uc main_arg10 (by decide))).trans (W7_main_arg10 m c)⟩) (run_all m ρ)

end Cert.Kernel.Hand

end
-- ==== Proof.KI.R0Base.lean ====
/- Region 0 (the statistics kernel, 20 grid points): what its three control cases share — the windows' blocks as
   the region finds them, the body's two branch conditions in closed form over the grid, where the output windows
   are idle, the staging and scratch memrefs, and the region invariant with the two accumulators split off. -/
import proofs.«400542_j69810398429749_3_alg».proof.Proof.Gen.KernelIdeal.Launch
import proofs.«400542_j69810398429749_3_alg».proof.Proof.Gen.KernelIdeal.Skeleton
import proofs.«400542_j69810398429749_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is the region-entry contents and whose body leaves the block in place: an unfetched point has
    the block index of the point before, so the block is the same. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is the region-entry contents and whose body leaves the block in place: an unfetched point has
    the block index of the point before, so the block is the same. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is the region-entry contents and whose body leaves the block in place: an unfetched point has
    the block index of the point before, so the block is the same. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is the region-entry contents and whose body leaves the block in place: an unfetched point has
    the block index of the point before, so the block is the same. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is the region-entry contents and whose body leaves the block in place: an unfetched point has
    the block index of the point before, so the block is the same. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's first conditional (the accumulators are zeroed under it), from the grid
    coordinates: the scalar chain `(i == 0) extended ≠ 0`. -/
abbrev cond0_0 (i : grid0.Coords) : Prop := (Scalar.cmpi .ne (Scalar.extui (Scalar.cmpi .eq (BitVec.ofNat 32 (i 0).val) 0#32)) 0#32) = 1#1
/-- It holds at the first point only — decided over the 20 points. -/
theorem hcond0_0 : ∀ t : Fin cfg0.N, cond0_0 (grid0.coords t) ↔ t.val = 0 :=
  (by decide +kernel : ∀ t : Fin grid0.N, cond0_0 (grid0.coords t) ↔ t.val = 0)

/-- The condition of the body's second conditional (the accumulators are copied to the outputs under it). -/
abbrev cond0_1 (i : grid0.Coords) : Prop := k0_cond2 i = 1#1
/-- It holds at the last point only — decided over the 20 points. -/
theorem hcond0_1 : ∀ t : Fin cfg0.N, cond0_1 (grid0.coords t) ↔ t.val = 19 :=
  (by decide +kernel : ∀ t : Fin grid0.N, cond0_1 (grid0.coords t) ↔ t.val = 19)

/-! ## Where the windows are idle -/

/-- Window 0 is never idle. -/
theorem liveAt0_0 : ∀ t : Fin cfg0.N, cfg0.idle 0 (grid0.coords t) = false := by decide +kernel
/-- Window 1 is never idle. -/
theorem liveAt0_1 : ∀ t : Fin cfg0.N, cfg0.idle 1 (grid0.coords t) = false := by decide +kernel
/-- Window 2 is never idle. -/
theorem liveAt0_2 : ∀ t : Fin cfg0.N, cfg0.idle 2 (grid0.coords t) = false := by decide +kernel
/-- Window 3 is never idle. -/
theorem liveAt0_3 : ∀ t : Fin cfg0.N, cfg0.idle 3 (grid0.coords t) = false := by decide +kernel
/-- Window 4 is never idle. -/
theorem liveAt0_4 : ∀ t : Fin cfg0.N, cfg0.idle 4 (grid0.coords t) = false := by decide +kernel
/-- Window 5 is never idle. -/
theorem liveAt0_5 : ∀ t : Fin cfg0.N, cfg0.idle 5 (grid0.coords t) = false := by decide +kernel

/-- At the point of case A output 6 is idle: the case stores nothing into it. -/
theorem idleAt0_6_A : ∀ t : Fin cfg0.N, cond0_0 (grid0.coords t) → ¬cond0_1 (grid0.coords t) → cfg0.idle 6 (grid0.coords t) = true := by decide +kernel
/-- At the point of case A output 6's block is not written back. -/
theorem noFlush0_6_A : ∀ t : Fin cfg0.N, cond0_0 (grid0.coords t) → ¬cond0_1 (grid0.coords t) → (cfg0.win 6).flush t = false := by decide +kernel
/-- At the points of case B output 6 is idle: the case stores nothing into it. -/
theorem idleAt0_6_B : ∀ t : Fin cfg0.N, ¬cond0_0 (grid0.coords t) → ¬cond0_1 (grid0.coords t) → cfg0.idle 6 (grid0.coords t) = true := by decide +kernel
/-- At the points of case B output 6's block is not written back. -/
theorem noFlush0_6_B : ∀ t : Fin cfg0.N, ¬cond0_0 (grid0.coords t) → ¬cond0_1 (grid0.coords t) → (cfg0.win 6).flush t = false := by decide +kernel
/-- At the point of case C output 6 is live: the case stores into it. -/
theorem liveAt0_6_C : ∀ t : Fin cfg0.N, ¬cond0_0 (grid0.coords t) → cond0_1 (grid0.coords t) → cfg0.idle 6 (grid0.coords t) = false := by decide +kernel

/-- At the point of case A output 7 is idle: the case stores nothing into it. -/
theorem idleAt0_7_A : ∀ t : Fin cfg0.N, cond0_0 (grid0.coords t) → ¬cond0_1 (grid0.coords t) → cfg0.idle 7 (grid0.coords t) = true := by decide +kernel
/-- At the point of case A output 7's block is not written back. -/
theorem noFlush0_7_A : ∀ t : Fin cfg0.N, cond0_0 (grid0.coords t) → ¬cond0_1 (grid0.coords t) → (cfg0.win 7).flush t = false := by decide +kernel
/-- At the points of case B output 7 is idle: the case stores nothing into it. -/
theorem idleAt0_7_B : ∀ t : Fin cfg0.N, ¬cond0_0 (grid0.coords t) → ¬cond0_1 (grid0.coords t) → cfg0.idle 7 (grid0.coords t) = true := by decide +kernel
/-- At the points of case B output 7's block is not written back. -/
theorem noFlush0_7_B : ∀ t : Fin cfg0.N, ¬cond0_0 (grid0.coords t) → ¬cond0_1 (grid0.coords t) → (cfg0.win 7).flush t = false := by decide +kernel
/-- At the point of case C output 7 is live: the case stores into it. -/
theorem liveAt0_7_C : ∀ t : Fin cfg0.N, ¬cond0_0 (grid0.coords t) → cond0_1 (grid0.coords t) → cfg0.idle 7 (grid0.coords t) = false := by decide +kernel

/-! ## The memrefs the body is called with -/

/-- One staging buffer of each output window, through which its contents are stated (the choice does not matter:
    reading back a covering list of pieces does not depend on the view). -/
abbrev VO0_5 : View sig .tc .vmem S5000x64 .f32 := (Memref.whole cc0_stg5_0 : Memref sig .tc .vmem S5000x64 .f32).view
abbrev VO0_6 : View sig .tc .vmem S1x64 .f32 := (Memref.whole cc0_stg6_0 : Memref sig .tc .vmem S1x64 .f32).view
abbrev VO0_7 : View sig .tc .vmem S1x64 .f32 := (Memref.whole cc0_stg7_0 : Memref sig .tc .vmem S1x64 .f32).view
/-- Each window's current staging memref at point `t`, spelled as the pipeline passes it, and its wholeness. -/
abbrev ms0_0 (t : Fin cfg0.N) : Memref sig .tc .vmem S5000x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5000x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S5000x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S5000x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x64 .f32 := win0_7.stage (cfg0.slots t 7)
abbrev hs0_7 (t : Fin cfg0.N) : (ms0_7 t).IsWhole := hstage0_7 ((cfg0.slots t 7).cast nbuf0_7)
/-- The two accumulators: whole scoped buffers of the kernel's own, passed beside the windows. -/
abbrev scM0_0 : Memref sig .tc .vmem S1x64 .f32 := Memref.whole cc0_scratch0
abbrev scM0_1 : Memref sig .tc .vmem S1x64 .f32 := Memref.whole cc0_scratch1
/-- The accumulators as views: what they hold between points is stated through these. -/
abbrev VS0_0 : View sig .tc .vmem S1x64 .f32 := scM0_0.view
abbrev VS0_1 : View sig .tc .vmem S1x64 .f32 := scM0_1.view

/-- The scoped buffers that are neither a staging buffer nor an accumulator of this call (the other two calls'
    staging buffers and accumulators), each whole at some contents: the body never touches them. -/
abbrev restScoped0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f) ∗ (∃ f : Buf (Elt F) ((c : Thread nD τ).loc cc2_stg6_0), ((c : Thread nD τ).loc cc2_stg6_0) ↦{fullShare} f) ∗ (∃ f : Buf (Elt F) ((c : Thread nD τ).loc cc2_stg7_0), ((c : Thread nD τ).loc cc2_stg7_0) ↦{fullShare} f) ∗ (∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f))

/-- The region invariant with the two accumulators as memrefs owned at some contents and the other scoped
    buffers kept as one term: what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ restScoped0 (F := F) c) ∗ (∃ r, prngReg c r)) := by
  unfold Pipeline.ΦA; rw [scopedRest0_eq]; simp only [scM0_0, scM0_1, owns_whole]; try rfl

end Cert.KernelIdeal.Hand

end
-- ==== Proof.KI.R0RunA.lean ====
/- Region 0, case A (the first conditional taken, the second not: the first grid point): the whole body run once, symbolically, with the
   lists of pieces each written buffer ends with as the witness. -/
import proofs.«400542_j69810398429749_3_alg».proof.Proof.KI.R0Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- What the body's stores leave in each output's staging memref and in the two accumulators, as lists of pieces
    (last store first), in case A, together with the proof that on whole memrefs — the inputs' at their
    contents, the large output's at anything, the two small outputs' (which the case never stores into) at contents handed back untouched, both accumulators at anything (the case overwrites them before reading what matters) — the body runs to a
    continuation that holds the inputs' as they were and every written buffer with its pieces written. The printed body
    is its skeleton of memory operations over payloads, which is run operation by operation; each conditional is decided
    by the case's hypotheses. -/
noncomputable def kernelRun0_A (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : cond0_0 i) (hc1 : ¬cond0_1 i)
    (x0 : Vec F S5000x64 .f32) (x1 : Vec F S5000x64 .f32) (x2 : Vec F S5000x1 .f32) (x3 : Vec F S128x64 .f32) (x4 : Vec F S1x64 .f32) :
    Σ' (L5 : List (View.Piece (Elt F) S5000x64 .f32)) (L6 : List (View.Piece (Elt F) S1x64 .f32)) (L7 : List (View.Piece (Elt F) S1x64 .f32)) (LS0 : List (View.Piece (Elt F) S1x64 .f32)), { LS1 : List (View.Piece (Elt F) S1x64 .f32) //
      ∀ (xi6 : Vec F S1x64 .f32) (xi7 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xi6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__combine_stats_kernel i arg1 harg1 arg2 harg2 arg3 harg3 arg4 harg4 arg5 harg5 arg6 harg6 arg7 harg7 arg8 harg8 arg9 harg9 arg10 harg10) K } := by
  refine ⟨?_, [], [], ?_, ?_, fun xi6 xi7 E K => ?run⟩
  case run =>
    simp only [cc0__combine_stats_kernel_eq_skeleton]; unfold cc0__combine_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

end Cert.KernelIdeal.Hand

end
-- ==== Proof.KI.R0RunB.lean ====
/- Region 0, case B (neither conditional taken: the points strictly between the first and the last): the whole body run once, symbolically, with the
   lists of pieces each written buffer ends with as the witness. -/
import proofs.«400542_j69810398429749_3_alg».proof.Proof.KI.R0Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- What the body's stores leave in each output's staging memref and in the two accumulators, as lists of pieces
    (last store first), in case B, together with the proof that on whole memrefs — the inputs' at their
    contents, the large output's at anything, the two small outputs' (which the case never stores into) at contents handed back untouched, both accumulators at the contents the point before left — the body runs to a
    continuation that holds the inputs' as they were and every written buffer with its pieces written. The printed body
    is its skeleton of memory operations over payloads, which is run operation by operation; each conditional is decided
    by the case's hypotheses. -/
noncomputable def kernelRun0_B (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : ¬cond0_1 i)
    (x0 : Vec F S5000x64 .f32) (x1 : Vec F S5000x64 .f32) (x2 : Vec F S5000x1 .f32) (x3 : Vec F S128x64 .f32) (x4 : Vec F S1x64 .f32) (xs0 : Vec F S1x64 .f32) (xs1 : Vec F S1x64 .f32) :
    Σ' (L5 : List (View.Piece (Elt F) S5000x64 .f32)) (L6 : List (View.Piece (Elt F) S1x64 .f32)) (L7 : List (View.Piece (Elt F) S1x64 .f32)) (LS0 : List (View.Piece (Elt F) S1x64 .f32)), { LS1 : List (View.Piece (Elt F) S1x64 .f32) //
      ∀ (xi6 : Vec F S1x64 .f32) (xi7 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xi6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__combine_stats_kernel i arg1 harg1 arg2 harg2 arg3 harg3 arg4 harg4 arg5 harg5 arg6 harg6 arg7 harg7 arg8 harg8 arg9 harg9 arg10 harg10) K } := by
  refine ⟨?_, [], [], ?_, ?_, fun xi6 xi7 E K => ?run⟩
  case run =>
    simp only [cc0__combine_stats_kernel_eq_skeleton]; unfold cc0__combine_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hf7; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

end Cert.KernelIdeal.Hand

end
-- ==== Proof.KI.R0RunC.lean ====
/- Region 0, case C (the first conditional not taken, the second taken: the last grid point): the whole body run once, symbolically, with the
   lists of pieces each written buffer ends with as the witness. -/
import proofs.«400542_j69810398429749_3_alg».proof.Proof.KI.R0Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- What the body's stores leave in each output's staging memref and in the two accumulators, as lists of pieces
    (last store first), in case C, together with the proof that on whole memrefs — the inputs' at their
    contents, the three outputs' at anything, both accumulators at the contents the point before left — the body runs to a
    continuation that holds the inputs' as they were and every written buffer with its pieces written. The printed body
    is its skeleton of memory operations over payloads, which is run operation by operation; each conditional is decided
    by the case's hypotheses. -/
noncomputable def kernelRun0_C (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S5000x64 .f32) (x1 : Vec F S5000x64 .f32) (x2 : Vec F S5000x1 .f32) (x3 : Vec F S128x64 .f32) (x4 : Vec F S1x64 .f32) (xs0 : Vec F S1x64 .f32) (xs1 : Vec F S1x64 .f32) :
    Σ' (L5 : List (View.Piece (Elt F) S5000x64 .f32)) (L6 : List (View.Piece (Elt F) S1x64 .f32)) (L7 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__combine_stats_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0__combine_stats_kernel_eq_skeleton]; unfold cc0__combine_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]; · iexists _; iexact HS0
    iexists _; iexact HS1

end Cert.KernelIdeal.Hand

end
-- ==== Proof.KI.R0.lean ====
/- Region 0 (the statistics kernel, 20 grid points): what each control case leaves in the outputs and the two
   accumulators, the contents point by point, the pipeline's proof data, and the body obligation. -/
import proofs.«400542_j69810398429749_3_alg».proof.Proof.KI.R0RunA
import proofs.«400542_j69810398429749_3_alg».proof.Proof.KI.R0RunB
import proofs.«400542_j69810398429749_3_alg».proof.Proof.KI.R0RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What each case leaves -/

/-- Case A's one store into output 5 tiles its block, so its pieces cover it. -/
theorem cover0_A_5 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : cond0_0 i) (hc1 : ¬cond0_1 i)
    (x0 : Vec F S5000x64 .f32) (x1 : Vec F S5000x64 .f32) (x2 : Vec F S5000x1 .f32) (x3 : Vec F S128x64 .f32) (x4 : Vec F S1x64 .f32) (y : S5000x64.Idx) :
    ∃ pc ∈ (kernelRun0_A c i arg1 harg1 arg2 harg2 arg3 harg3 arg4 harg4 arg5 harg5 arg6 harg6 arg7 harg7 arg8 harg8 arg9 harg9 arg10 harg10 hc0 hc1 x0 x1 x2 x3 x4).1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 x0 x1 x2 x3 x4).1 S5000x64.size (by sl_kernel_rfl) y

/-- What case A leaves in output 5's staging buffer: its pieces read back over junk. -/
def out0_A_5 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : cond0_0 i) (hc1 : ¬cond0_1 i)
    (x0 : Vec F S5000x64 .f32) (x1 : Vec F S5000x64 .f32) (x2 : Vec F S5000x1 .f32) (x3 : Vec F S128x64 .f32) (x4 : Vec F S1x64 .f32) : Vec F S5000x64 .f32 :=
  VO0_5.read (Elt F) (VO0_5.writes (Elt F) VO0_5.junk (kernelRun0_A c i arg1 harg1 arg2 harg2 arg3 harg3 arg4 harg4 arg5 harg5 arg6 harg6 arg7 harg7 arg8 harg8 arg9 harg9 arg10 harg10 hc0 hc1 x0 x1 x2 x3 x4).1)

/-- Case A stores nothing into output 6 (idle at its points, not written back there): no pieces — a placeholder
    that nothing consults. -/
def out0_A_6 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : cond0_0 i) (hc1 : ¬cond0_1 i)
    (x0 : Vec F S5000x64 .f32) (x1 : Vec F S5000x64 .f32) (x2 : Vec F S5000x1 .f32) (x3 : Vec F S128x64 .f32) (x4 : Vec F S1x64 .f32) : Vec F S1x64 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 hc0 hc1 x0 x1 x2 x3 x4).2.1)

/-- Case A stores nothing into output 7 (idle at its points, not written back there): no pieces — a placeholder
    that nothing consults. -/
def out0_A_7 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : cond0_0 i) (hc1 : ¬cond0_1 i)
    (x0 : Vec F S5000x64 .f32) (x1 : Vec F S5000x64 .f32) (x2 : Vec F S5000x1 .f32) (x3 : Vec F S128x64 .f32) (x4 : Vec F S1x64 .f32) : Vec F S1x64 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 hc0 hc1 x0 x1 x2 x3 x4).2.2.1)

/-- Case A's pieces for accumulator 0 cover it: every store into it is of the whole buffer. -/
theorem scover0_A_0 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : cond0_0 i) (hc1 : ¬cond0_1 i)
    (x0 : Vec F S5000x64 .f32) (x1 : Vec F S5000x64 .f32) (x2 : Vec F S5000x1 .f32) (x3 : Vec F S128x64 .f32) (x4 : Vec F S1x64 .f32) (y : S1x64.Idx) :
    ∃ pc ∈ (kernelRun0_A c i arg1 harg1 arg2 harg2 arg3 harg3 arg4 harg4 arg5 harg5 arg6 harg6 arg7 harg7 arg8 harg8 arg9 harg9 arg10 harg10 hc0 hc1 x0 x1 x2 x3 x4).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 x0 x1 x2 x3 x4).2.2.2.1 S1x64.size (by sl_kernel_rfl) y

/-- What case A leaves in accumulator 0: its pieces read back over junk. -/
def sout0_A_0 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : cond0_0 i) (hc1 : ¬cond0_1 i)
    (x0 : Vec F S5000x64 .f32) (x1 : Vec F S5000x64 .f32) (x2 : Vec F S5000x1 .f32) (x3 : Vec F S128x64 .f32) (x4 : Vec F S1x64 .f32) : Vec F S1x64 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 hc0 hc1 x0 x1 x2 x3 x4).2.2.2.1)

/-- Case A's pieces for accumulator 1 cover it: every store into it is of the whole buffer. -/
theorem scover0_A_1 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : cond0_0 i) (hc1 : ¬cond0_1 i)
    (x0 : Vec F S5000x64 .f32) (x1 : Vec F S5000x64 .f32) (x2 : Vec F S5000x1 .f32) (x3 : Vec F S128x64 .f32) (x4 : Vec F S1x64 .f32) (y : S1x64.Idx) :
    ∃ pc ∈ (kernelRun0_A c i arg1 harg1 arg2 harg2 arg3 harg3 arg4 harg4 arg5 harg5 arg6 harg6 arg7 harg7 arg8 harg8 arg9 harg9 arg10 harg10 hc0 hc1 x0 x1 x2 x3 x4).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 x0 x1 x2 x3 x4).2.2.2.2.1 S1x64.size (by sl_kernel_rfl) y

/-- What case A leaves in accumulator 1: its pieces read back over junk. -/
def sout0_A_1 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : cond0_0 i) (hc1 : ¬cond0_1 i)
    (x0 : Vec F S5000x64 .f32) (x1 : Vec F S5000x64 .f32) (x2 : Vec F S5000x1 .f32) (x3 : Vec F S128x64 .f32) (x4 : Vec F S1x64 .f32) : Vec F S1x64 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 hc0 hc1 x0 x1 x2 x3 x4).2.2.2.2.1)

/-- Case B's one store into output 5 tiles its block, so its pieces cover it. -/
theorem cover0_B_5 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : ¬cond0_1 i)
    (x0 : Vec F S5000x64 .f32) (x1 : Vec F S5000x64 .f32) (x2 : Vec F S5000x1 .f32) (x3 : Vec F S128x64 .f32) (x4 : Vec F S1x64 .f32) (xs0 : Vec F S1x64 .f32) (xs1 : Vec F S1x64 .f32) (y : S5000x64.Idx) :
    ∃ pc ∈ (kernelRun0_B c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 x0 x1 x2 x3 x4 xs0 xs1).1 S5000x64.size (by sl_kernel_rfl) y

/-- What case B leaves in output 5's staging buffer: its pieces read back over junk. -/
def out0_B_5 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : ¬cond0_1 i)
    (x0 : Vec F S5000x64 .f32) (x1 : Vec F S5000x64 .f32) (x2 : Vec F S5000x1 .f32) (x3 : Vec F S128x64 .f32) (x4 : Vec F S1x64 .f32) (xs0 : Vec F S1x64 .f32) (xs1 : Vec F S1x64 .f32) : Vec F S5000x64 .f32 :=
  VO0_5.read (Elt F) (VO0_5.writes (Elt F) VO0_5.junk (kernelRun0_B c i arg1 harg1 arg2 harg2 arg3 harg3 arg4 harg4 arg5 harg5 arg6 harg6 arg7 harg7 arg8 harg8 arg9 harg9 arg10 harg10 hc0 hc1 x0 x1 x2 x3 x4 xs0 xs1).1)

/-- Case B stores nothing into output 6 (idle at its points, not written back there): no pieces — a placeholder
    that nothing consults. -/
def out0_B_6 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : ¬cond0_1 i)
    (x0 : Vec F S5000x64 .f32) (x1 : Vec F S5000x64 .f32) (x2 : Vec F S5000x1 .f32) (x3 : Vec F S128x64 .f32) (x4 : Vec F S1x64 .f32) (xs0 : Vec F S1x64 .f32) (xs1 : Vec F S1x64 .f32) : Vec F S1x64 .f32 :=
  VO0_6.read (Elt F) (VO0_6.writes (Elt F) VO0_6.junk (kernelRun0_B c i arg1 harg1 arg2 harg2 arg3 harg3 arg4 harg4 arg5 harg5 arg6 harg6 arg7 harg7 arg8 harg8 arg9 harg9 arg10 harg10 hc0 hc1 x0 x1 x2 x3 x4 xs0 xs1).2.1)

/-- Case B stores nothing into output 7 (idle at its points, not written back there): no pieces — a placeholder
    that nothing consults. -/
def out0_B_7 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : ¬cond0_1 i)
    (x0 : Vec F S5000x64 .f32) (x1 : Vec F S5000x64 .f32) (x2 : Vec F S5000x1 .f32) (x3 : Vec F S128x64 .f32) (x4 : Vec F S1x64 .f32) (xs0 : Vec F S1x64 .f32) (xs1 : Vec F S1x64 .f32) : Vec F S1x64 .f32 :=
  VO0_7.read (Elt F) (VO0_7.writes (Elt F) VO0_7.junk (kernelRun0_B c i arg1 harg1 arg2 harg2 arg3 harg3 arg4 harg4 arg5 harg5 arg6 harg6 arg7 harg7 arg8 harg8 arg9 harg9 arg10 harg10 hc0 hc1 x0 x1 x2 x3 x4 xs0 xs1).2.2.1)

/-- Case B's pieces for accumulator 0 cover it: every store into it is of the whole buffer. -/
theorem scover0_B_0 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : ¬cond0_1 i)
    (x0 : Vec F S5000x64 .f32) (x1 : Vec F S5000x64 .f32) (x2 : Vec F S5000x1 .f32) (x3 : Vec F S128x64 .f32) (x4 : Vec F S1x64 .f32) (xs0 : Vec F S1x64 .f32) (xs1 : Vec F S1x64 .f32) (y : S1x64.Idx) :
    ∃ pc ∈ (kernelRun0_B c i arg1 harg1 arg2 harg2 arg3 harg3 arg4 harg4 arg5 harg5 arg6 harg6 arg7 harg7 arg8 harg8 arg9 harg9 arg10 harg10 hc0 hc1 x0 x1 x2 x3 x4 xs0 xs1).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 x0 x1 x2 x3 x4 xs0 xs1).2.2.2.1 S1x64.size (by sl_kernel_rfl) y

/-- What case B leaves in accumulator 0: its pieces read back over junk. -/
def sout0_B_0 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : ¬cond0_1 i)
    (x0 : Vec F S5000x64 .f32) (x1 : Vec F S5000x64 .f32) (x2 : Vec F S5000x1 .f32) (x3 : Vec F S128x64 .f32) (x4 : Vec F S1x64 .f32) (xs0 : Vec F S1x64 .f32) (xs1 : Vec F S1x64 .f32) : Vec F S1x64 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 hc0 hc1 x0 x1 x2 x3 x4 xs0 xs1).2.2.2.1)

/-- Case B's pieces for accumulator 1 cover it: every store into it is of the whole buffer. -/
theorem scover0_B_1 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : ¬cond0_1 i)
    (x0 : Vec F S5000x64 .f32) (x1 : Vec F S5000x64 .f32) (x2 : Vec F S5000x1 .f32) (x3 : Vec F S128x64 .f32) (x4 : Vec F S1x64 .f32) (xs0 : Vec F S1x64 .f32) (xs1 : Vec F S1x64 .f32) (y : S1x64.Idx) :
    ∃ pc ∈ (kernelRun0_B c i arg1 harg1 arg2 harg2 arg3 harg3 arg4 harg4 arg5 harg5 arg6 harg6 arg7 harg7 arg8 harg8 arg9 harg9 arg10 harg10 hc0 hc1 x0 x1 x2 x3 x4 xs0 xs1).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 x0 x1 x2 x3 x4 xs0 xs1).2.2.2.2.1 S1x64.size (by sl_kernel_rfl) y

/-- What case B leaves in accumulator 1: its pieces read back over junk. -/
def sout0_B_1 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : ¬cond0_1 i)
    (x0 : Vec F S5000x64 .f32) (x1 : Vec F S5000x64 .f32) (x2 : Vec F S5000x1 .f32) (x3 : Vec F S128x64 .f32) (x4 : Vec F S1x64 .f32) (xs0 : Vec F S1x64 .f32) (xs1 : Vec F S1x64 .f32) : Vec F S1x64 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 hc0 hc1 x0 x1 x2 x3 x4 xs0 xs1).2.2.2.2.1)

/-- Case C's one store into output 5 tiles its block, so its pieces cover it. -/
theorem cover0_C_5 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S5000x64 .f32) (x1 : Vec F S5000x64 .f32) (x2 : Vec F S5000x1 .f32) (x3 : Vec F S128x64 .f32) (x4 : Vec F S1x64 .f32) (xs0 : Vec F S1x64 .f32) (xs1 : Vec F S1x64 .f32) (y : S5000x64.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 xs0 xs1).1 S5000x64.size (by sl_kernel_rfl) y

/-- What case C leaves in output 5's staging buffer: its pieces read back over junk. -/
def out0_C_5 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S5000x64 .f32) (x1 : Vec F S5000x64 .f32) (x2 : Vec F S5000x1 .f32) (x3 : Vec F S128x64 .f32) (x4 : Vec F S1x64 .f32) (xs0 : Vec F S1x64 .f32) (xs1 : Vec F S1x64 .f32) : Vec F S5000x64 .f32 :=
  VO0_5.read (Elt F) (VO0_5.writes (Elt F) VO0_5.junk (kernelRun0_C c i arg1 harg1 arg2 harg2 arg3 harg3 arg4 harg4 arg5 harg5 arg6 harg6 arg7 harg7 arg8 harg8 arg9 harg9 arg10 harg10 hc0 hc1 x0 x1 x2 x3 x4 xs0 xs1).1)

/-- Case C's one store into output 6 tiles its block, so its pieces cover it. -/
theorem cover0_C_6 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S5000x64 .f32) (x1 : Vec F S5000x64 .f32) (x2 : Vec F S5000x1 .f32) (x3 : Vec F S128x64 .f32) (x4 : Vec F S1x64 .f32) (xs0 : Vec F S1x64 .f32) (xs1 : Vec F S1x64 .f32) (y : S1x64.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 xs0 xs1).2.1 S1x64.size (by sl_kernel_rfl) y

/-- What case C leaves in output 6's staging buffer: its pieces read back over junk. -/
def out0_C_6 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S5000x64 .f32) (x1 : Vec F S5000x64 .f32) (x2 : Vec F S5000x1 .f32) (x3 : Vec F S128x64 .f32) (x4 : Vec F S1x64 .f32) (xs0 : Vec F S1x64 .f32) (xs1 : Vec F S1x64 .f32) : Vec F S1x64 .f32 :=
  VO0_6.read (Elt F) (VO0_6.writes (Elt F) VO0_6.junk (kernelRun0_C c i arg1 harg1 arg2 harg2 arg3 harg3 arg4 harg4 arg5 harg5 arg6 harg6 arg7 harg7 arg8 harg8 arg9 harg9 arg10 harg10 hc0 hc1 x0 x1 x2 x3 x4 xs0 xs1).2.1)

/-- Case C's one store into output 7 tiles its block, so its pieces cover it. -/
theorem cover0_C_7 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S5000x64 .f32) (x1 : Vec F S5000x64 .f32) (x2 : Vec F S5000x1 .f32) (x3 : Vec F S128x64 .f32) (x4 : Vec F S1x64 .f32) (xs0 : Vec F S1x64 .f32) (xs1 : Vec F S1x64 .f32) (y : S1x64.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.1 S1x64.size (by sl_kernel_rfl) y

/-- What case C leaves in output 7's staging buffer: its pieces read back over junk. -/
def out0_C_7 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S5000x64 .f32) (x1 : Vec F S5000x64 .f32) (x2 : Vec F S5000x1 .f32) (x3 : Vec F S128x64 .f32) (x4 : Vec F S1x64 .f32) (xs0 : Vec F S1x64 .f32) (xs1 : Vec F S1x64 .f32) : Vec F S1x64 .f32 :=
  VO0_7.read (Elt F) (VO0_7.writes (Elt F) VO0_7.junk (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.1)

/-- Case C's pieces for accumulator 0 cover it: every store into it is of the whole buffer. -/
theorem scover0_C_0 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S5000x64 .f32) (x1 : Vec F S5000x64 .f32) (x2 : Vec F S5000x1 .f32) (x3 : Vec F S128x64 .f32) (x4 : Vec F S1x64 .f32) (xs0 : Vec F S1x64 .f32) (xs1 : Vec F S1x64 .f32) (y : S1x64.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.1 S1x64.size (by sl_kernel_rfl) y

/-- What case C leaves in accumulator 0: its pieces read back over junk. -/
def sout0_C_0 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S5000x64 .f32) (x1 : Vec F S5000x64 .f32) (x2 : Vec F S5000x1 .f32) (x3 : Vec F S128x64 .f32) (x4 : Vec F S1x64 .f32) (xs0 : Vec F S1x64 .f32) (xs1 : Vec F S1x64 .f32) : Vec F S1x64 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.1)

/-- Case C's pieces for accumulator 1 cover it: every store into it is of the whole buffer. -/
theorem scover0_C_1 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S5000x64 .f32) (x1 : Vec F S5000x64 .f32) (x2 : Vec F S5000x1 .f32) (x3 : Vec F S128x64 .f32) (x4 : Vec F S1x64 .f32) (xs0 : Vec F S1x64 .f32) (xs1 : Vec F S1x64 .f32) (y : S1x64.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.2.1 S1x64.size (by sl_kernel_rfl) y

/-- What case C leaves in accumulator 1: its pieces read back over junk. -/
def sout0_C_1 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S5000x64 .f32) (x1 : Vec F S5000x64 .f32) (x2 : Vec F S5000x1 .f32) (x3 : Vec F S128x64 .f32) (x4 : Vec F S1x64 .f32) (xs0 : Vec F S1x64 .f32) (xs1 : Vec F S1x64 .f32) : Vec F S1x64 .f32 :=
  VS0_1.read (Elt F) (VS0_1.writes (Elt F) VS0_1.junk (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.2.1)

/-! ## What the outputs and the accumulators hold after each point -/

/-- THE ACCUMULATION. What the three outputs' staging buffers and the two accumulators hold after the body at position
    `n` (a tuple: outputs 5, 6, 7, then accumulators 0, 1): the case the closed forms select at `n`, run at the point's
    memrefs and input blocks, the accumulators at what this leaves at `n - 1` (only the last two components feed the
    next point). -/
def outsAt0 (c : Dev nD) : (n : ℕ) → n < cfg0.N → Vec F S5000x64 .f32 × Vec F S1x64 .f32 × Vec F S1x64 .f32 × Vec F S1x64 .f32 × Vec F S1x64 .f32
  | 0, hn =>
      (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr rfl) (fun h => absurd ((hcond0_1 ⟨0, hn⟩).mp h) (show ¬((0 : ℕ) = 19) by decide)) (iblk0 V c 0 ⟨0, hn⟩) (iblk0 V c 1 ⟨0, hn⟩) (iblk0 V c 2 ⟨0, hn⟩) (iblk0 V c 3 ⟨0, hn⟩) (iblk0 V c 4 ⟨0, hn⟩),
       out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr rfl) (fun h => absurd ((hcond0_1 ⟨0, hn⟩).mp h) (show ¬((0 : ℕ) = 19) by decide)) (iblk0 V c 0 ⟨0, hn⟩) (iblk0 V c 1 ⟨0, hn⟩) (iblk0 V c 2 ⟨0, hn⟩) (iblk0 V c 3 ⟨0, hn⟩) (iblk0 V c 4 ⟨0, hn⟩),
       out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr rfl) (fun h => absurd ((hcond0_1 ⟨0, hn⟩).mp h) (show ¬((0 : ℕ) = 19) by decide)) (iblk0 V c 0 ⟨0, hn⟩) (iblk0 V c 1 ⟨0, hn⟩) (iblk0 V c 2 ⟨0, hn⟩) (iblk0 V c 3 ⟨0, hn⟩) (iblk0 V c 4 ⟨0, hn⟩),
       sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr rfl) (fun h => absurd ((hcond0_1 ⟨0, hn⟩).mp h) (show ¬((0 : ℕ) = 19) by decide)) (iblk0 V c 0 ⟨0, hn⟩) (iblk0 V c 1 ⟨0, hn⟩) (iblk0 V c 2 ⟨0, hn⟩) (iblk0 V c 3 ⟨0, hn⟩) (iblk0 V c 4 ⟨0, hn⟩),
       sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr rfl) (fun h => absurd ((hcond0_1 ⟨0, hn⟩).mp h) (show ¬((0 : ℕ) = 19) by decide)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h1 : n + 1 = 19 then
      (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2,
       out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2,
       out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2,
       sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2,
       sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2)
    else
      (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => absurd ((hcond0_0 ⟨n + 1, hn⟩).mp h) (Nat.succ_ne_zero n)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2,
       out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => absurd ((hcond0_0 ⟨n + 1, hn⟩).mp h) (Nat.succ_ne_zero n)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2,
       out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => absurd ((hcond0_0 ⟨n + 1, hn⟩).mp h) (Nat.succ_ne_zero n)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2,
       sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => absurd ((hcond0_0 ⟨n + 1, hn⟩).mp h) (Nat.succ_ne_zero n)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2,
       sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => absurd ((hcond0_0 ⟨n + 1, hn⟩).mp h) (Nat.succ_ne_zero n)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2)

/-- `outsAt0` at the point of case A: that case's contents. -/
theorem outsAt0_A (c : Dev nD) (t : Fin cfg0.N) (h0 : t.val = 0) :
    outsAt0 V c t.val t.isLt =
      (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => absurd ((hcond0_1 t).mp h) (by omega)) (iblk0 V c 0 t) (iblk0 V c 1 t) (iblk0 V c 2 t) (iblk0 V c 3 t) (iblk0 V c 4 t),
       out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => absurd ((hcond0_1 t).mp h) (by omega)) (iblk0 V c 0 t) (iblk0 V c 1 t) (iblk0 V c 2 t) (iblk0 V c 3 t) (iblk0 V c 4 t),
       out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => absurd ((hcond0_1 t).mp h) (by omega)) (iblk0 V c 0 t) (iblk0 V c 1 t) (iblk0 V c 2 t) (iblk0 V c 3 t) (iblk0 V c 4 t),
       sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => absurd ((hcond0_1 t).mp h) (by omega)) (iblk0 V c 0 t) (iblk0 V c 1 t) (iblk0 V c 2 t) (iblk0 V c 3 t) (iblk0 V c 4 t),
       sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => absurd ((hcond0_1 t).mp h) (by omega)) (iblk0 V c 0 t) (iblk0 V c 1 t) (iblk0 V c 2 t) (iblk0 V c 3 t) (iblk0 V c 4 t)) := by
  obtain ⟨n, hn⟩ := t
  cases n with
  | zero => exact rfl
  | succ n => exact absurd h0 (Nat.succ_ne_zero n)

/-- `outsAt0` at a point of case B: that case's contents, over what the point before left. -/
theorem outsAt0_B (c : Dev nD) (t : Fin cfg0.N) (h0 : ¬t.val = 0) (h1 : ¬t.val = 19) :
    outsAt0 V c t.val t.isLt =
      (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
       out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
       out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
       sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
       sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact absurd rfl h0
  | succ n => exact (dif_neg h1).trans rfl

/-- `outsAt0` at the point of case C: that case's contents, over what the point before left. -/
theorem outsAt0_C (c : Dev nD) (t : Fin cfg0.N) (h0 : ¬t.val = 0) (h1 : t.val = 19) :
    outsAt0 V c t.val t.isLt =
      (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
       out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
       out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
       sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
       sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact absurd rfl h0
  | succ n => exact (dif_pos h1).trans rfl

/-- The region invariant before position `n`: before the first point the launch's (every scoped buffer at anything);
    afterwards the two accumulators at what the point before left in them, the other scoped buffers at anything, and
    the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2.2.1) ∗ owns (c : Thread nD τ) scM0_1 fullShare ((outsAt0 V c n hn).2.2.2.2) ∗ restScoped0 (F := F) c) ∗ (∃ r, prngReg c r))

theorem PhiS0_zero (c : Dev nD) (n : ℕ) (h : n ≤ cfg0.N) (hz : n = 0) : PhiS0 V c n h = Pipeline.ΦA spec0 c := by
  subst hz; rfl

/-- After point `n` (before point `n + 1`): the accumulators at that point's contents. -/
theorem PhiS0_succ (c : Dev nD) (n : ℕ) (hn : n < cfg0.N) :
    PhiS0 V c (n + 1) hn = iprop(iprop(owns (c : Thread nD τ) scM0_0 fullShare ((outsAt0 V c n hn).2.2.2.1) ∗ owns (c : Thread nD τ) scM0_1 fullShare ((outsAt0 V c n hn).2.2.2.2) ∗ restScoped0 (F := F) c) ∗ (∃ r, prngReg c r)) := rfl

/-- Before a point that is not the first: the accumulators at what the point before left. -/
theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2.2.1) ∗ owns (c : Thread nD τ) scM0_1 fullShare ((outsAt0 V c (n - 1) (by omega)).2.2.2.2) ∗ restScoped0 (F := F) c) ∗ (∃ r, prngReg c r)) := by
  cases n with
  | zero => exact absurd rfl hz
  | succ n => rfl

/-! ## The pipeline's proof data -/

/-- The proof data of pipeline 0 on core `c`: the arrays as the region finds them; after the body at point `t` each
    input's buffer at its block and the outputs' at `outsAt0`'s components; the invariant `PhiS0`; nothing owed; full
    shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
    | ⟨6, _⟩ => (outsAt0 V c t.val t.isLt).2.1
    | ⟨7, _⟩ => (outsAt0 V c t.val t.isLt).2.2.1
  Φ t := PhiS0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- The invariant at a point's start, restated at the point's position. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]
theorem after0_6 (c : Dev nD) (t : Fin cfg0.N) : (dat0 V c).after 6 t = (outsAt0 V c t.val t.isLt).2.1 := by dsimp only [dat0]
theorem after0_7 (c : Dev nD) (t : Fin cfg0.N) : (dat0 V c).after 7 t = (outsAt0 V c t.val t.isLt).2.2.1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 8000000 in
/-- The body at any point: the inputs' memrefs hold their blocks; the closed forms say which case the point is in; the
    invariant hands the body the two accumulators at what the point before left (at anything at the first point) and
    takes them back at this point's contents, the other scoped buffers and the generator register pass through
    untouched; an output the case does not store is handed back as found; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ]
  have hN : t.val < 20 := lt_of_lt_of_eq t.isLt (show cfg0.N = 20 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  by_cases h0 : t.val = 0
  · have hc0 : cond0_0 (grid0.coords t) := (hcond0_0 t).mpr h0
    have hc1 : ¬cond0_1 (grid0.coords t) := fun h => absurd ((hcond0_1 t).mp h) (by omega)
    rw [Dat.leavesExact_idle (dat0 V c) 6 t (idleAt0_6_A t hc0 hc1) (noFlush0_6_A t hc0 hc1)]
    rw [Dat.leavesExact_idle (dat0 V c) 7 t (idleAt0_7_A t hc0 hc1) (noFlush0_7_A t hc0 hc1)]
    rw [outsAt0_A V c t h0]
    unfold out0_A_5 sout0_A_0 sout0_A_1; (try dsimp only)
    rw [PhiS0_castSucc V c t, PhiS0_zero V c _ _ h0, PhiA0_eq]
    · iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ _ _ hc0 hc1 (iblk0 V c 0 t) (iblk0 V c 1 t) (iblk0 V c 2 t) (iblk0 V c 3 t) (iblk0 V c 4 t)).2.2.2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, ⟨%e5, H5⟩, H6, H7, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _ _ _ _ _ _)
      isplitl [H6]; · iexists _; iexact H6
      iexists _; iexact H7
  · by_cases h1 : t.val = 19
    · have hc0 : ¬cond0_0 (grid0.coords t) := fun h => h0 ((hcond0_0 t).mp h)
      have hc1 : cond0_1 (grid0.coords t) := (hcond0_1 t).mpr h1
      rw [show (dat0 V c).leavesExact 6 t = owns (c : Thread nD τ) (ms0_6 t) fullShare ((dat0 V c).after 6 t) from by
        unfold Dat.leavesExact; rw [liveAt0_6_C t hc0 hc1], after0_6]
      rw [show (dat0 V c).leavesExact 7 t = owns (c : Thread nD τ) (ms0_7 t) fullShare ((dat0 V c).after 7 t) from by
        unfold Dat.leavesExact; rw [liveAt0_7_C t hc0 hc1], after0_7]
      rw [outsAt0_C V c t h0 h1]
      unfold out0_C_5 out0_C_6 out0_C_7 sout0_C_0 sout0_C_1; (try dsimp only)
      rw [PhiS0_castSucc V c t, PhiS0_pos V c _ _ h0]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_C c (grid0.coords t) _ _ _ _ _ _ _ _ _ _ _ _ _ _ _ _ _ _ _ _ hc0 hc1 (iblk0 V c 0 t) (iblk0 V c 1 t) (iblk0 V c 2 t) (iblk0 V c 3 t) (iblk0 V c 4 t) _ _).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, ⟨%e5, H5⟩, ⟨%e6, H6⟩, ⟨%e7, H7⟩, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_C_5 c _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_C_6 c _ _ _ _ _ _ _ _ _ _ _ _ _ _ _ _ _ _ _ _ _ _ _ _ _ _ _ _ _ _)
      unfold owns; iexists _; isplitr
      swap; · iexact H7
      ipureintro; exact View.read_writes_of_cover _ _ _ _ _ (cover0_C_7 c _ _ _ _ _ _ _ _ _ _ _ _ _ _ _ _ _ _ _ _ _ _ _ _ _ _ _ _ _ _)
    · have hc0 : ¬cond0_0 (grid0.coords t) := fun h => h0 ((hcond0_0 t).mp h)
      have hc1 : ¬cond0_1 (grid0.coords t) := fun h => h1 ((hcond0_1 t).mp h)
      rw [Dat.leavesExact_idle (dat0 V c) 6 t (idleAt0_6_B t hc0 hc1) (noFlush0_6_B t hc0 hc1)]
      rw [Dat.leavesExact_idle (dat0 V c) 7 t (idleAt0_7_B t hc0 hc1) (noFlush0_7_B t hc0 hc1)]
      rw [outsAt0_B V c t h0 h1]
      unfold out0_B_5 sout0_B_0 sout0_B_1; (try dsimp only)
      rw [PhiS0_castSucc V c t, PhiS0_pos V c _ _ h0]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ _ _ hc0 hc1 (iblk0 V c 0 t) (iblk0 V c 1 t) (iblk0 V c 2 t) (iblk0 V c 3 t) (iblk0 V c 4 t) _ _).2.2.2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, ⟨%e5, H5⟩, H6, H7, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _ _ _ _ _ _ _)
      isplitl [H6]; · iexists _; iexact H6
      iexists _; iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the launch's back: the accumulators' named contents are forgotten. -/
theorem Phi_out0 (c : Dev nD) (t : Fin (cfg0.N + 1)) (ht : t.val ≠ 0) : (dat0 V c).Φ t ⊢ (Pipeline.ΦA spec0 c : sProp 𝕄) := by
  rw [show (dat0 V c).Φ t = PhiS0 V c t.val (Nat.le_of_lt_succ t.isLt) from rfl, PhiS0_pos V c _ _ ht, PhiA0_eq]
  iintro ⟨⟨HS0, HS1, HR⟩, Hg⟩
  isplitl [HS0 HS1 HR]
  · isplitl [HS0]; · iexists _; iexact HS0
    isplitl [HS1]; · iexists _; iexact HS1
    iexact HR
  iexact Hg

/-- The same after the last point. -/
theorem hout0 (c : Dev nD) : (dat0 V c).Φ (Fin.last cfg0.N) ⊢ (Pipeline.ΦA spec0 c : sProp 𝕄) :=
  Phi_out0 V c _ (by rw [Fin.val_last]; have : cfg0.N = 20 := N_0; omega)

end Cert.KernelIdeal.Hand

end
-- ==== Proof.KI.R1.lean ====
/- Region 1 of @main (custom_call 1, the batch-norm-and-ReLU kernel, a grid of 10 points), stated at a parameter `V`: the
   TensorCore's buffer contents when the region is entered. The body loads its three input windows whole (the
   5000x128 block of the activations, and the 1x128 scale and shift rows, whose block index never moves), computes, and
   stores its one output window whole; it keeps nothing from point to point. So what it leaves in the output's staging
   buffer is a closed function of the three input blocks at the point, and what it finds in an input's staging buffer is
   that window's block at the point, fetched there or not. This file states the blocks, that closed function, the body's
   triple, the pipeline's proof data and its body obligation. -/
import proofs.«400542_j69810398429749_3_alg».proof.Proof.Gen.KernelIdeal.Launch
import proofs.«400542_j69810398429749_3_alg».proof.Proof.Gen.KernelIdeal.Skeleton
import proofs.«400542_j69810398429749_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for ANY proof data whose array is `V`'s
    (`hA`) and whose body leaves the block in place (`hafter`): the window is uncut and never idle, and where it is not
    fetched its block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the scale row, fetched at the first point only: its block index is constant) likewise. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the shift row, fetched at the first point only: its block index is constant) likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole 5000x128 block (the activations' load, the output's load and store). -/
abbrev r1_0 : Rect S5000x128 := Rect.unit (s := S5000x128) ![0, 0] S5000x128.size inb_S5000x128_S5000x128_0_0
/-- The whole 1x128 row (the scale's and the shift's loads). -/
abbrev r1_1 : Rect S1x128 := Rect.unit (s := S1x128) ![0, 0] S1x128.size inb_S1x128_S1x128_0_0

/-! ## What the body leaves in the output window's buffer -/

/-- Window 3's staging buffer after the body, from the three input windows' blocks: its one store, of
    `max (x0 * scale + shift) 0` with the rows broadcast along the 5000 rows. -/
def out1_3 (x0 : Vec F S5000x128 .f32) (x1 : Vec F S1x128 .f32) (x2 : Vec F S1x128 .f32) : Vec F S5000x128 .f32 :=
  View.canon [⟨r1_0, k1_pay1 (View.ld x0 r1_0) (View.ld x1 r1_1) (View.ld x2 r1_1)⟩]

/-- That one store is of the whole buffer, so it covers it. -/
theorem cover1_3 (p0 : Vec F S5000x128 .f32) (y : S5000x128.Idx) :
    ∃ pc ∈ ([⟨r1_0, p0⟩] : List (View.Piece (Elt F) S5000x128 .f32)), y ∈ pc.1.set :=
  View.cover_of_tiled [⟨r1_0, p0⟩] S5000x128.size (by rfl) y

/-! ## The body's triple -/

set_option maxHeartbeats 1000000 in
/-- The kernel body on whole staging memrefs, the three inputs' at read contents `x0 x1 x2` and the output's at anything,
    runs to the continuation holding the inputs' as they were and the output's at `out1_3` of the inputs'. -/
theorem sound_kernel1 (c : Dev nD) (E : Set ℕ) (i : grid1.Coords)
    (arg0 : Memref sig .tc .vmem S5000x128 .f32) (harg0 : arg0.IsWhole) (arg1 : Memref sig .tc .vmem S1x128 .f32) (harg1 : arg1.IsWhole)
    (arg2 : Memref sig .tc .vmem S1x128 .f32) (harg2 : arg2.IsWhole) (arg3 : Memref sig .tc .vmem S5000x128 .f32) (harg3 : arg3.IsWhole)
    (x0 : Vec F S5000x128 .f32) (x1 : Vec F S1x128 .f32) (x2 : Vec F S1x128 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out1_3 x0 x1 x2)) -∗ K ⟨⟩))
      ⊢ wp frame (wpE (defs₀ (F := F)) Variants.none c none) E (cc1__bn_relu_kernel i arg0 harg0 arg1 harg1 arg2 harg2 arg3 harg3) K := by
  simp only [cc1__bn_relu_kernel_eq_skeleton]; unfold cc1__bn_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them (`V`); after the body at point `t`
    each input's buffer at its block and the output's at `out1_3` of the input blocks; the invariant only the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the region's ends -/

/-- The invariant is the same at every point: entering the region establishes it as it stands, -/
theorem hin1 (c : Dev nD) : (Pipeline.ΦA spec1 c : sProp 𝕄) ⊢ (dat1 V c).Φ 0 := .rfl

/-- and leaving it gives it back as it stands. -/
theorem hout1 (c : Dev nD) : (dat1 V c).Φ (Fin.last cfg1.N) ⊢ (Pipeline.ΦA spec1 c : sProp 𝕄) := .rfl

end Cert.KernelIdeal.Hand

end
-- ==== Proof.KI.R2Base.lean ====
/- Region 2 (the pooling call, 50 grid points): what its three whole-body runs share — the windows' blocks as
   the region finds them, the body's two branch conditions in closed form over the grid, where the two output
   windows are idle, the staging and scratch memrefs by name, and the region invariant with this call's two
   scratch accumulators split off as owned memrefs. -/
import proofs.«400542_j69810398429749_3_alg».proof.Proof.Gen.KernelIdeal.Launch
import proofs.«400542_j69810398429749_3_alg».proof.Proof.Gen.KernelIdeal.Skeleton
import proofs.«400542_j69810398429749_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether the pipeline fetched it there
    or not (unfetched, the block index has not moved), for any proof data whose array is the entry contents and
    whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, whether the pipeline fetched it there
    or not (unfetched, the block index has not moved), for any proof data whose array is the entry contents and
    whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, whether the pipeline fetched it there
    or not (unfetched, the block index has not moved), for any proof data whose array is the entry contents and
    whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, whether the pipeline fetched it there
    or not (unfetched, the block index has not moved), for any proof data whose array is the entry contents and
    whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, whether the pipeline fetched it there
    or not (unfetched, the block index has not moved), for any proof data whose array is the entry contents and
    whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, whether the pipeline fetched it there
    or not (unfetched, the block index has not moved), for any proof data whose array is the entry contents and
    whose body leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The condition of the body's first conditional (the reset of the two accumulators), from the grid coordinate:
    the scalar comparison chain the body computes, substituted. -/
abbrev cond2_0 (i : grid2.Coords) : Prop := (Scalar.cmpi .ne (Scalar.extui (Scalar.cmpi .eq (BitVec.ofNat 32 (i 0).val) 0#32)) 0#32) = 1#1
/-- It holds at the first of the 50 points only. -/
theorem hcond2_0 : ∀ t : Fin cfg2.N, cond2_0 (grid2.coords t) ↔ t.val % 50 = 0 :=
  (by decide +kernel : ∀ t : Fin grid2.N, cond2_0 (grid2.coords t) ↔ t.val % 50 = 0)

/-- The condition of the body's second conditional (the copy of the accumulators to the outputs). -/
abbrev cond2_1 (i : grid2.Coords) : Prop := k2_cond2 i = 1#1
/-- It holds at the last of the 50 points only. -/
theorem hcond2_1 : ∀ t : Fin cfg2.N, cond2_1 (grid2.coords t) ↔ t.val % 50 = 49 :=
  (by decide +kernel : ∀ t : Fin grid2.N, cond2_1 (grid2.coords t) ↔ t.val % 50 = 49)

/-! ## Where the windows are idle -/

/-- Window 0 is never idle (an input). -/
theorem liveAt2_0 : ∀ t : Fin cfg2.N, cfg2.idle 0 (grid2.coords t) = false := by decide +kernel
/-- Window 1 is never idle (an input). -/
theorem liveAt2_1 : ∀ t : Fin cfg2.N, cfg2.idle 1 (grid2.coords t) = false := by decide +kernel
/-- Window 2 is never idle (an input). -/
theorem liveAt2_2 : ∀ t : Fin cfg2.N, cfg2.idle 2 (grid2.coords t) = false := by decide +kernel
/-- Window 3 is never idle (an input). -/
theorem liveAt2_3 : ∀ t : Fin cfg2.N, cfg2.idle 3 (grid2.coords t) = false := by decide +kernel
/-- Window 4 is never idle (an input). -/
theorem liveAt2_4 : ∀ t : Fin cfg2.N, cfg2.idle 4 (grid2.coords t) = false := by decide +kernel
/-- Window 5 is never idle (an input). -/
theorem liveAt2_5 : ∀ t : Fin cfg2.N, cfg2.idle 5 (grid2.coords t) = false := by decide +kernel
/-- At the points of case A output 6 is idle: the case stores nothing into it. -/
theorem idleAt2_6_A : ∀ t : Fin cfg2.N, cond2_0 (grid2.coords t) → ¬cond2_1 (grid2.coords t) → cfg2.idle 6 (grid2.coords t) = true := by decide +kernel
/-- At the points of case A the pipeline does not write output 6's block back. -/
theorem noFlush2_6_A : ∀ t : Fin cfg2.N, cond2_0 (grid2.coords t) → ¬cond2_1 (grid2.coords t) → (cfg2.win 6).flush t = false := by decide +kernel
/-- At the points of case B output 6 is idle: the case stores nothing into it. -/
theorem idleAt2_6_B : ∀ t : Fin cfg2.N, ¬cond2_0 (grid2.coords t) → ¬cond2_1 (grid2.coords t) → cfg2.idle 6 (grid2.coords t) = true := by decide +kernel
/-- At the points of case B the pipeline does not write output 6's block back. -/
theorem noFlush2_6_B : ∀ t : Fin cfg2.N, ¬cond2_0 (grid2.coords t) → ¬cond2_1 (grid2.coords t) → (cfg2.win 6).flush t = false := by decide +kernel
/-- At the point of case C output 6 is live: the case stores it whole. -/
theorem liveAt2_6_C : ∀ t : Fin cfg2.N, ¬cond2_0 (grid2.coords t) → cond2_1 (grid2.coords t) → cfg2.idle 6 (grid2.coords t) = false := by decide +kernel
/-- At the points of case A output 7 is idle: the case stores nothing into it. -/
theorem idleAt2_7_A : ∀ t : Fin cfg2.N, cond2_0 (grid2.coords t) → ¬cond2_1 (grid2.coords t) → cfg2.idle 7 (grid2.coords t) = true := by decide +kernel
/-- At the points of case A the pipeline does not write output 7's block back. -/
theorem noFlush2_7_A : ∀ t : Fin cfg2.N, cond2_0 (grid2.coords t) → ¬cond2_1 (grid2.coords t) → (cfg2.win 7).flush t = false := by decide +kernel
/-- At the points of case B output 7 is idle: the case stores nothing into it. -/
theorem idleAt2_7_B : ∀ t : Fin cfg2.N, ¬cond2_0 (grid2.coords t) → ¬cond2_1 (grid2.coords t) → cfg2.idle 7 (grid2.coords t) = true := by decide +kernel
/-- At the points of case B the pipeline does not write output 7's block back. -/
theorem noFlush2_7_B : ∀ t : Fin cfg2.N, ¬cond2_0 (grid2.coords t) → ¬cond2_1 (grid2.coords t) → (cfg2.win 7).flush t = false := by decide +kernel
/-- At the point of case C output 7 is live: the case stores it whole. -/
theorem liveAt2_7_C : ∀ t : Fin cfg2.N, ¬cond2_0 (grid2.coords t) → cond2_1 (grid2.coords t) → cfg2.idle 7 (grid2.coords t) = false := by decide +kernel

/-! ## The staging and scratch memrefs -/

/-- One staging buffer of each output window, through which its contents are stated (any would do: the pieces cover it). -/
abbrev VO2_6 : View sig .tc .vmem S256x64 .f32 := (Memref.whole cc2_stg6_0 : Memref sig .tc .vmem S256x64 .f32).view
abbrev VO2_7 : View sig .tc .vmem S1x256 .f32 := (Memref.whole cc2_stg7_0 : Memref sig .tc .vmem S1x256 .f32).view
/-- Each window's current staging memref at point `t`, spelled as the pipeline passes it to the body, and its wholeness. -/
abbrev ms2_0 (t : Fin cfg2.N) : Memref sig .tc .vmem S2000x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2000x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2000x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S128x64 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x64 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S2000x1 .i32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S256x64 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x256 .f32 := win2_7.stage (cfg2.slots t 7)
abbrev hs2_7 (t : Fin cfg2.N) : (ms2_7 t).IsWhole := hstage2_7 ((cfg2.slots t 7).cast nbuf2_7)
/-- The two scratch accumulators: whole scoped buffers of this call's own, passed to the body beside the windows. -/
abbrev scM2_0 : Memref sig .tc .vmem S256x64 .f32 := Memref.whole cc2_scratch0
abbrev scM2_1 : Memref sig .tc .vmem S1x256 .f32 := Memref.whole cc2_scratch1
/-- Both are carried from one grid point to the next; as views, through which what they hold is stated. -/
abbrev VS2_0 : View sig .tc .vmem S256x64 .f32 := scM2_0.view
abbrev VS2_1 : View sig .tc .vmem S1x256 .f32 := scM2_1.view

/-! ## The region invariant -/

/-- The core's scoped buffers that belong to the other two calls (their staging buffers and scratch), each whole at
    some contents: they ride through this region untouched. -/
def restScoped2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The region invariant as the launch hands it over, with this call's two scratch accumulators split off as
    memrefs owned at some contents: the form the body's runs take them in and hand them back in. -/
theorem PhiA2_eq (c : Dev nD) :
    (Pipeline.ΦA spec2 c : sProp 𝕄)
      = iprop(iprop((∃ d, owns (c : Thread nD τ) scM2_0 fullShare d) ∗ (∃ d, owns (c : Thread nD τ) scM2_1 fullShare d) ∗ restScoped2 (F := F) c) ∗ (∃ r, prngReg c r)) := by
  unfold Pipeline.ΦA; rw [scopedRest2_eq]; simp only [scM2_0, scM2_1, owns_whole]
  unfold restScoped2
  refine BI.equiv_iff.mp ⟨?_, ?_⟩
  · show (_ : sProp 𝕄) ⊢ (_ : sProp 𝕄)
    iintro ⟨⟨R0, R1, R2, R3, R4, R5, R6, R7, R8, R9, R10, R11, R12, R13, R14, R15, R16, R17, R18, R19, HS0, HS1⟩, Hg⟩
    isplitr [Hg]
    swap; · iexact Hg
    isplitl [HS0]; · iexact HS0
    isplitl [HS1]; · iexact HS1
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    isplitl [R15]; · iexact R15
    isplitl [R16]; · iexact R16
    isplitl [R17]; · iexact R17
    isplitl [R18]; · iexact R18
    iexact R19
  · show (_ : sProp 𝕄) ⊢ (_ : sProp 𝕄)
    iintro ⟨⟨HS0, HS1, R0, R1, R2, R3, R4, R5, R6, R7, R8, R9, R10, R11, R12, R13, R14, R15, R16, R17, R18, R19⟩, Hg⟩
    isplitr [Hg]
    swap; · iexact Hg
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    isplitl [R15]; · iexact R15
    isplitl [R16]; · iexact R16
    isplitl [R17]; · iexact R17
    isplitl [R18]; · iexact R18
    isplitl [R19]; · iexact R19
    isplitl [HS0]; · iexact HS0
    iexact HS1

end Cert.KernelIdeal.Hand

end
-- ==== Proof.KI.R2RunA.lean ====
/- Region 2 (the pooling call): the whole-body run of its kernel in control case A. -/
import proofs.«400542_j69810398429749_3_alg».proof.Proof.KI.R2Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

-- (the run's proof term is large: checking the definition walks it past the default budget)
set_option maxHeartbeats 1000000 in
/-- What the body's stores leave in the two output staging memrefs and the two scratch accumulators, as pieces (last
    store first), IN CASE A (the first conditional taken, the second not: the first grid point), together with the proof that on whole memrefs — the six
    inputs' at their contents `x·`, the two outputs' (idle here: not stored, not written back) at contents `xi·` handed back untouched,
    the two accumulators at anything (the case resets them before it reads them) — the body runs to the continuation holding the inputs' as they were
    and each accumulator with its pieces written. The body is rewritten to its sequence of memory operations over named
    payloads and run symbolically, each conditional decided by the case's hypotheses; the piece lists are what that run finds. -/
noncomputable def kernelRun2_A (c : Dev nD) (i : grid2.Coords) (arg1 : Memref sig .tc .vmem S2000x64 .f32) (harg1 : arg1.IsWhole) (arg2 : Memref sig .tc .vmem S2000x64 .f32) (harg2 : arg2.IsWhole) (arg3 : Memref sig .tc .vmem S2000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2000x1 .i32) (harg6 : arg6.IsWhole) (arg7 : Memref sig .tc .vmem S256x64 .f32) (harg7 : arg7.IsWhole) (arg8 : Memref sig .tc .vmem S1x256 .f32) (harg8 : arg8.IsWhole) (arg9 : Memref sig .tc .vmem S256x64 .f32) (harg9 : arg9.IsWhole) (arg10 : Memref sig .tc .vmem S1x256 .f32) (harg10 : arg10.IsWhole) (hc0 : cond2_0 i) (hc1 : ¬cond2_1 i)
    (x0 : Vec F S2000x64 .f32) (x1 : Vec F S2000x64 .f32) (x2 : Vec F S2000x1 .f32) (x3 : Vec F S128x64 .f32) (x4 : Vec F S1x64 .f32) (x5 : Vec F S2000x1 .i32) :
    Σ' (L6 : List (View.Piece (Elt F) S256x64 .f32)) (L7 : List (View.Piece (Elt F) S1x256 .f32)) (LS0 : List (View.Piece (Elt F) S256x64 .f32)), { LS1 : List (View.Piece (Elt F) S1x256 .f32) //
      ∀ (xi6 : Vec F S256x64 .f32) (xi7 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xi7 ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc2__combine_pool_kernel i arg1 harg1 arg2 harg2 arg3 harg3 arg4 harg4 arg5 harg5 arg6 harg6 arg7 harg7 arg8 harg8 arg9 harg9 arg10 harg10) K } := by
  refine ⟨[], [], ?_, ?_, fun xi6 xi7 E K => ?run⟩
  case run =>
    simp only [cc2__combine_pool_kernel_eq_skeleton]; unfold cc2__combine_pool_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

end Cert.KernelIdeal.Hand

end
-- ==== Proof.KI.R2RunB.lean ====
/- Region 2 (the pooling call): the whole-body run of its kernel in control case B. -/
import proofs.«400542_j69810398429749_3_alg».proof.Proof.KI.R2Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

-- (the run's proof term is large: checking the definition walks it past the default budget)
set_option maxHeartbeats 1000000 in
/-- What the body's stores leave in the two output staging memrefs and the two scratch accumulators, as pieces (last
    store first), IN CASE B (neither conditional taken: the points strictly between the first and the last), together with the proof that on whole memrefs — the six
    inputs' at their contents `x·`, the two outputs' (idle here: not stored, not written back) at contents `xi·` handed back untouched,
    the two accumulators at what the point before left (`xs·`) — the body runs to the continuation holding the inputs' as they were
    and each accumulator with its pieces written. The body is rewritten to its sequence of memory operations over named
    payloads and run symbolically, each conditional decided by the case's hypotheses; the piece lists are what that run finds. -/
noncomputable def kernelRun2_B (c : Dev nD) (i : grid2.Coords) (arg1 : Memref sig .tc .vmem S2000x64 .f32) (harg1 : arg1.IsWhole) (arg2 : Memref sig .tc .vmem S2000x64 .f32) (harg2 : arg2.IsWhole) (arg3 : Memref sig .tc .vmem S2000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2000x1 .i32) (harg6 : arg6.IsWhole) (arg7 : Memref sig .tc .vmem S256x64 .f32) (harg7 : arg7.IsWhole) (arg8 : Memref sig .tc .vmem S1x256 .f32) (harg8 : arg8.IsWhole) (arg9 : Memref sig .tc .vmem S256x64 .f32) (harg9 : arg9.IsWhole) (arg10 : Memref sig .tc .vmem S1x256 .f32) (harg10 : arg10.IsWhole) (hc0 : ¬cond2_0 i) (hc1 : ¬cond2_1 i)
    (x0 : Vec F S2000x64 .f32) (x1 : Vec F S2000x64 .f32) (x2 : Vec F S2000x1 .f32) (x3 : Vec F S128x64 .f32) (x4 : Vec F S1x64 .f32) (x5 : Vec F S2000x1 .i32) (xs0 : Vec F S256x64 .f32) (xs1 : Vec F S1x256 .f32) :
    Σ' (L6 : List (View.Piece (Elt F) S256x64 .f32)) (L7 : List (View.Piece (Elt F) S1x256 .f32)) (LS0 : List (View.Piece (Elt F) S256x64 .f32)), { LS1 : List (View.Piece (Elt F) S1x256 .f32) //
      ∀ (xi6 : Vec F S256x64 .f32) (xi7 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xi7 ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc2__combine_pool_kernel i arg1 harg1 arg2 harg2 arg3 harg3 arg4 harg4 arg5 harg5 arg6 harg6 arg7 harg7 arg8 harg8 arg9 harg9 arg10 harg10) K } := by
  refine ⟨[], [], ?_, ?_, fun xi6 xi7 E K => ?run⟩
  case run =>
    simp only [cc2__combine_pool_kernel_eq_skeleton]; unfold cc2__combine_pool_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

end Cert.KernelIdeal.Hand

end
-- ==== Proof.KI.R2RunC.lean ====
/- Region 2 (the pooling call): the whole-body run of its kernel in control case C. -/
import proofs.«400542_j69810398429749_3_alg».proof.Proof.KI.R2Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

-- (the run's proof term is large: checking the definition walks it past the default budget)
set_option maxHeartbeats 1000000 in
/-- What the body's stores leave in the two output staging memrefs and the two scratch accumulators, as pieces (last
    store first), IN CASE C (the first conditional not taken, the second taken: the last grid point), together with the proof that on whole memrefs — the six
    inputs' at their contents `x·`, the two outputs' at anything,
    the two accumulators at what the point before left (`xs·`) — the body runs to the continuation holding the inputs' as they were, each output's buffer with its pieces written
    and each accumulator with its pieces written. The body is rewritten to its sequence of memory operations over named
    payloads and run symbolically, each conditional decided by the case's hypotheses; the piece lists are what that run finds. -/
noncomputable def kernelRun2_C (c : Dev nD) (i : grid2.Coords) (arg1 : Memref sig .tc .vmem S2000x64 .f32) (harg1 : arg1.IsWhole) (arg2 : Memref sig .tc .vmem S2000x64 .f32) (harg2 : arg2.IsWhole) (arg3 : Memref sig .tc .vmem S2000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2000x1 .i32) (harg6 : arg6.IsWhole) (arg7 : Memref sig .tc .vmem S256x64 .f32) (harg7 : arg7.IsWhole) (arg8 : Memref sig .tc .vmem S1x256 .f32) (harg8 : arg8.IsWhole) (arg9 : Memref sig .tc .vmem S256x64 .f32) (harg9 : arg9.IsWhole) (arg10 : Memref sig .tc .vmem S1x256 .f32) (harg10 : arg10.IsWhole) (hc0 : ¬cond2_0 i) (hc1 : cond2_1 i)
    (x0 : Vec F S2000x64 .f32) (x1 : Vec F S2000x64 .f32) (x2 : Vec F S2000x1 .f32) (x3 : Vec F S128x64 .f32) (x4 : Vec F S1x64 .f32) (x5 : Vec F S2000x1 .i32) (xs0 : Vec F S256x64 .f32) (xs1 : Vec F S1x256 .f32) :
    Σ' (L6 : List (View.Piece (Elt F) S256x64 .f32)) (L7 : List (View.Piece (Elt F) S1x256 .f32)) (LS0 : List (View.Piece (Elt F) S256x64 .f32)), { LS1 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc2__combine_pool_kernel i arg1 harg1 arg2 harg2 arg3 harg3 arg4 harg4 arg5 harg5 arg6 harg6 arg7 harg7 arg8 harg8 arg9 harg9 arg10 harg10) K } := by
  refine ⟨?_, ?_, ?_, ?_, fun E K => ?run⟩
  case run =>
    simp only [cc2__combine_pool_kernel_eq_skeleton]; unfold cc2__combine_pool_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [HS0]; · iexists _; iexact HS0
    iexists _; iexact HS1

end Cert.KernelIdeal.Hand

end
-- ==== Proof.KI.R2.lean ====
/- Region 2 (the pooling call, 50 grid points): its half of the frame. What each control case leaves in the two
   output staging buffers and the two scratch accumulators (the pieces its run found, and that they cover), what these
   hold point by point along the grid, the pipeline's proof data with the accumulators carried in the invariant, and
   the body obligation at every point; the invariant is the launch's before the first point and gives it back after
   the last. -/
import proofs.«400542_j69810398429749_3_alg».proof.Proof.KI.R2RunA
import proofs.«400542_j69810398429749_3_alg».proof.Proof.KI.R2RunB
import proofs.«400542_j69810398429749_3_alg».proof.Proof.KI.R2RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Case A stores nothing into output 6 (idle at its points, not written back there): no pieces — a placeholder
    (junk read back) that nothing consults. -/
def out2_A_6 (c : Dev nD) (i : grid2.Coords) (arg1 : Memref sig .tc .vmem S2000x64 .f32) (harg1 : arg1.IsWhole) (arg2 : Memref sig .tc .vmem S2000x64 .f32) (harg2 : arg2.IsWhole) (arg3 : Memref sig .tc .vmem S2000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2000x1 .i32) (harg6 : arg6.IsWhole) (arg7 : Memref sig .tc .vmem S256x64 .f32) (harg7 : arg7.IsWhole) (arg8 : Memref sig .tc .vmem S1x256 .f32) (harg8 : arg8.IsWhole) (arg9 : Memref sig .tc .vmem S256x64 .f32) (harg9 : arg9.IsWhole) (arg10 : Memref sig .tc .vmem S1x256 .f32) (harg10 : arg10.IsWhole) (hc0 : cond2_0 i) (hc1 : ¬cond2_1 i)
    (x0 : Vec F S2000x64 .f32) (x1 : Vec F S2000x64 .f32) (x2 : Vec F S2000x1 .f32) (x3 : Vec F S128x64 .f32) (x4 : Vec F S1x64 .f32) (x5 : Vec F S2000x1 .i32) : Vec F S256x64 .f32 :=
  VO2_6.read (Elt F) (VO2_6.writes (Elt F) VO2_6.junk (kernelRun2_A c i arg1 harg1 arg2 harg2 arg3 harg3 arg4 harg4 arg5 harg5 arg6 harg6 arg7 harg7 arg8 harg8 arg9 harg9 arg10 harg10 hc0 hc1 x0 x1 x2 x3 x4 x5).1)

/-- Case A stores nothing into output 7 (idle at its points, not written back there): no pieces — a placeholder
    (junk read back) that nothing consults. -/
def out2_A_7 (c : Dev nD) (i : grid2.Coords) (arg1 : Memref sig .tc .vmem S2000x64 .f32) (harg1 : arg1.IsWhole) (arg2 : Memref sig .tc .vmem S2000x64 .f32) (harg2 : arg2.IsWhole) (arg3 : Memref sig .tc .vmem S2000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2000x1 .i32) (harg6 : arg6.IsWhole) (arg7 : Memref sig .tc .vmem S256x64 .f32) (harg7 : arg7.IsWhole) (arg8 : Memref sig .tc .vmem S1x256 .f32) (harg8 : arg8.IsWhole) (arg9 : Memref sig .tc .vmem S256x64 .f32) (harg9 : arg9.IsWhole) (arg10 : Memref sig .tc .vmem S1x256 .f32) (harg10 : arg10.IsWhole) (hc0 : cond2_0 i) (hc1 : ¬cond2_1 i)
    (x0 : Vec F S2000x64 .f32) (x1 : Vec F S2000x64 .f32) (x2 : Vec F S2000x1 .f32) (x3 : Vec F S128x64 .f32) (x4 : Vec F S1x64 .f32) (x5 : Vec F S2000x1 .i32) : Vec F S1x256 .f32 :=
  VO2_7.read (Elt F) (VO2_7.writes (Elt F) VO2_7.junk (kernelRun2_A c i arg1 harg1 arg2 harg2 arg3 harg3 arg4 harg4 arg5 harg5 arg6 harg6 arg7 harg7 arg8 harg8 arg9 harg9 arg10 harg10 hc0 hc1 x0 x1 x2 x3 x4 x5).2.1)

/-- Case A's pieces for the first accumulator (256×64) cover it: whole stores, tiling it. -/
theorem scover2_A_0 (c : Dev nD) (i : grid2.Coords) (arg1 : Memref sig .tc .vmem S2000x64 .f32) (harg1 : arg1.IsWhole) (arg2 : Memref sig .tc .vmem S2000x64 .f32) (harg2 : arg2.IsWhole) (arg3 : Memref sig .tc .vmem S2000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2000x1 .i32) (harg6 : arg6.IsWhole) (arg7 : Memref sig .tc .vmem S256x64 .f32) (harg7 : arg7.IsWhole) (arg8 : Memref sig .tc .vmem S1x256 .f32) (harg8 : arg8.IsWhole) (arg9 : Memref sig .tc .vmem S256x64 .f32) (harg9 : arg9.IsWhole) (arg10 : Memref sig .tc .vmem S1x256 .f32) (harg10 : arg10.IsWhole) (hc0 : cond2_0 i) (hc1 : ¬cond2_1 i)
    (x0 : Vec F S2000x64 .f32) (x1 : Vec F S2000x64 .f32) (x2 : Vec F S2000x1 .f32) (x3 : Vec F S128x64 .f32) (x4 : Vec F S1x64 .f32) (x5 : Vec F S2000x1 .i32) (y : S256x64.Idx) :
    ∃ pc ∈ (kernelRun2_A c i arg1 harg1 arg2 harg2 arg3 harg3 arg4 harg4 arg5 harg5 arg6 harg6 arg7 harg7 arg8 harg8 arg9 harg9 arg10 harg10 hc0 hc1 x0 x1 x2 x3 x4 x5).2.2.1, y ∈ pc.1.set :=
  View.cover_of_tiledL (kernelRun2_A c i arg1 harg1 arg2 harg2 arg3 harg3 arg4 harg4 arg5 harg5 arg6 harg6 arg7 harg7 arg8 harg8 arg9 harg9 arg10 harg10 hc0 hc1 x0 x1 x2 x3 x4 x5).2.2.1 S256x64.size (by sl_kernel_rfl) y

/-- What case A leaves in the first accumulator: its pieces read back over junk. -/
def sout2_A_0 (c : Dev nD) (i : grid2.Coords) (arg1 : Memref sig .tc .vmem S2000x64 .f32) (harg1 : arg1.IsWhole) (arg2 : Memref sig .tc .vmem S2000x64 .f32) (harg2 : arg2.IsWhole) (arg3 : Memref sig .tc .vmem S2000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2000x1 .i32) (harg6 : arg6.IsWhole) (arg7 : Memref sig .tc .vmem S256x64 .f32) (harg7 : arg7.IsWhole) (arg8 : Memref sig .tc .vmem S1x256 .f32) (harg8 : arg8.IsWhole) (arg9 : Memref sig .tc .vmem S256x64 .f32) (harg9 : arg9.IsWhole) (arg10 : Memref sig .tc .vmem S1x256 .f32) (harg10 : arg10.IsWhole) (hc0 : cond2_0 i) (hc1 : ¬cond2_1 i)
    (x0 : Vec F S2000x64 .f32) (x1 : Vec F S2000x64 .f32) (x2 : Vec F S2000x1 .f32) (x3 : Vec F S128x64 .f32) (x4 : Vec F S1x64 .f32) (x5 : Vec F S2000x1 .i32) : Vec F S256x64 .f32 :=
  VS2_0.read (Elt F) (VS2_0.writes (Elt F) VS2_0.junk (kernelRun2_A c i arg1 harg1 arg2 harg2 arg3 harg3 arg4 harg4 arg5 harg5 arg6 harg6 arg7 harg7 arg8 harg8 arg9 harg9 arg10 harg10 hc0 hc1 x0 x1 x2 x3 x4 x5).2.2.1)

/-- Case A's pieces for the second accumulator (1×256) cover it: whole stores, tiling it. -/
theorem scover2_A_1 (c : Dev nD) (i : grid2.Coords) (arg1 : Memref sig .tc .vmem S2000x64 .f32) (harg1 : arg1.IsWhole) (arg2 : Memref sig .tc .vmem S2000x64 .f32) (harg2 : arg2.IsWhole) (arg3 : Memref sig .tc .vmem S2000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2000x1 .i32) (harg6 : arg6.IsWhole) (arg7 : Memref sig .tc .vmem S256x64 .f32) (harg7 : arg7.IsWhole) (arg8 : Memref sig .tc .vmem S1x256 .f32) (harg8 : arg8.IsWhole) (arg9 : Memref sig .tc .vmem S256x64 .f32) (harg9 : arg9.IsWhole) (arg10 : Memref sig .tc .vmem S1x256 .f32) (harg10 : arg10.IsWhole) (hc0 : cond2_0 i) (hc1 : ¬cond2_1 i)
    (x0 : Vec F S2000x64 .f32) (x1 : Vec F S2000x64 .f32) (x2 : Vec F S2000x1 .f32) (x3 : Vec F S128x64 .f32) (x4 : Vec F S1x64 .f32) (x5 : Vec F S2000x1 .i32) (y : S1x256.Idx) :
    ∃ pc ∈ (kernelRun2_A c i arg1 harg1 arg2 harg2 arg3 harg3 arg4 harg4 arg5 harg5 arg6 harg6 arg7 harg7 arg8 harg8 arg9 harg9 arg10 harg10 hc0 hc1 x0 x1 x2 x3 x4 x5).2.2.2.1, y ∈ pc.1.set :=
  View.cover_of_tiledL (kernelRun2_A c i arg1 harg1 arg2 harg2 arg3 harg3 arg4 harg4 arg5 harg5 arg6 harg6 arg7 harg7 arg8 harg8 arg9 harg9 arg10 harg10 hc0 hc1 x0 x1 x2 x3 x4 x5).2.2.2.1 S1x256.size (by sl_kernel_rfl) y

/-- What case A leaves in the second accumulator: its pieces read back over junk. -/
def sout2_A_1 (c : Dev nD) (i : grid2.Coords) (arg1 : Memref sig .tc .vmem S2000x64 .f32) (harg1 : arg1.IsWhole) (arg2 : Memref sig .tc .vmem S2000x64 .f32) (harg2 : arg2.IsWhole) (arg3 : Memref sig .tc .vmem S2000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2000x1 .i32) (harg6 : arg6.IsWhole) (arg7 : Memref sig .tc .vmem S256x64 .f32) (harg7 : arg7.IsWhole) (arg8 : Memref sig .tc .vmem S1x256 .f32) (harg8 : arg8.IsWhole) (arg9 : Memref sig .tc .vmem S256x64 .f32) (harg9 : arg9.IsWhole) (arg10 : Memref sig .tc .vmem S1x256 .f32) (harg10 : arg10.IsWhole) (hc0 : cond2_0 i) (hc1 : ¬cond2_1 i)
    (x0 : Vec F S2000x64 .f32) (x1 : Vec F S2000x64 .f32) (x2 : Vec F S2000x1 .f32) (x3 : Vec F S128x64 .f32) (x4 : Vec F S1x64 .f32) (x5 : Vec F S2000x1 .i32) : Vec F S1x256 .f32 :=
  VS2_1.read (Elt F) (VS2_1.writes (Elt F) VS2_1.junk (kernelRun2_A c i arg1 harg1 arg2 harg2 arg3 harg3 arg4 harg4 arg5 harg5 arg6 harg6 arg7 harg7 arg8 harg8 arg9 harg9 arg10 harg10 hc0 hc1 x0 x1 x2 x3 x4 x5).2.2.2.1)

/-- Case B stores nothing into output 6 (idle at its points, not written back there): no pieces — a placeholder
    (junk read back) that nothing consults. -/
def out2_B_6 (c : Dev nD) (i : grid2.Coords) (arg1 : Memref sig .tc .vmem S2000x64 .f32) (harg1 : arg1.IsWhole) (arg2 : Memref sig .tc .vmem S2000x64 .f32) (harg2 : arg2.IsWhole) (arg3 : Memref sig .tc .vmem S2000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2000x1 .i32) (harg6 : arg6.IsWhole) (arg7 : Memref sig .tc .vmem S256x64 .f32) (harg7 : arg7.IsWhole) (arg8 : Memref sig .tc .vmem S1x256 .f32) (harg8 : arg8.IsWhole) (arg9 : Memref sig .tc .vmem S256x64 .f32) (harg9 : arg9.IsWhole) (arg10 : Memref sig .tc .vmem S1x256 .f32) (harg10 : arg10.IsWhole) (hc0 : ¬cond2_0 i) (hc1 : ¬cond2_1 i)
    (x0 : Vec F S2000x64 .f32) (x1 : Vec F S2000x64 .f32) (x2 : Vec F S2000x1 .f32) (x3 : Vec F S128x64 .f32) (x4 : Vec F S1x64 .f32) (x5 : Vec F S2000x1 .i32) (xs0 : Vec F S256x64 .f32) (xs1 : Vec F S1x256 .f32) : Vec F S256x64 .f32 :=
  VO2_6.read (Elt F) (VO2_6.writes (Elt F) VO2_6.junk (kernelRun2_B c i arg1 harg1 arg2 harg2 arg3 harg3 arg4 harg4 arg5 harg5 arg6 harg6 arg7 harg7 arg8 harg8 arg9 harg9 arg10 harg10 hc0 hc1 x0 x1 x2 x3 x4 x5 xs0 xs1).1)

/-- Case B stores nothing into output 7 (idle at its points, not written back there): no pieces — a placeholder
    (junk read back) that nothing consults. -/
def out2_B_7 (c : Dev nD) (i : grid2.Coords) (arg1 : Memref sig .tc .vmem S2000x64 .f32) (harg1 : arg1.IsWhole) (arg2 : Memref sig .tc .vmem S2000x64 .f32) (harg2 : arg2.IsWhole) (arg3 : Memref sig .tc .vmem S2000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2000x1 .i32) (harg6 : arg6.IsWhole) (arg7 : Memref sig .tc .vmem S256x64 .f32) (harg7 : arg7.IsWhole) (arg8 : Memref sig .tc .vmem S1x256 .f32) (harg8 : arg8.IsWhole) (arg9 : Memref sig .tc .vmem S256x64 .f32) (harg9 : arg9.IsWhole) (arg10 : Memref sig .tc .vmem S1x256 .f32) (harg10 : arg10.IsWhole) (hc0 : ¬cond2_0 i) (hc1 : ¬cond2_1 i)
    (x0 : Vec F S2000x64 .f32) (x1 : Vec F S2000x64 .f32) (x2 : Vec F S2000x1 .f32) (x3 : Vec F S128x64 .f32) (x4 : Vec F S1x64 .f32) (x5 : Vec F S2000x1 .i32) (xs0 : Vec F S256x64 .f32) (xs1 : Vec F S1x256 .f32) : Vec F S1x256 .f32 :=
  VO2_7.read (Elt F) (VO2_7.writes (Elt F) VO2_7.junk (kernelRun2_B c i arg1 harg1 arg2 harg2 arg3 harg3 arg4 harg4 arg5 harg5 arg6 harg6 arg7 harg7 arg8 harg8 arg9 harg9 arg10 harg10 hc0 hc1 x0 x1 x2 x3 x4 x5 xs0 xs1).2.1)

/-- Case B's pieces for the first accumulator (256×64) cover it: whole stores, tiling it. -/
theorem scover2_B_0 (c : Dev nD) (i : grid2.Coords) (arg1 : Memref sig .tc .vmem S2000x64 .f32) (harg1 : arg1.IsWhole) (arg2 : Memref sig .tc .vmem S2000x64 .f32) (harg2 : arg2.IsWhole) (arg3 : Memref sig .tc .vmem S2000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2000x1 .i32) (harg6 : arg6.IsWhole) (arg7 : Memref sig .tc .vmem S256x64 .f32) (harg7 : arg7.IsWhole) (arg8 : Memref sig .tc .vmem S1x256 .f32) (harg8 : arg8.IsWhole) (arg9 : Memref sig .tc .vmem S256x64 .f32) (harg9 : arg9.IsWhole) (arg10 : Memref sig .tc .vmem S1x256 .f32) (harg10 : arg10.IsWhole) (hc0 : ¬cond2_0 i) (hc1 : ¬cond2_1 i)
    (x0 : Vec F S2000x64 .f32) (x1 : Vec F S2000x64 .f32) (x2 : Vec F S2000x1 .f32) (x3 : Vec F S128x64 .f32) (x4 : Vec F S1x64 .f32) (x5 : Vec F S2000x1 .i32) (xs0 : Vec F S256x64 .f32) (xs1 : Vec F S1x256 .f32) (y : S256x64.Idx) :
    ∃ pc ∈ (kernelRun2_B c i arg1 harg1 arg2 harg2 arg3 harg3 arg4 harg4 arg5 harg5 arg6 harg6 arg7 harg7 arg8 harg8 arg9 harg9 arg10 harg10 hc0 hc1 x0 x1 x2 x3 x4 x5 xs0 xs1).2.2.1, y ∈ pc.1.set :=
  View.cover_of_tiledL (kernelRun2_B c i arg1 harg1 arg2 harg2 arg3 harg3 arg4 harg4 arg5 harg5 arg6 harg6 arg7 harg7 arg8 harg8 arg9 harg9 arg10 harg10 hc0 hc1 x0 x1 x2 x3 x4 x5 xs0 xs1).2.2.1 S256x64.size (by sl_kernel_rfl) y

/-- What case B leaves in the first accumulator: its pieces read back over junk. -/
def sout2_B_0 (c : Dev nD) (i : grid2.Coords) (arg1 : Memref sig .tc .vmem S2000x64 .f32) (harg1 : arg1.IsWhole) (arg2 : Memref sig .tc .vmem S2000x64 .f32) (harg2 : arg2.IsWhole) (arg3 : Memref sig .tc .vmem S2000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2000x1 .i32) (harg6 : arg6.IsWhole) (arg7 : Memref sig .tc .vmem S256x64 .f32) (harg7 : arg7.IsWhole) (arg8 : Memref sig .tc .vmem S1x256 .f32) (harg8 : arg8.IsWhole) (arg9 : Memref sig .tc .vmem S256x64 .f32) (harg9 : arg9.IsWhole) (arg10 : Memref sig .tc .vmem S1x256 .f32) (harg10 : arg10.IsWhole) (hc0 : ¬cond2_0 i) (hc1 : ¬cond2_1 i)
    (x0 : Vec F S2000x64 .f32) (x1 : Vec F S2000x64 .f32) (x2 : Vec F S2000x1 .f32) (x3 : Vec F S128x64 .f32) (x4 : Vec F S1x64 .f32) (x5 : Vec F S2000x1 .i32) (xs0 : Vec F S256x64 .f32) (xs1 : Vec F S1x256 .f32) : Vec F S256x64 .f32 :=
  VS2_0.read (Elt F) (VS2_0.writes (Elt F) VS2_0.junk (kernelRun2_B c i arg1 harg1 arg2 harg2 arg3 harg3 arg4 harg4 arg5 harg5 arg6 harg6 arg7 harg7 arg8 harg8 arg9 harg9 arg10 harg10 hc0 hc1 x0 x1 x2 x3 x4 x5 xs0 xs1).2.2.1)

/-- Case B's pieces for the second accumulator (1×256) cover it: whole stores, tiling it. -/
theorem scover2_B_1 (c : Dev nD) (i : grid2.Coords) (arg1 : Memref sig .tc .vmem S2000x64 .f32) (harg1 : arg1.IsWhole) (arg2 : Memref sig .tc .vmem S2000x64 .f32) (harg2 : arg2.IsWhole) (arg3 : Memref sig .tc .vmem S2000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2000x1 .i32) (harg6 : arg6.IsWhole) (arg7 : Memref sig .tc .vmem S256x64 .f32) (harg7 : arg7.IsWhole) (arg8 : Memref sig .tc .vmem S1x256 .f32) (harg8 : arg8.IsWhole) (arg9 : Memref sig .tc .vmem S256x64 .f32) (harg9 : arg9.IsWhole) (arg10 : Memref sig .tc .vmem S1x256 .f32) (harg10 : arg10.IsWhole) (hc0 : ¬cond2_0 i) (hc1 : ¬cond2_1 i)
    (x0 : Vec F S2000x64 .f32) (x1 : Vec F S2000x64 .f32) (x2 : Vec F S2000x1 .f32) (x3 : Vec F S128x64 .f32) (x4 : Vec F S1x64 .f32) (x5 : Vec F S2000x1 .i32) (xs0 : Vec F S256x64 .f32) (xs1 : Vec F S1x256 .f32) (y : S1x256.Idx) :
    ∃ pc ∈ (kernelRun2_B c i arg1 harg1 arg2 harg2 arg3 harg3 arg4 harg4 arg5 harg5 arg6 harg6 arg7 harg7 arg8 harg8 arg9 harg9 arg10 harg10 hc0 hc1 x0 x1 x2 x3 x4 x5 xs0 xs1).2.2.2.1, y ∈ pc.1.set :=
  View.cover_of_tiledL (kernelRun2_B c i arg1 harg1 arg2 harg2 arg3 harg3 arg4 harg4 arg5 harg5 arg6 harg6 arg7 harg7 arg8 harg8 arg9 harg9 arg10 harg10 hc0 hc1 x0 x1 x2 x3 x4 x5 xs0 xs1).2.2.2.1 S1x256.size (by sl_kernel_rfl) y

/-- What case B leaves in the second accumulator: its pieces read back over junk. -/
def sout2_B_1 (c : Dev nD) (i : grid2.Coords) (arg1 : Memref sig .tc .vmem S2000x64 .f32) (harg1 : arg1.IsWhole) (arg2 : Memref sig .tc .vmem S2000x64 .f32) (harg2 : arg2.IsWhole) (arg3 : Memref sig .tc .vmem S2000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2000x1 .i32) (harg6 : arg6.IsWhole) (arg7 : Memref sig .tc .vmem S256x64 .f32) (harg7 : arg7.IsWhole) (arg8 : Memref sig .tc .vmem S1x256 .f32) (harg8 : arg8.IsWhole) (arg9 : Memref sig .tc .vmem S256x64 .f32) (harg9 : arg9.IsWhole) (arg10 : Memref sig .tc .vmem S1x256 .f32) (harg10 : arg10.IsWhole) (hc0 : ¬cond2_0 i) (hc1 : ¬cond2_1 i)
    (x0 : Vec F S2000x64 .f32) (x1 : Vec F S2000x64 .f32) (x2 : Vec F S2000x1 .f32) (x3 : Vec F S128x64 .f32) (x4 : Vec F S1x64 .f32) (x5 : Vec F S2000x1 .i32) (xs0 : Vec F S256x64 .f32) (xs1 : Vec F S1x256 .f32) : Vec F S1x256 .f32 :=
  VS2_1.read (Elt F) (VS2_1.writes (Elt F) VS2_1.junk (kernelRun2_B c i arg1 harg1 arg2 harg2 arg3 harg3 arg4 harg4 arg5 harg5 arg6 harg6 arg7 harg7 arg8 harg8 arg9 harg9 arg10 harg10 hc0 hc1 x0 x1 x2 x3 x4 x5 xs0 xs1).2.2.2.1)

/-- Case C's pieces for output 6 tile its block (one whole store), so they cover it. -/
theorem cover2_C_6 (c : Dev nD) (i : grid2.Coords) (arg1 : Memref sig .tc .vmem S2000x64 .f32) (harg1 : arg1.IsWhole) (arg2 : Memref sig .tc .vmem S2000x64 .f32) (harg2 : arg2.IsWhole) (arg3 : Memref sig .tc .vmem S2000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2000x1 .i32) (harg6 : arg6.IsWhole) (arg7 : Memref sig .tc .vmem S256x64 .f32) (harg7 : arg7.IsWhole) (arg8 : Memref sig .tc .vmem S1x256 .f32) (harg8 : arg8.IsWhole) (arg9 : Memref sig .tc .vmem S256x64 .f32) (harg9 : arg9.IsWhole) (arg10 : Memref sig .tc .vmem S1x256 .f32) (harg10 : arg10.IsWhole) (hc0 : ¬cond2_0 i) (hc1 : cond2_1 i)
    (x0 : Vec F S2000x64 .f32) (x1 : Vec F S2000x64 .f32) (x2 : Vec F S2000x1 .f32) (x3 : Vec F S128x64 .f32) (x4 : Vec F S1x64 .f32) (x5 : Vec F S2000x1 .i32) (xs0 : Vec F S256x64 .f32) (xs1 : Vec F S1x256 .f32) (y : S256x64.Idx) :
    ∃ pc ∈ (kernelRun2_C c i arg1 harg1 arg2 harg2 arg3 harg3 arg4 harg4 arg5 harg5 arg6 harg6 arg7 harg7 arg8 harg8 arg9 harg9 arg10 harg10 hc0 hc1 x0 x1 x2 x3 x4 x5 xs0 xs1).1, y ∈ pc.1.set :=
  View.cover_of_tiledL (kernelRun2_C c i arg1 harg1 arg2 harg2 arg3 harg3 arg4 harg4 arg5 harg5 arg6 harg6 arg7 harg7 arg8 harg8 arg9 harg9 arg10 harg10 hc0 hc1 x0 x1 x2 x3 x4 x5 xs0 xs1).1 S256x64.size (by sl_kernel_rfl) y

/-- What case C leaves in output 6's staging buffer: its pieces read back over junk. -/
def out2_C_6 (c : Dev nD) (i : grid2.Coords) (arg1 : Memref sig .tc .vmem S2000x64 .f32) (harg1 : arg1.IsWhole) (arg2 : Memref sig .tc .vmem S2000x64 .f32) (harg2 : arg2.IsWhole) (arg3 : Memref sig .tc .vmem S2000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2000x1 .i32) (harg6 : arg6.IsWhole) (arg7 : Memref sig .tc .vmem S256x64 .f32) (harg7 : arg7.IsWhole) (arg8 : Memref sig .tc .vmem S1x256 .f32) (harg8 : arg8.IsWhole) (arg9 : Memref sig .tc .vmem S256x64 .f32) (harg9 : arg9.IsWhole) (arg10 : Memref sig .tc .vmem S1x256 .f32) (harg10 : arg10.IsWhole) (hc0 : ¬cond2_0 i) (hc1 : cond2_1 i)
    (x0 : Vec F S2000x64 .f32) (x1 : Vec F S2000x64 .f32) (x2 : Vec F S2000x1 .f32) (x3 : Vec F S128x64 .f32) (x4 : Vec F S1x64 .f32) (x5 : Vec F S2000x1 .i32) (xs0 : Vec F S256x64 .f32) (xs1 : Vec F S1x256 .f32) : Vec F S256x64 .f32 :=
  VO2_6.read (Elt F) (VO2_6.writes (Elt F) VO2_6.junk (kernelRun2_C c i arg1 harg1 arg2 harg2 arg3 harg3 arg4 harg4 arg5 harg5 arg6 harg6 arg7 harg7 arg8 harg8 arg9 harg9 arg10 harg10 hc0 hc1 x0 x1 x2 x3 x4 x5 xs0 xs1).1)

/-- Case C's pieces for output 7 tile its block (one whole store), so they cover it. -/
theorem cover2_C_7 (c : Dev nD) (i : grid2.Coords) (arg1 : Memref sig .tc .vmem S2000x64 .f32) (harg1 : arg1.IsWhole) (arg2 : Memref sig .tc .vmem S2000x64 .f32) (harg2 : arg2.IsWhole) (arg3 : Memref sig .tc .vmem S2000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2000x1 .i32) (harg6 : arg6.IsWhole) (arg7 : Memref sig .tc .vmem S256x64 .f32) (harg7 : arg7.IsWhole) (arg8 : Memref sig .tc .vmem S1x256 .f32) (harg8 : arg8.IsWhole) (arg9 : Memref sig .tc .vmem S256x64 .f32) (harg9 : arg9.IsWhole) (arg10 : Memref sig .tc .vmem S1x256 .f32) (harg10 : arg10.IsWhole) (hc0 : ¬cond2_0 i) (hc1 : cond2_1 i)
    (x0 : Vec F S2000x64 .f32) (x1 : Vec F S2000x64 .f32) (x2 : Vec F S2000x1 .f32) (x3 : Vec F S128x64 .f32) (x4 : Vec F S1x64 .f32) (x5 : Vec F S2000x1 .i32) (xs0 : Vec F S256x64 .f32) (xs1 : Vec F S1x256 .f32) (y : S1x256.Idx) :
    ∃ pc ∈ (kernelRun2_C c i arg1 harg1 arg2 harg2 arg3 harg3 arg4 harg4 arg5 harg5 arg6 harg6 arg7 harg7 arg8 harg8 arg9 harg9 arg10 harg10 hc0 hc1 x0 x1 x2 x3 x4 x5 xs0 xs1).2.1, y ∈ pc.1.set :=
  View.cover_of_tiledL (kernelRun2_C c i arg1 harg1 arg2 harg2 arg3 harg3 arg4 harg4 arg5 harg5 arg6 harg6 arg7 harg7 arg8 harg8 arg9 harg9 arg10 harg10 hc0 hc1 x0 x1 x2 x3 x4 x5 xs0 xs1).2.1 S1x256.size (by sl_kernel_rfl) y

/-- What case C leaves in output 7's staging buffer: its pieces read back over junk. -/
def out2_C_7 (c : Dev nD) (i : grid2.Coords) (arg1 : Memref sig .tc .vmem S2000x64 .f32) (harg1 : arg1.IsWhole) (arg2 : Memref sig .tc .vmem S2000x64 .f32) (harg2 : arg2.IsWhole) (arg3 : Memref sig .tc .vmem S2000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2000x1 .i32) (harg6 : arg6.IsWhole) (arg7 : Memref sig .tc .vmem S256x64 .f32) (harg7 : arg7.IsWhole) (arg8 : Memref sig .tc .vmem S1x256 .f32) (harg8 : arg8.IsWhole) (arg9 : Memref sig .tc .vmem S256x64 .f32) (harg9 : arg9.IsWhole) (arg10 : Memref sig .tc .vmem S1x256 .f32) (harg10 : arg10.IsWhole) (hc0 : ¬cond2_0 i) (hc1 : cond2_1 i)
    (x0 : Vec F S2000x64 .f32) (x1 : Vec F S2000x64 .f32) (x2 : Vec F S2000x1 .f32) (x3 : Vec F S128x64 .f32) (x4 : Vec F S1x64 .f32) (x5 : Vec F S2000x1 .i32) (xs0 : Vec F S256x64 .f32) (xs1 : Vec F S1x256 .f32) : Vec F S1x256 .f32 :=
  VO2_7.read (Elt F) (VO2_7.writes (Elt F) VO2_7.junk (kernelRun2_C c i arg1 harg1 arg2 harg2 arg3 harg3 arg4 harg4 arg5 harg5 arg6 harg6 arg7 harg7 arg8 harg8 arg9 harg9 arg10 harg10 hc0 hc1 x0 x1 x2 x3 x4 x5 xs0 xs1).2.1)

/-- Case C's pieces for the first accumulator (256×64) cover it: whole stores, tiling it. -/
theorem scover2_C_0 (c : Dev nD) (i : grid2.Coords) (arg1 : Memref sig .tc .vmem S2000x64 .f32) (harg1 : arg1.IsWhole) (arg2 : Memref sig .tc .vmem S2000x64 .f32) (harg2 : arg2.IsWhole) (arg3 : Memref sig .tc .vmem S2000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2000x1 .i32) (harg6 : arg6.IsWhole) (arg7 : Memref sig .tc .vmem S256x64 .f32) (harg7 : arg7.IsWhole) (arg8 : Memref sig .tc .vmem S1x256 .f32) (harg8 : arg8.IsWhole) (arg9 : Memref sig .tc .vmem S256x64 .f32) (harg9 : arg9.IsWhole) (arg10 : Memref sig .tc .vmem S1x256 .f32) (harg10 : arg10.IsWhole) (hc0 : ¬cond2_0 i) (hc1 : cond2_1 i)
    (x0 : Vec F S2000x64 .f32) (x1 : Vec F S2000x64 .f32) (x2 : Vec F S2000x1 .f32) (x3 : Vec F S128x64 .f32) (x4 : Vec F S1x64 .f32) (x5 : Vec F S2000x1 .i32) (xs0 : Vec F S256x64 .f32) (xs1 : Vec F S1x256 .f32) (y : S256x64.Idx) :
    ∃ pc ∈ (kernelRun2_C c i arg1 harg1 arg2 harg2 arg3 harg3 arg4 harg4 arg5 harg5 arg6 harg6 arg7 harg7 arg8 harg8 arg9 harg9 arg10 harg10 hc0 hc1 x0 x1 x2 x3 x4 x5 xs0 xs1).2.2.1, y ∈ pc.1.set :=
  View.cover_of_tiledL (kernelRun2_C c i arg1 harg1 arg2 harg2 arg3 harg3 arg4 harg4 arg5 harg5 arg6 harg6 arg7 harg7 arg8 harg8 arg9 harg9 arg10 harg10 hc0 hc1 x0 x1 x2 x3 x4 x5 xs0 xs1).2.2.1 S256x64.size (by sl_kernel_rfl) y

/-- What case C leaves in the first accumulator: its pieces read back over junk. -/
def sout2_C_0 (c : Dev nD) (i : grid2.Coords) (arg1 : Memref sig .tc .vmem S2000x64 .f32) (harg1 : arg1.IsWhole) (arg2 : Memref sig .tc .vmem S2000x64 .f32) (harg2 : arg2.IsWhole) (arg3 : Memref sig .tc .vmem S2000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2000x1 .i32) (harg6 : arg6.IsWhole) (arg7 : Memref sig .tc .vmem S256x64 .f32) (harg7 : arg7.IsWhole) (arg8 : Memref sig .tc .vmem S1x256 .f32) (harg8 : arg8.IsWhole) (arg9 : Memref sig .tc .vmem S256x64 .f32) (harg9 : arg9.IsWhole) (arg10 : Memref sig .tc .vmem S1x256 .f32) (harg10 : arg10.IsWhole) (hc0 : ¬cond2_0 i) (hc1 : cond2_1 i)
    (x0 : Vec F S2000x64 .f32) (x1 : Vec F S2000x64 .f32) (x2 : Vec F S2000x1 .f32) (x3 : Vec F S128x64 .f32) (x4 : Vec F S1x64 .f32) (x5 : Vec F S2000x1 .i32) (xs0 : Vec F S256x64 .f32) (xs1 : Vec F S1x256 .f32) : Vec F S256x64 .f32 :=
  VS2_0.read (Elt F) (VS2_0.writes (Elt F) VS2_0.junk (kernelRun2_C c i arg1 harg1 arg2 harg2 arg3 harg3 arg4 harg4 arg5 harg5 arg6 harg6 arg7 harg7 arg8 harg8 arg9 harg9 arg10 harg10 hc0 hc1 x0 x1 x2 x3 x4 x5 xs0 xs1).2.2.1)

/-- Case C's pieces for the second accumulator (1×256) cover it: whole stores, tiling it. -/
theorem scover2_C_1 (c : Dev nD) (i : grid2.Coords) (arg1 : Memref sig .tc .vmem S2000x64 .f32) (harg1 : arg1.IsWhole) (arg2 : Memref sig .tc .vmem S2000x64 .f32) (harg2 : arg2.IsWhole) (arg3 : Memref sig .tc .vmem S2000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2000x1 .i32) (harg6 : arg6.IsWhole) (arg7 : Memref sig .tc .vmem S256x64 .f32) (harg7 : arg7.IsWhole) (arg8 : Memref sig .tc .vmem S1x256 .f32) (harg8 : arg8.IsWhole) (arg9 : Memref sig .tc .vmem S256x64 .f32) (harg9 : arg9.IsWhole) (arg10 : Memref sig .tc .vmem S1x256 .f32) (harg10 : arg10.IsWhole) (hc0 : ¬cond2_0 i) (hc1 : cond2_1 i)
    (x0 : Vec F S2000x64 .f32) (x1 : Vec F S2000x64 .f32) (x2 : Vec F S2000x1 .f32) (x3 : Vec F S128x64 .f32) (x4 : Vec F S1x64 .f32) (x5 : Vec F S2000x1 .i32) (xs0 : Vec F S256x64 .f32) (xs1 : Vec F S1x256 .f32) (y : S1x256.Idx) :
    ∃ pc ∈ (kernelRun2_C c i arg1 harg1 arg2 harg2 arg3 harg3 arg4 harg4 arg5 harg5 arg6 harg6 arg7 harg7 arg8 harg8 arg9 harg9 arg10 harg10 hc0 hc1 x0 x1 x2 x3 x4 x5 xs0 xs1).2.2.2.1, y ∈ pc.1.set :=
  View.cover_of_tiledL (kernelRun2_C c i arg1 harg1 arg2 harg2 arg3 harg3 arg4 harg4 arg5 harg5 arg6 harg6 arg7 harg7 arg8 harg8 arg9 harg9 arg10 harg10 hc0 hc1 x0 x1 x2 x3 x4 x5 xs0 xs1).2.2.2.1 S1x256.size (by sl_kernel_rfl) y

/-- What case C leaves in the second accumulator: its pieces read back over junk. -/
def sout2_C_1 (c : Dev nD) (i : grid2.Coords) (arg1 : Memref sig .tc .vmem S2000x64 .f32) (harg1 : arg1.IsWhole) (arg2 : Memref sig .tc .vmem S2000x64 .f32) (harg2 : arg2.IsWhole) (arg3 : Memref sig .tc .vmem S2000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2000x1 .i32) (harg6 : arg6.IsWhole) (arg7 : Memref sig .tc .vmem S256x64 .f32) (harg7 : arg7.IsWhole) (arg8 : Memref sig .tc .vmem S1x256 .f32) (harg8 : arg8.IsWhole) (arg9 : Memref sig .tc .vmem S256x64 .f32) (harg9 : arg9.IsWhole) (arg10 : Memref sig .tc .vmem S1x256 .f32) (harg10 : arg10.IsWhole) (hc0 : ¬cond2_0 i) (hc1 : cond2_1 i)
    (x0 : Vec F S2000x64 .f32) (x1 : Vec F S2000x64 .f32) (x2 : Vec F S2000x1 .f32) (x3 : Vec F S128x64 .f32) (x4 : Vec F S1x64 .f32) (x5 : Vec F S2000x1 .i32) (xs0 : Vec F S256x64 .f32) (xs1 : Vec F S1x256 .f32) : Vec F S1x256 .f32 :=
  VS2_1.read (Elt F) (VS2_1.writes (Elt F) VS2_1.junk (kernelRun2_C c i arg1 harg1 arg2 harg2 arg3 harg3 arg4 harg4 arg5 harg5 arg6 harg6 arg7 harg7 arg8 harg8 arg9 harg9 arg10 harg10 hc0 hc1 x0 x1 x2 x3 x4 x5 xs0 xs1).2.2.2.1)

/-! ## What the outputs and the accumulators hold after each point -/

/-- THE ACCUMULATION. What the two output staging buffers and the two scratch accumulators hold after the body at
    position `n` (output 6, output 7, first accumulator, second accumulator): the case the closed forms select at `n`,
    run at the point's memrefs and input blocks, the accumulators taken at what this leaves at `n - 1`. An assignment of
    the two conditions that no point meets is no case. -/
def outsAt2 (c : Dev nD) : (n : ℕ) → n < cfg2.N → Vec F S256x64 .f32 × Vec F S1x256 .f32 × Vec F S256x64 .f32 × Vec F S1x256 .f32
  | 0, hn => (out2_A_6 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩), out2_A_7 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩), sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩))
  | n + 1, hn =>
    if h0 : (n + 1) % 50 = 0 then
      if h1 : (n + 1) % 50 = 49 then
        False.elim (by have hN : n + 1 < 50 := lt_of_lt_of_eq hn (show cfg2.N = 50 from N_2); omega)
      else
        (out2_A_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩), out2_A_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩), sout2_A_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩))
    else
      if h1 : (n + 1) % 50 = 49 then
        (out2_C_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.1 (outsAt2 c n (Nat.lt_of_succ_lt hn)).2.2.2, out2_C_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.1 (outsAt2 c n (Nat.lt_of_succ_lt hn)).2.2.2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.1 (outsAt2 c n (Nat.lt_of_succ_lt hn)).2.2.2, sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.1 (outsAt2 c n (Nat.lt_of_succ_lt hn)).2.2.2)
      else
        (out2_B_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.1 (outsAt2 c n (Nat.lt_of_succ_lt hn)).2.2.2, out2_B_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.1 (outsAt2 c n (Nat.lt_of_succ_lt hn)).2.2.2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.1 (outsAt2 c n (Nat.lt_of_succ_lt hn)).2.2.2, sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.1 (outsAt2 c n (Nat.lt_of_succ_lt hn)).2.2.2)

/-- `outsAt2` at a point of case A: that case's contents. -/
theorem outsAt2_A (c : Dev nD) (t : Fin cfg2.N) (h0 : t.val % 50 = 0) (h1 : ¬t.val % 50 = 49) :
    outsAt2 V c t.val t.isLt = (out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t), out2_A_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t), sout2_A_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t)) := by
  obtain ⟨n, hn⟩ := t
  cases n with
  | zero => exact rfl
  | succ n => exact (dif_pos h0).trans ((dif_neg h1).trans rfl)

/-- `outsAt2` at a point of case B: that case's contents, over what the point before left in the accumulators. -/
theorem outsAt2_B (c : Dev nD) (t : Fin cfg2.N) (h0 : ¬t.val % 50 = 0) (h1 : ¬t.val % 50 = 49) :
    outsAt2 V c t.val t.isLt = (out2_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.1 (outsAt2 V c (t.val - 1) (Nat.lt_of_le_of_lt (Nat.sub_le _ _) t.isLt)).2.2.2, out2_B_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.1 (outsAt2 V c (t.val - 1) (Nat.lt_of_le_of_lt (Nat.sub_le _ _) t.isLt)).2.2.2, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.1 (outsAt2 V c (t.val - 1) (Nat.lt_of_le_of_lt (Nat.sub_le _ _) t.isLt)).2.2.2, sout2_B_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.1 (outsAt2 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt2` at a point of case C: that case's contents, over what the point before left in the accumulators. -/
theorem outsAt2_C (c : Dev nD) (t : Fin cfg2.N) (h0 : ¬t.val % 50 = 0) (h1 : t.val % 50 = 49) :
    outsAt2 V c t.val t.isLt = (out2_C_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.1 (outsAt2 V c (t.val - 1) (Nat.lt_of_le_of_lt (Nat.sub_le _ _) t.isLt)).2.2.2, out2_C_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.1 (outsAt2 V c (t.val - 1) (Nat.lt_of_le_of_lt (Nat.sub_le _ _) t.isLt)).2.2.2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.1 (outsAt2 V c (t.val - 1) (Nat.lt_of_le_of_lt (Nat.sub_le _ _) t.isLt)).2.2.2, sout2_C_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.1 (outsAt2 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The region invariant with the accumulators carried -/

/-- The region invariant before position `n`: before the first point the launch's (every scoped buffer at anything);
    afterwards the two accumulators at what the point before left in them, the other calls' scoped buffers at anything,
    and the generator register at some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2.2.1) ∗ owns (c : Thread nD τ) scM2_1 fullShare ((outsAt2 V c n hn).2.2.2) ∗ restScoped2 (F := F) c) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the accumulators at that point's contents. -/
theorem PhiS2_succ (c : Dev nD) (n : ℕ) (hn : n < cfg2.N) :
    PhiS2 V c (n + 1) hn = iprop(iprop(owns (c : Thread nD τ) scM2_0 fullShare ((outsAt2 V c n hn).2.2.1) ∗ owns (c : Thread nD τ) scM2_1 fullShare ((outsAt2 V c n hn).2.2.2) ∗ restScoped2 (F := F) c) ∗ (∃ r, prngReg c r)) := rfl

/-- Before a point that is not the first: the accumulators at what the point before left. -/
theorem PhiS2_pos (c : Dev nD) (n : ℕ) (h : n ≤ cfg2.N) (hz : n ≠ 0) :
    PhiS2 V c n h = iprop(iprop(owns (c : Thread nD τ) scM2_0 fullShare ((outsAt2 V c (n - 1) (by omega)).2.2.1) ∗ owns (c : Thread nD τ) scM2_1 fullShare ((outsAt2 V c (n - 1) (by omega)).2.2.2) ∗ restScoped2 (F := F) c) ∗ (∃ r, prngReg c r)) := by
  cases n with
  | zero => exact absurd rfl hz
  | succ n => rfl

/-! ## The pipeline's proof data -/

/-- The proof data of pipeline 2 on core `c`: the arrays as the region finds them; after the body at point `t` each
    input's buffer at its block and the two outputs' at `outsAt2`'s components; the invariant `PhiS2`; nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1
    | ⟨7, _⟩ => (outsAt2 V c t.val t.isLt).2.1
  Φ t := PhiS2 V c t.val (Nat.le_of_lt_succ t.isLt)
  q _ := fullShare
  owed _ := 0

/-- The proof data's arrays are the region-entry contents (the definition projected). -/
theorem A_eq2 (c : Dev nD) (w : Fin cfg2.W) : (dat2 V c).A w = V c (Pipeline.arrRef spec2 w) := by
  dsimp only [dat2]

/-- The invariant at a point's start, restated at the point's position. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outsAt2 V c t.val t.isLt).1 := by dsimp only [dat2]
theorem after2_7 (c : Dev nD) (t : Fin cfg2.N) : (dat2 V c).after 7 t = (outsAt2 V c t.val t.isLt).2.1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t)

set_option maxHeartbeats 4800000 in
/-- The body at any point. The inputs' memrefs hold their blocks; the closed forms say which case the point is in; the
    invariant hands the body the two accumulators — at anything at the first point, at what the point before left
    afterwards — and takes them back at this point's contents (their pieces cover them); the other calls' scoped
    buffers, the generator register and what the core owes pass through untouched; an output the case does not store
    is handed back as found, and the last point's two outputs at their pieces read back. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  have hN : t.val < 50 := lt_of_lt_of_eq t.isLt (show cfg2.N = 50 from N_2)
  by_cases h0 : t.val % 50 = 0
  · by_cases h1 : t.val % 50 = 49
    · exfalso; omega
    · -- case A: the first point
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t], after2_5]
      rw [Dat.leavesExact_idle (dat2 V c) 6 t (idleAt2_6_A t ((hcond2_0 t).mpr h0) (fun h => h1 ((hcond2_1 t).mp h))) (noFlush2_6_A t ((hcond2_0 t).mpr h0) (fun h => h1 ((hcond2_1 t).mp h)))]
      rw [Dat.leavesExact_idle (dat2 V c) 7 t (idleAt2_7_A t ((hcond2_0 t).mpr h0) (fun h => h1 ((hcond2_1 t).mp h))) (noFlush2_7_A t ((hcond2_0 t).mpr h0) (fun h => h1 ((hcond2_1 t).mp h)))]
      rw [outsAt2_A V c t h0 h1]
      unfold sout2_A_0 sout2_A_1; (try dsimp only)
      by_cases hz : t.val = 0
      · rw [PhiS2_castSucc V c t, PhiS2_zero V c _ _ hz, PhiA2_eq]
        iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun2_A c (grid2.coords t) _ _ _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t)).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        iintro ⟨H0, H1, H2, H3, H4, H5, H6, H7, ⟨%es0, HS0⟩, ⟨%es1, HS1⟩⟩
        isplitl [HS0 HS1 HR Hg]
        · isplitr [Hg]
          swap; · iexact Hg
          isplitl [HS0]
          · unfold owns; iexists _; isplitr
            swap; · iexact HS0
            ipureintro; exact View.read_writes_of_cover _ _ _ _ _ (scover2_A_0 c _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover2_A_1 c _ _ _ _ _ _ _ _ _ _ _ _ _ _ _ _ _ _ _ _ _ _ _ _ _ _ _ _ _)
          iexact HR
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        iexists _; iexact H7
      · exfalso; omega
  · by_cases h1 : t.val % 50 = 49
    · -- case C: the last point
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t], after2_5]
      rw [show (dat2 V c).leavesExact 6 t = owns (c : Thread nD τ) (ms2_6 t) fullShare ((dat2 V c).after 6 t) from by
        unfold Dat.leavesExact; rw [liveAt2_6_C t (fun h => h0 ((hcond2_0 t).mp h)) ((hcond2_1 t).mpr h1)], after2_6]
      rw [show (dat2 V c).leavesExact 7 t = owns (c : Thread nD τ) (ms2_7 t) fullShare ((dat2 V c).after 7 t) from by
        unfold Dat.leavesExact; rw [liveAt2_7_C t (fun h => h0 ((hcond2_0 t).mp h)) ((hcond2_1 t).mpr h1)], after2_7]
      rw [outsAt2_C V c t h0 h1]
      unfold out2_C_6 out2_C_7 sout2_C_0 sout2_C_1; (try dsimp only)
      by_cases hz : t.val = 0
      · exfalso; omega
      · rw [PhiS2_castSucc V c t, PhiS2_pos V c _ _ hz]
        iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun2_C c (grid2.coords t) _ _ _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (iblk2 V c 5 t) _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [HS0]; · iexact HS0
        isplitl [HS1]; · iexact HS1
        iintro ⟨H0, H1, H2, H3, H4, H5, ⟨%e6, H6⟩, ⟨%e7, H7⟩, ⟨%es0, HS0⟩, ⟨%es1, HS1⟩⟩
        isplitl [HS0 HS1 HR Hg]
        · isplitr [Hg]
          swap; · iexact Hg
          isplitl [HS0]
          · unfold owns; iexists _; isplitr
            swap; · iexact HS0
            ipureintro; exact View.read_writes_of_cover _ _ _ _ _ (scover2_C_0 c _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover2_C_1 c _ _ _ _ _ _ _ _ _ _ _ _ _ _ _ _ _ _ _ _ _ _ _ _ _ _ _ _ _ _ _)
          iexact HR
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover2_C_6 c _ _ _ _ _ _ _ _ _ _ _ _ _ _ _ _ _ _ _ _ _ _ _ _ _ _ _ _ _ _ _)
        unfold owns; iexists _; isplitr
        swap; · iexact H7
        ipureintro; exact View.read_writes_of_cover _ _ _ _ _ (cover2_C_7 c _ _ _ _ _ _ _ _ _ _ _ _ _ _ _ _ _ _ _ _ _ _ _ _ _ _ _ _ _ _ _)
    · -- case B: the points in between
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t], after2_5]
      rw [Dat.leavesExact_idle (dat2 V c) 6 t (idleAt2_6_B t (fun h => h0 ((hcond2_0 t).mp h)) (fun h => h1 ((hcond2_1 t).mp h))) (noFlush2_6_B t (fun h => h0 ((hcond2_0 t).mp h)) (fun h => h1 ((hcond2_1 t).mp h)))]
      rw [Dat.leavesExact_idle (dat2 V c) 7 t (idleAt2_7_B t (fun h => h0 ((hcond2_0 t).mp h)) (fun h => h1 ((hcond2_1 t).mp h))) (noFlush2_7_B t (fun h => h0 ((hcond2_0 t).mp h)) (fun h => h1 ((hcond2_1 t).mp h)))]
      rw [outsAt2_B V c t h0 h1]
      unfold sout2_B_0 sout2_B_1; (try dsimp only)
      by_cases hz : t.val = 0
      · exfalso; omega
      · rw [PhiS2_castSucc V c t, PhiS2_pos V c _ _ hz]
        iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun2_B c (grid2.coords t) _ _ _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) _ _).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        iintro ⟨H0, H1, H2, H3, H4, H5, H6, H7, ⟨%es0, HS0⟩, ⟨%es1, HS1⟩⟩
        isplitl [HS0 HS1 HR Hg]
        · isplitr [Hg]
          swap; · iexact Hg
          isplitl [HS0]
          · unfold owns; iexists _; isplitr
            swap; · iexact HS0
            ipureintro; exact View.read_writes_of_cover _ _ _ _ _ (scover2_B_0 c _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover2_B_1 c _ _ _ _ _ _ _ _ _ _ _ _ _ _ _ _ _ _ _ _ _ _ _ _ _ _ _ _ _ _ _)
          iexact HR
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        iexists _; iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : (Pipeline.ΦA spec2 c : sProp 𝕄) ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the launch's back: what the accumulators hold is forgotten. -/
theorem Phi_out2 (c : Dev nD) (t : Fin (cfg2.N + 1)) (ht : t.val ≠ 0) : (dat2 V c).Φ t ⊢ (Pipeline.ΦA spec2 c : sProp 𝕄) := by
  rw [show (dat2 V c).Φ t = PhiS2 V c t.val (Nat.le_of_lt_succ t.isLt) from rfl, PhiS2_pos V c _ _ ht, PhiA2_eq]
  iintro ⟨⟨HS0, HS1, HR⟩, Hg⟩
  isplitr [Hg]
  swap; · iexact Hg
  isplitl [HS0]; · iexists _; iexact HS0
  isplitl [HS1]; · iexists _; iexact HS1
  iexact HR

/-- The same after the last point. -/
theorem hout2 (c : Dev nD) : (dat2 V c).Φ (Fin.last cfg2.N) ⊢ (Pipeline.ΦA spec2 c : sProp 𝕄) :=
  Phi_out2 V c _ (by rw [Fin.val_last]; have : cfg2.N = 50 := N_2; omega)

end Cert.KernelIdeal.Hand

end
-- ==== Proof.KI.Run.lean ====
/- THE RUN of @main: host stretch 0, region 0, host stretch 1, region 1, host stretch 2, region 2, host stretch 3.
   The buffer contents at every boundary between two of these seven segments are written as a fold from the launch
   memory `m`: a host stretch takes a valuation to what its operations compute from it; a region takes it to the same
   valuation with the region's arrays replaced by what the pipeline's write-backs leave in them. Each region's half
   (the proof data, the body obligation, the invariant at its two ends) is taken at the contents its region is entered
   with. The thread state between two segments is "every unscoped buffer whole at the boundary's contents, the generator
   register at some state, nothing owed". From these: every weakly fair execution terminates and leaves every unscoped
   buffer at the last valuation (`run_all`); and since no host operation writes an argument array and no region writes
   one either (region 0 reads `main_arg0` through an input window, which is never written back), each argument
   array ends holding what it was launched with (`frame`). Nothing here depends on the generator registers `ρ`. -/
import proofs.«400542_j69810398429749_3_alg».proof.Proof.KI.R0
import proofs.«400542_j69810398429749_3_alg».proof.Proof.KI.R1
import proofs.«400542_j69810398429749_3_alg».proof.Proof.KI.R2
import proofs.«400542_j69810398429749_3_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main -/

/-- Core `c`'s buffers at launch. -/
abbrev W0 : Dev nD → Valuation τ sig (Elt F) := fun c b => m (c, b)
/-- After `hostOps0` (region 0's entry). -/
abbrev W1 : Dev nD → Valuation τ sig (Elt F) := fun c => StableHlo.after hostOps0 (W0 m c)
/-- The same read at the TensorCore's references (what region 0's proof data take). -/
abbrev V1 : (c : Dev nD) → (b : Ref sig .tc) → Buf (Elt F) ((c : Thread nD τ).loc b) := fun c b => W1 m c b
/-- At region 0's exit: its arrays at what the pipeline leaves (the inputs as entered, each output's write-backs
    folded), every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m c b
/-- At region 0's exit each of its arrays holds what the pipeline leaves (`hF0`) and every other buffer what it
    held at entry (`hrest0`). -/
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After `hostOps1` (region 1's entry). -/
abbrev W3 : Dev nD → Valuation τ sig (Elt F) := fun c => StableHlo.after hostOps1 (W2 m c)
/-- The same read at the TensorCore's references (what region 1's proof data take). -/
abbrev V3 : (c : Dev nD) → (b : Ref sig .tc) → Buf (Elt F) ((c : Thread nD τ).loc b) := fun c b => W3 m c b
/-- At region 1's exit: its arrays at what the pipeline leaves (the inputs as entered, each output's write-backs
    folded), every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m c b
/-- At region 1's exit each of its arrays holds what the pipeline leaves (`hF1`) and every other buffer what it
    held at entry (`hrest1`). -/
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After `hostOps2` (region 2's entry). -/
abbrev W5 : Dev nD → Valuation τ sig (Elt F) := fun c => StableHlo.after hostOps2 (W4 m c)
/-- The same read at the TensorCore's references (what region 2's proof data take). -/
abbrev V5 : (c : Dev nD) → (b : Ref sig .tc) → Buf (Elt F) ((c : Thread nD τ).loc b) := fun c b => W5 m c b
/-- At region 2's exit: its arrays at what the pipeline leaves (the inputs as entered, each output's write-backs
    folded), every other buffer as entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m c b
/-- At region 2's exit each of its arrays holds what the pipeline leaves (`hF2`) and every other buffer what it
    held at entry (`hrest2`). -/
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-- After `hostOps3` (the end of @main). -/
abbrev W7 : Dev nD → Valuation τ sig (Elt F) := fun c => StableHlo.after hostOps3 (W6 m c)

/-! ### The arguments end as launched: no host operation writes one, and no region writes one (region 0 reads
    `main_arg0` through its input window 1, whose array is never written back; no other argument is a window), so the
    fold at an argument's buffer walks back to the launch memory -/

theorem W7_main_arg0 (c : Dev nD) : W7 m c (Proc.devRef .tc main_arg0) = m ((c : Thread nD τ).loc main_arg0) :=
  calc W7 m c (Proc.devRef .tc main_arg0)
    _ = W6 m c (Proc.devRef .tc main_arg0) := StableHlo.after_of_writes_sub hostOps3 _ hostOps3_writes (by decide)
    _ = W5 m c (Proc.devRef .tc main_arg0) := W6_of_ne m c main_arg0 (by decide)
    _ = W4 m c (Proc.devRef .tc main_arg0) := StableHlo.after_of_writes_sub hostOps2 _ hostOps2_writes (by decide)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := (W2_arr m c 1).trans (((dat0 (V1 m) c).arrAt_in 1 rfl _).trans (A_eq0 (V1 m) c 1))
    _ = W0 m c (Proc.devRef .tc main_arg0) := StableHlo.after_of_writes_sub hostOps0 _ hostOps0_writes (by decide)
    _ = m ((c : Thread nD τ).loc main_arg0) := rfl

theorem W7_main_arg1 (c : Dev nD) : W7 m c (Proc.devRef .tc main_arg1) = m ((c : Thread nD τ).loc main_arg1) :=
  calc W7 m c (Proc.devRef .tc main_arg1)
    _ = W6 m c (Proc.devRef .tc main_arg1) := StableHlo.after_of_writes_sub hostOps3 _ hostOps3_writes (by decide)
    _ = W5 m c (Proc.devRef .tc main_arg1) := W6_of_ne m c main_arg1 (by decide)
    _ = W4 m c (Proc.devRef .tc main_arg1) := StableHlo.after_of_writes_sub hostOps2 _ hostOps2_writes (by decide)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

theorem W7_main_arg2 (c : Dev nD) : W7 m c (Proc.devRef .tc main_arg2) = m ((c : Thread nD τ).loc main_arg2) :=
  calc W7 m c (Proc.devRef .tc main_arg2)
    _ = W6 m c (Proc.devRef .tc main_arg2) := StableHlo.after_of_writes_sub hostOps3 _ hostOps3_writes (by decide)
    _ = W5 m c (Proc.devRef .tc main_arg2) := W6_of_ne m c main_arg2 (by decide)
    _ = W4 m c (Proc.devRef .tc main_arg2) := StableHlo.after_of_writes_sub hostOps2 _ hostOps2_writes (by decide)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl

theorem W7_main_arg3 (c : Dev nD) : W7 m c (Proc.devRef .tc main_arg3) = m ((c : Thread nD τ).loc main_arg3) :=
  calc W7 m c (Proc.devRef .tc main_arg3)
    _ = W6 m c (Proc.devRef .tc main_arg3) := StableHlo.after_of_writes_sub hostOps3 _ hostOps3_writes (by decide)
    _ = W5 m c (Proc.devRef .tc main_arg3) := W6_of_ne m c main_arg3 (by decide)
    _ = W4 m c (Proc.devRef .tc main_arg3) := StableHlo.after_of_writes_sub hostOps2 _ hostOps2_writes (by decide)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl

theorem W7_main_arg4 (c : Dev nD) : W7 m c (Proc.devRef .tc main_arg4) = m ((c : Thread nD τ).loc main_arg4) :=
  calc W7 m c (Proc.devRef .tc main_arg4)
    _ = W6 m c (Proc.devRef .tc main_arg4) := StableHlo.after_of_writes_sub hostOps3 _ hostOps3_writes (by decide)
    _ = W5 m c (Proc.devRef .tc main_arg4) := W6_of_ne m c main_arg4 (by decide)
    _ = W4 m c (Proc.devRef .tc main_arg4) := StableHlo.after_of_writes_sub hostOps2 _ hostOps2_writes (by decide)
    _ = W3 m c (Proc.devRef .tc main_arg4) := W4_of_ne m c main_arg4 (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl

theorem W7_main_arg5 (c : Dev nD) : W7 m c (Proc.devRef .tc main_arg5) = m ((c : Thread nD τ).loc main_arg5) :=
  calc W7 m c (Proc.devRef .tc main_arg5)
    _ = W6 m c (Proc.devRef .tc main_arg5) := StableHlo.after_of_writes_sub hostOps3 _ hostOps3_writes (by decide)
    _ = W5 m c (Proc.devRef .tc main_arg5) := W6_of_ne m c main_arg5 (by decide)
    _ = W4 m c (Proc.devRef .tc main_arg5) := StableHlo.after_of_writes_sub hostOps2 _ hostOps2_writes (by decide)
    _ = W3 m c (Proc.devRef .tc main_arg5) := W4_of_ne m c main_arg5 (by decide)
    _ = W2 m c (Proc.devRef .tc main_arg5) := StableHlo.after_of_writes_sub hostOps1 _ hostOps1_writes (by decide)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl

theorem W7_main_arg6 (c : Dev nD) : W7 m c (Proc.devRef .tc main_arg6) = m ((c : Thread nD τ).loc main_arg6) :=
  calc W7 m c (Proc.devRef .tc main_arg6)
    _ = W6 m c (Proc.devRef .tc main_arg6) := StableHlo.after_of_writes_sub hostOps3 _ hostOps3_writes (by decide)
    _ = W5 m c (Proc.devRef .tc main_arg6) := W6_of_ne m c main_arg6 (by decide)
    _ = W4 m c (Proc.devRef .tc main_arg6) := StableHlo.after_of_writes_sub hostOps2 _ hostOps2_writes (by decide)
    _ = W3 m c (Proc.devRef .tc main_arg6) := W4_of_ne m c main_arg6 (by decide)
    _ = W2 m c (Proc.devRef .tc main_arg6) := StableHlo.after_of_writes_sub hostOps1 _ hostOps1_writes (by decide)
    _ = W1 m c (Proc.devRef .tc main_arg6) := W2_of_ne m c main_arg6 (by decide)
    _ = W0 m c (Proc.devRef .tc main_arg6) := StableHlo.after_of_writes_sub hostOps0 _ hostOps0_writes (by decide)
    _ = m ((c : Thread nD τ).loc main_arg6) := rfl

theorem W7_main_arg7 (c : Dev nD) : W7 m c (Proc.devRef .tc main_arg7) = m ((c : Thread nD τ).loc main_arg7) :=
  calc W7 m c (Proc.devRef .tc main_arg7)
    _ = W6 m c (Proc.devRef .tc main_arg7) := StableHlo.after_of_writes_sub hostOps3 _ hostOps3_writes (by decide)
    _ = W5 m c (Proc.devRef .tc main_arg7) := W6_of_ne m c main_arg7 (by decide)
    _ = W4 m c (Proc.devRef .tc main_arg7) := StableHlo.after_of_writes_sub hostOps2 _ hostOps2_writes (by decide)
    _ = W3 m c (Proc.devRef .tc main_arg7) := W4_of_ne m c main_arg7 (by decide)
    _ = W2 m c (Proc.devRef .tc main_arg7) := StableHlo.after_of_writes_sub hostOps1 _ hostOps1_writes (by decide)
    _ = W1 m c (Proc.devRef .tc main_arg7) := W2_of_ne m c main_arg7 (by decide)
    _ = W0 m c (Proc.devRef .tc main_arg7) := StableHlo.after_of_writes_sub hostOps0 _ hostOps0_writes (by decide)
    _ = m ((c : Thread nD τ).loc main_arg7) := rfl

theorem W7_main_arg8 (c : Dev nD) : W7 m c (Proc.devRef .tc main_arg8) = m ((c : Thread nD τ).loc main_arg8) :=
  calc W7 m c (Proc.devRef .tc main_arg8)
    _ = W6 m c (Proc.devRef .tc main_arg8) := StableHlo.after_of_writes_sub hostOps3 _ hostOps3_writes (by decide)
    _ = W5 m c (Proc.devRef .tc main_arg8) := W6_of_ne m c main_arg8 (by decide)
    _ = W4 m c (Proc.devRef .tc main_arg8) := StableHlo.after_of_writes_sub hostOps2 _ hostOps2_writes (by decide)
    _ = W3 m c (Proc.devRef .tc main_arg8) := W4_of_ne m c main_arg8 (by decide)
    _ = W2 m c (Proc.devRef .tc main_arg8) := StableHlo.after_of_writes_sub hostOps1 _ hostOps1_writes (by decide)
    _ = W1 m c (Proc.devRef .tc main_arg8) := W2_of_ne m c main_arg8 (by decide)
    _ = W0 m c (Proc.devRef .tc main_arg8) := StableHlo.after_of_writes_sub hostOps0 _ hostOps0_writes (by decide)
    _ = m ((c : Thread nD τ).loc main_arg8) := rfl

theorem W7_main_arg9 (c : Dev nD) : W7 m c (Proc.devRef .tc main_arg9) = m ((c : Thread nD τ).loc main_arg9) :=
  calc W7 m c (Proc.devRef .tc main_arg9)
    _ = W6 m c (Proc.devRef .tc main_arg9) := StableHlo.after_of_writes_sub hostOps3 _ hostOps3_writes (by decide)
    _ = W5 m c (Proc.devRef .tc main_arg9) := W6_of_ne m c main_arg9 (by decide)
    _ = W4 m c (Proc.devRef .tc main_arg9) := StableHlo.after_of_writes_sub hostOps2 _ hostOps2_writes (by decide)
    _ = W3 m c (Proc.devRef .tc main_arg9) := W4_of_ne m c main_arg9 (by decide)
    _ = W2 m c (Proc.devRef .tc main_arg9) := StableHlo.after_of_writes_sub hostOps1 _ hostOps1_writes (by decide)
    _ = W1 m c (Proc.devRef .tc main_arg9) := W2_of_ne m c main_arg9 (by decide)
    _ = W0 m c (Proc.devRef .tc main_arg9) := StableHlo.after_of_writes_sub hostOps0 _ hostOps0_writes (by decide)
    _ = m ((c : Thread nD τ).loc main_arg9) := rfl

theorem W7_main_arg10 (c : Dev nD) : W7 m c (Proc.devRef .tc main_arg10) = m ((c : Thread nD τ).loc main_arg10) :=
  calc W7 m c (Proc.devRef .tc main_arg10)
    _ = W6 m c (Proc.devRef .tc main_arg10) := StableHlo.after_of_writes_sub hostOps3 _ hostOps3_writes (by decide)
    _ = W5 m c (Proc.devRef .tc main_arg10) := W6_of_ne m c main_arg10 (by decide)
    _ = W4 m c (Proc.devRef .tc main_arg10) := StableHlo.after_of_writes_sub hostOps2 _ hostOps2_writes (by decide)
    _ = W3 m c (Proc.devRef .tc main_arg10) := W4_of_ne m c main_arg10 (by decide)
    _ = W2 m c (Proc.devRef .tc main_arg10) := StableHlo.after_of_writes_sub hostOps1 _ hostOps1_writes (by decide)
    _ = W1 m c (Proc.devRef .tc main_arg10) := W2_of_ne m c main_arg10 (by decide)
    _ = W0 m c (Proc.devRef .tc main_arg10) := StableHlo.after_of_writes_sub hostOps0 _ hostOps0_writes (by decide)
    _ = m ((c : Thread nD τ).loc main_arg10) := rfl

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that the pinned
    configuration at a numeral reduces to the printed one. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (a region's
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it runs to those
    references at what its operations compute from `W c`, which is the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W7`, the generator
    register at some state. -/
abbrev Tₙ (c : Dev nD) : sProp 𝕄 := iprop(StableHlo.held (c : Thread nD τ) (Pipeline.ucRefs τ sig) (W7 m c) ∗ ∃ r, prngReg c r)

/-! ## The regions as segments -/

-- a library lemma stated over `pin pcs a p` unifies with the pinned configuration only when unification may unfold plain
-- definitions in a metavariable's type
set_option backward.isDefEq.respectTransparency.types false in
/-- REGION 0 (custom_call 0) over the thread state: entered from every unscoped buffer at `W1`, left at `W2` (what the
    next host stretch is entered from). Its arrays are split out of the unscoped buffers and put back at the exit
    contents; the generator register goes into the region's invariant and comes back out; nothing is owed; the kernel
    has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun w => A_eq0 (V1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    show _ ⊢ (dat0 (V1 m) c).Φ 0
    refine BIBase.Entails.trans ?_ (hin0 (V1 m) c)
    unfold Pipeline.ΦA
    iintro ⟨Hp, -, Hr⟩
    isplitl [Hr]; · iexact Hr
    iexact Hp
  hout c := by
    rw [Pipeline.ownSems0_none]
    show (dat0 (V1 m) c).Φ (Fin.last cfg0.N) ⊢ _
    refine BIBase.Entails.trans (hout0 (V1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold plain
-- definitions in a metavariable's type
set_option backward.isDefEq.respectTransparency.types false in
/-- REGION 1 (custom_call 1) over the thread state: entered from every unscoped buffer at `W3`, left at `W4` (what the
    next host stretch is entered from). Its arrays are split out of the unscoped buffers and put back at the exit
    contents; the generator register goes into the region's invariant and comes back out; nothing is owed; the kernel
    has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun w => A_eq1 (V3 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    show _ ⊢ (dat1 (V3 m) c).Φ 0
    refine BIBase.Entails.trans ?_ (hin1 (V3 m) c)
    unfold Pipeline.ΦA
    iintro ⟨Hp, -, Hr⟩
    isplitl [Hr]; · iexact Hr
    iexact Hp
  hout c := by
    rw [Pipeline.ownSems0_none]
    show (dat1 (V3 m) c).Φ (Fin.last cfg1.N) ⊢ _
    refine BIBase.Entails.trans (hout1 (V3 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold plain
-- definitions in a metavariable's type
set_option backward.isDefEq.respectTransparency.types false in
/-- REGION 2 (custom_call 2) over the thread state: entered from every unscoped buffer at `W5`, left at `W6` (what the
    next host stretch is entered from). Its arrays are split out of the unscoped buffers and put back at the exit
    contents; the generator register goes into the region's invariant and comes back out; nothing is owed; the kernel
    has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun w => A_eq2 (V5 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    show _ ⊢ (dat2 (V5 m) c).Φ 0
    refine BIBase.Entails.trans ?_ (hin2 (V5 m) c)
    unfold Pipeline.ΦA
    iintro ⟨Hp, -, Hr⟩
    isplitl [Hr]; · iexact Hr
    iexact Hp
  hout c := by
    rw [Pipeline.ownSems0_none]
    show (dat2 (V5 m) c).Φ (Fin.last cfg2.N) ⊢ _
    refine BIBase.Entails.trans (hout2 (V5 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 7 segments in order: a host segment per stretch from its boundary's contents, a region per pallas_call. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]

/-- @main IS the run of the segments: it is the chain of its seven items, and the segments' run is the chain of their
    programs, which are those items. -/
theorem main_run (c : Dev nD) : main (F := F) c = Pipeline.Seg.run (segs m) := by
  rewrite [main_chain c, Pipeline.Seg.run_eq_chain,
    show (segs m).map Pipeline.Seg.prog = [
      StableHlo.seq hostOps0,
      Prog.lift (.customCall (Pipeline.entry 0) ()),
      StableHlo.seq hostOps1,
      Prog.lift (.customCall (Pipeline.entry 1) ()),
      StableHlo.seq hostOps2,
      Prog.lift (.customCall (Pipeline.entry 2) ()),
      StableHlo.seq hostOps3 ] from rfl]
  rfl

-- the launch theorem's implicit arguments are found by unifying its conclusion with this one, which takes unfolding plain
-- definitions in a metavariable's type
set_option backward.isDefEq.respectTransparency.types false in
/-- THE RUN: at the compiled mesh, from any memory `m` with zero counters and any generator registers, every weakly
    fair execution of @main on the TensorCores terminates, nothing faulting, and in every final state each core's
    unscoped buffers hold the last boundary's contents `W7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun c => by
        show iprop(StableHlo.held (c : Thread nD τ) (Pipeline.ucRefs τ sig) (W7 m c) ∗ R c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun _ h => h)

/-- THE FRAME: at the compiled mesh, from any memory with zero counters, every weakly fair execution of @main on the
    TensorCores terminates, nothing faulting, and every final state has each of the eleven argument arrays as launched:
    each is an unscoped buffer, which `run_all` reads at `W7`, and `W7` at an argument is the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (W7_main_arg0 m c),
      (h c _ (mem_uc main_arg1 (by decide))).trans (W7_main_arg1 m c),
      (h c _ (mem_uc main_arg2 (by decide))).trans (W7_main_arg2 m c),
      (h c _ (mem_uc main_arg3 (by decide))).trans (W7_main_arg3 m c),
      (h c _ (mem_uc main_arg4 (by decide))).trans (W7_main_arg4 m c),
      (h c _ (mem_uc main_arg5 (by decide))).trans (W7_main_arg5 m c),
      (h c _ (mem_uc main_arg6 (by decide))).trans (W7_main_arg6 m c),
      (h c _ (mem_uc main_arg7 (by decide))).trans (W7_main_arg7 m c),
      (h c _ (mem_uc main_arg8 (by decide))).trans (W7_main_arg8 m c),
      (h c _ (mem_uc main_arg9 (by decide))).trans (W7_main_arg9 m c),
      (h c _ (mem_uc main_arg10 (by decide))).trans (W7_main_arg10 m c)⟩) (run_all m ρ)

end Cert.KernelIdeal.Hand

end
-- ==== Proof.RefRead.lean ====
/- The reference's run read back one operation at a time: the generated modules this proof builds on. -/
import proofs.«400542_j69810398429749_3_alg».proof.Proof.Gen.ReferenceIdeal.Run
import proofs.«400542_j69810398429749_3_alg».proof.Proof.Gen.ReferenceIdeal.Read
-- ==== Proof.KI.HostVals.lean ====
/- What the four host stretches of the idealized kernel program leave in the buffers that the
   kernel launches and the result read, as composed operation terms of the buffers each stretch
   reads, for an arbitrary valuation it starts from; and the buffers each stretch leaves untouched. -/
import proofs.«400542_j69810398429749_3_alg».proof.Proof.Gen.KernelIdeal.Launch
import proofs.«400542_j69810398429749_3_alg».proof.Proof.Gen.KernelIdeal.Regions
import Idealize.ShloMosaic.Lib.StableHlo.Run
import Idealize.ShloMosaic.PureOps.Ideal

set_option maxRecDepth 16384

noncomputable section

namespace Cert.KernelIdeal.HostVals

open Idealize.ShloMosaic Idealize.ShloMosaic.TcCoe Idealize.SL.Sem Idealize.ShloMosaic.StableHlo
open Cert.KernelIdeal Cert.KernelIdeal.Gen

/-! ## The operation terms, named -/

section Terms

variable {F : FTy → Type} [FloatOps F]

/-- Row 0 of the edge table, flattened: each edge's source node. -/
def srcK (x1 : (⟨S2x1600000, .i32⟩ : BufTy).Contents (Elt F)) : (⟨S1600000, .i32⟩ : BufTy).Contents (Elt F) :=
  shapeCast _ (extractStridedSlice S1x1600000 ![0, 0] (x1) slices_S2x1600000_S1x1600000_0_0) shapeCasts_S1x1600000_S1600000

/-- Row 1 of the edge table, flattened: each edge's target node. -/
def dstK (x1 : (⟨S2x1600000, .i32⟩ : BufTy).Contents (Elt F)) : (⟨S1600000, .i32⟩ : BufTy).Contents (Elt F) :=
  shapeCast _ (extractStridedSlice S1x1600000 ![1, 0] (x1) slices_S2x1600000_S1x1600000_1_0) shapeCasts_S1x1600000_S1600000

/-- The edge sources with a negative index moved up by the node count. -/
def wrapK (e1 : (⟨S1600000, .i32⟩ : BufTy).Contents (Elt F)) : (⟨S1600000, .i32⟩ : BufTy).Contents (Elt F) :=
  select (cmpi .slt e1 (broadcastInDim S1600000 ![] bcast_S_S1600000 (constantI S_ 32 0#32)))
    (addi e1 (broadcastInDim S1600000 ![] bcast_S_S1600000 (constantI S_ 32 100000#32))) e1

/-- The neighbour sum: row `v` of the result is the sum, over the edges whose target `e3` is `v`,
    of the row of `x` at the edge's (wrapped) source `e1`. -/
def aggK (x : (⟨S100000x64, .f32⟩ : BufTy).Contents (Elt F)) (e1 e3 : (⟨S1600000, .i32⟩ : BufTy).Contents (Elt F)) :
    (⟨S100000x64, .f32⟩ : BufTy).Contents (Elt F) :=
  Host.scatterAdd scatter_S100000x64_S1600000x1_S1600000x64_1_0_0_1
    (broadcastInDim S100000x64 ![] bcast_S_S100000x64 (constant (F := F) S_ .f32 0x00000000#32))
    (broadcastInDim S1600000x1 ![0] bcast_S1600000_S1600000x1_0 e3)
    (Host.gather gather_S100000x64_S1600000x1_S1600000x64_1_0_n_n_0_1_164 x
      (broadcastInDim S1600000x1 ![0] bcast_S1600000_S1600000x1_0 (wrapK (F := F) e1)))

/-- The number of edges into each node, and at least one. -/
def degK (e3 : (⟨S1600000, .i32⟩ : BufTy).Contents (Elt F)) : (⟨S100000, .f32⟩ : BufTy).Contents (Elt F) :=
  maximumf
    (Host.scatterAdd scatter_S100000_S1600000x1_S1600000_n_0_0_1
      (broadcastInDim S100000 ![] bcast_S_S100000 (constant (F := F) S_ .f32 0x00000000#32))
      (broadcastInDim S1600000x1 ![0] bcast_S1600000_S1600000x1_0 e3)
      (broadcastInDim S1600000 ![] bcast_S_S1600000 (constant (F := F) S_ .f32 0x3F800000#32)))
    (broadcastInDim S100000 ![] bcast_S_S100000 (constant (F := F) S_ .f32 0x3F800000#32))

/-- One over that count, as a column. -/
def invDegK (e3 : (⟨S1600000, .i32⟩ : BufTy).Contents (Elt F)) : (⟨S100000x1, .f32⟩ : BufTy).Contents (Elt F) :=
  broadcastInDim S100000x1 ![0] bcast_S100000_S100000x1_0
    (Host.divf (broadcastInDim S100000 ![] bcast_S_S100000 (constant (F := F) S_ .f32 0x3F800000#32)) (degK (F := F) e3))

/-- Two square weight matrices, each transposed, stacked one above the other. -/
def wcatK (a b : (⟨S64x64, .f32⟩ : BufTy).Contents (Elt F)) : (⟨S128x64, .f32⟩ : BufTy).Contents (Elt F) :=
  concatenate S128x64 0 [⟨S64x64, transpose S64x64 [1, 0] a transposes_S64x64_S64x64_1_0⟩,
    ⟨S64x64, transpose S64x64 [1, 0] b transposes_S64x64_S64x64_1_0⟩] concatenates_S64x64_S64x64_S128x64_d0

/-- The node count as a 64-lane row. -/
def nK : (⟨S64, .f32⟩ : BufTy).Contents (Elt F) :=
  broadcastInDim S64 ![] bcast_S_S64 (constant (F := F) S_ .f32 0x47C35000#32)

/-- The variance floor as a 64-lane row. -/
def epsK : (⟨S64, .f32⟩ : BufTy).Contents (Elt F) :=
  broadcastInDim S64 ![] bcast_S_S64 (constant (F := F) S_ .f32 0x3727C5AC#32)

/-- The per-lane mean, from the column sums `s`. -/
def meanK (s : (⟨S64, .f32⟩ : BufTy).Contents (Elt F)) : (⟨S64, .f32⟩ : BufTy).Contents (Elt F) :=
  Host.divf s (nK (F := F))

/-- The normalization's per-lane scale: the gain `g` over the square root of (the mean of squares
    minus the squared mean, plus the floor), from the column sums `s` and sums of squares `ss`. -/
def scaleK (s ss g : (⟨S64, .f32⟩ : BufTy).Contents (Elt F)) : (⟨S64, .f32⟩ : BufTy).Contents (Elt F) :=
  mulf g (Host.rsqrt (addf (subf (Host.divf ss (nK (F := F))) (mulf (meanK (F := F) s) (meanK (F := F) s))) (epsK (F := F))))

/-- The normalization's per-lane shift: the offset `b` minus the mean times the scale. -/
def shiftK (s ss g b : (⟨S64, .f32⟩ : BufTy).Contents (Elt F)) : (⟨S64, .f32⟩ : BufTy).Contents (Elt F) :=
  subf b (mulf (meanK (F := F) s) (scaleK (F := F) s ss g))

/-- A 64-lane row written twice, as one 128-lane row. -/
def dupK (v : (⟨S64, .f32⟩ : BufTy).Contents (Elt F)) : (⟨S1x128, .f32⟩ : BufTy).Contents (Elt F) :=
  shapeCast _ (concatenate S128 0 [⟨S64, v⟩, ⟨S64, v⟩] concatenates_S64_S64_S128_d0) shapeCasts_S128_S1x128

end Terms

variable (W : Valuation τ sig (Elt Ideal))

/-! ## Stretch 0: before the first launch -/

theorem after0_v1 :
    (StableHlo.after hostOps0 W (Proc.devRef .tc main_v1) : (⟨S1600000, .i32⟩ : BufTy).Contents (Elt Ideal))
      = srcK (F := Ideal) (W (Proc.devRef .tc main_arg1) : (⟨S2x1600000, .i32⟩ : BufTy).Contents (Elt Ideal)) := by
  show StableHlo.after hostOps0 W (Proc.devRef .tc main_v1) = _
  after_results_simp
  rfl

theorem after0_v3 :
    (StableHlo.after hostOps0 W (Proc.devRef .tc main_v3) : (⟨S1600000, .i32⟩ : BufTy).Contents (Elt Ideal))
      = dstK (F := Ideal) (W (Proc.devRef .tc main_arg1) : (⟨S2x1600000, .i32⟩ : BufTy).Contents (Elt Ideal)) := by
  show StableHlo.after hostOps0 W (Proc.devRef .tc main_v3) = _
  after_results_simp
  rfl

theorem after0_v25 :
    (StableHlo.after hostOps0 W (Proc.devRef .tc main_v25) : (⟨S128x64, .f32⟩ : BufTy).Contents (Elt Ideal))
      = wcatK (F := Ideal) (W (Proc.devRef .tc main_arg3) : (⟨S64x64, .f32⟩ : BufTy).Contents (Elt Ideal))
          (W (Proc.devRef .tc main_arg4) : (⟨S64x64, .f32⟩ : BufTy).Contents (Elt Ideal)) := by
  show StableHlo.after hostOps0 W (Proc.devRef .tc main_v25) = _
  after_results_simp
  rfl

theorem after0_v26 :
    (StableHlo.after hostOps0 W (Proc.devRef .tc main_v26) : (⟨S1x64, .f32⟩ : BufTy).Contents (Elt Ideal))
      = shapeCast _ (W (Proc.devRef .tc main_arg5) : (⟨S64, .f32⟩ : BufTy).Contents (Elt Ideal)) shapeCasts_S64_S1x64 := by
  show StableHlo.after hostOps0 W (Proc.devRef .tc main_v26) = _
  after_results_simp
  rfl

theorem after0_v12 :
    (StableHlo.after hostOps0 W (Proc.devRef .tc main_v12) : (⟨S100000x1, .f32⟩ : BufTy).Contents (Elt Ideal))
      = invDegK (F := Ideal) (dstK (F := Ideal) (W (Proc.devRef .tc main_arg1) : (⟨S2x1600000, .i32⟩ : BufTy).Contents (Elt Ideal))) := by
  show StableHlo.after hostOps0 W (Proc.devRef .tc main_v12) = _
  after_results_simp
  rfl

theorem after0_v22 :
    (StableHlo.after hostOps0 W (Proc.devRef .tc main_v22) : (⟨S100000x64, .f32⟩ : BufTy).Contents (Elt Ideal))
      = aggK (F := Ideal) (W (Proc.devRef .tc main_arg0) : (⟨S100000x64, .f32⟩ : BufTy).Contents (Elt Ideal))
          (srcK (F := Ideal) (W (Proc.devRef .tc main_arg1) : (⟨S2x1600000, .i32⟩ : BufTy).Contents (Elt Ideal)))
          (dstK (F := Ideal) (W (Proc.devRef .tc main_arg1) : (⟨S2x1600000, .i32⟩ : BufTy).Contents (Elt Ideal))) := by
  show StableHlo.after hostOps0 W (Proc.devRef .tc main_v22) = _
  after_results_simp
  rfl

variable (W : Valuation τ sig (Elt Ideal))

/-! ## Stretch 1: between the first and the second launch -/

theorem after1_v42 :
    (StableHlo.after hostOps1 W (Proc.devRef .tc main_v42) : (⟨S50000x128, .f32⟩ : BufTy).Contents (Elt Ideal))
      = shapeCast _ (W (Proc.devRef .tc main_v27_0) : (⟨S100000x64, .f32⟩ : BufTy).Contents (Elt Ideal)) shapeCasts_S100000x64_S50000x128 := by
  show StableHlo.after hostOps1 W (Proc.devRef .tc main_v42) = _
  after_results_simp
  rfl

theorem after1_v44 :
    (StableHlo.after hostOps1 W (Proc.devRef .tc main_v44) : (⟨S1x128, .f32⟩ : BufTy).Contents (Elt Ideal))
      = dupK (F := Ideal) (scaleK (F := Ideal)
          (shapeCast _ (W (Proc.devRef .tc main_v27_1) : (⟨S1x64, .f32⟩ : BufTy).Contents (Elt Ideal)) shapeCasts_S1x64_S64)
          (shapeCast _ (W (Proc.devRef .tc main_v27_2) : (⟨S1x64, .f32⟩ : BufTy).Contents (Elt Ideal)) shapeCasts_S1x64_S64)
          (W (Proc.devRef .tc main_arg6) : (⟨S64, .f32⟩ : BufTy).Contents (Elt Ideal))) := by
  show StableHlo.after hostOps1 W (Proc.devRef .tc main_v44) = _
  after_results_simp
  rfl

theorem after1_v46 :
    (StableHlo.after hostOps1 W (Proc.devRef .tc main_v46) : (⟨S1x128, .f32⟩ : BufTy).Contents (Elt Ideal))
      = dupK (F := Ideal) (shiftK (F := Ideal)
          (shapeCast _ (W (Proc.devRef .tc main_v27_1) : (⟨S1x64, .f32⟩ : BufTy).Contents (Elt Ideal)) shapeCasts_S1x64_S64)
          (shapeCast _ (W (Proc.devRef .tc main_v27_2) : (⟨S1x64, .f32⟩ : BufTy).Contents (Elt Ideal)) shapeCasts_S1x64_S64)
          (W (Proc.devRef .tc main_arg6) : (⟨S64, .f32⟩ : BufTy).Contents (Elt Ideal))
          (W (Proc.devRef .tc main_arg7) : (⟨S64, .f32⟩ : BufTy).Contents (Elt Ideal))) := by
  show StableHlo.after hostOps1 W (Proc.devRef .tc main_v46) = _
  after_results_simp
  rfl

/-! ## Stretch 2: between the second and the third launch -/

theorem after2_v48 :
    (StableHlo.after hostOps2 W (Proc.devRef .tc main_v48) : (⟨S100000x64, .f32⟩ : BufTy).Contents (Elt Ideal))
      = shapeCast _ (W (Proc.devRef .tc main_v47) : (⟨S50000x128, .f32⟩ : BufTy).Contents (Elt Ideal)) shapeCasts_S50000x128_S100000x64 := by
  show StableHlo.after hostOps2 W (Proc.devRef .tc main_v48) = _
  after_results_simp
  rfl

theorem after2_v58 :
    (StableHlo.after hostOps2 W (Proc.devRef .tc main_v58) : (⟨S100000x64, .f32⟩ : BufTy).Contents (Elt Ideal))
      = aggK (F := Ideal)
          (shapeCast _ (W (Proc.devRef .tc main_v47) : (⟨S50000x128, .f32⟩ : BufTy).Contents (Elt Ideal)) shapeCasts_S50000x128_S100000x64)
          (W (Proc.devRef .tc main_v1) : (⟨S1600000, .i32⟩ : BufTy).Contents (Elt Ideal))
          (W (Proc.devRef .tc main_v3) : (⟨S1600000, .i32⟩ : BufTy).Contents (Elt Ideal)) := by
  show StableHlo.after hostOps2 W (Proc.devRef .tc main_v58) = _
  after_results_simp
  rfl

theorem after2_v61 :
    (StableHlo.after hostOps2 W (Proc.devRef .tc main_v61) : (⟨S128x64, .f32⟩ : BufTy).Contents (Elt Ideal))
      = wcatK (F := Ideal) (W (Proc.devRef .tc main_arg8) : (⟨S64x64, .f32⟩ : BufTy).Contents (Elt Ideal))
          (W (Proc.devRef .tc main_arg9) : (⟨S64x64, .f32⟩ : BufTy).Contents (Elt Ideal)) := by
  show StableHlo.after hostOps2 W (Proc.devRef .tc main_v61) = _
  after_results_simp
  rfl

theorem after2_v62 :
    (StableHlo.after hostOps2 W (Proc.devRef .tc main_v62) : (⟨S1x64, .f32⟩ : BufTy).Contents (Elt Ideal))
      = shapeCast _ (W (Proc.devRef .tc main_arg10) : (⟨S64, .f32⟩ : BufTy).Contents (Elt Ideal)) shapeCasts_S64_S1x64 := by
  show StableHlo.after hostOps2 W (Proc.devRef .tc main_v62) = _
  after_results_simp
  rfl

theorem after2_v63 :
    (StableHlo.after hostOps2 W (Proc.devRef .tc main_v63) : (⟨S100000x1, .i32⟩ : BufTy).Contents (Elt Ideal))
      = shapeCast _ (W (Proc.devRef .tc main_arg2) : (⟨S100000, .i32⟩ : BufTy).Contents (Elt Ideal)) shapeCasts_S100000_S100000x1 := by
  show StableHlo.after hostOps2 W (Proc.devRef .tc main_v63) = _
  after_results_simp
  rfl

/-! ## Stretch 3: after the third launch -/

theorem after3_v69 :
    (StableHlo.after hostOps3 W (Proc.devRef .tc main_v69) : (⟨S256x64, .f32⟩ : BufTy).Contents (Elt Ideal))
      = Host.divf (F := Ideal) (W (Proc.devRef .tc main_v64_0) : (⟨S256x64, .f32⟩ : BufTy).Contents (Elt Ideal))
          (broadcastInDim S256x64 ![0, 1] bcast_S256x1_S256x64_0_1
            (maximumf (F := Ideal)
              (shapeCast _ (W (Proc.devRef .tc main_v64_1) : (⟨S1x256, .f32⟩ : BufTy).Contents (Elt Ideal)) shapeCasts_S1x256_S256x1)
              (broadcastInDim S256x1 ![] bcast_S_S256x1 (constant (F := Ideal) S_ .f32 0x3F800000#32)))) := by
  show StableHlo.after hostOps3 W (Proc.devRef .tc main_v69) = _
  after_results_simp
  rfl

/-! ## What each stretch leaves untouched -/

/-- Stretch 0 changes none but the buffers it writes. -/
theorem after0_of (r : Ref sig .tc) (h : r ∉ hostOps0_W) :
    StableHlo.after hostOps0 W (Proc.devRef .tc r) = W (Proc.devRef .tc r) :=
  StableHlo.after_of_writes_sub hostOps0 _ hostOps0_writes h
/-- Stretch 1 changes none but the buffers it writes. -/
theorem after1_of (r : Ref sig .tc) (h : r ∉ hostOps1_W) :
    StableHlo.after hostOps1 W (Proc.devRef .tc r) = W (Proc.devRef .tc r) :=
  StableHlo.after_of_writes_sub hostOps1 _ hostOps1_writes h
/-- Stretch 2 changes none but the buffers it writes. -/
theorem after2_of (r : Ref sig .tc) (h : r ∉ hostOps2_W) :
    StableHlo.after hostOps2 W (Proc.devRef .tc r) = W (Proc.devRef .tc r) :=
  StableHlo.after_of_writes_sub hostOps2 _ hostOps2_writes h
/-- Stretch 3 changes none but the buffers it writes. -/
theorem after3_of (r : Ref sig .tc) (h : r ∉ hostOps3_W) :
    StableHlo.after hostOps3 W (Proc.devRef .tc r) = W (Proc.devRef .tc r) :=
  StableHlo.after_of_writes_sub hostOps3 _ hostOps3_writes h

-- the inverse in-degree column and the two edge rows, written by stretch 0, pass through stretches 1 and 2
theorem after1_v12 : StableHlo.after hostOps1 W (Proc.devRef .tc main_v12) = W (Proc.devRef .tc main_v12) :=
  after1_of W main_v12 (by decide)
theorem after1_v1 : StableHlo.after hostOps1 W (Proc.devRef .tc main_v1) = W (Proc.devRef .tc main_v1) :=
  after1_of W main_v1 (by decide)
theorem after1_v3 : StableHlo.after hostOps1 W (Proc.devRef .tc main_v3) = W (Proc.devRef .tc main_v3) :=
  after1_of W main_v3 (by decide)
theorem after2_v12 : StableHlo.after hostOps2 W (Proc.devRef .tc main_v12) = W (Proc.devRef .tc main_v12) :=
  after2_of W main_v12 (by decide)
theorem after2_v1 : StableHlo.after hostOps2 W (Proc.devRef .tc main_v1) = W (Proc.devRef .tc main_v1) :=
  after2_of W main_v1 (by decide)
theorem after2_v3 : StableHlo.after hostOps2 W (Proc.devRef .tc main_v3) = W (Proc.devRef .tc main_v3) :=
  after2_of W main_v3 (by decide)

-- the arguments pass through every stretch
theorem after0_arg0 : StableHlo.after hostOps0 W (Proc.devRef .tc main_arg0) = W (Proc.devRef .tc main_arg0) :=
  after0_of W main_arg0 (by decide)
theorem after0_arg1 : StableHlo.after hostOps0 W (Proc.devRef .tc main_arg1) = W (Proc.devRef .tc main_arg1) :=
  after0_of W main_arg1 (by decide)
theorem after0_arg2 : StableHlo.after hostOps0 W (Proc.devRef .tc main_arg2) = W (Proc.devRef .tc main_arg2) :=
  after0_of W main_arg2 (by decide)
theorem after0_arg3 : StableHlo.after hostOps0 W (Proc.devRef .tc main_arg3) = W (Proc.devRef .tc main_arg3) :=
  after0_of W main_arg3 (by decide)
theorem after0_arg4 : StableHlo.after hostOps0 W (Proc.devRef .tc main_arg4) = W (Proc.devRef .tc main_arg4) :=
  after0_of W main_arg4 (by decide)
theorem after0_arg5 : StableHlo.after hostOps0 W (Proc.devRef .tc main_arg5) = W (Proc.devRef .tc main_arg5) :=
  after0_of W main_arg5 (by decide)
theorem after0_arg6 : StableHlo.after hostOps0 W (Proc.devRef .tc main_arg6) = W (Proc.devRef .tc main_arg6) :=
  after0_of W main_arg6 (by decide)
theorem after0_arg7 : StableHlo.after hostOps0 W (Proc.devRef .tc main_arg7) = W (Proc.devRef .tc main_arg7) :=
  after0_of W main_arg7 (by decide)
theorem after0_arg8 : StableHlo.after hostOps0 W (Proc.devRef .tc main_arg8) = W (Proc.devRef .tc main_arg8) :=
  after0_of W main_arg8 (by decide)
theorem after0_arg9 : StableHlo.after hostOps0 W (Proc.devRef .tc main_arg9) = W (Proc.devRef .tc main_arg9) :=
  after0_of W main_arg9 (by decide)
theorem after0_arg10 : StableHlo.after hostOps0 W (Proc.devRef .tc main_arg10) = W (Proc.devRef .tc main_arg10) :=
  after0_of W main_arg10 (by decide)
theorem after1_arg0 : StableHlo.after hostOps1 W (Proc.devRef .tc main_arg0) = W (Proc.devRef .tc main_arg0) :=
  after1_of W main_arg0 (by decide)
theorem after1_arg1 : StableHlo.after hostOps1 W (Proc.devRef .tc main_arg1) = W (Proc.devRef .tc main_arg1) :=
  after1_of W main_arg1 (by decide)
theorem after1_arg2 : StableHlo.after hostOps1 W (Proc.devRef .tc main_arg2) = W (Proc.devRef .tc main_arg2) :=
  after1_of W main_arg2 (by decide)
theorem after1_arg3 : StableHlo.after hostOps1 W (Proc.devRef .tc main_arg3) = W (Proc.devRef .tc main_arg3) :=
  after1_of W main_arg3 (by decide)
theorem after1_arg4 : StableHlo.after hostOps1 W (Proc.devRef .tc main_arg4) = W (Proc.devRef .tc main_arg4) :=
  after1_of W main_arg4 (by decide)
theorem after1_arg5 : StableHlo.after hostOps1 W (Proc.devRef .tc main_arg5) = W (Proc.devRef .tc main_arg5) :=
  after1_of W main_arg5 (by decide)
theorem after1_arg6 : StableHlo.after hostOps1 W (Proc.devRef .tc main_arg6) = W (Proc.devRef .tc main_arg6) :=
  after1_of W main_arg6 (by decide)
theorem after1_arg7 : StableHlo.after hostOps1 W (Proc.devRef .tc main_arg7) = W (Proc.devRef .tc main_arg7) :=
  after1_of W main_arg7 (by decide)
theorem after1_arg8 : StableHlo.after hostOps1 W (Proc.devRef .tc main_arg8) = W (Proc.devRef .tc main_arg8) :=
  after1_of W main_arg8 (by decide)
theorem after1_arg9 : StableHlo.after hostOps1 W (Proc.devRef .tc main_arg9) = W (Proc.devRef .tc main_arg9) :=
  after1_of W main_arg9 (by decide)
theorem after1_arg10 : StableHlo.after hostOps1 W (Proc.devRef .tc main_arg10) = W (Proc.devRef .tc main_arg10) :=
  after1_of W main_arg10 (by decide)
theorem after2_arg0 : StableHlo.after hostOps2 W (Proc.devRef .tc main_arg0) = W (Proc.devRef .tc main_arg0) :=
  after2_of W main_arg0 (by decide)
theorem after2_arg1 : StableHlo.after hostOps2 W (Proc.devRef .tc main_arg1) = W (Proc.devRef .tc main_arg1) :=
  after2_of W main_arg1 (by decide)
theorem after2_arg2 : StableHlo.after hostOps2 W (Proc.devRef .tc main_arg2) = W (Proc.devRef .tc main_arg2) :=
  after2_of W main_arg2 (by decide)
theorem after2_arg3 : StableHlo.after hostOps2 W (Proc.devRef .tc main_arg3) = W (Proc.devRef .tc main_arg3) :=
  after2_of W main_arg3 (by decide)
theorem after2_arg4 : StableHlo.after hostOps2 W (Proc.devRef .tc main_arg4) = W (Proc.devRef .tc main_arg4) :=
  after2_of W main_arg4 (by decide)
theorem after2_arg5 : StableHlo.after hostOps2 W (Proc.devRef .tc main_arg5) = W (Proc.devRef .tc main_arg5) :=
  after2_of W main_arg5 (by decide)
theorem after2_arg6 : StableHlo.after hostOps2 W (Proc.devRef .tc main_arg6) = W (Proc.devRef .tc main_arg6) :=
  after2_of W main_arg6 (by decide)
theorem after2_arg7 : StableHlo.after hostOps2 W (Proc.devRef .tc main_arg7) = W (Proc.devRef .tc main_arg7) :=
  after2_of W main_arg7 (by decide)
theorem after2_arg8 : StableHlo.after hostOps2 W (Proc.devRef .tc main_arg8) = W (Proc.devRef .tc main_arg8) :=
  after2_of W main_arg8 (by decide)
theorem after2_arg9 : StableHlo.after hostOps2 W (Proc.devRef .tc main_arg9) = W (Proc.devRef .tc main_arg9) :=
  after2_of W main_arg9 (by decide)
theorem after2_arg10 : StableHlo.after hostOps2 W (Proc.devRef .tc main_arg10) = W (Proc.devRef .tc main_arg10) :=
  after2_of W main_arg10 (by decide)
theorem after3_arg0 : StableHlo.after hostOps3 W (Proc.devRef .tc main_arg0) = W (Proc.devRef .tc main_arg0) :=
  after3_of W main_arg0 (by decide)
theorem after3_arg1 : StableHlo.after hostOps3 W (Proc.devRef .tc main_arg1) = W (Proc.devRef .tc main_arg1) :=
  after3_of W main_arg1 (by decide)
theorem after3_arg2 : StableHlo.after hostOps3 W (Proc.devRef .tc main_arg2) = W (Proc.devRef .tc main_arg2) :=
  after3_of W main_arg2 (by decide)
theorem after3_arg3 : StableHlo.after hostOps3 W (Proc.devRef .tc main_arg3) = W (Proc.devRef .tc main_arg3) :=
  after3_of W main_arg3 (by decide)
theorem after3_arg4 : StableHlo.after hostOps3 W (Proc.devRef .tc main_arg4) = W (Proc.devRef .tc main_arg4) :=
  after3_of W main_arg4 (by decide)
theorem after3_arg5 : StableHlo.after hostOps3 W (Proc.devRef .tc main_arg5) = W (Proc.devRef .tc main_arg5) :=
  after3_of W main_arg5 (by decide)
theorem after3_arg6 : StableHlo.after hostOps3 W (Proc.devRef .tc main_arg6) = W (Proc.devRef .tc main_arg6) :=
  after3_of W main_arg6 (by decide)
theorem after3_arg7 : StableHlo.after hostOps3 W (Proc.devRef .tc main_arg7) = W (Proc.devRef .tc main_arg7) :=
  after3_of W main_arg7 (by decide)
theorem after3_arg8 : StableHlo.after hostOps3 W (Proc.devRef .tc main_arg8) = W (Proc.devRef .tc main_arg8) :=
  after3_of W main_arg8 (by decide)
theorem after3_arg9 : StableHlo.after hostOps3 W (Proc.devRef .tc main_arg9) = W (Proc.devRef .tc main_arg9) :=
  after3_of W main_arg9 (by decide)
theorem after3_arg10 : StableHlo.after hostOps3 W (Proc.devRef .tc main_arg10) = W (Proc.devRef .tc main_arg10) :=
  after3_of W main_arg10 (by decide)

end Cert.KernelIdeal.HostVals

end
-- ==== Proof.Val.Fold.lean ====
/- The contents of the buffers along @main's run, boundary by boundary, read as whole arrays. Starting from the launch
   memory `m` on a core `c`: the first host stretch computes, from the argument arrays, the first launch's operand
   arrays (the neighbour sum of the features, the inverse in-degree column, the stacked weights, the bias row); the
   second stretch computes the second launch's operands from what the first launch's write-backs leave (the
   pre-activations regrouped, and the normalization's scale and shift rows from the column sums and sums of squares);
   the third stretch computes the third launch's operands from what the second launch leaves (the activations
   regrouped, their neighbour sum, the same inverse in-degree column, the second layer's stacked weights and bias row, the
   graph index column); and the last stretch divides the third launch's pooled sums by the clamped counts. Each
   statement is an equality of whole arrays between a buffer's contents at a boundary and a composed operation term of
   the argument arrays and of what the launches before it leave in their output arrays. -/
import proofs.«400542_j69810398429749_3_alg».proof.Proof.KI.Run
import proofs.«400542_j69810398429749_3_alg».proof.Proof.KI.HostVals

set_option maxRecDepth 16384

noncomputable section

namespace Cert.Val

open Idealize.ShloMosaic Idealize.ShloMosaic.TcCoe Idealize.SL.Sem
open Idealize.ShloMosaic.Pipeline (Dat)
open Cert.KernelIdeal Cert.KernelIdeal.Hand Cert.KernelIdeal.HostVals
open Cert.KernelIdeal.Gen hiding V0 V1 V2 V3 V4 V5 V6 V7 adm segs seg0 seg2 seg4 seg6

variable (m : (ℓ : Loc nD τ sig) → Buf (Elt Ideal) ℓ) (c : Dev nD)

/-! ## The argument arrays at the boundaries: as launched -/

theorem W1_arg0 : (W1 m c (Proc.devRef .tc main_arg0) : (⟨S100000x64, .f32⟩ : BufTy).Contents (Elt Ideal)) = (m ((c : Thread nD τ).loc main_arg0) : (⟨S100000x64, .f32⟩ : BufTy).Contents (Elt Ideal)) := after0_arg0 (W0 m c)
theorem W1_arg1 : (W1 m c (Proc.devRef .tc main_arg1) : (⟨S2x1600000, .i32⟩ : BufTy).Contents (Elt Ideal)) = (m ((c : Thread nD τ).loc main_arg1) : (⟨S2x1600000, .i32⟩ : BufTy).Contents (Elt Ideal)) := after0_arg1 (W0 m c)
theorem W1_arg3 : (W1 m c (Proc.devRef .tc main_arg3) : (⟨S64x64, .f32⟩ : BufTy).Contents (Elt Ideal)) = (m ((c : Thread nD τ).loc main_arg3) : (⟨S64x64, .f32⟩ : BufTy).Contents (Elt Ideal)) := after0_arg3 (W0 m c)
theorem W1_arg4 : (W1 m c (Proc.devRef .tc main_arg4) : (⟨S64x64, .f32⟩ : BufTy).Contents (Elt Ideal)) = (m ((c : Thread nD τ).loc main_arg4) : (⟨S64x64, .f32⟩ : BufTy).Contents (Elt Ideal)) := after0_arg4 (W0 m c)
theorem W1_arg5 : (W1 m c (Proc.devRef .tc main_arg5) : (⟨S64, .f32⟩ : BufTy).Contents (Elt Ideal)) = (m ((c : Thread nD τ).loc main_arg5) : (⟨S64, .f32⟩ : BufTy).Contents (Elt Ideal)) := after0_arg5 (W0 m c)
theorem W1_arg6 : (W1 m c (Proc.devRef .tc main_arg6) : (⟨S64, .f32⟩ : BufTy).Contents (Elt Ideal)) = (m ((c : Thread nD τ).loc main_arg6) : (⟨S64, .f32⟩ : BufTy).Contents (Elt Ideal)) := after0_arg6 (W0 m c)
theorem W2_arg6 : (W2 m c (Proc.devRef .tc main_arg6) : (⟨S64, .f32⟩ : BufTy).Contents (Elt Ideal)) = (m ((c : Thread nD τ).loc main_arg6) : (⟨S64, .f32⟩ : BufTy).Contents (Elt Ideal)) :=
  (W2_of_ne m c main_arg6 (by decide)).trans (W1_arg6 m c)
theorem W1_arg7 : (W1 m c (Proc.devRef .tc main_arg7) : (⟨S64, .f32⟩ : BufTy).Contents (Elt Ideal)) = (m ((c : Thread nD τ).loc main_arg7) : (⟨S64, .f32⟩ : BufTy).Contents (Elt Ideal)) := after0_arg7 (W0 m c)
theorem W2_arg7 : (W2 m c (Proc.devRef .tc main_arg7) : (⟨S64, .f32⟩ : BufTy).Contents (Elt Ideal)) = (m ((c : Thread nD τ).loc main_arg7) : (⟨S64, .f32⟩ : BufTy).Contents (Elt Ideal)) :=
  (W2_of_ne m c main_arg7 (by decide)).trans (W1_arg7 m c)
theorem W1_arg2 : (W1 m c (Proc.devRef .tc main_arg2) : (⟨S100000, .i32⟩ : BufTy).Contents (Elt Ideal)) = (m ((c : Thread nD τ).loc main_arg2) : (⟨S100000, .i32⟩ : BufTy).Contents (Elt Ideal)) := after0_arg2 (W0 m c)
theorem W2_arg2 : (W2 m c (Proc.devRef .tc main_arg2) : (⟨S100000, .i32⟩ : BufTy).Contents (Elt Ideal)) = (m ((c : Thread nD τ).loc main_arg2) : (⟨S100000, .i32⟩ : BufTy).Contents (Elt Ideal)) :=
  (W2_of_ne m c main_arg2 (by decide)).trans (W1_arg2 m c)
theorem W3_arg2 : (W3 m c (Proc.devRef .tc main_arg2) : (⟨S100000, .i32⟩ : BufTy).Contents (Elt Ideal)) = (m ((c : Thread nD τ).loc main_arg2) : (⟨S100000, .i32⟩ : BufTy).Contents (Elt Ideal)) :=
  (after1_arg2 (W2 m c)).trans (W2_arg2 m c)
theorem W4_arg2 : (W4 m c (Proc.devRef .tc main_arg2) : (⟨S100000, .i32⟩ : BufTy).Contents (Elt Ideal)) = (m ((c : Thread nD τ).loc main_arg2) : (⟨S100000, .i32⟩ : BufTy).Contents (Elt Ideal)) :=
  (W4_of_ne m c main_arg2 (by decide)).trans (W3_arg2 m c)
theorem W1_arg8 : (W1 m c (Proc.devRef .tc main_arg8) : (⟨S64x64, .f32⟩ : BufTy).Contents (Elt Ideal)) = (m ((c : Thread nD τ).loc main_arg8) : (⟨S64x64, .f32⟩ : BufTy).Contents (Elt Ideal)) := after0_arg8 (W0 m c)
theorem W2_arg8 : (W2 m c (Proc.devRef .tc main_arg8) : (⟨S64x64, .f32⟩ : BufTy).Contents (Elt Ideal)) = (m ((c : Thread nD τ).loc main_arg8) : (⟨S64x64, .f32⟩ : BufTy).Contents (Elt Ideal)) :=
  (W2_of_ne m c main_arg8 (by decide)).trans (W1_arg8 m c)
theorem W3_arg8 : (W3 m c (Proc.devRef .tc main_arg8) : (⟨S64x64, .f32⟩ : BufTy).Contents (Elt Ideal)) = (m ((c : Thread nD τ).loc main_arg8) : (⟨S64x64, .f32⟩ : BufTy).Contents (Elt Ideal)) :=
  (after1_arg8 (W2 m c)).trans (W2_arg8 m c)
theorem W4_arg8 : (W4 m c (Proc.devRef .tc main_arg8) : (⟨S64x64, .f32⟩ : BufTy).Contents (Elt Ideal)) = (m ((c : Thread nD τ).loc main_arg8) : (⟨S64x64, .f32⟩ : BufTy).Contents (Elt Ideal)) :=
  (W4_of_ne m c main_arg8 (by decide)).trans (W3_arg8 m c)
theorem W1_arg9 : (W1 m c (Proc.devRef .tc main_arg9) : (⟨S64x64, .f32⟩ : BufTy).Contents (Elt Ideal)) = (m ((c : Thread nD τ).loc main_arg9) : (⟨S64x64, .f32⟩ : BufTy).Contents (Elt Ideal)) := after0_arg9 (W0 m c)
theorem W2_arg9 : (W2 m c (Proc.devRef .tc main_arg9) : (⟨S64x64, .f32⟩ : BufTy).Contents (Elt Ideal)) = (m ((c : Thread nD τ).loc main_arg9) : (⟨S64x64, .f32⟩ : BufTy).Contents (Elt Ideal)) :=
  (W2_of_ne m c main_arg9 (by decide)).trans (W1_arg9 m c)
theorem W3_arg9 : (W3 m c (Proc.devRef .tc main_arg9) : (⟨S64x64, .f32⟩ : BufTy).Contents (Elt Ideal)) = (m ((c : Thread nD τ).loc main_arg9) : (⟨S64x64, .f32⟩ : BufTy).Contents (Elt Ideal)) :=
  (after1_arg9 (W2 m c)).trans (W2_arg9 m c)
theorem W4_arg9 : (W4 m c (Proc.devRef .tc main_arg9) : (⟨S64x64, .f32⟩ : BufTy).Contents (Elt Ideal)) = (m ((c : Thread nD τ).loc main_arg9) : (⟨S64x64, .f32⟩ : BufTy).Contents (Elt Ideal)) :=
  (W4_of_ne m c main_arg9 (by decide)).trans (W3_arg9 m c)
theorem W1_arg10 : (W1 m c (Proc.devRef .tc main_arg10) : (⟨S64, .f32⟩ : BufTy).Contents (Elt Ideal)) = (m ((c : Thread nD τ).loc main_arg10) : (⟨S64, .f32⟩ : BufTy).Contents (Elt Ideal)) := after0_arg10 (W0 m c)
theorem W2_arg10 : (W2 m c (Proc.devRef .tc main_arg10) : (⟨S64, .f32⟩ : BufTy).Contents (Elt Ideal)) = (m ((c : Thread nD τ).loc main_arg10) : (⟨S64, .f32⟩ : BufTy).Contents (Elt Ideal)) :=
  (W2_of_ne m c main_arg10 (by decide)).trans (W1_arg10 m c)
theorem W3_arg10 : (W3 m c (Proc.devRef .tc main_arg10) : (⟨S64, .f32⟩ : BufTy).Contents (Elt Ideal)) = (m ((c : Thread nD τ).loc main_arg10) : (⟨S64, .f32⟩ : BufTy).Contents (Elt Ideal)) :=
  (after1_arg10 (W2 m c)).trans (W2_arg10 m c)
theorem W4_arg10 : (W4 m c (Proc.devRef .tc main_arg10) : (⟨S64, .f32⟩ : BufTy).Contents (Elt Ideal)) = (m ((c : Thread nD τ).loc main_arg10) : (⟨S64, .f32⟩ : BufTy).Contents (Elt Ideal)) :=
  (W4_of_ne m c main_arg10 (by decide)).trans (W3_arg10 m c)

/-! ## What the first stretch computes and later stretches read: the two edge rows and the inverse in-degree column

No later stretch and no launch writes them; the column is an input window of the first launch, whose array is never
written back. -/

theorem W1_v1 : (W1 m c (Proc.devRef .tc main_v1) : (⟨S1600000, .i32⟩ : BufTy).Contents (Elt Ideal)) = srcK (F := Ideal) (m ((c : Thread nD τ).loc main_arg1) : (⟨S2x1600000, .i32⟩ : BufTy).Contents (Elt Ideal)) := after0_v1 (W0 m c)
theorem W2_v1 : (W2 m c (Proc.devRef .tc main_v1) : (⟨S1600000, .i32⟩ : BufTy).Contents (Elt Ideal)) = srcK (F := Ideal) (m ((c : Thread nD τ).loc main_arg1) : (⟨S2x1600000, .i32⟩ : BufTy).Contents (Elt Ideal)) :=
  (W2_of_ne m c main_v1 (by decide)).trans (W1_v1 m c)
theorem W3_v1 : (W3 m c (Proc.devRef .tc main_v1) : (⟨S1600000, .i32⟩ : BufTy).Contents (Elt Ideal)) = srcK (F := Ideal) (m ((c : Thread nD τ).loc main_arg1) : (⟨S2x1600000, .i32⟩ : BufTy).Contents (Elt Ideal)) :=
  (after1_v1 (W2 m c)).trans (W2_v1 m c)
theorem W4_v1 : (W4 m c (Proc.devRef .tc main_v1) : (⟨S1600000, .i32⟩ : BufTy).Contents (Elt Ideal)) = srcK (F := Ideal) (m ((c : Thread nD τ).loc main_arg1) : (⟨S2x1600000, .i32⟩ : BufTy).Contents (Elt Ideal)) :=
  (W4_of_ne m c main_v1 (by decide)).trans (W3_v1 m c)

theorem W1_v3 : (W1 m c (Proc.devRef .tc main_v3) : (⟨S1600000, .i32⟩ : BufTy).Contents (Elt Ideal)) = dstK (F := Ideal) (m ((c : Thread nD τ).loc main_arg1) : (⟨S2x1600000, .i32⟩ : BufTy).Contents (Elt Ideal)) := after0_v3 (W0 m c)
theorem W2_v3 : (W2 m c (Proc.devRef .tc main_v3) : (⟨S1600000, .i32⟩ : BufTy).Contents (Elt Ideal)) = dstK (F := Ideal) (m ((c : Thread nD τ).loc main_arg1) : (⟨S2x1600000, .i32⟩ : BufTy).Contents (Elt Ideal)) :=
  (W2_of_ne m c main_v3 (by decide)).trans (W1_v3 m c)
theorem W3_v3 : (W3 m c (Proc.devRef .tc main_v3) : (⟨S1600000, .i32⟩ : BufTy).Contents (Elt Ideal)) = dstK (F := Ideal) (m ((c : Thread nD τ).loc main_arg1) : (⟨S2x1600000, .i32⟩ : BufTy).Contents (Elt Ideal)) :=
  (after1_v3 (W2 m c)).trans (W2_v3 m c)
theorem W4_v3 : (W4 m c (Proc.devRef .tc main_v3) : (⟨S1600000, .i32⟩ : BufTy).Contents (Elt Ideal)) = dstK (F := Ideal) (m ((c : Thread nD τ).loc main_arg1) : (⟨S2x1600000, .i32⟩ : BufTy).Contents (Elt Ideal)) :=
  (W4_of_ne m c main_v3 (by decide)).trans (W3_v3 m c)

theorem W1_v12 : (W1 m c (Proc.devRef .tc main_v12) : (⟨S100000x1, .f32⟩ : BufTy).Contents (Elt Ideal)) = invDegK (F := Ideal) (dstK (F := Ideal) (m ((c : Thread nD τ).loc main_arg1) : (⟨S2x1600000, .i32⟩ : BufTy).Contents (Elt Ideal))) := after0_v12 (W0 m c)
theorem W2_v12 : (W2 m c (Proc.devRef .tc main_v12) : (⟨S100000x1, .f32⟩ : BufTy).Contents (Elt Ideal)) = invDegK (F := Ideal) (dstK (F := Ideal) (m ((c : Thread nD τ).loc main_arg1) : (⟨S2x1600000, .i32⟩ : BufTy).Contents (Elt Ideal))) :=
  ((W2_arr m c 2).trans (((dat0 (V1 m) c).arrAt_in 2 rfl _).trans (A_eq0 (V1 m) c 2))).trans (W1_v12 m c)
theorem W3_v12 : (W3 m c (Proc.devRef .tc main_v12) : (⟨S100000x1, .f32⟩ : BufTy).Contents (Elt Ideal)) = invDegK (F := Ideal) (dstK (F := Ideal) (m ((c : Thread nD τ).loc main_arg1) : (⟨S2x1600000, .i32⟩ : BufTy).Contents (Elt Ideal))) :=
  (after1_v12 (W2 m c)).trans (W2_v12 m c)
theorem W4_v12 : (W4 m c (Proc.devRef .tc main_v12) : (⟨S100000x1, .f32⟩ : BufTy).Contents (Elt Ideal)) = invDegK (F := Ideal) (dstK (F := Ideal) (m ((c : Thread nD τ).loc main_arg1) : (⟨S2x1600000, .i32⟩ : BufTy).Contents (Elt Ideal))) :=
  (W4_of_ne m c main_v12 (by decide)).trans (W3_v12 m c)

/-! ## What each launch leaves in its output arrays, at the boundary after it -/

theorem W2_v27_0 : (W2 m c (Proc.devRef .tc main_v27_0) : (⟨S100000x64, .f32⟩ : BufTy).Contents (Elt Ideal)) = ((dat0 (V1 m) c).arrAt 5 cfg0.N : (⟨S100000x64, .f32⟩ : BufTy).Contents (Elt Ideal)) := W2_arr m c 5
theorem W2_v27_1 : (W2 m c (Proc.devRef .tc main_v27_1) : (⟨S1x64, .f32⟩ : BufTy).Contents (Elt Ideal)) = ((dat0 (V1 m) c).arrAt 6 cfg0.N : (⟨S1x64, .f32⟩ : BufTy).Contents (Elt Ideal)) := W2_arr m c 6
theorem W2_v27_2 : (W2 m c (Proc.devRef .tc main_v27_2) : (⟨S1x64, .f32⟩ : BufTy).Contents (Elt Ideal)) = ((dat0 (V1 m) c).arrAt 7 cfg0.N : (⟨S1x64, .f32⟩ : BufTy).Contents (Elt Ideal)) := W2_arr m c 7
theorem W4_v47 : (W4 m c (Proc.devRef .tc main_v47) : (⟨S50000x128, .f32⟩ : BufTy).Contents (Elt Ideal)) = ((dat1 (V3 m) c).arrAt 3 cfg1.N : (⟨S50000x128, .f32⟩ : BufTy).Contents (Elt Ideal)) := W4_arr m c 3
theorem W6_v64_0 : (W6 m c (Proc.devRef .tc main_v64_0) : (⟨S256x64, .f32⟩ : BufTy).Contents (Elt Ideal)) = ((dat2 (V5 m) c).arrAt 6 cfg2.N : (⟨S256x64, .f32⟩ : BufTy).Contents (Elt Ideal)) := W6_arr m c 6
theorem W6_v64_1 : (W6 m c (Proc.devRef .tc main_v64_1) : (⟨S1x256, .f32⟩ : BufTy).Contents (Elt Ideal)) = ((dat2 (V5 m) c).arrAt 7 cfg2.N : (⟨S1x256, .f32⟩ : BufTy).Contents (Elt Ideal)) := W6_arr m c 7

/-! ## (F1) The first launch's operand arrays -/

/-- The neighbour sum of the launched features over the launched edges. -/
theorem fold1_v22 : (V1 m c main_v22 : (⟨S100000x64, .f32⟩ : BufTy).Contents (Elt Ideal)) = aggK (F := Ideal) (m ((c : Thread nD τ).loc main_arg0) : (⟨S100000x64, .f32⟩ : BufTy).Contents (Elt Ideal)) (srcK (F := Ideal) (m ((c : Thread nD τ).loc main_arg1) : (⟨S2x1600000, .i32⟩ : BufTy).Contents (Elt Ideal))) (dstK (F := Ideal) (m ((c : Thread nD τ).loc main_arg1) : (⟨S2x1600000, .i32⟩ : BufTy).Contents (Elt Ideal))) :=
  after0_v22 (W0 m c)
/-- The inverse in-degree column. -/
theorem fold1_v12 : (V1 m c main_v12 : (⟨S100000x1, .f32⟩ : BufTy).Contents (Elt Ideal)) = invDegK (F := Ideal) (dstK (F := Ideal) (m ((c : Thread nD τ).loc main_arg1) : (⟨S2x1600000, .i32⟩ : BufTy).Contents (Elt Ideal))) := after0_v12 (W0 m c)
/-- The first layer's two weight matrices, transposed and stacked. -/
theorem fold1_v25 : (V1 m c main_v25 : (⟨S128x64, .f32⟩ : BufTy).Contents (Elt Ideal)) = wcatK (F := Ideal) (m ((c : Thread nD τ).loc main_arg3) : (⟨S64x64, .f32⟩ : BufTy).Contents (Elt Ideal)) (m ((c : Thread nD τ).loc main_arg4) : (⟨S64x64, .f32⟩ : BufTy).Contents (Elt Ideal)) := after0_v25 (W0 m c)
/-- The first layer's bias as a row. -/
theorem fold1_v26 : (V1 m c main_v26 : (⟨S1x64, .f32⟩ : BufTy).Contents (Elt Ideal)) = shapeCast S1x64 (m ((c : Thread nD τ).loc main_arg5) : (⟨S64, .f32⟩ : BufTy).Contents (Elt Ideal)) shapeCasts_S64_S1x64 := after0_v26 (W0 m c)
/-- The features themselves, untouched. -/
theorem fold1_arg0 : (V1 m c main_arg0 : (⟨S100000x64, .f32⟩ : BufTy).Contents (Elt Ideal)) = (m ((c : Thread nD τ).loc main_arg0) : (⟨S100000x64, .f32⟩ : BufTy).Contents (Elt Ideal)) := after0_arg0 (W0 m c)

/-! ## (F2) The second launch's operand arrays -/

/-- The first launch's pre-activations, regrouped two nodes to a row. -/
theorem fold3_v42 : (V3 m c main_v42 : (⟨S50000x128, .f32⟩ : BufTy).Contents (Elt Ideal)) = shapeCast S50000x128 ((dat0 (V1 m) c).arrAt 5 cfg0.N : (⟨S100000x64, .f32⟩ : BufTy).Contents (Elt Ideal)) shapeCasts_S100000x64_S50000x128 :=
  (after1_v42 (W2 m c)).trans (by rw [W2_v27_0 m c])
/-- The normalization's scale row, from the first launch's column sums and sums of squares and the launched gain. -/
theorem fold3_v44 : (V3 m c main_v44 : (⟨S1x128, .f32⟩ : BufTy).Contents (Elt Ideal))
    = dupK (F := Ideal) (scaleK (F := Ideal) (shapeCast S64 ((dat0 (V1 m) c).arrAt 6 cfg0.N : (⟨S1x64, .f32⟩ : BufTy).Contents (Elt Ideal)) shapeCasts_S1x64_S64) (shapeCast S64 ((dat0 (V1 m) c).arrAt 7 cfg0.N : (⟨S1x64, .f32⟩ : BufTy).Contents (Elt Ideal)) shapeCasts_S1x64_S64) (m ((c : Thread nD τ).loc main_arg6) : (⟨S64, .f32⟩ : BufTy).Contents (Elt Ideal))) :=
  (after1_v44 (W2 m c)).trans (by rw [W2_v27_1 m c, W2_v27_2 m c, W2_arg6 m c])
/-- The normalization's shift row, from the same and the launched offset. -/
theorem fold3_v46 : (V3 m c main_v46 : (⟨S1x128, .f32⟩ : BufTy).Contents (Elt Ideal))
    = dupK (F := Ideal) (shiftK (F := Ideal) (shapeCast S64 ((dat0 (V1 m) c).arrAt 6 cfg0.N : (⟨S1x64, .f32⟩ : BufTy).Contents (Elt Ideal)) shapeCasts_S1x64_S64) (shapeCast S64 ((dat0 (V1 m) c).arrAt 7 cfg0.N : (⟨S1x64, .f32⟩ : BufTy).Contents (Elt Ideal)) shapeCasts_S1x64_S64) (m ((c : Thread nD τ).loc main_arg6) : (⟨S64, .f32⟩ : BufTy).Contents (Elt Ideal)) (m ((c : Thread nD τ).loc main_arg7) : (⟨S64, .f32⟩ : BufTy).Contents (Elt Ideal))) :=
  (after1_v46 (W2 m c)).trans (by rw [W2_v27_1 m c, W2_v27_2 m c, W2_arg6 m c, W2_arg7 m c])

/-! ## (F3) The third launch's operand arrays -/

/-- The second launch's activations, regrouped one node to a row. -/
theorem fold5_v48 : (V5 m c main_v48 : (⟨S100000x64, .f32⟩ : BufTy).Contents (Elt Ideal)) = shapeCast S100000x64 ((dat1 (V3 m) c).arrAt 3 cfg1.N : (⟨S50000x128, .f32⟩ : BufTy).Contents (Elt Ideal)) shapeCasts_S50000x128_S100000x64 :=
  (after2_v48 (W4 m c)).trans (by rw [W4_v47 m c])
/-- Their neighbour sum over the launched edges. -/
theorem fold5_v58 : (V5 m c main_v58 : (⟨S100000x64, .f32⟩ : BufTy).Contents (Elt Ideal)) = aggK (F := Ideal) (shapeCast S100000x64 ((dat1 (V3 m) c).arrAt 3 cfg1.N : (⟨S50000x128, .f32⟩ : BufTy).Contents (Elt Ideal)) shapeCasts_S50000x128_S100000x64) (srcK (F := Ideal) (m ((c : Thread nD τ).loc main_arg1) : (⟨S2x1600000, .i32⟩ : BufTy).Contents (Elt Ideal))) (dstK (F := Ideal) (m ((c : Thread nD τ).loc main_arg1) : (⟨S2x1600000, .i32⟩ : BufTy).Contents (Elt Ideal))) :=
  (after2_v58 (W4 m c)).trans (by rw [W4_v47 m c, W4_v1 m c, W4_v3 m c])
/-- The inverse in-degree column, as the first stretch computed it. -/
theorem fold5_v12 : (V5 m c main_v12 : (⟨S100000x1, .f32⟩ : BufTy).Contents (Elt Ideal)) = invDegK (F := Ideal) (dstK (F := Ideal) (m ((c : Thread nD τ).loc main_arg1) : (⟨S2x1600000, .i32⟩ : BufTy).Contents (Elt Ideal))) :=
  (after2_v12 (W4 m c)).trans (W4_v12 m c)
/-- The second layer's two weight matrices, transposed and stacked. -/
theorem fold5_v61 : (V5 m c main_v61 : (⟨S128x64, .f32⟩ : BufTy).Contents (Elt Ideal)) = wcatK (F := Ideal) (m ((c : Thread nD τ).loc main_arg8) : (⟨S64x64, .f32⟩ : BufTy).Contents (Elt Ideal)) (m ((c : Thread nD τ).loc main_arg9) : (⟨S64x64, .f32⟩ : BufTy).Contents (Elt Ideal)) :=
  (after2_v61 (W4 m c)).trans (by rw [W4_arg8 m c, W4_arg9 m c])
/-- The second layer's bias as a row. -/
theorem fold5_v62 : (V5 m c main_v62 : (⟨S1x64, .f32⟩ : BufTy).Contents (Elt Ideal)) = shapeCast S1x64 (m ((c : Thread nD τ).loc main_arg10) : (⟨S64, .f32⟩ : BufTy).Contents (Elt Ideal)) shapeCasts_S64_S1x64 :=
  (after2_v62 (W4 m c)).trans (by rw [W4_arg10 m c])
/-- The graph index of each node, as a column. -/
theorem fold5_v63 : (V5 m c main_v63 : (⟨S100000x1, .i32⟩ : BufTy).Contents (Elt Ideal)) = shapeCast S100000x1 (m ((c : Thread nD τ).loc main_arg2) : (⟨S100000, .i32⟩ : BufTy).Contents (Elt Ideal)) shapeCasts_S100000_S100000x1 :=
  (after2_v63 (W4 m c)).trans (by rw [W4_arg2 m c])

/-! ## (F4) The result -/

/-- The third launch's pooled sums over its pooled counts clamped below by one. -/
theorem fold7_v69 : (W7 m c (Proc.devRef .tc main_v69) : (⟨S256x64, .f32⟩ : BufTy).Contents (Elt Ideal))
    = Host.divf (F := Ideal) ((dat2 (V5 m) c).arrAt 6 cfg2.N : (⟨S256x64, .f32⟩ : BufTy).Contents (Elt Ideal))
        (broadcastInDim S256x64 ![0, 1] bcast_S256x1_S256x64_0_1
          (maximumf (F := Ideal)
            (shapeCast S256x1 ((dat2 (V5 m) c).arrAt 7 cfg2.N : (⟨S1x256, .f32⟩ : BufTy).Contents (Elt Ideal)) shapeCasts_S1x256_S256x1)
            (broadcastInDim S256x1 ![] bcast_S_S256x1 (constant (F := Ideal) S_ .f32 0x3F800000#32)))) :=
  (after3_v69 (W6 m c)).trans (by rw [W6_v64_0 m c, W6_v64_1 m c])

end Cert.Val

end
-- ==== Proof.Val.Pay01.lean ====
/-
  The small payloads of the first two kernels read at the exact (extended-real) values: the three one-row stores of
  the statistics kernel (a value written back unchanged, and the two resets to zero), and one element of the
  normalise-and-rectify tile.
-/
import proofs.«400542_j69810398429749_3_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

set_option maxRecDepth 65536

noncomputable section

namespace Cert.Val

open Idealize.ShloMosaic Idealize.SL.Sem Idealize.ShloMosaic.ValueIdx
open Cert.KernelIdeal Cert.KernelIdeal.Gen

/-- The combine kernel's last store writes the running sum of squares back unchanged. -/
theorem k0_pay1_eq (v32 : FVec Ideal S1x64 .f32) : k0_pay1 (F := Ideal) v32 = v32 := by
  unfold k0_pay1
  exact shapeCast_self _ _

/-- At the first tile the running column sum is reset to zero. -/
theorem k0_pay2_eq : (k0_pay2 (F := Ideal)) = fun _ => (0 : EReal) := by
  unfold k0_pay2
  refine (shapeCast_self _ _).trans ?_
  funext i
  exact Ideal.ofBits_zero_f32

/-- At the first tile the running column sum of squares is reset to zero. -/
theorem k0_pay3_eq : (k0_pay3 (F := Ideal)) = fun _ => (0 : EReal) := by
  unfold k0_pay3
  refine (shapeCast_self _ _).trans ?_
  funext i
  exact Ideal.ofBits_zero_f32

/-- One element of the normalise-and-rectify tile: scale, shift, then the maximum with zero. -/
theorem k1_pay1_apply (v0 : Vec Ideal S5000x128 .f32) (v2 : Vec Ideal S1x128 .f32) (v6 : Vec Ideal S1x128 .f32)
    (r : Fin 5000) (l : Fin 128) :
    k1_pay1 (F := Ideal) v0 v2 v6 (ix2 r l)
      = max (v0 (ix2 r l) * v2 (ix2 (0 : Fin 1) l) + v6 (ix2 (0 : Fin 1) l)) 0 := by
  unfold k1_pay1
  rw [maximumf_apply, addf_apply, mulf_apply, broadcast_apply]
  rw [shapeCast_self, shapeCast_self, shapeCast_self]
  rw [broadcastTo_1b_ab_apply, broadcastTo_1b_ab_apply]
  exact congrArg (max _) Ideal.ofBits_zero_f32

end Cert.Val

end
-- ==== Proof.Val.R1Val.lean ====
/- The second launch (normalise and rectify) as ONE array function. Its grid has 10 points; point t takes rows
   [5000 t, 5000 t + 5000) of the [50000, 128] view of the activations, multiplies each lane l by the scale row's
   lane l, adds the shift row's lane l, and rectifies. The blocks tile the array, so after the run the output array
   holds, at every index (R, l), max (a (R, l) * scale l + shift l) 0. -/
import proofs.«400542_j69810398429749_3_alg».proof.Proof.KI.R1
import proofs.«400542_j69810398429749_3_alg».proof.Proof.Val.Pay01
import Idealize.ShloMosaic.Lib.Pipeline.Value
import Idealize.ShloMosaic.Lib.ValueIdx

set_option maxRecDepth 16384

noncomputable section

namespace Cert.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

theorem hz2 : (![0, 0] : Fin 2 → Nat) = fun _ => 0 := funext fun a => by fin_cases a <;> rfl

/-- The launch's result as a function of its three operand arrays, index by index. -/
def bnRelu (a0 : S50000x128.Idx → EReal) (a1 a2 : S1x128.Idx → EReal) : S50000x128.Idx → EReal :=
  fun i => max (a0 i * a1 (ix2 (0 : Fin 1) (⟨(i 1).val, idx2_lt1 i⟩ : Fin 128)) + a2 (ix2 (0 : Fin 1) (⟨(i 1).val, idx2_lt1 i⟩ : Fin 128))) 0

/-- One tile: if the tile's block of activations is rows [5000 T, 5000 T + 5000) of `a0`, its payload at (p, q) is the
    array function at row 5000 T + p. -/
theorem bnRelu_tile (x0 : Vec Ideal S5000x128 .f32) (x1 x2 : Vec Ideal S1x128 .f32)
    (a0 : S50000x128.Idx → EReal) (a1 a2 : S1x128.Idx → EReal) (T : ℕ) (hT : T < 10)
    (h0 : ∀ (p : Fin 5000) (q : Fin 128), x0 (ix2 p q) = a0 (ix2 (⟨T * 5000 + p.val, by omega⟩ : Fin 50000) q))
    (h1 : ∀ q : Fin 128, x1 (ix2 (0 : Fin 1) q) = a1 (ix2 (0 : Fin 1) q))
    (h2 : ∀ q : Fin 128, x2 (ix2 (0 : Fin 1) q) = a2 (ix2 (0 : Fin 1) q)) (p : Fin 5000) (q : Fin 128) :
    k1_pay1 (F := Ideal) x0 x1 x2 (ix2 p q) = bnRelu a0 a1 a2 (ix2 (⟨T * 5000 + p.val, by omega⟩ : Fin 50000) q) := by
  rw [k1_pay1_apply, h0, h1, h2]
  rfl

/-- The printed index maps over the 10 points: the activations' and the output's block index is (t, 0), the two rows'
    is (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of the array function of the operand arrays as the launch finds them. -/
theorem flushed1_3_eq (c : Dev nD) (t : Fin cfg1.N) :
    (dat1 V c).flushed 3 t = ((cfg1.win 3).blk t).view.read (Elt Ideal) (bnRelu (V c main_v42) (V c main_v44) (V c main_v46)) := by
  show (cfg1.win 3).cut (grid1.coords t) ((dat1 V c).after 3 t) = _
  rw [after1_3]
  unfold out1_3
  rw [View.canon_unit_zero hz2]
  simp only [View.ld_unit_zero (S := S5000x128) hz2, View.ld_unit_zero (S := S1x128) hz2]
  obtain ⟨e0, e1, e2, e3, e4, e5, e6, e7⟩ := idx_facts1 t
  have hT : t.val < 10 := lt_of_lt_of_eq t.isLt (show cfg1.N = 10 from N_1)
  funext j
  obtain ⟨p, q, rfl⟩ : ∃ (p : Fin 5000) (q : Fin 128), j = ix2 p q := ⟨j 0, j 1, eq_ix2 j⟩
  refine (bnRelu_tile (iblk1 V c 0 t) (iblk1 V c 1 t) (iblk1 V c 2 t) (V c main_v42) (V c main_v44) (V c main_v46) t.val hT ?_ ?_ ?_ p q).trans ?_
  · intro p q
    show V c main_v42 (((cfg1.win 0).blk t).view.emb (ix2 p q)) = _
    refine congrArg (V c main_v42) (funext fun a => Fin.ext ?_)
    match a with
    | ⟨0, _⟩ => show win1_0.index t (0 : Fin 2) * 5000 + 1 * p.val = t.val * 5000 + p.val; omega
    | ⟨1, _⟩ => show win1_0.index t (1 : Fin 2) * 128 + 1 * q.val = q.val; omega
  · intro q
    show V c main_v44 (((cfg1.win 1).blk t).view.emb (ix2 (0 : Fin 1) q)) = _
    refine congrArg (V c main_v44) (funext fun a => Fin.ext ?_)
    match a with
    | ⟨0, _⟩ => show win1_1.index t (0 : Fin 2) * 1 + 1 * 0 = 0; omega
    | ⟨1, _⟩ => show win1_1.index t (1 : Fin 2) * 128 + 1 * q.val = q.val; omega
  · intro q
    show V c main_v46 (((cfg1.win 2).blk t).view.emb (ix2 (0 : Fin 1) q)) = _
    refine congrArg (V c main_v46) (funext fun a => Fin.ext ?_)
    match a with
    | ⟨0, _⟩ => show win1_2.index t (0 : Fin 2) * 1 + 1 * 0 = 0; omega
    | ⟨1, _⟩ => show win1_2.index t (1 : Fin 2) * 128 + 1 * q.val = q.val; omega
  · show bnRelu _ _ _ _ = bnRelu _ _ _ (((cfg1.win 3).blk t).view.emb (ix2 p q))
    refine congrArg (bnRelu (V c main_v42) (V c main_v44) (V c main_v46)) (funext fun a => Fin.ext ?_)
    match a with
    | ⟨0, _⟩ => show t.val * 5000 + p.val = win1_3.index t (0 : Fin 2) * 5000 + 1 * p.val; omega
    | ⟨1, _⟩ => show q.val = win1_3.index t (1 : Fin 2) * 128 + 1 * q.val; omega

/-- An index of the output array is in point `t`'s block iff each coordinate is in the block's range on its axis. -/
theorem mem_blk1_3 (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v47).slice (win1_3.rect t)).set ↔ _
  rw [View.set_slice_whole, Rect.mem_set_unit]
  exact Iff.rfl

/-- Every block index 0 … 9 is some point's. -/
theorem idx_onto1 : ∀ q0 : Fin 10, ∃ t : Fin cfg1.N, win1_3.index t = ![q0.val, 0] :=
  (by decide +kernel : ∀ q0 : Fin 10, ∃ t : Fin grid1.N, win1_3.index t = ![q0.val, 0])

/-- The ten blocks cover the output array: row R lies in the block of point R / 5000. -/
theorem cover1_3_arr (i : S50000x128.Idx) : ∃ t : Fin cfg1.N, (cfg1.win 3).flush t = true ∧ i ∈ ((cfg1.win 3).blk t).view.set := by
  have hi0 : (i 0).val < 50000 := idx2_lt0 i
  have hi1 : (i 1).val < 128 := idx2_lt1 i
  obtain ⟨t, ht⟩ := idx_onto1 ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk1_3]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- THE OUTPUT ARRAY after the launch: the array function of the operand arrays as the launch finds them. -/
theorem final1_3 (c : Dev nD) : (dat1 V c).arrAt 3 cfg1.N = bnRelu (V c main_v42) (V c main_v44) (V c main_v46) :=
  (dat1 V c).arrAt_eq_of_cover 3 (bnRelu (V c main_v42) (V c main_v44) (V c main_v46)) (fun t _ => flushed1_3_eq V c t) cover1_3_arr

end Cert.Val

end
-- ==== Proof.Math.Consts.lean ====
/- The float words the two programs spell, as the extended reals they denote at the ideal instance:
   `+0.0` is 0, `1.0` is 1, `1.0e5` is the real 100000 (the number of nodes, which is what makes the
   mean and the variance the textbook ones), and the batch-norm epsilon is a positive real. -/
import Idealize.ShloMosaic.PureOps.Ideal

noncomputable section

namespace Cert.Consts

open Idealize.ShloMosaic

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

/-- The divisor of the batch statistics is the number of rows. -/
theorem ofBits_1e5 : Ideal.ofBits .f32 0x47C35000#32 = ((100000 : ℝ) : EReal) := by
  simp [Ideal.ofBits, Ideal.ieee, -EReal.coe_mul]; norm_num

/-- The epsilon added to the variance is a positive real. -/
theorem ofBits_eps : ∃ e : ℝ, 0 < e ∧ Ideal.ofBits .f32 0x3727C5AC#32 = (e : EReal) := by
  refine ⟨_, ?_, by simp [Ideal.ofBits, Ideal.ieee, -EReal.coe_mul]; rfl⟩
  positivity

end Cert.Consts

end
-- ==== Proof.KI.HostIdx.lean ====
/- The host stretches' operation terms read at an index, at the exact (extended-real) values: each
   layout operation names the one element of its operand it reads, each arithmetic operation is the
   extended reals' own; and the neighbour sum and the in-degree are the reference's, term for term. -/
import proofs.«400542_j69810398429749_3_alg».proof.Proof.KI.HostVals
import proofs.«400542_j69810398429749_3_alg».proof.Proof.RefRead
import proofs.«400542_j69810398429749_3_alg».proof.Proof.Math.Consts
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

set_option maxRecDepth 65536

noncomputable section

namespace Cert.KernelIdeal.HostVals

open Idealize.ShloMosaic Idealize.SL.Sem Idealize.ShloMosaic.ValueIdx
open Cert.KernelIdeal Cert.KernelIdeal.Gen

/-! ## The inverse in-degree column -/

/-- Row `n` of the inverse in-degree column is one over the (floored) in-degree of node `n`. -/
theorem invDegK_apply (e3 : (⟨S1600000, .i32⟩ : BufTy).Contents (Elt Ideal)) (n : Fin 100000) :
    invDegK (F := Ideal) e3 (ix2 n (0 : Fin 1)) = Ideal.div 1 (degK (F := Ideal) e3 (ix1 n)) := by
  unfold invDegK
  refine (broadcastInDim_apply _ _ _ _ (ix1 n) fun a => ?_).trans ?_
  · match a with
    | ⟨0, _⟩ => rfl
  · rw [hostDivf_apply, broadcastInDim_scalar_apply, constant_apply, Cert.Consts.ofBits_one]

/-! ## The stacked transposed weights -/

/-- Row `k` of the upper half is column `k` of the first matrix. -/
theorem wcatK_lo (a b : (⟨S64x64, .f32⟩ : BufTy).Contents (Elt Ideal)) (k j : Fin 64) :
    wcatK (F := Ideal) a b (ix2 (⟨k.val, by omega⟩ : Fin 128) j) = a (ix2 j k) := by
  unfold wcatK
  refine (concatenate_pair_apply_left (t := S128x64) (s₁ := S64x64) (s₂ := S64x64) (0 : Fin S128x64.rank) _ _ _ _ rfl (ix2 k j) fun c => ?_).trans ?_
  · match c with
    | ⟨0, _⟩ => rfl
    | ⟨1, _⟩ => rfl
  · exact transpose_ix2_apply a _ k j

/-- Row `64 + k` of the stack is column `k` of the second matrix. -/
theorem wcatK_hi (a b : (⟨S64x64, .f32⟩ : BufTy).Contents (Elt Ideal)) (k j : Fin 64) :
    wcatK (F := Ideal) a b (ix2 (⟨64 + k.val, by omega⟩ : Fin 128) j) = b (ix2 j k) := by
  unfold wcatK
  refine (concatenate_pair_apply_right (t := S128x64) (s₁ := S64x64) (s₂ := S64x64) (0 : Fin S128x64.rank) _ _ _ _ rfl rfl (ix2 k j) (fun c hc => ?_) ?_).trans ?_
  · match c with
    | ⟨0, _⟩ => exact absurd rfl hc
    | ⟨1, _⟩ => rfl
  · show k.val + 64 = 64 + k.val
    omega
  · exact transpose_ix2_apply b _ k j

/-! ## Rows with a unit axis added or dropped -/

/-- A 64-lane vector seen as one row. -/
theorem row64_apply (v : (⟨S64, .f32⟩ : BufTy).Contents (Elt Ideal)) (j : Fin 64) :
    (shapeCast S1x64 v shapeCasts_S64_S1x64) (ix2 (0 : Fin 1) j) = v (ix1 j) :=
  shapeCast_a_1a_apply v _ 0 j

/-- One 64-lane row seen as a vector. -/
theorem vec64_apply (r : (⟨S1x64, .f32⟩ : BufTy).Contents (Elt Ideal)) (j : Fin 64) :
    (shapeCast S64 r shapeCasts_S1x64_S64) (ix1 j) = r (ix2 (0 : Fin 1) j) :=
  shapeCast_1a_a_apply r _ j

/-- A 64-lane vector written twice as one 128-lane row: lane `l` reads lane `l mod 64`. -/
theorem dupK_apply (v : (⟨S64, .f32⟩ : BufTy).Contents (Elt Ideal)) (l : Fin 128) :
    dupK (F := Ideal) v (ix2 (0 : Fin 1) l) = v (ix1 (⟨l.val % 64, Nat.mod_lt _ (by decide)⟩ : Fin 64)) := by
  unfold dupK
  refine (shapeCast_a_1a_apply _ _ 0 l).trans ?_
  by_cases h : l.val < 64
  · refine concatenate_pair_apply_left (t := S128) (s₁ := S64) (s₂ := S64) (0 : Fin S128.rank) v v _ (ix1 l) rfl (ix1 (⟨l.val % 64, Nat.mod_lt _ (by decide)⟩ : Fin 64)) fun c => ?_
    match c with
    | ⟨0, _⟩ =>
      show l.val % 64 = l.val
      omega
  · refine concatenate_pair_apply_right (t := S128) (s₁ := S64) (s₂ := S64) (0 : Fin S128.rank) v v _ (ix1 l) rfl rfl (ix1 (⟨l.val % 64, Nat.mod_lt _ (by decide)⟩ : Fin 64)) (fun c hc => ?_) ?_
    · match c with
      | ⟨0, _⟩ => exact absurd rfl hc
    · show l.val % 64 + 64 = l.val
      have := l.isLt
      omega

/-- The graph index of each node, a vector of 100000 words, seen as a column. -/
theorem idcol_apply (v : (⟨S100000, .i32⟩ : BufTy).Contents (Elt Ideal)) (n : Fin 100000) :
    (shapeCast S100000x1 v shapeCasts_S100000_S100000x1) (ix2 n (0 : Fin 1)) = v (ix1 n) := by
  refine shapeCast_apply v _ _ _ ?_
  rw [Shape.rowMajor_val_two, Shape.rowMajor_val_one]
  show n.val = n.val * 1 + 0
  omega

/-! ## The lane-dense view of the node features and back -/

/-- The [100000, 64] array seen as [50000, 128]: row `R`, lane `l` is node `2R + l / 64`, feature `l mod 64`. -/
theorem dense_apply (x : (⟨S100000x64, .f32⟩ : BufTy).Contents (Elt Ideal)) (R : Fin 50000) (l : Fin 128) :
    (shapeCast S50000x128 x shapeCasts_S100000x64_S50000x128) (ix2 R l)
      = x (ix2 (⟨2 * R.val + l.val / 64, by have := R.isLt; have := l.isLt; omega⟩ : Fin 100000)
            (⟨l.val % 64, Nat.mod_lt _ (by decide)⟩ : Fin 64)) := by
  refine shapeCast_apply x _ _ _ ?_
  rw [Shape.rowMajor_val_two, Shape.rowMajor_val_two]
  show (2 * R.val + l.val / 64) * 64 + l.val % 64 = R.val * 128 + l.val
  omega

/-- The [50000, 128] array seen as [100000, 64]: node `n`, feature `j` is row `n / 2`, lane `(n mod 2) * 64 + j`. -/
theorem undense_apply (y : (⟨S50000x128, .f32⟩ : BufTy).Contents (Elt Ideal)) (n : Fin 100000) (j : Fin 64) :
    (shapeCast S100000x64 y shapeCasts_S50000x128_S100000x64) (ix2 n j)
      = y (ix2 (⟨n.val / 2, by have := n.isLt; omega⟩ : Fin 50000)
            (⟨(n.val % 2) * 64 + j.val, by have := j.isLt; omega⟩ : Fin 128)) := by
  refine shapeCast_apply y _ _ _ ?_
  rw [Shape.rowMajor_val_two, Shape.rowMajor_val_two]
  show n.val / 2 * 128 + ((n.val % 2) * 64 + j.val) = n.val * 64 + j.val
  omega

/-! ## The normalization's mean, scale and shift, lane by lane -/

/-- The mean of lane `j`: the column sum over the node count. -/
theorem meanK_apply (s : (⟨S64, .f32⟩ : BufTy).Contents (Elt Ideal)) (j : Fin 64) :
    meanK (F := Ideal) s (ix1 j) = Ideal.div (s (ix1 j)) (Ideal.ofBits .f32 0x47C35000#32) := rfl

/-- The scale of lane `j`. -/
theorem scaleK_apply (s ss g : (⟨S64, .f32⟩ : BufTy).Contents (Elt Ideal)) (j : Fin 64) :
    scaleK (F := Ideal) s ss g (ix1 j)
      = g (ix1 j) * Ideal.rsqrt
          ((Ideal.div (ss (ix1 j)) (Ideal.ofBits .f32 0x47C35000#32)
              - Ideal.div (s (ix1 j)) (Ideal.ofBits .f32 0x47C35000#32) * Ideal.div (s (ix1 j)) (Ideal.ofBits .f32 0x47C35000#32))
            + Ideal.ofBits .f32 0x3727C5AC#32) := rfl

/-- The shift of lane `j`. -/
theorem shiftK_apply (s ss g b : (⟨S64, .f32⟩ : BufTy).Contents (Elt Ideal)) (j : Fin 64) :
    shiftK (F := Ideal) s ss g b (ix1 j)
      = b (ix1 j) - Ideal.div (s (ix1 j)) (Ideal.ofBits .f32 0x47C35000#32) * scaleK (F := Ideal) s ss g (ix1 j) := rfl

/-! ## The pooled result's last operations -/

/-- The per-graph counts, one row of 256, seen as a column. -/
theorem col256_apply (c : (⟨S1x256, .f32⟩ : BufTy).Contents (Elt Ideal)) (g : Fin 256) :
    (shapeCast S256x1 c shapeCasts_S1x256_S256x1) (ix2 g (0 : Fin 1)) = c (ix2 (0 : Fin 1) g) := by
  refine shapeCast_apply c _ _ _ ?_
  rw [Shape.rowMajor_val_two, Shape.rowMajor_val_two]
  show 0 * 256 + g.val = g.val * 1 + 0
  omega

/-- A column of 256 spread over 64 lanes reads the column's entry of the same row. -/
theorem spread256_apply (v : (⟨S256x1, .f32⟩ : BufTy).Contents (Elt Ideal)) (g : Fin 256) (j : Fin 64) :
    (broadcastInDim S256x64 ![0, 1] bcast_S256x1_S256x64_0_1 v) (ix2 g j) = v (ix2 g (0 : Fin 1)) := by
  refine broadcastInDim_apply _ _ v _ (ix2 g (0 : Fin 1)) fun a => ?_
  match a with
  | ⟨0, _⟩ => rfl
  | ⟨1, _⟩ => rfl

/-- The result at graph `g`, feature `j`: the pooled sum over the graph's node count, floored at one. -/
theorem result_apply (p : (⟨S256x64, .f32⟩ : BufTy).Contents (Elt Ideal)) (c : (⟨S1x256, .f32⟩ : BufTy).Contents (Elt Ideal))
    (g : Fin 256) (j : Fin 64) :
    Host.divf (F := Ideal) p
        (broadcastInDim S256x64 ![0, 1] bcast_S256x1_S256x64_0_1
          (maximumf (F := Ideal) (shapeCast S256x1 c shapeCasts_S1x256_S256x1)
            (broadcastInDim S256x1 ![] bcast_S_S256x1 (constant (F := Ideal) S_ .f32 0x3F800000#32)))) (ix2 g j)
      = Ideal.div (p (ix2 g j)) (max (c (ix2 (0 : Fin 1) g)) 1) := by
  rw [hostDivf_apply, spread256_apply, maximumf_apply, col256_apply, broadcastInDim_scalar_apply, constant_apply,
    Cert.Consts.ofBits_one]

/-! ## The neighbour sum and the in-degree are the reference's -/

theorem srcK_eq_ref (x1 : (⟨S2x1600000, .i32⟩ : BufTy).Contents (Elt Ideal)) :
    srcK (F := Ideal) x1 = Cert.ReferenceIdeal.Read.val_main_v1 (F := Ideal) x1 := rfl

theorem dstK_eq_ref (x1 : (⟨S2x1600000, .i32⟩ : BufTy).Contents (Elt Ideal)) :
    dstK (F := Ideal) x1 = Cert.ReferenceIdeal.Read.val_main_v3 (F := Ideal) x1 := rfl

/-- The first layer's neighbour sum. -/
theorem aggK_eq_ref17 (x0 : (⟨S100000x64, .f32⟩ : BufTy).Contents (Elt Ideal)) (x1 : (⟨S2x1600000, .i32⟩ : BufTy).Contents (Elt Ideal)) :
    aggK (F := Ideal) x0 (srcK (F := Ideal) x1) (dstK (F := Ideal) x1) = Cert.ReferenceIdeal.Read.val_main_v17 (F := Ideal) x0 x1 := rfl

/-- The second layer's neighbour sum, of the reference's normalized and rectified first layer. -/
theorem aggK_eq_ref70 (x0 : (⟨S100000x64, .f32⟩ : BufTy).Contents (Elt Ideal)) (x1 : (⟨S2x1600000, .i32⟩ : BufTy).Contents (Elt Ideal))
    (x3 x4 : (⟨S64x64, .f32⟩ : BufTy).Contents (Elt Ideal)) (x5 x6 x7 : (⟨S64, .f32⟩ : BufTy).Contents (Elt Ideal)) :
    aggK (F := Ideal) (Cert.ReferenceIdeal.Read.val_main_v56 (F := Ideal) x0 x1 x3 x4 x5 x6 x7) (srcK (F := Ideal) x1) (dstK (F := Ideal) x1)
      = Cert.ReferenceIdeal.Read.val_main_v70 (F := Ideal) x0 x1 x3 x4 x5 x6 x7 := rfl

/-- The floored in-degree, as the reference computes it for the first layer and again for the second. -/
theorem degK_eq_ref19 (x1 : (⟨S2x1600000, .i32⟩ : BufTy).Contents (Elt Ideal)) :
    degK (F := Ideal) (dstK (F := Ideal) x1) = Cert.ReferenceIdeal.Read.val_main_v19 (F := Ideal) x1 := rfl

theorem degK_eq_ref72 (x1 : (⟨S2x1600000, .i32⟩ : BufTy).Contents (Elt Ideal)) :
    degK (F := Ideal) (dstK (F := Ideal) x1) = Cert.ReferenceIdeal.Read.val_main_v72 (F := Ideal) x1 := rfl

end Cert.KernelIdeal.HostVals

end
-- ==== Proof.Ref.Norm.lean ====
/- The batch normalisation between the two layers of the reference: the per-feature mean and variance over all nodes,
   and the normalised, scaled, shifted and rectified activations, each read at explicit coordinates. -/
import proofs.«400542_j69810398429749_3_alg».proof.Proof.RefRead
import Idealize.ShloMosaic.Lib.ValueIdx
import Idealize.ShloMosaic.Lib.Pipeline.Value
import Idealize.ShloMosaic.PureOps.Ideal.Laws

noncomputable section

open scoped BigOperators

namespace Cert.RefSide

open Cert.ReferenceIdeal Cert.ReferenceIdeal.Read Idealize.ShloMosaic Idealize.ShloMosaic.ValueIdx

/-- The reduction over the nodes reads the operand at node k and feature j. -/
theorem idx31 (j : Fin 64) (k : Fin 100000) : idx_main_v31 (ix1 j) k = ix2 k j :=
  funext fun a => Fin.ext (by match a with | ⟨0, _⟩ => rfl | ⟨1, _⟩ => rfl)
theorem idx38 (j : Fin 64) (k : Fin 100000) : idx_main_v38 (ix1 j) k = ix2 k j :=
  funext fun a => Fin.ext (by match a with | ⟨0, _⟩ => rfl | ⟨1, _⟩ => rfl)
/-- A per-feature vector broadcast over the nodes is read at the feature. -/
theorem idx35 (n : Fin 100000) (j : Fin 64) : idx_main_v34 (idx_main_v35 (ix2 n j)) = ix1 j :=
  funext fun a => Fin.ext (by match a with | ⟨0, _⟩ => rfl)
theorem idx42 (n : Fin 100000) (j : Fin 64) : idx_main_v41 (idx_main_v42 (ix2 n j)) = ix1 j :=
  funext fun a => Fin.ext (by match a with | ⟨0, _⟩ => rfl)
theorem idx48 (n : Fin 100000) (j : Fin 64) : idx_main_v47 (idx_main_v48 (ix2 n j)) = ix1 j :=
  funext fun a => Fin.ext (by match a with | ⟨0, _⟩ => rfl)
theorem idx51 (n : Fin 100000) (j : Fin 64) : idx_main_v50 (idx_main_v51 (ix2 n j)) = ix1 j :=
  funext fun a => Fin.ext (by match a with | ⟨0, _⟩ => rfl)
theorem idx54 (n : Fin 100000) (j : Fin 64) : idx_main_v53 (idx_main_v54 (ix2 n j)) = ix1 j :=
  funext fun a => Fin.ext (by match a with | ⟨0, _⟩ => rfl)

/-- The batch mean of feature j: the sum over all nodes of the first layer's output, divided by the node count. -/
theorem mean_apply
    (x0 : (⟨S100000x64, .f32⟩ : BufTy).Contents (Elt Ideal)) (x1 : (⟨S2x1600000, .i32⟩ : BufTy).Contents (Elt Ideal))
    (x3 x4 : (⟨S64x64, .f32⟩ : BufTy).Contents (Elt Ideal)) (x5 : (⟨S64, .f32⟩ : BufTy).Contents (Elt Ideal))
    (j : Fin 64) :
    val_main_v33 (F := Ideal) x0 x1 x3 x4 x5 (ix1 j)
      = Ideal.div (Ideal.ofBits .f32 0x00000000#32 + ∑ n : Fin 100000, val_main_v30 (F := Ideal) x0 x1 x3 x4 x5 (ix2 n j))
          (Ideal.ofBits .f32 0x47C35000#32) := by
  rw [val_main_v33_apply, val_main_v31_apply, val_main_v32_apply, val_main_cst_5_apply, val_main_cst_4_apply,
    Ideal.hostDivf_def, Ideal.ofBits_def, Ideal.ofBits_def]
  refine congrArg (fun s => Ideal.div (Ideal.ofBits .f32 0x00000000#32 + s) (Ideal.ofBits .f32 0x47C35000#32))
    (Finset.sum_congr rfl fun k _ => ?_)
  rw [idx31]

/-- The batch variance of feature j: the mean of the squared deviations from the batch mean. -/
theorem var_apply
    (x0 : (⟨S100000x64, .f32⟩ : BufTy).Contents (Elt Ideal)) (x1 : (⟨S2x1600000, .i32⟩ : BufTy).Contents (Elt Ideal))
    (x3 x4 : (⟨S64x64, .f32⟩ : BufTy).Contents (Elt Ideal)) (x5 : (⟨S64, .f32⟩ : BufTy).Contents (Elt Ideal))
    (j : Fin 64) :
    val_main_v40 (F := Ideal) x0 x1 x3 x4 x5 (ix1 j)
      = Ideal.div (Ideal.ofBits .f32 0x00000000#32 + ∑ n : Fin 100000,
            (val_main_v30 (F := Ideal) x0 x1 x3 x4 x5 (ix2 n j) - val_main_v33 (F := Ideal) x0 x1 x3 x4 x5 (ix1 j))
              * (val_main_v30 (F := Ideal) x0 x1 x3 x4 x5 (ix2 n j) - val_main_v33 (F := Ideal) x0 x1 x3 x4 x5 (ix1 j)))
          (Ideal.ofBits .f32 0x47C35000#32) := by
  rw [val_main_v40_apply, val_main_v38_apply, val_main_v39_apply, val_main_cst_7_apply, val_main_cst_6_apply,
    Ideal.hostDivf_def, Ideal.ofBits_def, Ideal.ofBits_def]
  refine congrArg (fun s => Ideal.div (Ideal.ofBits .f32 0x00000000#32 + s) (Ideal.ofBits .f32 0x47C35000#32))
    (Finset.sum_congr rfl fun k _ => ?_)
  rw [idx38, val_main_v37_apply, val_main_v36_apply, val_main_v35_apply, val_main_v34_apply, idx35,
    Ideal.mulf_def, Ideal.subf_def]

/-- The normalised, scaled, shifted and rectified first layer at node n and feature j. -/
theorem act_apply
    (x0 : (⟨S100000x64, .f32⟩ : BufTy).Contents (Elt Ideal)) (x1 : (⟨S2x1600000, .i32⟩ : BufTy).Contents (Elt Ideal))
    (x3 x4 : (⟨S64x64, .f32⟩ : BufTy).Contents (Elt Ideal)) (x5 x6 x7 : (⟨S64, .f32⟩ : BufTy).Contents (Elt Ideal))
    (n : Fin 100000) (j : Fin 64) :
    val_main_v56 (F := Ideal) x0 x1 x3 x4 x5 x6 x7 (ix2 n j)
      = max ((((val_main_v30 (F := Ideal) x0 x1 x3 x4 x5 (ix2 n j) - val_main_v33 (F := Ideal) x0 x1 x3 x4 x5 (ix1 j))
                * Ideal.rsqrt (val_main_v40 (F := Ideal) x0 x1 x3 x4 x5 (ix1 j) + Ideal.ofBits .f32 0x3727C5AC#32))
              * x6 (ix1 j))
            + x7 (ix1 j))
          (Ideal.ofBits .f32 0x00000000#32) := by
  rw [val_main_v56_apply, val_main_v55_apply, val_main_v52_apply, val_main_v49_apply, val_main_v43_apply,
    val_main_v42_apply, val_main_v41_apply, idx42,
    val_main_v48_apply, val_main_v47_apply, idx48, val_main_v46_apply, val_main_v45_apply, val_main_v44_apply, val_main_cst_8_apply,
    val_main_v51_apply, val_main_v50_apply, idx51, val_main_v54_apply, val_main_v53_apply, idx54,
    val_main_call0_v0_apply, val_main_call0_cst_apply,
    Ideal.maximumf_def, Ideal.addf_def, Ideal.mulf_def, Ideal.mulf_def, Ideal.subf_def, Ideal.hostUnary_rsqrt_def,
    Ideal.addf_def, Ideal.ofBits_def, Ideal.ofBits_def]

end Cert.RefSide
-- ==== Proof.Math.Real.lean ====
/- Algebra on the extended reals used by the bridge between the two programs.
   * `IsReal x`: the extended real `x` is a real number; closed under the operations both programs use
     (sums, products, differences, quotients by a nonzero real, maxima, finite sums).
   * The variance identity: over N rows, the mean of the squared deviations from the mean is the mean of the
     squares less the squared mean — it needs the divisor to BE the number of rows.
   * The normalisation's affine form: (h - μ)·r·γ + β = h·(γ·r) + (β - μ·(γ·r)).
   * A sum over T·R rows is the sum over T tiles of the sums over a tile's R rows; an accumulator that starts
     at z plus the first tile's part and adds one part per tile ends at z plus the sum of the parts.
   * A 0/1 mask times a value, summed, is the sum over the rows where the mask is set (on the extended reals
     0·x = 0 for every x, infinite ones included). -/
import Idealize.ShloMosaic.PureOps.Ideal

noncomputable section

namespace Cert.MathLib

open Idealize.ShloMosaic

/-- An extended real that is a real number. -/
def IsReal (x : EReal) : Prop := ∃ r : ℝ, x = (r : EReal)

theorem IsReal.coe (r : ℝ) : IsReal (r : EReal) := ⟨r, rfl⟩
theorem IsReal.zero : IsReal 0 := ⟨0, EReal.coe_zero.symm⟩
theorem IsReal.one : IsReal 1 := ⟨1, EReal.coe_one.symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem coe_max' (a b : ℝ) : (((Max.max a b : ℝ)) : EReal) = Max.max (a : EReal) (b : EReal) :=
  EReal.coe_strictMono.monotone.map_max

theorem isReal_max {x y : EReal} (hx : IsReal x) (hy : IsReal y) : IsReal (Max.max x y) := by
  obtain ⟨a, rfl⟩ := hx; obtain ⟨b, rfl⟩ := hy; exact ⟨Max.max a b, (coe_max' a b).symm⟩

theorem IsReal.sum {ι : Type} (s : Finset ι) (f : ι → EReal) (h : ∀ i ∈ s, IsReal (f i)) : IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-- A quotient of reals by a nonzero real, as the ideal instance computes it. -/
theorem div_coe_coe (a b : ℝ) (hb : b ≠ 0) : Ideal.div (a : EReal) (b : EReal) = ((a / b : ℝ) : EReal) := by
  rw [Ideal.div_coe hb, ← EReal.coe_mul]; congr 1; rw [mul_one_div]

theorem IsReal.div {x y : EReal} (hx : IsReal x) (hy : IsReal y) (h0 : y ≠ 0) : IsReal (Ideal.div x y) := by
  obtain ⟨a, rfl⟩ := hx; obtain ⟨b, rfl⟩ := hy
  have hb : b ≠ 0 := fun h => h0 (by rw [h, EReal.coe_zero])
  exact ⟨a / b, div_coe_coe a b hb⟩

/-- Dividing by `d ≠ 0` is multiplying by the quotient `1 / d`: a product with a precomputed reciprocal is the quotient,
    for EVERY extended real numerator and every nonzero denominator, the infinite one included. -/
theorem mul_div_one (a d : EReal) (hd : d ≠ 0) : a * Ideal.div 1 d = Ideal.div a d := by
  unfold Ideal.div; rw [if_neg hd, if_neg hd, one_mul]

/-- The reciprocal square root of a positive real is a real. -/
theorem rsqrt_coe_pos (v : ℝ) (hv : 0 < v) : Ideal.rsqrt (v : EReal) = (((Real.sqrt v)⁻¹ : ℝ) : EReal) := by
  show (if v < 0 then (⊥ : EReal) else if v = 0 then ⊤ else (((Real.sqrt v)⁻¹ : ℝ) : EReal)) = _
  rw [if_neg (not_lt.mpr hv.le), if_neg hv.ne']

theorem sum_coe {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- THE VARIANCE IDENTITY over `N` rows, the divisor being the number of rows. -/
theorem var_identity (N : ℕ) (Nr : ℝ) (hNr : Nr = N) (hN : Nr ≠ 0) (h : Fin N → ℝ) :
    (∑ n, (h n - (∑ n, h n) / Nr) * (h n - (∑ n, h n) / Nr)) / Nr
      = (∑ n, h n * h n) / Nr - ((∑ n, h n) / Nr) * ((∑ n, h n) / Nr) := by
  set μ := (∑ n, h n) / Nr with hμ
  have e1 : ∑ n, (h n - μ) * (h n - μ) = ∑ n, h n * h n - 2 * μ * ∑ n, h n + N * (μ * μ) := by
    have : ∀ n, (h n - μ) * (h n - μ) = h n * h n - 2 * μ * h n + μ * μ := fun n => by ring
    simp only [this, Finset.sum_add_distrib, Finset.sum_sub_distrib, ← Finset.mul_sum, Finset.sum_const,
      Finset.card_univ, Fintype.card_fin, nsmul_eq_mul]
    ring
  have e2 : ∑ n, h n = μ * Nr := by rw [hμ]; field_simp
  rw [e1, e2, ← hNr]; field_simp; ring

/-- The variance is not negative. -/
theorem var_nonneg (N : ℕ) (Nr : ℝ) (hN : 0 < Nr) (h : Fin N → ℝ) (μ : ℝ) :
    0 ≤ (∑ n, (h n - μ) * (h n - μ)) / Nr :=
  div_nonneg (Finset.sum_nonneg fun n _ => mul_self_nonneg _) hN.le

/-- The normalisation in its two spellings. -/
theorem affine_identity (h μ r γ β : ℝ) : (h - μ) * r * γ + β = h * (γ * r) + (β - μ * (γ * r)) := by ring

/-- A sum over `T * R` rows, tile by tile. -/
theorem sum_tiles {M : Type} [AddCommMonoid M] (T R : ℕ) (f : Fin (T * R) → M) :
    ∑ n, f n = ∑ t : Fin T, ∑ r : Fin R, f (finProdFinEquiv (t, r)) := by
  rw [← Equiv.sum_comp finProdFinEquiv, Fintype.sum_prod_type]

theorem finProdFinEquiv_val (T R : ℕ) (t : Fin T) (r : Fin R) : (finProdFinEquiv (t, r)).val = r.val + R * t.val := rfl

/-- An accumulator over the tiles: it starts at `z` plus the first part and adds one part per tile. -/
theorem acc_eq_sum {M : Type} [AddCommMonoid M] (z : M) (p a : ℕ → M) (h0 : a 0 = z + p 0)
    (hs : ∀ n, a (n + 1) = a n + p (n + 1)) (n : ℕ) : a n = z + ∑ s ∈ Finset.range (n + 1), p s := by
  induction n with
  | zero => simpa using h0
  | succ n ih => rw [hs, ih, Finset.sum_range_succ _ (n + 1), add_assoc]

/-- A 0/1 mask times a value, summed, is the sum over the rows where the mask is set. -/
theorem sum_mask_mul {ι : Type} [Fintype ι] (P : ι → Prop) [DecidablePred P] (y : ι → EReal) :
    ∑ r, (if P r then (1 : EReal) else 0) * y r = ∑ r ∈ Finset.univ.filter P, y r := by
  rw [Finset.sum_filter]
  refine Finset.sum_congr rfl fun r _ => ?_
  split_ifs <;> simp

theorem sum_mask {ι : Type} [Fintype ι] (P : ι → Prop) [DecidablePred P] :
    ∑ r, (if P r then (1 : EReal) else 0) = ∑ _r ∈ Finset.univ.filter P, (1 : EReal) := by
  rw [Finset.sum_filter]

end Cert.MathLib

end
-- ==== Proof.Math.Norm.lean ====
/- The batch normalisation in its two spellings, on one column of 100000 real entries.
   One program sums the column and its squares, forms mean = Σh / N and var = Σh² / N - mean², then
   scale = γ · rsqrt (var + ε), shift = β - mean · scale, and returns max (h · scale + shift) 0.
   The other forms mean the same way, var = Σ (h - mean)² / N, and returns max ((h - mean) · rsqrt (var + ε) · γ + β) 0.
   With every entry real and N the number of rows the two variances are equal (the variance identity), the
   variance is nonnegative so var + ε is a positive real and its reciprocal square root a real, and the two
   affine forms agree. -/
import proofs.«400542_j69810398429749_3_alg».proof.Proof.Math.Real

noncomputable section

namespace Cert.MathLib

open Idealize.ShloMosaic

theorem norm_bridge (h : Fin 100000 → EReal) (hh : ∀ n, IsReal (h n)) (γ β : EReal) (hγ : IsReal γ) (hβ : IsReal β)
    (sumK sqK : EReal) (hsum : sumK = ∑ n, h n) (hsq : sqK = ∑ n, h n * h n)
    (c5 eps : EReal) (hc : c5 = ((100000 : ℝ) : EReal)) (heps : ∃ e : ℝ, 0 < e ∧ eps = (e : EReal))
    (meanR varR : EReal) (hmeanR : meanR = Ideal.div (∑ n, h n) c5)
    (hvarR : varR = Ideal.div (∑ n, (h n - meanR) * (h n - meanR)) c5) (n : Fin 100000) :
    max (h n * (γ * Ideal.rsqrt ((Ideal.div sqK c5 - Ideal.div sumK c5 * Ideal.div sumK c5) + eps))
        + (β - Ideal.div sumK c5 * (γ * Ideal.rsqrt ((Ideal.div sqK c5 - Ideal.div sumK c5 * Ideal.div sumK c5) + eps)))) 0
      = max ((((h n - meanR) * Ideal.rsqrt (varR + eps)) * γ) + β) 0 := by
  choose hr hhr using hh
  obtain ⟨g, rfl⟩ := hγ
  obtain ⟨b, rfl⟩ := hβ
  obtain ⟨e, he, rfl⟩ := heps
  have hN : (100000 : ℝ) ≠ 0 := by norm_num
  have hNpos : (0 : ℝ) < 100000 := by norm_num
  -- the sums are reals
  have s1 : ∑ n, h n = ((∑ n, hr n : ℝ) : EReal) := by
    rw [← sum_coe]; exact Finset.sum_congr rfl fun n _ => hhr n
  have s2 : ∑ n, h n * h n = ((∑ n, hr n * hr n : ℝ) : EReal) := by
    rw [← sum_coe]; exact Finset.sum_congr rfl fun n _ => by rw [hhr n, EReal.coe_mul]
  set μ : ℝ := (∑ n, hr n) / 100000 with hμ
  have m1 : Ideal.div sumK c5 = ((μ : ℝ) : EReal) := by rw [hsum, hc, s1, div_coe_coe _ _ hN]
  have m2 : meanR = ((μ : ℝ) : EReal) := by rw [hmeanR, hc, s1, div_coe_coe _ _ hN]
  have q1 : Ideal.div sqK c5 = (((∑ n, hr n * hr n) / 100000 : ℝ) : EReal) := by rw [hsq, hc, s2, div_coe_coe _ _ hN]
  have s3 : ∑ n, (h n - meanR) * (h n - meanR) = ((∑ n, (hr n - μ) * (hr n - μ) : ℝ) : EReal) := by
    rw [← sum_coe]; exact Finset.sum_congr rfl fun n _ => by rw [hhr n, m2, ← EReal.coe_sub, ← EReal.coe_mul]
  have v2 : varR = (((∑ n, (hr n - μ) * (hr n - μ)) / 100000 : ℝ) : EReal) := by rw [hvarR, hc, s3, div_coe_coe _ _ hN]
  have hvar : (∑ n, (hr n - μ) * (hr n - μ)) / 100000 = (∑ n, hr n * hr n) / 100000 - μ * μ :=
    var_identity 100000 100000 (by norm_num) hN hr
  have hvpos : 0 < (∑ n, (hr n - μ) * (hr n - μ)) / 100000 + e :=
    add_pos_of_nonneg_of_pos (var_nonneg 100000 100000 hNpos hr μ) he
  set v : ℝ := (∑ n, (hr n - μ) * (hr n - μ)) / 100000 with hv
  have r2 : Ideal.rsqrt (varR + (e : EReal)) = (((Real.sqrt (v + e))⁻¹ : ℝ) : EReal) := by
    rw [v2, ← EReal.coe_add, rsqrt_coe_pos _ hvpos]
  have r1 : Ideal.rsqrt ((Ideal.div sqK c5 - Ideal.div sumK c5 * Ideal.div sumK c5) + (e : EReal))
      = (((Real.sqrt (v + e))⁻¹ : ℝ) : EReal) := by
    rw [q1, m1, ← EReal.coe_mul, ← EReal.coe_sub, ← hvar, ← EReal.coe_add, rsqrt_coe_pos _ hvpos]
  rw [r1, r2, m1, m2, hhr n]
  simp only [← EReal.coe_mul, ← EReal.coe_sub, ← EReal.coe_add]
  rw [← EReal.coe_zero, ← coe_max', ← coe_max']
  exact congrArg (fun t : ℝ => ((Max.max t (0 : ℝ) : ℝ) : EReal)) (affine_identity (hr n) μ (Real.sqrt (v + e))⁻¹ g b).symm

end Cert.MathLib

end
-- ==== Proof.Val.ActBridge.lean ====
/- The kernel's spelling of the batch normalisation between the two layers, from the per-feature sum and sum of
   squares over all nodes, is the reference's normalised, scaled, shifted and rectified activation: the two agree
   wherever the first layer's output and the scale and shift parameters are real numbers. -/
import proofs.«400542_j69810398429749_3_alg».proof.Proof.Ref.Norm
import proofs.«400542_j69810398429749_3_alg».proof.Proof.Math.Norm
import proofs.«400542_j69810398429749_3_alg».proof.Proof.Math.Consts
import proofs.«400542_j69810398429749_3_alg».proof.Proof.Math.Real

noncomputable section

open scoped BigOperators

namespace Cert.Val

open Cert.ReferenceIdeal Cert.ReferenceIdeal.Read Cert.RefSide Cert.MathLib Idealize.ShloMosaic Idealize.ShloMosaic.ValueIdx

/-- With `s` the sum over the nodes of feature `j` of the first layer's output and `ss` the sum of its squares:
    scale = γ · rsqrt (ss/N − (s/N)² + ε), shift = β − (s/N) · scale, and max (h · scale + shift) 0 is the
    reference's activation at node `n` and feature `j`. -/
theorem act_bridge
    (x0 : (⟨S100000x64, .f32⟩ : BufTy).Contents (Elt Ideal)) (x1 : (⟨S2x1600000, .i32⟩ : BufTy).Contents (Elt Ideal))
    (x3 x4 : (⟨S64x64, .f32⟩ : BufTy).Contents (Elt Ideal)) (x5 x6 x7 : (⟨S64, .f32⟩ : BufTy).Contents (Elt Ideal))
    (hreal : ∀ n j, IsReal (val_main_v30 (F := Ideal) x0 x1 x3 x4 x5 (ix2 n j)))
    (hx6 : ∀ i, IsReal (x6 i)) (hx7 : ∀ i, IsReal (x7 i))
    (s ss : EReal) (j : Fin 64)
    (hs : s = ∑ n : Fin 100000, val_main_v30 (F := Ideal) x0 x1 x3 x4 x5 (ix2 n j))
    (hss : ss = ∑ n : Fin 100000, val_main_v30 (F := Ideal) x0 x1 x3 x4 x5 (ix2 n j) * val_main_v30 (F := Ideal) x0 x1 x3 x4 x5 (ix2 n j))
    (n : Fin 100000) :
    max (val_main_v30 (F := Ideal) x0 x1 x3 x4 x5 (ix2 n j) * (x6 (ix1 j) * Ideal.rsqrt ((Ideal.div ss (Ideal.ofBits .f32 0x47C35000#32) - Ideal.div s (Ideal.ofBits .f32 0x47C35000#32) * Ideal.div s (Ideal.ofBits .f32 0x47C35000#32)) + Ideal.ofBits .f32 0x3727C5AC#32))
          + (x7 (ix1 j) - Ideal.div s (Ideal.ofBits .f32 0x47C35000#32) * (x6 (ix1 j) * Ideal.rsqrt ((Ideal.div ss (Ideal.ofBits .f32 0x47C35000#32) - Ideal.div s (Ideal.ofBits .f32 0x47C35000#32) * Ideal.div s (Ideal.ofBits .f32 0x47C35000#32)) + Ideal.ofBits .f32 0x3727C5AC#32))))
        (Ideal.ofBits .f32 0x00000000#32)
      = val_main_v56 (F := Ideal) x0 x1 x3 x4 x5 x6 x7 (ix2 n j) := by
  have hz : Ideal.ofBits .f32 0x00000000#32 = 0 := Cert.Consts.ofBits_zero
  have hm : val_main_v33 (F := Ideal) x0 x1 x3 x4 x5 (ix1 j)
      = Ideal.div (∑ n : Fin 100000, val_main_v30 (F := Ideal) x0 x1 x3 x4 x5 (ix2 n j)) (Ideal.ofBits .f32 0x47C35000#32) := by
    refine (mean_apply x0 x1 x3 x4 x5 j).trans ?_
    rw [hz, zero_add]
  have hv : val_main_v40 (F := Ideal) x0 x1 x3 x4 x5 (ix1 j)
      = Ideal.div (∑ n : Fin 100000,
            (val_main_v30 (F := Ideal) x0 x1 x3 x4 x5 (ix2 n j) - val_main_v33 (F := Ideal) x0 x1 x3 x4 x5 (ix1 j))
              * (val_main_v30 (F := Ideal) x0 x1 x3 x4 x5 (ix2 n j) - val_main_v33 (F := Ideal) x0 x1 x3 x4 x5 (ix1 j))) (Ideal.ofBits .f32 0x47C35000#32) := by
    refine (var_apply x0 x1 x3 x4 x5 j).trans ?_
    rw [hz, zero_add]
  refine Eq.trans ?_ (act_apply x0 x1 x3 x4 x5 x6 x7 n j).symm
  rw [hz]
  exact norm_bridge (fun n => val_main_v30 (F := Ideal) x0 x1 x3 x4 x5 (ix2 n j)) (fun n => hreal n j) (x6 (ix1 j)) (x7 (ix1 j)) (hx6 _) (hx7 _)
    s ss hs hss (Ideal.ofBits .f32 0x47C35000#32) (Ideal.ofBits .f32 0x3727C5AC#32) Cert.Consts.ofBits_1e5 Cert.Consts.ofBits_eps
    (val_main_v33 (F := Ideal) x0 x1 x3 x4 x5 (ix1 j)) (val_main_v40 (F := Ideal) x0 x1 x3 x4 x5 (ix1 j)) hm hv n

end Cert.Val

end
-- ==== Proof.Val.ActStage.lean ====
/- The stage between the two layers, as the kernel program performs it on whole arrays — the lane-dense view of the
   first layer's output, the batch statistics' scale and shift written twice across a 128-lane row, the
   normalise-and-rectify array function, and the view back — is the reference's activation. -/
import proofs.«400542_j69810398429749_3_alg».proof.Proof.Val.R1Val
import proofs.«400542_j69810398429749_3_alg».proof.Proof.KI.HostIdx
import proofs.«400542_j69810398429749_3_alg».proof.Proof.Val.ActBridge
import proofs.«400542_j69810398429749_3_alg».proof.Proof.Math.Consts
import Idealize.ShloMosaic.Lib.ValueIdx

set_option maxRecDepth 65536

noncomputable section

namespace Cert.Val

open Idealize.ShloMosaic Idealize.SL.Sem Idealize.ShloMosaic.ValueIdx
open Cert.KernelIdeal Cert.KernelIdeal.Gen Cert.KernelIdeal.HostVals Cert.MathLib

/-- The normalise-and-rectify array function at row R and lane l: the lane's scale and shift are read at l. -/
theorem bnRelu_apply (a0 : S50000x128.Idx → EReal) (a1 a2 : S1x128.Idx → EReal) (R : Fin 50000) (l : Fin 128) :
    bnRelu a0 a1 a2 (ix2 R l) = max (a0 (ix2 R l) * a1 (ix2 (0 : Fin 1) l) + a2 (ix2 (0 : Fin 1) l)) 0 := rfl

/-- THE ACTIVATION STAGE. Given the first layer's output `H` (the reference's, element by element) and its column sums
    `S` and column sums of squares `SS`, the kernel program's second stage — view `H` two nodes to a 128-lane row,
    scale and shift each lane by the batch statistics' scale and shift (each written twice across the row), rectify,
    and view the result one node to a row again — is the reference's normalised, rectified activation. -/
theorem act_stage
    (x0 : (⟨S100000x64, .f32⟩ : BufTy).Contents (Elt Ideal)) (x1 : (⟨S2x1600000, .i32⟩ : BufTy).Contents (Elt Ideal))
    (x3 x4 : (⟨S64x64, .f32⟩ : BufTy).Contents (Elt Ideal)) (x5 x6 x7 : (⟨S64, .f32⟩ : BufTy).Contents (Elt Ideal))
    (hreal : ∀ n j, IsReal (Cert.ReferenceIdeal.Read.val_main_v30 (F := Ideal) x0 x1 x3 x4 x5 (ix2 n j)))
    (hx6 : ∀ i, IsReal (x6 i)) (hx7 : ∀ i, IsReal (x7 i))
    (H : (⟨S100000x64, .f32⟩ : BufTy).Contents (Elt Ideal)) (S SS : (⟨S1x64, .f32⟩ : BufTy).Contents (Elt Ideal))
    (hH : ∀ (n : Fin 100000) (j : Fin 64), H (ix2 n j) = Cert.ReferenceIdeal.Read.val_main_v30 (F := Ideal) x0 x1 x3 x4 x5 (ix2 n j))
    (hS : ∀ j : Fin 64, S (ix2 (0 : Fin 1) j) = ∑ n : Fin 100000, H (ix2 n j))
    (hSS : ∀ j : Fin 64, SS (ix2 (0 : Fin 1) j) = ∑ n : Fin 100000, H (ix2 n j) * H (ix2 n j)) :
    shapeCast S100000x64
        (bnRelu (shapeCast S50000x128 H shapeCasts_S100000x64_S50000x128)
          (dupK (F := Ideal) (scaleK (F := Ideal) (shapeCast S64 S shapeCasts_S1x64_S64) (shapeCast S64 SS shapeCasts_S1x64_S64) x6))
          (dupK (F := Ideal) (shiftK (F := Ideal) (shapeCast S64 S shapeCasts_S1x64_S64) (shapeCast S64 SS shapeCasts_S1x64_S64) x6 x7)))
        shapeCasts_S50000x128_S100000x64
      = Cert.ReferenceIdeal.Read.val_main_v56 (F := Ideal) x0 x1 x3 x4 x5 x6 x7 := by
  funext i
  obtain ⟨n, j, rfl⟩ : ∃ (n : Fin 100000) (j : Fin 64), i = ix2 n j := ⟨i 0, i 1, eq_ix2 i⟩
  have hn := n.isLt
  have hj := j.isLt
  -- node n, feature j sits in row n / 2 at lane (n mod 2) * 64 + j; that lane is feature j again, of node n
  have hl : ((n.val % 2) * 64 + j.val) % 64 = j.val := by omega
  have hrow : 2 * (n.val / 2) + ((n.val % 2) * 64 + j.val) / 64 = n.val := by omega
  have hs : S (ix2 (0 : Fin 1) j) = ∑ m : Fin 100000, Cert.ReferenceIdeal.Read.val_main_v30 (F := Ideal) x0 x1 x3 x4 x5 (ix2 m j) :=
    (hS j).trans (Finset.sum_congr rfl fun m _ => hH m j)
  have hss : SS (ix2 (0 : Fin 1) j) = ∑ m : Fin 100000, Cert.ReferenceIdeal.Read.val_main_v30 (F := Ideal) x0 x1 x3 x4 x5 (ix2 m j)
      * Cert.ReferenceIdeal.Read.val_main_v30 (F := Ideal) x0 x1 x3 x4 x5 (ix2 m j) :=
    (hSS j).trans (Finset.sum_congr rfl fun m _ => by rw [hH m j])
  refine (undense_apply _ n j).trans ?_
  refine (bnRelu_apply _ _ _ _ _).trans ?_
  -- the three operands at that row and lane
  have hA : (shapeCast S50000x128 H shapeCasts_S100000x64_S50000x128)
        (ix2 (⟨n.val / 2, by omega⟩ : Fin 50000) (⟨(n.val % 2) * 64 + j.val, by omega⟩ : Fin 128))
      = Cert.ReferenceIdeal.Read.val_main_v30 (F := Ideal) x0 x1 x3 x4 x5 (ix2 n j) := by
    refine (dense_apply H _ _).trans ?_
    refine (congrArg H ?_).trans (hH n j)
    exact congrArg₂ (ix2 (n0 := 100000) (n1 := 64)) (Fin.ext hrow) (Fin.ext hl)
  have hlane : ∀ v : (⟨S64, .f32⟩ : BufTy).Contents (Elt Ideal),
      dupK (F := Ideal) v (ix2 (0 : Fin 1) (⟨(n.val % 2) * 64 + j.val, by omega⟩ : Fin 128)) = v (ix1 j) := fun v =>
    (dupK_apply v _).trans (congrArg v (congrArg (ix1 (n := 64)) (Fin.ext hl)))
  have hB : dupK (F := Ideal) (scaleK (F := Ideal) (shapeCast S64 S shapeCasts_S1x64_S64) (shapeCast S64 SS shapeCasts_S1x64_S64) x6)
        (ix2 (0 : Fin 1) (⟨(n.val % 2) * 64 + j.val, by omega⟩ : Fin 128))
      = x6 (ix1 j) * Ideal.rsqrt
          ((Ideal.div (SS (ix2 (0 : Fin 1) j)) (Ideal.ofBits .f32 0x47C35000#32)
              - Ideal.div (S (ix2 (0 : Fin 1) j)) (Ideal.ofBits .f32 0x47C35000#32) * Ideal.div (S (ix2 (0 : Fin 1) j)) (Ideal.ofBits .f32 0x47C35000#32))
            + Ideal.ofBits .f32 0x3727C5AC#32) := by
    refine (hlane _).trans ?_
    refine (scaleK_apply _ _ _ j).trans ?_
    rw [vec64_apply, vec64_apply]
  have hC : dupK (F := Ideal) (shiftK (F := Ideal) (shapeCast S64 S shapeCasts_S1x64_S64) (shapeCast S64 SS shapeCasts_S1x64_S64) x6 x7)
        (ix2 (0 : Fin 1) (⟨(n.val % 2) * 64 + j.val, by omega⟩ : Fin 128))
      = x7 (ix1 j) - Ideal.div (S (ix2 (0 : Fin 1) j)) (Ideal.ofBits .f32 0x47C35000#32) * (x6 (ix1 j) * Ideal.rsqrt
          ((Ideal.div (SS (ix2 (0 : Fin 1) j)) (Ideal.ofBits .f32 0x47C35000#32)
              - Ideal.div (S (ix2 (0 : Fin 1) j)) (Ideal.ofBits .f32 0x47C35000#32) * Ideal.div (S (ix2 (0 : Fin 1) j)) (Ideal.ofBits .f32 0x47C35000#32))
            + Ideal.ofBits .f32 0x3727C5AC#32)) := by
    refine (hlane _).trans ?_
    refine (shiftK_apply _ _ _ _ j).trans ?_
    rw [scaleK_apply, vec64_apply, vec64_apply]
  rw [hA, hB, hC]
  refine Eq.trans (congrArg (max _) Cert.Consts.ofBits_zero.symm) ?_
  exact act_bridge x0 x1 x3 x4 x5 x6 x7 hreal hx6 hx7 (S (ix2 (0 : Fin 1) j)) (SS (ix2 (0 : Fin 1) j)) j hs hss n

end Cert.Val

end
-- ==== Proof.Val.Spec.lean ====
/- One SAGEConv layer as the kernel computes it, as ONE array function, index by index: row n, output lane j is
     Σ_k (agg (n, k) · inv (n, 0)) · Wc (k, j)  +  Σ_k x (n, k) · Wc (64 + k, j)  +  b (0, j),
   `agg` the neighbour sums, `inv` the reciprocal of the clamped degree, `Wc` the two weight matrices transposed and
   stacked (rows 0..63 act on the aggregated half, rows 64..127 on the node's own features), `b` the bias row. -/
import Idealize.ShloMosaic.Lib.ValueIdx

noncomputable section

namespace Cert.Val

open Idealize.ShloMosaic Idealize.ShloMosaic.ValueIdx

/-- A row index below 64 as a row of the stacked [128, 64] weights: the aggregated half … -/
abbrev lo (k : Fin 64) : Fin 128 := ⟨k.val, by omega⟩
/-- … and the node's own half. -/
abbrev hi (k : Fin 64) : Fin 128 := ⟨64 + k.val, by omega⟩

/-- One row of the layer. -/
def layerRow (a : Fin 64 → EReal) (inv : EReal) (x : Fin 64 → EReal) (Wc : (⟨2, ![128, 64]⟩ : Shape).Idx → EReal)
    (b : (⟨2, ![1, 64]⟩ : Shape).Idx → EReal) (j : Fin 64) : EReal :=
  ((∑ k : Fin 64, (a k * inv) * Wc (ix2 (lo k) j)) + ∑ k : Fin 64, x k * Wc (ix2 (hi k) j)) + b (ix2 (0 : Fin 1) j)

/-- The layer over all 100000 rows. -/
def layerArr (agg : (⟨2, ![100000, 64]⟩ : Shape).Idx → EReal) (inv : (⟨2, ![100000, 1]⟩ : Shape).Idx → EReal)
    (x : (⟨2, ![100000, 64]⟩ : Shape).Idx → EReal) (Wc : (⟨2, ![128, 64]⟩ : Shape).Idx → EReal)
    (b : (⟨2, ![1, 64]⟩ : Shape).Idx → EReal) : (⟨2, ![100000, 64]⟩ : Shape).Idx → EReal :=
  fun i => layerRow (fun k => agg (ix2 (⟨(i 0).val, idx2_lt0 i⟩ : Fin 100000) k)) (inv (ix2 (⟨(i 0).val, idx2_lt0 i⟩ : Fin 100000) (0 : Fin 1)))
    (fun k => x (ix2 (⟨(i 0).val, idx2_lt0 i⟩ : Fin 100000) k)) Wc b (⟨(i 1).val, idx2_lt1 i⟩ : Fin 64)

theorem layerArr_apply (agg inv x Wc b) (n : Fin 100000) (j : Fin 64) :
    layerArr agg inv x Wc b (ix2 n j) = layerRow (fun k => agg (ix2 n k)) (inv (ix2 n (0 : Fin 1))) (fun k => x (ix2 n k)) Wc b j := rfl

end Cert.Val

end
-- ==== Proof.Val.LayerBridge.lean ====
/- One SAGEConv row in the two programs' spellings. The kernel multiplies the neighbour sum by a precomputed
   reciprocal 1 / d and adds the bias after both matrix products; the reference divides by d and adds the bias
   between them. For a nonzero d (here d ≥ 1) the product with 1 / d IS the quotient on every extended real, and
   the two orders of the three summands differ by commutativity only. -/
import proofs.«400542_j69810398429749_3_alg».proof.Proof.Val.Spec
import proofs.«400542_j69810398429749_3_alg».proof.Proof.Math.Real

noncomputable section

namespace Cert.Val

open Idealize.ShloMosaic Idealize.ShloMosaic.ValueIdx Cert.MathLib

theorem layerRow_eq_ref (a x : Fin 64 → EReal) (d : EReal) (hd : d ≠ 0)
    (Wc : (⟨2, ![128, 64]⟩ : Shape).Idx → EReal) (b : (⟨2, ![1, 64]⟩ : Shape).Idx → EReal)
    (wl wr : Fin 64 → Fin 64 → EReal) (bj : Fin 64 → EReal)
    (hlo : ∀ k j, Wc (ix2 (lo k) j) = wl j k) (hhi : ∀ k j, Wc (ix2 (hi k) j) = wr j k)
    (hb : ∀ j, b (ix2 (0 : Fin 1) j) = bj j) (j : Fin 64) :
    layerRow a (Ideal.div 1 d) x Wc b j = ((∑ k : Fin 64, Ideal.div (a k) d * wl j k) + bj j) + ∑ k : Fin 64, x k * wr j k := by
  unfold layerRow
  rw [hb j, add_right_comm]
  congr 1
  · congr 1
    exact Finset.sum_congr rfl fun k _ => by rw [hlo k j, mul_div_one _ _ hd]
  · exact Finset.sum_congr rfl fun k _ => by rw [hhi k j]

/-- Every entry of a layer's row is a real when its ingredients are. -/
theorem layerRow_isReal (a x : Fin 64 → EReal) (inv : EReal) (Wc : (⟨2, ![128, 64]⟩ : Shape).Idx → EReal)
    (b : (⟨2, ![1, 64]⟩ : Shape).Idx → EReal) (ha : ∀ k, IsReal (a k)) (hx : ∀ k, IsReal (x k)) (hinv : IsReal inv)
    (hW : ∀ i, IsReal (Wc i)) (hb : ∀ i, IsReal (b i)) (j : Fin 64) : IsReal (layerRow a inv x Wc b j) := by
  unfold layerRow
  exact ((IsReal.sum _ _ fun k _ => ((ha k).mul hinv).mul (hW _)).add (IsReal.sum _ _ fun k _ => (hx k).mul (hW _))).add (hb _)

end Cert.Val

end
-- ==== Proof.Ref.Layer1.lean ====
/- The first graph-convolution layer of the reference, read at one node and one output feature:
   the mean of the neighbour features times one weight matrix, plus the bias, plus the node's own features times the other. -/
import proofs.«400542_j69810398429749_3_alg».proof.Proof.RefRead
import Idealize.ShloMosaic.Lib.ValueIdx
import Idealize.ShloMosaic.Lib.Pipeline.Value
import Idealize.ShloMosaic.PureOps.Ideal.Laws

noncomputable section

open scoped BigOperators

namespace Cert.RefSide

open Cert.ReferenceIdeal Cert.ReferenceIdeal.Read Idealize.ShloMosaic Idealize.ShloMosaic.ValueIdx

/-- Where each operand of the first layer is read: the broadcasts, transposes and contractions composed,
    at explicit coordinates (a matrix product contracts the second axis of its left operand against the
    first axis of the transposed weight, i.e. the second axis of the weight itself). -/
theorem lidx24 (n : Fin 100000) (j k : Fin 64) : lidx_main_v24 (ix2 n j) k = ix2 n k :=
  funext fun a => Fin.ext (by match a with | ⟨0, _⟩ => rfl | ⟨1, _⟩ => rfl)
theorem ridx24 (n : Fin 100000) (j k : Fin 64) : idx_main_v23 (ridx_main_v24 (ix2 n j) k) = ix2 j k :=
  funext fun a => Fin.ext (by match a with | ⟨0, _⟩ => rfl | ⟨1, _⟩ => rfl)
theorem lidx29 (n : Fin 100000) (j k : Fin 64) : lidx_main_v29 (ix2 n j) k = ix2 n k :=
  funext fun a => Fin.ext (by match a with | ⟨0, _⟩ => rfl | ⟨1, _⟩ => rfl)
theorem ridx29 (n : Fin 100000) (j k : Fin 64) : idx_main_v28 (ridx_main_v29 (ix2 n j) k) = ix2 j k :=
  funext fun a => Fin.ext (by match a with | ⟨0, _⟩ => rfl | ⟨1, _⟩ => rfl)
theorem idx21 (n : Fin 100000) (k : Fin 64) : idx_main_v20 (idx_main_v21 (ix2 n k)) = ix1 n :=
  funext fun a => Fin.ext (by match a with | ⟨0, _⟩ => rfl)
theorem idx26 (n : Fin 100000) (j : Fin 64) : idx_main_v25 (idx_main_v26 (ix2 n j)) = ix1 j :=
  funext fun a => Fin.ext (by match a with | ⟨0, _⟩ => rfl)

theorem layer1_apply
    (x0 : (⟨S100000x64, .f32⟩ : BufTy).Contents (Elt Ideal)) (x1 : (⟨S2x1600000, .i32⟩ : BufTy).Contents (Elt Ideal))
    (x3 x4 : (⟨S64x64, .f32⟩ : BufTy).Contents (Elt Ideal)) (x5 : (⟨S64, .f32⟩ : BufTy).Contents (Elt Ideal))
    (n : Fin 100000) (j : Fin 64) :
    val_main_v30 (F := Ideal) x0 x1 x3 x4 x5 (ix2 n j)
      = ((∑ k : Fin 64, Ideal.div (val_main_v17 (F := Ideal) x0 x1 (ix2 n k)) (val_main_v19 (F := Ideal) x1 (ix1 n)) * x3 (ix2 j k))
          + x5 (ix1 j))
        + ∑ k : Fin 64, x0 (ix2 n k) * x4 (ix2 j k) := by
  rw [val_main_v30_apply, val_main_v27_apply, val_main_v24_apply, val_main_v26_apply, val_main_v25_apply, val_main_v29_apply,
    idx26, Ideal.addf_def, Ideal.addf_def]
  refine congrArg₂ (· + ·) (congrArg (· + x5 (ix1 j)) (Finset.sum_congr rfl fun k _ => ?_)) (Finset.sum_congr rfl fun k _ => ?_)
  · rw [val_main_v22_apply, val_main_v21_apply, val_main_v20_apply, val_main_v23_apply, lidx24, ridx24, idx21, Ideal.hostDivf_def]
  · rw [val_main_v28_apply, lidx29, ridx29]

end Cert.RefSide
-- ==== Proof.Ref.Layer2.lean ====
/- The second graph-convolution layer of the reference, read at one node and one output feature. -/
import proofs.«400542_j69810398429749_3_alg».proof.Proof.RefRead
import Idealize.ShloMosaic.Lib.ValueIdx
import Idealize.ShloMosaic.Lib.Pipeline.Value
import Idealize.ShloMosaic.PureOps.Ideal.Laws

noncomputable section

open scoped BigOperators

namespace Cert.RefSide

open Cert.ReferenceIdeal Cert.ReferenceIdeal.Read Idealize.ShloMosaic Idealize.ShloMosaic.ValueIdx

/-- Where each operand of the second layer is read: the broadcasts, transposes and contractions composed,
    at explicit coordinates (a matrix product contracts the second axis of its left operand against the
    second axis of the weight). -/
theorem lidx77 (n : Fin 100000) (j k : Fin 64) : lidx_main_v77 (ix2 n j) k = ix2 n k :=
  funext fun a => Fin.ext (by match a with | ⟨0, _⟩ => rfl | ⟨1, _⟩ => rfl)
theorem ridx77 (n : Fin 100000) (j k : Fin 64) : idx_main_v76 (ridx_main_v77 (ix2 n j) k) = ix2 j k :=
  funext fun a => Fin.ext (by match a with | ⟨0, _⟩ => rfl | ⟨1, _⟩ => rfl)
theorem lidx82 (n : Fin 100000) (j k : Fin 64) : lidx_main_v82 (ix2 n j) k = ix2 n k :=
  funext fun a => Fin.ext (by match a with | ⟨0, _⟩ => rfl | ⟨1, _⟩ => rfl)
theorem ridx82 (n : Fin 100000) (j k : Fin 64) : idx_main_v81 (ridx_main_v82 (ix2 n j) k) = ix2 j k :=
  funext fun a => Fin.ext (by match a with | ⟨0, _⟩ => rfl | ⟨1, _⟩ => rfl)
theorem idx74 (n : Fin 100000) (k : Fin 64) : idx_main_v73 (idx_main_v74 (ix2 n k)) = ix1 n :=
  funext fun a => Fin.ext (by match a with | ⟨0, _⟩ => rfl)
theorem idx79 (n : Fin 100000) (j : Fin 64) : idx_main_v78 (idx_main_v79 (ix2 n j)) = ix1 j :=
  funext fun a => Fin.ext (by match a with | ⟨0, _⟩ => rfl)

/-- The second layer at node n and output feature j: the mean of the neighbours' activations times one weight
    matrix, plus the bias, plus the node's own activations times the other. -/
theorem layer2_apply
    (x0 : (⟨S100000x64, .f32⟩ : BufTy).Contents (Elt Ideal)) (x1 : (⟨S2x1600000, .i32⟩ : BufTy).Contents (Elt Ideal))
    (x3 x4 : (⟨S64x64, .f32⟩ : BufTy).Contents (Elt Ideal)) (x5 x6 x7 : (⟨S64, .f32⟩ : BufTy).Contents (Elt Ideal))
    (x8 x9 : (⟨S64x64, .f32⟩ : BufTy).Contents (Elt Ideal)) (x10 : (⟨S64, .f32⟩ : BufTy).Contents (Elt Ideal))
    (n : Fin 100000) (j : Fin 64) :
    val_main_v83 (F := Ideal) x0 x1 x3 x4 x5 x6 x7 x8 x9 x10 (ix2 n j)
      = ((∑ k : Fin 64, Ideal.div (val_main_v70 (F := Ideal) x0 x1 x3 x4 x5 x6 x7 (ix2 n k)) (val_main_v72 (F := Ideal) x1 (ix1 n)) * x8 (ix2 j k))
          + x10 (ix1 j))
        + ∑ k : Fin 64, val_main_v56 (F := Ideal) x0 x1 x3 x4 x5 x6 x7 (ix2 n k) * x9 (ix2 j k) := by
  rw [val_main_v83_apply, val_main_v80_apply, val_main_v77_apply, val_main_v79_apply, val_main_v78_apply, val_main_v82_apply,
    idx79, Ideal.addf_def, Ideal.addf_def]
  refine congrArg₂ (· + ·) (congrArg (· + x10 (ix1 j)) (Finset.sum_congr rfl fun k _ => ?_)) (Finset.sum_congr rfl fun k _ => ?_)
  · rw [val_main_v75_apply, val_main_v74_apply, val_main_v73_apply, val_main_v76_apply, lidx77, ridx77, idx74, Ideal.hostDivf_def]
  · rw [val_main_v81_apply, lidx82, ridx82]

end Cert.RefSide
-- ==== Proof.Val.RealStages.lean ====
/- The reference's aggregation stages keep real numbers real, at the extended-real instance.
   * A gather only re-reads entries of its operand, so it is real wherever the operand is.
   * An accumulating scatter gives, at each position, the operand's entry plus a finite sum of update entries:
     real when the operand and the updates are.
   * The zero word and the one word denote the reals 0 and 1, so the arrays that broadcast them are real.
   * Hence the neighbour sum (zeros, plus the gathered rows added at their targets) is real when the gathered
     array is; both layers use this same pair of operations.
   * The edge count clamped below by 1 is a real that is at least 1, so it is not zero; the second layer's
     clamped count is the same term as the first's. -/
import proofs.«400542_j69810398429749_3_alg».proof.Proof.RefRead
import proofs.«400542_j69810398429749_3_alg».proof.Proof.Math.Real
import proofs.«400542_j69810398429749_3_alg».proof.Proof.Math.Consts
import Idealize.ShloMosaic.PureOps.Ideal

noncomputable section

namespace Cert.Val

open Cert.ReferenceIdeal Cert.ReferenceIdeal.Gen Cert.ReferenceIdeal.Read Idealize.ShloMosaic Cert.MathLib

/-! ### The two data-dependent operations -/

/-- A gather reads its operand at some index: real entries in, real entries out. -/
theorem isReal_gather {s si t : Shape} {w : Nat} (d : GatherDims s si t) (x : s.Idx → EReal) (idx : IVec si w)
    (hx : ∀ i, IsReal (x i)) : ∀ j, IsReal (Host.gather d x idx j) :=
  fun j => hx (d.operandIdx j idx)

/-- An accumulating scatter's entry is the operand's entry plus the sum of the updates landing on it. -/
theorem scatterAdd_apply {s si su : Shape} {w : Nat} (d : ScatterDims s si su) (x : FVec Ideal s .f32)
    (idx : IVec si w) (upd : FVec Ideal su .f32) (i : s.Idx) :
    Host.scatterAdd (F := Ideal) d x idx upd i
      = x i + ∑ j ∈ Finset.univ.filter (fun j => d.resultIdx? j idx = some i), upd j := rfl

/-- An accumulating scatter of real updates into a real operand is real. -/
theorem isReal_scatterAdd {s si su : Shape} {w : Nat} (d : ScatterDims s si su) (x : FVec Ideal s .f32)
    (idx : IVec si w) (upd : FVec Ideal su .f32) (hx : ∀ i, IsReal (x i)) (hu : ∀ j, IsReal (upd j)) :
    ∀ i, IsReal (Host.scatterAdd (F := Ideal) d x idx upd i) := fun i => by
  rw [scatterAdd_apply]
  exact (hx i).add (IsReal.sum _ _ fun j _ => hu j)

/-! ### The constants -/

theorem isReal_zero_word : IsReal (Ideal.ofBits .f32 0x00000000#32) := by
  rw [Cert.Consts.ofBits_zero]; exact IsReal.zero

theorem isReal_one_word : IsReal (Ideal.ofBits .f32 0x3F800000#32) := by
  rw [Cert.Consts.ofBits_one]; exact IsReal.one

/-- A scalar constant broadcast to any shape is, at every index, the value its word denotes. -/
theorem bcast_const_apply {t : Shape} (hb : S_.BroadcastsInDim t (![] : Fin 0 → Fin t.rank)) (b : BitVec 32)
    (i : t.Idx) : broadcastInDim t ![] hb (constant (F := Ideal) S_ .f32 b) i = Ideal.ofBits .f32 b := rfl

/-- The all-zeros and all-ones arrays the reference builds, read at an index. -/
theorem v4_eq (i : S1600000.Idx) : val_main_v4 (F := Ideal) i = 1 := Cert.Consts.ofBits_one
theorem v5_eq (i : S100000.Idx) : val_main_v5 (F := Ideal) i = 0 := Cert.Consts.ofBits_zero
theorem v15_eq (i : S100000x64.Idx) : val_main_v15 (F := Ideal) i = 0 := Cert.Consts.ofBits_zero
theorem v18_eq (i : S100000.Idx) : val_main_v18 (F := Ideal) i = 1 := Cert.Consts.ofBits_one
theorem v68_eq (i : S100000x64.Idx) : val_main_v68 (F := Ideal) i = 0 := Cert.Consts.ofBits_zero

/-! ### The neighbour sum -/

/-- Rows of a real array gathered and then added, at their targets, into a real array: real. This is the
    operation term both layers apply (to the features in the first, to the hidden array in the second). -/
theorem isReal_nbrSum (z y : (⟨S100000x64, .f32⟩ : BufTy).Contents (Elt Ideal))
    (idxs idxg : (⟨S1600000x1, .i32⟩ : BufTy).Contents (Elt Ideal))
    (hz : ∀ i, IsReal (z i)) (hy : ∀ i, IsReal (y i)) :
    ∀ i, IsReal (Host.scatterAdd (F := Ideal) (φ := .f32) scatter_S100000x64_S1600000x1_S1600000x64_1_0_0_1 z idxs
      (Host.gather gather_S100000x64_S1600000x1_S1600000x64_1_0_n_n_0_1_164 y idxg) i) :=
  isReal_scatterAdd _ _ _ _ hz (isReal_gather _ _ _ hy)

/-- The first layer's neighbour sum is real when the features are. -/
theorem isReal_v17 (x0 : (⟨S100000x64, .f32⟩ : BufTy).Contents (Elt Ideal))
    (x1 : (⟨S2x1600000, .i32⟩ : BufTy).Contents (Elt Ideal)) (hx : ∀ i, IsReal (x0 i)) :
    ∀ i, IsReal (val_main_v17 (F := Ideal) x0 x1 i) :=
  isReal_nbrSum _ x0 _ _ (fun i => by rw [v15_eq]; exact IsReal.zero) hx

/-- The second layer's neighbour sum is real when the hidden array it gathers from is. -/
theorem isReal_v70 (x0 : (⟨S100000x64, .f32⟩ : BufTy).Contents (Elt Ideal))
    (x1 : (⟨S2x1600000, .i32⟩ : BufTy).Contents (Elt Ideal))
    (x3 x4 : (⟨S64x64, .f32⟩ : BufTy).Contents (Elt Ideal)) (x5 x6 x7 : (⟨S64, .f32⟩ : BufTy).Contents (Elt Ideal))
    (h56 : ∀ i, IsReal (val_main_v56 (F := Ideal) x0 x1 x3 x4 x5 x6 x7 i)) :
    ∀ i, IsReal (val_main_v70 (F := Ideal) x0 x1 x3 x4 x5 x6 x7 i) :=
  isReal_nbrSum _ _ _ _ (fun i => by rw [v68_eq]; exact IsReal.zero) h56

/-! ### The clamped edge count -/

/-- The edge count (zeros plus one per incoming edge) is real. -/
theorem v7_real (x1 : (⟨S2x1600000, .i32⟩ : BufTy).Contents (Elt Ideal)) (i : S100000.Idx) :
    IsReal (val_main_v7 (F := Ideal) x1 i) :=
  isReal_scatterAdd _ _ _ _ (fun i => by rw [v5_eq]; exact IsReal.zero) (fun j => by rw [v4_eq]; exact IsReal.one) i

/-- The clamped count is the larger of the count and 1. -/
theorem v19_eq_max (x1 : (⟨S2x1600000, .i32⟩ : BufTy).Contents (Elt Ideal)) (i : S100000.Idx) :
    val_main_v19 (F := Ideal) x1 i = max (val_main_v7 (F := Ideal) x1 i) 1 := by
  rw [val_main_v19_apply, v18_eq]; rfl

theorem v19_real (x1 : (⟨S2x1600000, .i32⟩ : BufTy).Contents (Elt Ideal)) (i : S100000.Idx) :
    IsReal (val_main_v19 (F := Ideal) x1 i) := by
  rw [v19_eq_max]; exact isReal_max (v7_real x1 i) IsReal.one

theorem v19_ge_one (x1 : (⟨S2x1600000, .i32⟩ : BufTy).Contents (Elt Ideal)) (i : S100000.Idx) :
    1 ≤ val_main_v19 (F := Ideal) x1 i := by
  rw [v19_eq_max]; exact le_max_right _ _

theorem v19_ne_zero (x1 : (⟨S2x1600000, .i32⟩ : BufTy).Contents (Elt Ideal)) (i : S100000.Idx) :
    val_main_v19 (F := Ideal) x1 i ≠ 0 :=
  ne_of_gt (lt_of_lt_of_le zero_lt_one (v19_ge_one x1 i))

/-- The second layer's clamped count is the first's: the same operations on the same operands. -/
theorem v72_eq_v19 (x1 : (⟨S2x1600000, .i32⟩ : BufTy).Contents (Elt Ideal)) :
    val_main_v72 (F := Ideal) x1 = val_main_v19 (F := Ideal) x1 := rfl

theorem v72_real (x1 : (⟨S2x1600000, .i32⟩ : BufTy).Contents (Elt Ideal)) (i : S100000.Idx) :
    IsReal (val_main_v72 (F := Ideal) x1 i) := by rw [v72_eq_v19]; exact v19_real x1 i

theorem v72_ne_zero (x1 : (⟨S2x1600000, .i32⟩ : BufTy).Contents (Elt Ideal)) (i : S100000.Idx) :
    val_main_v72 (F := Ideal) x1 i ≠ 0 := by rw [v72_eq_v19]; exact v19_ne_zero x1 i

end Cert.Val
-- ==== Proof.Val.LayerStages.lean ====
/- The two graph-convolution layers of the two programs meet. The kernel's layer, as one array function of the
   neighbour sums, the reciprocal of the clamped edge count, the layer's input and the stacked transposed
   weights and bias row, equals the reference's layer at every node and output feature: the clamped count is
   at least 1, hence nonzero, so multiplying by its reciprocal is dividing by it. Also: the first layer's
   output is a real number wherever features, weights and bias are. -/
import proofs.«400542_j69810398429749_3_alg».proof.Proof.Val.LayerBridge
import proofs.«400542_j69810398429749_3_alg».proof.Proof.Ref.Layer1
import proofs.«400542_j69810398429749_3_alg».proof.Proof.Ref.Layer2
import proofs.«400542_j69810398429749_3_alg».proof.Proof.Val.RealStages

noncomputable section

namespace Cert.Val

open Cert.ReferenceIdeal Cert.ReferenceIdeal.Read Idealize.ShloMosaic Idealize.ShloMosaic.ValueIdx Cert.MathLib

/-- The first layer: the kernel's array function, fed the reference's neighbour sums and the reciprocal of the
    reference's clamped count, is the reference's first layer. -/
theorem layer1_bridge
    (x0 : (⟨S100000x64, .f32⟩ : BufTy).Contents (Elt Ideal)) (x1 : (⟨S2x1600000, .i32⟩ : BufTy).Contents (Elt Ideal))
    (x3 x4 : (⟨S64x64, .f32⟩ : BufTy).Contents (Elt Ideal)) (x5 : (⟨S64, .f32⟩ : BufTy).Contents (Elt Ideal))
    (inv : (⟨2, ![100000, 1]⟩ : Shape).Idx → EReal) (Wc : (⟨2, ![128, 64]⟩ : Shape).Idx → EReal)
    (b : (⟨2, ![1, 64]⟩ : Shape).Idx → EReal)
    (hinv : ∀ n : Fin 100000, inv (ix2 n (0 : Fin 1)) = Ideal.div 1 (val_main_v19 (F := Ideal) x1 (ix1 n)))
    (hlo : ∀ k j : Fin 64, Wc (ix2 (lo k) j) = x3 (ix2 j k))
    (hhi : ∀ k j : Fin 64, Wc (ix2 (hi k) j) = x4 (ix2 j k))
    (hb : ∀ j : Fin 64, b (ix2 (0 : Fin 1) j) = x5 (ix1 j)) (n : Fin 100000) (j : Fin 64) :
    layerArr (val_main_v17 (F := Ideal) x0 x1) inv x0 Wc b (ix2 n j)
      = val_main_v30 (F := Ideal) x0 x1 x3 x4 x5 (ix2 n j) := by
  refine (layerArr_apply _ _ _ _ _ n j).trans ?_
  rw [hinv n]
  refine (layerRow_eq_ref _ _ _ (v19_ne_zero x1 (ix1 n)) Wc b (fun j k => x3 (ix2 j k)) (fun j k => x4 (ix2 j k))
    (fun j => x5 (ix1 j)) hlo hhi hb j).trans ?_
  exact (Cert.RefSide.layer1_apply x0 x1 x3 x4 x5 n j).symm

/-- The first layer's output is real when the features, both weight matrices and the bias are. -/
theorem isReal_v30
    (x0 : (⟨S100000x64, .f32⟩ : BufTy).Contents (Elt Ideal)) (x1 : (⟨S2x1600000, .i32⟩ : BufTy).Contents (Elt Ideal))
    (x3 x4 : (⟨S64x64, .f32⟩ : BufTy).Contents (Elt Ideal)) (x5 : (⟨S64, .f32⟩ : BufTy).Contents (Elt Ideal))
    (h0 : ∀ i, IsReal (x0 i)) (h3 : ∀ i, IsReal (x3 i)) (h4 : ∀ i, IsReal (x4 i)) (h5 : ∀ i, IsReal (x5 i))
    (n : Fin 100000) (j : Fin 64) : IsReal (val_main_v30 (F := Ideal) x0 x1 x3 x4 x5 (ix2 n j)) := by
  rw [Cert.RefSide.layer1_apply]
  exact ((IsReal.sum _ _ fun k _ =>
      (IsReal.div (isReal_v17 x0 x1 h0 _) (v19_real x1 _) (v19_ne_zero x1 _)).mul (h3 _)).add (h5 _)).add
    (IsReal.sum _ _ fun k _ => (h0 _).mul (h4 _))

/-- The second layer: the same, over the hidden array the second layer reads. -/
theorem layer2_bridge
    (x0 : (⟨S100000x64, .f32⟩ : BufTy).Contents (Elt Ideal)) (x1 : (⟨S2x1600000, .i32⟩ : BufTy).Contents (Elt Ideal))
    (x3 x4 : (⟨S64x64, .f32⟩ : BufTy).Contents (Elt Ideal)) (x5 x6 x7 : (⟨S64, .f32⟩ : BufTy).Contents (Elt Ideal))
    (x8 x9 : (⟨S64x64, .f32⟩ : BufTy).Contents (Elt Ideal)) (x10 : (⟨S64, .f32⟩ : BufTy).Contents (Elt Ideal))
    (inv : (⟨2, ![100000, 1]⟩ : Shape).Idx → EReal) (Wc : (⟨2, ![128, 64]⟩ : Shape).Idx → EReal)
    (b : (⟨2, ![1, 64]⟩ : Shape).Idx → EReal)
    (hinv : ∀ n : Fin 100000, inv (ix2 n (0 : Fin 1)) = Ideal.div 1 (val_main_v72 (F := Ideal) x1 (ix1 n)))
    (hlo : ∀ k j : Fin 64, Wc (ix2 (lo k) j) = x8 (ix2 j k))
    (hhi : ∀ k j : Fin 64, Wc (ix2 (hi k) j) = x9 (ix2 j k))
    (hb : ∀ j : Fin 64, b (ix2 (0 : Fin 1) j) = x10 (ix1 j)) (n : Fin 100000) (j : Fin 64) :
    layerArr (val_main_v70 (F := Ideal) x0 x1 x3 x4 x5 x6 x7) inv (val_main_v56 (F := Ideal) x0 x1 x3 x4 x5 x6 x7) Wc b (ix2 n j)
      = val_main_v83 (F := Ideal) x0 x1 x3 x4 x5 x6 x7 x8 x9 x10 (ix2 n j) := by
  refine (layerArr_apply _ _ _ _ _ n j).trans ?_
  rw [hinv n]
  refine (layerRow_eq_ref _ _ _ (v72_ne_zero x1 (ix1 n)) Wc b (fun j k => x8 (ix2 j k)) (fun j k => x9 (ix2 j k))
    (fun j => x10 (ix1 j)) hlo hhi hb j).trans ?_
  exact (Cert.RefSide.layer2_apply x0 x1 x3 x4 x5 x6 x7 x8 x9 x10 n j).symm

/-- The second layer's output is real when the hidden array it reads, its weight matrices and its bias are. -/
theorem isReal_v83
    (x0 : (⟨S100000x64, .f32⟩ : BufTy).Contents (Elt Ideal)) (x1 : (⟨S2x1600000, .i32⟩ : BufTy).Contents (Elt Ideal))
    (x3 x4 : (⟨S64x64, .f32⟩ : BufTy).Contents (Elt Ideal)) (x5 x6 x7 : (⟨S64, .f32⟩ : BufTy).Contents (Elt Ideal))
    (x8 x9 : (⟨S64x64, .f32⟩ : BufTy).Contents (Elt Ideal)) (x10 : (⟨S64, .f32⟩ : BufTy).Contents (Elt Ideal))
    (h56 : ∀ i, IsReal (val_main_v56 (F := Ideal) x0 x1 x3 x4 x5 x6 x7 i))
    (h8 : ∀ i, IsReal (x8 i)) (h9 : ∀ i, IsReal (x9 i)) (h10 : ∀ i, IsReal (x10 i))
    (n : Fin 100000) (j : Fin 64) : IsReal (val_main_v83 (F := Ideal) x0 x1 x3 x4 x5 x6 x7 x8 x9 x10 (ix2 n j)) := by
  rw [Cert.RefSide.layer2_apply]
  exact ((IsReal.sum _ _ fun k _ =>
      (IsReal.div (isReal_v70 x0 x1 x3 x4 x5 x6 x7 h56 _) (v72_real x1 _) (v72_ne_zero x1 _)).mul (h8 _)).add (h10 _)).add
    (IsReal.sum _ _ fun k _ => (h56 _).mul (h9 _))

end Cert.Val
-- ==== Proof.Val.Finite.lean ====
/- Finiteness read off the precondition, at the extended-real instance.
   The precondition is a conjunction, over the nine float arrays, of "every entry x has |x| < +∞". On the
   extended reals |x| is max x (-x) and the f32 pattern 0x7F800000 denotes ⊤, so the strict comparison fails
   exactly at ⊥ and ⊤: an entry that passes it is a real number. -/
import proofs.«400542_j69810398429749_3_alg».proof.Proof.Gen.Pre_finite_inputs
import proofs.«400542_j69810398429749_3_alg».proof.Proof.Math.Real
import Idealize.ShloMosaic.Lib.ReduceAll
import Idealize.ShloMosaic.PureOps.Ideal

noncomputable section

namespace Cert.Val

open Idealize.ShloMosaic Cert.Pre_finite_inputs Cert.Pre_finite_inputs.Facts

/-- The f32 pattern with every exponent bit set and a zero fraction denotes +∞. -/
theorem ofBits_inf : Ideal.ofBits .f32 0x7F800000#32 = (⊤ : EReal) := by
  simp [Ideal.ofBits, Ideal.ieee]

/-- An extended real whose absolute value is strictly below +∞ is a real number. -/
theorem isReal_of_abs_lt_inf (x : EReal)
    (h : Ideal.cmp .olt (max x (-x)) (Ideal.ofBits .f32 0x7F800000#32) = 1#1) : Cert.MathLib.IsReal x := by
  rw [ofBits_inf] at h
  induction x using EReal.rec with
  | bot => simp [Ideal.cmp] at h
  | top => simp [Ideal.cmp] at h
  | coe r => exact ⟨r, rfl⟩

/-- The rank-0 shape has one index. -/
instance subsingleton_S_Idx : Subsingleton S_.Idx := ⟨fun a b => funext fun d => d.elim0⟩

/-- "All entries have |x| < +∞", as the predicate states it over any shape — the conjunction, from 1, of the
    entrywise comparison of |x| with the broadcast +∞ constant — being 1 makes every entry a real number. -/
theorem isReal_of_all {s : Shape} {axes : List (Fin s.rank)}
    (hb : S_.BroadcastsInDim s (![] : Fin 0 → Fin s.rank)) (hr : s.ReducesTo axes S_) (hu : 0 < S_.numel)
    (x : FVec Ideal s .f32) (j : S_.Idx)
    (e : Host.reduce IntOp.andi
          (cmpf .olt (Host.absf x) (broadcastInDim s ![] hb (constant (F := Ideal) S_ .f32 0x7F800000#32)))
          (constantI S_ 1 1#1) hr hu j = 1#1) (i : s.Idx) : Cert.MathLib.IsReal (x i) :=
  isReal_of_abs_lt_inf (x i) (Host.reduce_andi_all _ _ hr hu j e i)

/-- The precondition gives: every entry of each of the nine float arrays is a real number. -/
theorem isReal_of_fn (a0 : FVec Ideal S100000x64 .f32) (a1 : IVec S2x1600000 32) (a2 : IVec S100000 32)
    (a3 a4 : FVec Ideal S64x64 .f32) (a5 a6 a7 : FVec Ideal S64 .f32) (a8 a9 : FVec Ideal S64x64 .f32)
    (a10 : FVec Ideal S64 .f32)
    (h : Cert.Pre_finite_inputs.fn (F := Ideal) a0 a1 a2 a3 a4 a5 a6 a7 a8 a9 a10 = fun _ => 1#1) :
    (∀ i, Cert.MathLib.IsReal (a0 i)) ∧ (∀ i, Cert.MathLib.IsReal (a3 i)) ∧ (∀ i, Cert.MathLib.IsReal (a4 i)) ∧
    (∀ i, Cert.MathLib.IsReal (a5 i)) ∧ (∀ i, Cert.MathLib.IsReal (a6 i)) ∧ (∀ i, Cert.MathLib.IsReal (a7 i)) ∧
    (∀ i, Cert.MathLib.IsReal (a8 i)) ∧ (∀ i, Cert.MathLib.IsReal (a9 i)) ∧ (∀ i, Cert.MathLib.IsReal (a10 i)) := by
  have h0 := congrFun h (fun d => d.elim0 : S_.Idx)
  dsimp only [Cert.Pre_finite_inputs.fn, Cert.Pre_finite_inputs.fn_part1, Cert.Pre_finite_inputs.fn_part2, andi] at h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨e0, e3⟩ := IntOp.andi_eq_one.1 h0
  exact ⟨isReal_of_all _ _ _ a0 _ e0, isReal_of_all _ _ _ a3 _ e3, isReal_of_all _ _ _ a4 _ e4,
    isReal_of_all _ _ _ a5 _ e5, isReal_of_all _ _ _ a6 _ e6, isReal_of_all _ _ _ a7 _ e7,
    isReal_of_all _ _ _ a8 _ e8, isReal_of_all _ _ _ a9 _ e9, isReal_of_all _ _ _ a10 _ e10⟩

end Cert.Val
-- ==== Proof.Val.ChainA.lean ====
/- The first half of the run, read as mathematics: after the first two launches and the host lines around them,
   the array the third launch reads as its node features is the reference's hidden activation — the first
   graph-convolution layer of the argument arrays, normalised over the nodes, scaled, shifted and rectified. -/
import proofs.«400542_j69810398429749_3_alg».proof.Defs
import proofs.«400542_j69810398429749_3_alg».proof.Proof.Val.Fold
import proofs.«400542_j69810398429749_3_alg».proof.Proof.Val.R1Val
import proofs.«400542_j69810398429749_3_alg».proof.Proof.Val.ActStage
import proofs.«400542_j69810398429749_3_alg».proof.Proof.Val.LayerStages
import proofs.«400542_j69810398429749_3_alg».proof.Proof.Val.Finite
import proofs.«400542_j69810398429749_3_alg».proof.Proof.KI.HostIdx

set_option maxRecDepth 65536

noncomputable section

namespace Cert.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand Cert.KernelIdeal.HostVals Cert.MathLib

/-! ## The two stages over any arrays -/

/-- The first layer over the first host stretch's operation terms: the layer's array function of the neighbour sum,
    the inverse in-degree column, the features, the stacked transposed weights and the bias row of the argument
    arrays is the reference's first layer, element by element. -/
theorem layer1_core
    (x0 : (⟨S100000x64, .f32⟩ : BufTy).Contents (Elt Ideal)) (x1 : (⟨S2x1600000, .i32⟩ : BufTy).Contents (Elt Ideal))
    (x3 x4 : (⟨S64x64, .f32⟩ : BufTy).Contents (Elt Ideal)) (x5 : (⟨S64, .f32⟩ : BufTy).Contents (Elt Ideal))
    (n : Fin 100000) (j : Fin 64) :
    layerArr (aggK (F := Ideal) x0 (srcK (F := Ideal) x1) (dstK (F := Ideal) x1)) (invDegK (F := Ideal) (dstK (F := Ideal) x1)) x0
        (wcatK (F := Ideal) x3 x4) (shapeCast S1x64 x5 shapeCasts_S64_S1x64) (ix2 n j)
      = Cert.ReferenceIdeal.Read.val_main_v30 (F := Ideal) x0 x1 x3 x4 x5 (ix2 n j) := by
  rw [aggK_eq_ref17]
  exact layer1_bridge x0 x1 x3 x4 x5 _ _ _
    (fun n => by rw [invDegK_apply, degK_eq_ref19])
    (fun k j => wcatK_lo _ _ k j) (fun k j => wcatK_hi _ _ k j) (fun j => row64_apply _ j) n j

/-- Both stages: if `H` is the layer's array function of those operation terms and `S`, `SS` are its column sums
    and column sums of squares, then the normalise-and-rectify function of the lane-dense view of `H` and the
    doubled scale and shift rows, viewed one node to a row again, is the reference's hidden activation. -/
theorem chain_core
    (x0 : (⟨S100000x64, .f32⟩ : BufTy).Contents (Elt Ideal)) (x1 : (⟨S2x1600000, .i32⟩ : BufTy).Contents (Elt Ideal))
    (x3 x4 : (⟨S64x64, .f32⟩ : BufTy).Contents (Elt Ideal)) (x5 x6 x7 : (⟨S64, .f32⟩ : BufTy).Contents (Elt Ideal))
    (r0 : ∀ i, IsReal (x0 i)) (r3 : ∀ i, IsReal (x3 i)) (r4 : ∀ i, IsReal (x4 i)) (r5 : ∀ i, IsReal (x5 i))
    (r6 : ∀ i, IsReal (x6 i)) (r7 : ∀ i, IsReal (x7 i))
    (H : (⟨S100000x64, .f32⟩ : BufTy).Contents (Elt Ideal)) (S SS : (⟨S1x64, .f32⟩ : BufTy).Contents (Elt Ideal))
    (h5 : H = layerArr (aggK (F := Ideal) x0 (srcK (F := Ideal) x1) (dstK (F := Ideal) x1)) (invDegK (F := Ideal) (dstK (F := Ideal) x1)) x0
        (wcatK (F := Ideal) x3 x4) (shapeCast S1x64 x5 shapeCasts_S64_S1x64))
    (h6 : ∀ j : Fin 64, S (ix2 (0 : Fin 1) j) = ∑ n : Fin 100000, H (ix2 n j))
    (h7 : ∀ j : Fin 64, SS (ix2 (0 : Fin 1) j) = ∑ n : Fin 100000, H (ix2 n j) * H (ix2 n j)) :
    shapeCast S100000x64
        (bnRelu (shapeCast S50000x128 H shapeCasts_S100000x64_S50000x128)
          (dupK (F := Ideal) (scaleK (F := Ideal) (shapeCast S64 S shapeCasts_S1x64_S64) (shapeCast S64 SS shapeCasts_S1x64_S64) x6))
          (dupK (F := Ideal) (shiftK (F := Ideal) (shapeCast S64 S shapeCasts_S1x64_S64) (shapeCast S64 SS shapeCasts_S1x64_S64) x6 x7)))
        shapeCasts_S50000x128_S100000x64
      = Cert.ReferenceIdeal.Read.val_main_v56 (F := Ideal) x0 x1 x3 x4 x5 x6 x7 :=
  act_stage x0 x1 x3 x4 x5 x6 x7 (fun n j => isReal_v30 x0 x1 x3 x4 x5 r0 r3 r4 r5 n j) r6 r7 H S SS
    (fun n j => (congrFun h5 (ix2 n j)).trans (layer1_core x0 x1 x3 x4 x5 n j)) h6 h7

variable (m : (ℓ : Loc nD τ sig) → Buf (Elt Ideal) ℓ) (c : Dev nD)

/-! ## The arrays, each named at its literal type -/

/-- The program's arguments on core `c`, as launched. -/
abbrev arg0 : (⟨S100000x64, .f32⟩ : BufTy).Contents (Elt Ideal) := m ((c : Thread nD τ).loc main_arg0)
abbrev arg1 : (⟨S2x1600000, .i32⟩ : BufTy).Contents (Elt Ideal) := m ((c : Thread nD τ).loc main_arg1)
abbrev arg3 : (⟨S64x64, .f32⟩ : BufTy).Contents (Elt Ideal) := m ((c : Thread nD τ).loc main_arg3)
abbrev arg4 : (⟨S64x64, .f32⟩ : BufTy).Contents (Elt Ideal) := m ((c : Thread nD τ).loc main_arg4)
abbrev arg5 : (⟨S64, .f32⟩ : BufTy).Contents (Elt Ideal) := m ((c : Thread nD τ).loc main_arg5)
abbrev arg6 : (⟨S64, .f32⟩ : BufTy).Contents (Elt Ideal) := m ((c : Thread nD τ).loc main_arg6)
abbrev arg7 : (⟨S64, .f32⟩ : BufTy).Contents (Elt Ideal) := m ((c : Thread nD τ).loc main_arg7)

/-- What the first launch leaves in its three output arrays: the layer, its column sums, its column sums of squares. -/
abbrev layerOut : (⟨S100000x64, .f32⟩ : BufTy).Contents (Elt Ideal) := (dat0 (Hand.V1 m) c).arrAt 5 cfg0.N
abbrev sumOut : (⟨S1x64, .f32⟩ : BufTy).Contents (Elt Ideal) := (dat0 (Hand.V1 m) c).arrAt 6 cfg0.N
abbrev sqOut : (⟨S1x64, .f32⟩ : BufTy).Contents (Elt Ideal) := (dat0 (Hand.V1 m) c).arrAt 7 cfg0.N

/-- The first launch's five operand arrays, as the first host stretch leaves them. -/
abbrev opAgg : (⟨S100000x64, .f32⟩ : BufTy).Contents (Elt Ideal) := Hand.V1 m c main_v22
abbrev opInv : (⟨S100000x1, .f32⟩ : BufTy).Contents (Elt Ideal) := Hand.V1 m c main_v12
abbrev opX : (⟨S100000x64, .f32⟩ : BufTy).Contents (Elt Ideal) := Hand.V1 m c main_arg0
abbrev opW : (⟨S128x64, .f32⟩ : BufTy).Contents (Elt Ideal) := Hand.V1 m c main_v25
abbrev opB : (⟨S1x64, .f32⟩ : BufTy).Contents (Elt Ideal) := Hand.V1 m c main_v26

/-! ## The first half of the chain -/

/-- The first launch's operand arrays are the first host stretch's operation terms of the argument arrays. -/
theorem ops_of_fold :
    layerArr (opAgg m c) (opInv m c) (opX m c) (opW m c) (opB m c)
      = layerArr (aggK (F := Ideal) (arg0 m c) (srcK (F := Ideal) (arg1 m c)) (dstK (F := Ideal) (arg1 m c)))
          (invDegK (F := Ideal) (dstK (F := Ideal) (arg1 m c))) (arg0 m c)
          (wcatK (F := Ideal) (arg3 m c) (arg4 m c)) (shapeCast S1x64 (arg5 m c) shapeCasts_S64_S1x64) := by
  have e22 : opAgg m c = aggK (F := Ideal) (arg0 m c) (srcK (F := Ideal) (arg1 m c)) (dstK (F := Ideal) (arg1 m c)) := fold1_v22 m c
  have e12 : opInv m c = invDegK (F := Ideal) (dstK (F := Ideal) (arg1 m c)) := fold1_v12 m c
  have e0 : opX m c = arg0 m c := fold1_arg0 m c
  have e25 : opW m c = wcatK (F := Ideal) (arg3 m c) (arg4 m c) := fold1_v25 m c
  have e26 : opB m c = shapeCast S1x64 (arg5 m c) shapeCasts_S64_S1x64 := fold1_v26 m c
  rw [e22, e12, e0, e25, e26]

/-- Given what the first launch leaves in its three output arrays — the layer's array function of its operand
    arrays, its column sums and its column sums of squares —, the features the third launch reads are the
    reference's hidden activation of the program's arguments. -/
theorem chainA (hpre : Cert.Pre_KernelIdeal m)
    (h5 : layerOut m c = layerArr (opAgg m c) (opInv m c) (opX m c) (opW m c) (opB m c))
    (h6 : ∀ j : Fin 64, sumOut m c (ix2 (0 : Fin 1) j) = ∑ n : Fin 100000, layerOut m c (ix2 n j))
    (h7 : ∀ j : Fin 64, sqOut m c (ix2 (0 : Fin 1) j) = ∑ n : Fin 100000, layerOut m c (ix2 n j) * layerOut m c (ix2 n j)) :
    (Hand.V5 m c main_v48 : (⟨S100000x64, .f32⟩ : BufTy).Contents (Elt Ideal))
      = Cert.ReferenceIdeal.Read.val_main_v56 (F := Ideal) (arg0 m c) (arg1 m c) (arg3 m c) (arg4 m c) (arg5 m c) (arg6 m c) (arg7 m c) := by
  -- every entry of the float arguments is a real number
  obtain ⟨r0, r3, r4, r5, r6, r7, _, _, _⟩ := isReal_of_fn _ _ _ _ _ _ _ _ _ _ _ (hpre c)
  -- the second launch's operand arrays, as the second host stretch leaves them
  have e42 : (Hand.V3 m c main_v42 : (⟨S50000x128, .f32⟩ : BufTy).Contents (Elt Ideal))
      = shapeCast S50000x128 (layerOut m c) shapeCasts_S100000x64_S50000x128 := fold3_v42 m c
  have e44 : (Hand.V3 m c main_v44 : (⟨S1x128, .f32⟩ : BufTy).Contents (Elt Ideal))
      = dupK (F := Ideal) (scaleK (F := Ideal) (shapeCast S64 (sumOut m c) shapeCasts_S1x64_S64) (shapeCast S64 (sqOut m c) shapeCasts_S1x64_S64) (arg6 m c)) :=
    fold3_v44 m c
  have e46 : (Hand.V3 m c main_v46 : (⟨S1x128, .f32⟩ : BufTy).Contents (Elt Ideal))
      = dupK (F := Ideal) (shiftK (F := Ideal) (shapeCast S64 (sumOut m c) shapeCasts_S1x64_S64) (shapeCast S64 (sqOut m c) shapeCasts_S1x64_S64) (arg6 m c) (arg7 m c)) :=
    fold3_v46 m c
  -- the second launch's output: the normalise-and-rectify function of those
  have e1 : ((dat1 (Hand.V3 m) c).arrAt 3 cfg1.N : (⟨S50000x128, .f32⟩ : BufTy).Contents (Elt Ideal))
      = bnRelu (shapeCast S50000x128 (layerOut m c) shapeCasts_S100000x64_S50000x128)
          (dupK (F := Ideal) (scaleK (F := Ideal) (shapeCast S64 (sumOut m c) shapeCasts_S1x64_S64) (shapeCast S64 (sqOut m c) shapeCasts_S1x64_S64) (arg6 m c)))
          (dupK (F := Ideal) (shiftK (F := Ideal) (shapeCast S64 (sumOut m c) shapeCasts_S1x64_S64) (shapeCast S64 (sqOut m c) shapeCasts_S1x64_S64) (arg6 m c) (arg7 m c))) :=
    (final1_3 (Hand.V3 m) c).trans (by rw [e42, e44, e46])
  -- the features the third launch reads: that output, viewed one node to a row
  refine (fold5_v48 m c).trans ?_
  refine (congrArg (fun a => shapeCast S100000x64 a shapeCasts_S50000x128_S100000x64) e1).trans ?_
  exact chain_core (arg0 m c) (arg1 m c) (arg3 m c) (arg4 m c) (arg5 m c) (arg6 m c) (arg7 m c) r0 r3 r4 r5 r6 r7
    (layerOut m c) (sumOut m c) (sqOut m c) (h5.trans (ops_of_fold m c)) h6 h7

end Cert.Val

end
-- ==== Proof.Ref.Result.lean ====
/- The mean pool at the end of the reference, read at one graph and one feature. -/
import proofs.«400542_j69810398429749_3_alg».proof.Proof.RefRead
import Idealize.ShloMosaic.Lib.ValueIdx
import Idealize.ShloMosaic.Lib.Pipeline.Value
import Idealize.ShloMosaic.PureOps.Ideal.Laws

noncomputable section

open scoped BigOperators

namespace Cert.RefSide

open Cert.ReferenceIdeal Cert.ReferenceIdeal.Read Idealize.ShloMosaic Idealize.ShloMosaic.ValueIdx

/-- A per-graph column broadcast over the features is read at the graph. -/
theorem idx94 (g : Fin 256) (j : Fin 64) : idx_main_v93 (idx_main_v94 (ix2 g j)) = ix1 g :=
  funext fun a => Fin.ext (by match a with | ⟨0, _⟩ => rfl)

/-- The result at graph g and feature j: the sum of the second layer over the graph's nodes divided by the
    number of its nodes, the divisor at least one. -/
theorem result_apply
    (x0 : (⟨S100000x64, .f32⟩ : BufTy).Contents (Elt Ideal)) (x1 : (⟨S2x1600000, .i32⟩ : BufTy).Contents (Elt Ideal))
    (x2 : (⟨S100000, .i32⟩ : BufTy).Contents (Elt Ideal))
    (x3 x4 : (⟨S64x64, .f32⟩ : BufTy).Contents (Elt Ideal)) (x5 x6 x7 : (⟨S64, .f32⟩ : BufTy).Contents (Elt Ideal))
    (x8 x9 : (⟨S64x64, .f32⟩ : BufTy).Contents (Elt Ideal)) (x10 : (⟨S64, .f32⟩ : BufTy).Contents (Elt Ideal))
    (g : Fin 256) (j : Fin 64) :
    val_main_v95 (F := Ideal) x0 x1 x2 x3 x4 x5 x6 x7 x8 x9 x10 (ix2 g j)
      = Ideal.div (val_main_v90 (F := Ideal) x0 x1 x2 x3 x4 x5 x6 x7 x8 x9 x10 (ix2 g j))
          (max (val_main_v87 (F := Ideal) x2 (ix1 g)) (Ideal.ofBits .f32 0x3F800000#32)) := by
  rw [val_main_v95_apply, val_main_v94_apply, val_main_v93_apply, idx94, val_main_v92_apply, val_main_v91_apply,
    val_main_cst_18_apply, Ideal.hostDivf_def, Ideal.maximumf_def, Ideal.ofBits_def]

end Cert.RefSide
-- ==== Proof.Math.Glue.lean ====
/- Index and word lemmas between the tiled kernels and the whole-array reference.
   * A sum over T tiles of R rows each, the tiles counted by a natural number, is the sum over all T·R rows; its two
     instances at 20 × 5000 and 50 × 2000 rows, both 100000; an accumulator that adds one tile's part per step ends at
     its start plus the sum over all rows.
   * A 32-bit word equals the word of a number below 256 exactly when it reads, as a signed integer, as that number;
     so a 0/1 mask "this row's word is g's word" picks the rows whose signed reading is g. -/
import proofs.«400542_j69810398429749_3_alg».proof.Proof.Math.Real

noncomputable section

namespace Cert.MathLib

open Idealize.ShloMosaic

/-- A sum over T tiles of R rows, row r of tile t being row t * R + r of the whole, is the sum over all
    T * R rows. -/
theorem sum_range_tiles {M : Type} [AddCommMonoid M] (T R : ℕ) (F : ℕ → M) :
    ∑ t ∈ Finset.range T, ∑ r : Fin R, F (t * R + r.val) = ∑ n : Fin (T * R), F n.val :=
  calc ∑ t ∈ Finset.range T, ∑ r : Fin R, F (t * R + r.val)
      = ∑ t : Fin T, ∑ r : Fin R, F (t.val * R + r.val) :=
        (Fin.sum_univ_eq_sum_range (fun t => ∑ r : Fin R, F (t * R + r.val)) T).symm
    _ = ∑ t : Fin T, ∑ r : Fin R, F (finProdFinEquiv (t, r)).val :=
        Finset.sum_congr rfl fun t _ => Finset.sum_congr rfl fun r _ =>
          congrArg F (by rw [finProdFinEquiv_val]; ring)
    _ = ∑ n : Fin (T * R), F n.val := (sum_tiles T R (fun n => F n.val)).symm

/-- Twenty tiles of 5000 rows are the 100000 rows. -/
theorem sum_range_tiles_20_5000 {M : Type} [AddCommMonoid M] (F : ℕ → M) :
    ∑ t ∈ Finset.range 20, ∑ r : Fin 5000, F (t * 5000 + r.val) = ∑ n : Fin 100000, F n.val :=
  sum_range_tiles 20 5000 F

/-- Fifty tiles of 2000 rows are the 100000 rows. -/
theorem sum_range_tiles_50_2000 {M : Type} [AddCommMonoid M] (F : ℕ → M) :
    ∑ t ∈ Finset.range 50, ∑ r : Fin 2000, F (t * 2000 + r.val) = ∑ n : Fin 100000, F n.val :=
  sum_range_tiles 50 2000 F

/-- An accumulator that starts at z plus tile 0's sum and adds one tile's sum per step holds, after step n,
    z plus the sum over the first (n + 1) * R rows. -/
theorem acc_tiles {M : Type} [AddCommMonoid M] (R : ℕ) (z : M) (F : ℕ → M) (a : ℕ → M)
    (h0 : a 0 = z + ∑ r : Fin R, F (0 * R + r.val))
    (hs : ∀ n, a (n + 1) = a n + ∑ r : Fin R, F ((n + 1) * R + r.val)) (n : ℕ) :
    a n = z + ∑ m : Fin ((n + 1) * R), F m.val := by
  rw [acc_eq_sum z (fun t => ∑ r : Fin R, F (t * R + r.val)) a h0 hs n, sum_range_tiles]

/-- The word of a number below 256 reads, signed, as that number. -/
theorem toInt_ofNat_small (g : Fin 256) : (BitVec.ofNat 32 g.val).toInt = (g.val : ℤ) := by
  have hg := g.isLt
  rw [BitVec.toInt_eq_toNat_cond, BitVec.toNat_ofNat]
  have e : g.val % 2 ^ 32 = g.val := Nat.mod_eq_of_lt (by omega)
  rw [e, if_pos (by omega)]

/-- A 32-bit word is the word of g < 256 exactly when it reads, signed, as g. -/
theorem word_eq_iff (v : BitVec 32) (g : Fin 256) : v = BitVec.ofNat 32 g.val ↔ v.toInt = (g.val : ℤ) := by
  constructor
  · intro h; rw [h]; exact toInt_ofNat_small g
  · intro h; exact BitVec.eq_of_toInt_eq (h.trans (toInt_ofNat_small g).symm)

/-- The 0/1 mask "row n's word is g's word" times a value, summed, is the sum over the rows whose word reads as g. -/
theorem sum_filter_word {ι : Type} [Fintype ι] (v : ι → BitVec 32) (g : Fin 256) (y : ι → EReal) :
    ∑ n, (if v n = BitVec.ofNat 32 g.val then (1 : EReal) else 0) * y n
      = ∑ n ∈ Finset.univ.filter (fun n => (v n).toInt = (g.val : ℤ)), y n := by
  rw [sum_mask_mul (fun n => v n = BitVec.ofNat 32 g.val) y]
  exact Finset.sum_congr (Finset.filter_congr fun n _ => word_eq_iff (v n) g) fun _ _ => rfl

/-- The same mask summed by itself counts those rows. -/
theorem sum_filter_word_count {ι : Type} [Fintype ι] (v : ι → BitVec 32) (g : Fin 256) :
    ∑ n, (if v n = BitVec.ofNat 32 g.val then (1 : EReal) else 0)
      = ∑ _n ∈ Finset.univ.filter (fun n => (v n).toInt = (g.val : ℤ)), (1 : EReal) := by
  rw [sum_mask (fun n => v n = BitVec.ofNat 32 g.val)]
  exact Finset.sum_congr (Finset.filter_congr fun n _ => word_eq_iff (v n) g) fun _ _ => rfl

end Cert.MathLib

end
-- ==== Proof.Val.PoolStage.lean ====
/- The last stage: the per-graph mean pool. The kernel's pooled sums and counts, each a masked sum over all
   nodes, divided graph by graph with the divisor floored at one, are the reference's result. -/
import proofs.«400542_j69810398429749_3_alg».proof.Proof.KI.HostIdx
import proofs.«400542_j69810398429749_3_alg».proof.Proof.Ref.Result
import proofs.«400542_j69810398429749_3_alg».proof.Proof.Math.Glue
import proofs.«400542_j69810398429749_3_alg».proof.Proof.Math.Consts

noncomputable section

open scoped BigOperators

namespace Cert.Val

open Idealize.ShloMosaic Idealize.ShloMosaic.ValueIdx
open Cert.KernelIdeal Cert.KernelIdeal.Gen Cert.ReferenceIdeal.Read Cert.MathLib

/-- With `P` the per-graph sums of the second layer over the rows whose graph-id word is the graph's, and `Cn`
    the per-graph counts of those rows, the quotient of the sums by the counts floored at one, graph by graph and
    feature by feature, is the reference's mean pool. -/
theorem pool_stage
    (x0 : (⟨S100000x64, .f32⟩ : BufTy).Contents (Elt Ideal)) (x1 : (⟨S2x1600000, .i32⟩ : BufTy).Contents (Elt Ideal))
    (x2 : (⟨S100000, .i32⟩ : BufTy).Contents (Elt Ideal))
    (x3 x4 : (⟨S64x64, .f32⟩ : BufTy).Contents (Elt Ideal)) (x5 x6 x7 : (⟨S64, .f32⟩ : BufTy).Contents (Elt Ideal))
    (x8 x9 : (⟨S64x64, .f32⟩ : BufTy).Contents (Elt Ideal)) (x10 : (⟨S64, .f32⟩ : BufTy).Contents (Elt Ideal))
    (hv87 : ∀ g : Fin 256, val_main_v87 (F := Ideal) x2 (ix1 g)
      = Ideal.ofBits .f32 0x00000000#32
        + ∑ n ∈ Finset.univ.filter (fun n : Fin 100000 => (x2 (ix1 n)).toInt = (g.val : ℤ)), Ideal.ofBits .f32 0x3F800000#32)
    (hv90 : ∀ (g : Fin 256) (j : Fin 64), val_main_v90 (F := Ideal) x0 x1 x2 x3 x4 x5 x6 x7 x8 x9 x10 (ix2 g j)
      = Ideal.ofBits .f32 0x00000000#32
        + ∑ n ∈ Finset.univ.filter (fun n : Fin 100000 => (x2 (ix1 n)).toInt = (g.val : ℤ)), val_main_v83 (F := Ideal) x0 x1 x3 x4 x5 x6 x7 x8 x9 x10 (ix2 n j))
    (P : (⟨S256x64, .f32⟩ : BufTy).Contents (Elt Ideal)) (Cn : (⟨S1x256, .f32⟩ : BufTy).Contents (Elt Ideal))
    (hP : ∀ (g : Fin 256) (j : Fin 64), P (ix2 g j)
      = ∑ n : Fin 100000, (if x2 (ix1 n) = BitVec.ofNat 32 g.val then (1 : EReal) else 0) * val_main_v83 (F := Ideal) x0 x1 x3 x4 x5 x6 x7 x8 x9 x10 (ix2 n j))
    (hC : ∀ g : Fin 256, Cn (ix2 (0 : Fin 1) g)
      = ∑ n : Fin 100000, (if x2 (ix1 n) = BitVec.ofNat 32 g.val then (1 : EReal) else 0)) :
    Host.divf (F := Ideal) P
        (broadcastInDim S256x64 ![0, 1] bcast_S256x1_S256x64_0_1
          (maximumf (F := Ideal) (shapeCast S256x1 Cn shapeCasts_S1x256_S256x1)
            (broadcastInDim S256x1 ![] bcast_S_S256x1 (constant (F := Ideal) S_ .f32 0x3F800000#32))))
      = val_main_v95 (F := Ideal) x0 x1 x2 x3 x4 x5 x6 x7 x8 x9 x10 := by
  funext i
  obtain ⟨g, j, rfl⟩ : ∃ (g : Fin 256) (j : Fin 64), i = ix2 g j := ⟨i 0, i 1, eq_ix2 i⟩
  refine (Cert.KernelIdeal.HostVals.result_apply P Cn g j).trans ?_
  refine Eq.trans ?_ (Cert.RefSide.result_apply x0 x1 x2 x3 x4 x5 x6 x7 x8 x9 x10 g j).symm
  have e1 : P (ix2 g j) = val_main_v90 (F := Ideal) x0 x1 x2 x3 x4 x5 x6 x7 x8 x9 x10 (ix2 g j) := by
    rw [hP g j, hv90 g j, Cert.Consts.ofBits_zero, zero_add]
    exact sum_filter_word (fun n : Fin 100000 => x2 (ix1 n)) g (fun n => val_main_v83 (F := Ideal) x0 x1 x3 x4 x5 x6 x7 x8 x9 x10 (ix2 n j))
  have e2 : Cn (ix2 (0 : Fin 1) g) = val_main_v87 (F := Ideal) x2 (ix1 g) := by
    rw [hC g, hv87 g, Cert.Consts.ofBits_zero, zero_add, Cert.Consts.ofBits_one]
    exact sum_filter_word_count (fun n : Fin 100000 => x2 (ix1 n)) g
  rw [e1, e2, Cert.Consts.ofBits_one]

end Cert.Val

end
-- ==== Proof.KI.R0Pieces.lean ====
/- Region 0: what each control case leaves, as the skeleton's payloads of the point's input blocks and of the
   accumulators' previous contents — one lemma per list of pieces the runs found. -/
import proofs.«400542_j69810398429749_3_alg».proof.Proof.KI.R0
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The zero offset of a whole-buffer rectangle. -/
theorem hz0 : (![0, 0] : Fin 2 → Nat) = fun _ => 0 := funext fun a => by fin_cases a <;> rfl

/-- Case A leaves in output 5 the payload of its last covering store, at the input blocks (the accumulators having been zeroed first). -/
theorem out0_A_5_eq (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : cond0_0 i) (hc1 : ¬cond0_1 i)
    (x0 : Vec F S5000x64 .f32) (x1 : Vec F S5000x64 .f32) (x2 : Vec F S5000x1 .f32) (x3 : Vec F S128x64 .f32) (x4 : Vec F S1x64 .f32) :
    out0_A_5 c i arg1 harg1 arg2 harg2 arg3 harg3 arg4 harg4 arg5 harg5 arg6 harg6 arg7 harg7 arg8 harg8 arg9 harg9 arg10 harg10 hc0 hc1 x0 x1 x2 x3 x4 = k0_pay4 x0 x2 x1 x3 x4 := by
  unfold out0_A_5
  rw [View.read_writes_eq_canon _ _ _ (cover0_A_5 c i arg1 harg1 arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  simp only [View.canon_unit_zero (S := S5000x64) hz0, View.canon_unit_zero (S := S1x64) hz0, View.canon_cons_unit_zero (S := S1x64) hz0, View.readCov_unit_zero (S := S1x64) _ hz0, View.readAt_eq_ld, harg1.read_unread, harg2.read_unread, harg3.read_unread, harg4.read_unread, harg5.read_unread, harg6.read_unread, harg7.read_unread, harg8.read_unread, harg9.read_unread, harg10.read_unread, View.ld_unit_zero (S := S5000x64) hz0, View.ld_unit_zero (S := S5000x1) hz0, View.ld_unit_zero (S := S128x64) hz0, View.ld_unit_zero (S := S1x64) hz0]

/-- Case A leaves in accumulator 0 the payload of its last covering store, at the input blocks (the accumulators having been zeroed first). -/
theorem sout0_A_0_eq (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : cond0_0 i) (hc1 : ¬cond0_1 i)
    (x0 : Vec F S5000x64 .f32) (x1 : Vec F S5000x64 .f32) (x2 : Vec F S5000x1 .f32) (x3 : Vec F S128x64 .f32) (x4 : Vec F S1x64 .f32) :
    sout0_A_0 c i arg1 harg1 arg2 harg2 arg3 harg3 arg4 harg4 arg5 harg5 arg6 harg6 arg7 harg7 arg8 harg8 arg9 harg9 arg10 harg10 hc0 hc1 x0 x1 x2 x3 x4 = k0_pay5 x0 x2 x1 x3 x4 (k0_pay2 (F := F)) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  simp only [View.canon_unit_zero (S := S5000x64) hz0, View.canon_unit_zero (S := S1x64) hz0, View.canon_cons_unit_zero (S := S1x64) hz0, View.readCov_unit_zero (S := S1x64) _ hz0, View.readAt_eq_ld, harg1.read_unread, harg2.read_unread, harg3.read_unread, harg4.read_unread, harg5.read_unread, harg6.read_unread, harg7.read_unread, harg8.read_unread, harg9.read_unread, harg10.read_unread, View.ld_unit_zero (S := S5000x64) hz0, View.ld_unit_zero (S := S5000x1) hz0, View.ld_unit_zero (S := S128x64) hz0, View.ld_unit_zero (S := S1x64) hz0]

/-- Case A leaves in accumulator 1 the payload of its last covering store, at the input blocks (the accumulators having been zeroed first). -/
theorem sout0_A_1_eq (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : cond0_0 i) (hc1 : ¬cond0_1 i)
    (x0 : Vec F S5000x64 .f32) (x1 : Vec F S5000x64 .f32) (x2 : Vec F S5000x1 .f32) (x3 : Vec F S128x64 .f32) (x4 : Vec F S1x64 .f32) :
    sout0_A_1 c i arg1 harg1 arg2 harg2 arg3 harg3 arg4 harg4 arg5 harg5 arg6 harg6 arg7 harg7 arg8 harg8 arg9 harg9 arg10 harg10 hc0 hc1 x0 x1 x2 x3 x4 = k0_pay1 (k0_pay6 x0 x2 x1 x3 x4 (k0_pay3 (F := F))) := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  simp only [View.canon_unit_zero (S := S5000x64) hz0, View.canon_unit_zero (S := S1x64) hz0, View.canon_cons_unit_zero (S := S1x64) hz0, View.readCov_unit_zero (S := S1x64) _ hz0, View.readAt_eq_ld, harg1.read_unread, harg2.read_unread, harg3.read_unread, harg4.read_unread, harg5.read_unread, harg6.read_unread, harg7.read_unread, harg8.read_unread, harg9.read_unread, harg10.read_unread, View.ld_unit_zero (S := S5000x64) hz0, View.ld_unit_zero (S := S5000x1) hz0, View.ld_unit_zero (S := S128x64) hz0, View.ld_unit_zero (S := S1x64) hz0]

/-- Case B leaves in output 5 the payload of its last covering store, at the input blocks and the accumulators' previous contents. -/
theorem out0_B_5_eq (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : ¬cond0_1 i)
    (x0 : Vec F S5000x64 .f32) (x1 : Vec F S5000x64 .f32) (x2 : Vec F S5000x1 .f32) (x3 : Vec F S128x64 .f32) (x4 : Vec F S1x64 .f32) (xs0 : Vec F S1x64 .f32) (xs1 : Vec F S1x64 .f32) :
    out0_B_5 c i arg1 harg1 arg2 harg2 arg3 harg3 arg4 harg4 arg5 harg5 arg6 harg6 arg7 harg7 arg8 harg8 arg9 harg9 arg10 harg10 hc0 hc1 x0 x1 x2 x3 x4 xs0 xs1 = k0_pay4 x0 x2 x1 x3 x4 := by
  unfold out0_B_5
  rw [View.read_writes_eq_canon _ _ _ (cover0_B_5 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  simp only [View.canon_unit_zero (S := S5000x64) hz0, View.canon_unit_zero (S := S1x64) hz0, View.canon_cons_unit_zero (S := S1x64) hz0, View.readCov_unit_zero (S := S1x64) _ hz0, View.readAt_eq_ld, harg1.read_unread, harg2.read_unread, harg3.read_unread, harg4.read_unread, harg5.read_unread, harg6.read_unread, harg7.read_unread, harg8.read_unread, harg9.read_unread, harg10.read_unread, View.ld_unit_zero (S := S5000x64) hz0, View.ld_unit_zero (S := S5000x1) hz0, View.ld_unit_zero (S := S128x64) hz0, View.ld_unit_zero (S := S1x64) hz0]

/-- Case B leaves in accumulator 0 the payload of its last covering store, at the input blocks and the accumulators' previous contents. -/
theorem sout0_B_0_eq (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : ¬cond0_1 i)
    (x0 : Vec F S5000x64 .f32) (x1 : Vec F S5000x64 .f32) (x2 : Vec F S5000x1 .f32) (x3 : Vec F S128x64 .f32) (x4 : Vec F S1x64 .f32) (xs0 : Vec F S1x64 .f32) (xs1 : Vec F S1x64 .f32) :
    sout0_B_0 c i arg1 harg1 arg2 harg2 arg3 harg3 arg4 harg4 arg5 harg5 arg6 harg6 arg7 harg7 arg8 harg8 arg9 harg9 arg10 harg10 hc0 hc1 x0 x1 x2 x3 x4 xs0 xs1 = k0_pay5 x0 x2 x1 x3 x4 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  simp only [View.canon_unit_zero (S := S5000x64) hz0, View.canon_unit_zero (S := S1x64) hz0, View.canon_cons_unit_zero (S := S1x64) hz0, View.readCov_unit_zero (S := S1x64) _ hz0, View.readAt_eq_ld, harg1.read_unread, harg2.read_unread, harg3.read_unread, harg4.read_unread, harg5.read_unread, harg6.read_unread, harg7.read_unread, harg8.read_unread, harg9.read_unread, harg10.read_unread, View.ld_unit_zero (S := S5000x64) hz0, View.ld_unit_zero (S := S5000x1) hz0, View.ld_unit_zero (S := S128x64) hz0, View.ld_unit_zero (S := S1x64) hz0]

/-- Case B leaves in accumulator 1 the payload of its last covering store, at the input blocks and the accumulators' previous contents. -/
theorem sout0_B_1_eq (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : ¬cond0_1 i)
    (x0 : Vec F S5000x64 .f32) (x1 : Vec F S5000x64 .f32) (x2 : Vec F S5000x1 .f32) (x3 : Vec F S128x64 .f32) (x4 : Vec F S1x64 .f32) (xs0 : Vec F S1x64 .f32) (xs1 : Vec F S1x64 .f32) :
    sout0_B_1 c i arg1 harg1 arg2 harg2 arg3 harg3 arg4 harg4 arg5 harg5 arg6 harg6 arg7 harg7 arg8 harg8 arg9 harg9 arg10 harg10 hc0 hc1 x0 x1 x2 x3 x4 xs0 xs1 = k0_pay1 (k0_pay6 x0 x2 x1 x3 x4 xs1) := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  simp only [View.canon_unit_zero (S := S5000x64) hz0, View.canon_unit_zero (S := S1x64) hz0, View.canon_cons_unit_zero (S := S1x64) hz0, View.readCov_unit_zero (S := S1x64) _ hz0, View.readAt_eq_ld, harg1.read_unread, harg2.read_unread, harg3.read_unread, harg4.read_unread, harg5.read_unread, harg6.read_unread, harg7.read_unread, harg8.read_unread, harg9.read_unread, harg10.read_unread, View.ld_unit_zero (S := S5000x64) hz0, View.ld_unit_zero (S := S5000x1) hz0, View.ld_unit_zero (S := S128x64) hz0, View.ld_unit_zero (S := S1x64) hz0]

/-- Case C leaves in output 5 the payload of its last covering store, at the input blocks and the accumulators' previous contents. -/
theorem out0_C_5_eq (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S5000x64 .f32) (x1 : Vec F S5000x64 .f32) (x2 : Vec F S5000x1 .f32) (x3 : Vec F S128x64 .f32) (x4 : Vec F S1x64 .f32) (xs0 : Vec F S1x64 .f32) (xs1 : Vec F S1x64 .f32) :
    out0_C_5 c i arg1 harg1 arg2 harg2 arg3 harg3 arg4 harg4 arg5 harg5 arg6 harg6 arg7 harg7 arg8 harg8 arg9 harg9 arg10 harg10 hc0 hc1 x0 x1 x2 x3 x4 xs0 xs1 = k0_pay4 x0 x2 x1 x3 x4 := by
  unfold out0_C_5
  rw [View.read_writes_eq_canon _ _ _ (cover0_C_5 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  simp only [View.canon_unit_zero (S := S5000x64) hz0, View.canon_unit_zero (S := S1x64) hz0, View.canon_cons_unit_zero (S := S1x64) hz0, View.readCov_unit_zero (S := S1x64) _ hz0, View.readAt_eq_ld, harg1.read_unread, harg2.read_unread, harg3.read_unread, harg4.read_unread, harg5.read_unread, harg6.read_unread, harg7.read_unread, harg8.read_unread, harg9.read_unread, harg10.read_unread, View.ld_unit_zero (S := S5000x64) hz0, View.ld_unit_zero (S := S5000x1) hz0, View.ld_unit_zero (S := S128x64) hz0, View.ld_unit_zero (S := S1x64) hz0]

/-- Case C leaves in accumulator 0 the payload of its last covering store, at the input blocks and the accumulators' previous contents. -/
theorem sout0_C_0_eq (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S5000x64 .f32) (x1 : Vec F S5000x64 .f32) (x2 : Vec F S5000x1 .f32) (x3 : Vec F S128x64 .f32) (x4 : Vec F S1x64 .f32) (xs0 : Vec F S1x64 .f32) (xs1 : Vec F S1x64 .f32) :
    sout0_C_0 c i arg1 harg1 arg2 harg2 arg3 harg3 arg4 harg4 arg5 harg5 arg6 harg6 arg7 harg7 arg8 harg8 arg9 harg9 arg10 harg10 hc0 hc1 x0 x1 x2 x3 x4 xs0 xs1 = k0_pay5 x0 x2 x1 x3 x4 xs0 := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  simp only [View.canon_unit_zero (S := S5000x64) hz0, View.canon_unit_zero (S := S1x64) hz0, View.canon_cons_unit_zero (S := S1x64) hz0, View.readCov_unit_zero (S := S1x64) _ hz0, View.readAt_eq_ld, harg1.read_unread, harg2.read_unread, harg3.read_unread, harg4.read_unread, harg5.read_unread, harg6.read_unread, harg7.read_unread, harg8.read_unread, harg9.read_unread, harg10.read_unread, View.ld_unit_zero (S := S5000x64) hz0, View.ld_unit_zero (S := S5000x1) hz0, View.ld_unit_zero (S := S128x64) hz0, View.ld_unit_zero (S := S1x64) hz0]

/-- Case C leaves in accumulator 1 the payload of its last covering store, at the input blocks and the accumulators' previous contents. -/
theorem sout0_C_1_eq (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S5000x64 .f32) (x1 : Vec F S5000x64 .f32) (x2 : Vec F S5000x1 .f32) (x3 : Vec F S128x64 .f32) (x4 : Vec F S1x64 .f32) (xs0 : Vec F S1x64 .f32) (xs1 : Vec F S1x64 .f32) :
    sout0_C_1 c i arg1 harg1 arg2 harg2 arg3 harg3 arg4 harg4 arg5 harg5 arg6 harg6 arg7 harg7 arg8 harg8 arg9 harg9 arg10 harg10 hc0 hc1 x0 x1 x2 x3 x4 xs0 xs1 = k0_pay1 (k0_pay6 x0 x2 x1 x3 x4 xs1) := by
  unfold sout0_C_1
  rw [View.read_writes_eq_canon _ _ _ (scover0_C_1 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  simp only [View.canon_unit_zero (S := S5000x64) hz0, View.canon_unit_zero (S := S1x64) hz0, View.canon_cons_unit_zero (S := S1x64) hz0, View.readCov_unit_zero (S := S1x64) _ hz0, View.readAt_eq_ld, harg1.read_unread, harg2.read_unread, harg3.read_unread, harg4.read_unread, harg5.read_unread, harg6.read_unread, harg7.read_unread, harg8.read_unread, harg9.read_unread, harg10.read_unread, View.ld_unit_zero (S := S5000x64) hz0, View.ld_unit_zero (S := S5000x1) hz0, View.ld_unit_zero (S := S128x64) hz0, View.ld_unit_zero (S := S1x64) hz0]

/-- Case C leaves in output 6 the payload of its last covering store, at the input blocks and the accumulators' previous contents. -/
theorem out0_C_6_eq (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S5000x64 .f32) (x1 : Vec F S5000x64 .f32) (x2 : Vec F S5000x1 .f32) (x3 : Vec F S128x64 .f32) (x4 : Vec F S1x64 .f32) (xs0 : Vec F S1x64 .f32) (xs1 : Vec F S1x64 .f32) :
    out0_C_6 c i arg1 harg1 arg2 harg2 arg3 harg3 arg4 harg4 arg5 harg5 arg6 harg6 arg7 harg7 arg8 harg8 arg9 harg9 arg10 harg10 hc0 hc1 x0 x1 x2 x3 x4 xs0 xs1 = k0_pay5 x0 x2 x1 x3 x4 xs0 := by
  unfold out0_C_6
  rw [View.read_writes_eq_canon _ _ _ (cover0_C_6 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  simp only [View.canon_unit_zero (S := S5000x64) hz0, View.canon_unit_zero (S := S1x64) hz0, View.canon_cons_unit_zero (S := S1x64) hz0, View.readCov_unit_zero (S := S1x64) _ hz0, View.readAt_eq_ld, harg1.read_unread, harg2.read_unread, harg3.read_unread, harg4.read_unread, harg5.read_unread, harg6.read_unread, harg7.read_unread, harg8.read_unread, harg9.read_unread, harg10.read_unread, View.ld_unit_zero (S := S5000x64) hz0, View.ld_unit_zero (S := S5000x1) hz0, View.ld_unit_zero (S := S128x64) hz0, View.ld_unit_zero (S := S1x64) hz0]

/-- Case C leaves in output 7 the payload of its last covering store, at the input blocks and the accumulators' previous contents. -/
theorem out0_C_7_eq (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S5000x64 .f32) (x1 : Vec F S5000x64 .f32) (x2 : Vec F S5000x1 .f32) (x3 : Vec F S128x64 .f32) (x4 : Vec F S1x64 .f32) (xs0 : Vec F S1x64 .f32) (xs1 : Vec F S1x64 .f32) :
    out0_C_7 c i arg1 harg1 arg2 harg2 arg3 harg3 arg4 harg4 arg5 harg5 arg6 harg6 arg7 harg7 arg8 harg8 arg9 harg9 arg10 harg10 hc0 hc1 x0 x1 x2 x3 x4 xs0 xs1 = k0_pay1 (k0_pay6 x0 x2 x1 x3 x4 xs1) := by
  unfold out0_C_7
  rw [View.read_writes_eq_canon _ _ _ (cover0_C_7 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  simp only [View.canon_unit_zero (S := S5000x64) hz0, View.canon_unit_zero (S := S1x64) hz0, View.canon_cons_unit_zero (S := S1x64) hz0, View.readCov_unit_zero (S := S1x64) _ hz0, View.readAt_eq_ld, harg1.read_unread, harg2.read_unread, harg3.read_unread, harg4.read_unread, harg5.read_unread, harg6.read_unread, harg7.read_unread, harg8.read_unread, harg9.read_unread, harg10.read_unread, View.ld_unit_zero (S := S5000x64) hz0, View.ld_unit_zero (S := S5000x1) hz0, View.ld_unit_zero (S := S128x64) hz0, View.ld_unit_zero (S := S1x64) hz0]

end Cert.KernelIdeal.Hand

end
-- ==== Proof.Val.Pay0.lean ====
/-
  The payloads of the statistics kernel of the first layer, read at an index at the exact (extended-real) values:
  one element of a 5000-row tile of the layer (a 128-term contraction, split into the neighbour half and the self
  half of the stacked weights, plus the bias), and the two running column sums the kernel keeps across tiles.
-/
import proofs.«400542_j69810398429749_3_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

set_option maxRecDepth 65536

noncomputable section

namespace Cert.Val

open Idealize.ShloMosaic Idealize.SL.Sem Idealize.ShloMosaic.ValueIdx
open Cert.KernelIdeal Cert.KernelIdeal.Gen

/-! The four coordinate readings of the layer's matrix product: at output (r, j) and contraction position q the left
    operand is read at (r, q) and the right operand at (q, j). -/

theorem lhs_k0_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_k0_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs_k0_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs_k0_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The matrix product into a zero accumulator, read at (r, j): the sum over the 128 contraction positions. -/
theorem matmul_k0_apply (A : FVec Ideal S5000x128 .bf16) (B : FVec Ideal S128x64 .bf16) (r : Fin 5000) (j : Fin 64) :
    matmul dot_S5000x128_S128x64_S5000x64_1_0_0_1_n_n none A B (constant (F := Ideal) S5000x64 .f32 0x00000000#32) (ix2 r j)
      = ∑ k : Fin 128, A (ix2 r k) * B (ix2 k j) := by
  simp only [matmul]
  rw [Ideal.matmul_constant_zero_apply, ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 r j) ((contrEquiv1 dot_S5000x128_S128x64_S5000x64_1_0_0_1_n_n 128 rfl rfl).symm k) = ix2 r k := funext fun a => Fin.ext (by
    match a with
    | ⟨0, _⟩ => exact lhs_k0_0 _ _
    | ⟨1, _⟩ => exact (lhs_k0_1 _ _).trans hk)
  have er : dot_S5000x128_S128x64_S5000x64_1_0_0_1_n_n.rhsIdx (ix2 r j) ((contrEquiv1 dot_S5000x128_S128x64_S5000x64_1_0_0_1_n_n 128 rfl rfl).symm k) = ix2 k j := funext fun a => Fin.ext (by
    match a with
    | ⟨0, _⟩ => exact (rhs_k0_0 _ _).trans hk
    | ⟨1, _⟩ => exact rhs_k0_1 _ _)
  rw [el, er]

/-- A column [a, 1] broadcast across b lanes reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Two 64-lane blocks laid side by side: a lane of the first half reads the first block. -/
theorem concat_k0_left {α : Type} (x₁ x₂ : S5000x64.Idx → α) (h : Shape.Concatenates [S5000x64, S5000x64] S5000x128 1)
    (r : Fin 5000) (k : Fin 64) :
    concatenate S5000x128 1 [⟨S5000x64, x₁⟩, ⟨S5000x64, x₂⟩] h (ix2 r (⟨k.val, by omega⟩ : Fin 128)) = x₁ (ix2 r k) := by
  refine concatenate_pair_apply_left (1 : Fin S5000x128.rank) x₁ x₂ h _ rfl (ix2 r k) fun b => ?_
  match b with
  | ⟨0, _⟩ => rfl
  | ⟨1, _⟩ => rfl

/-- … and a lane of the second half reads the second block, 64 lanes back. -/
theorem concat_k0_right {α : Type} (x₁ x₂ : S5000x64.Idx → α) (h : Shape.Concatenates [S5000x64, S5000x64] S5000x128 1)
    (r : Fin 5000) (k : Fin 64) :
    concatenate S5000x128 1 [⟨S5000x64, x₁⟩, ⟨S5000x64, x₂⟩] h (ix2 r (⟨64 + k.val, by omega⟩ : Fin 128)) = x₂ (ix2 r k) := by
  refine concatenate_pair_apply_right (1 : Fin S5000x128.rank) x₁ x₂ h _ rfl rfl (ix2 r k) (fun b hb => ?_) ?_
  · match b with
    | ⟨0, _⟩ => rfl
    | ⟨1, _⟩ => exact absurd rfl hb
  · show k.val + 64 = 64 + k.val
    omega

/-- A sum over 128 positions is the sum over the first 64 plus the sum over the last 64. -/
theorem sum_fin128_split (f : Fin 128 → EReal) :
    ∑ k : Fin 128, f k = (∑ k : Fin 64, f ⟨k.val, by omega⟩) + ∑ k : Fin 64, f ⟨64 + k.val, by omega⟩ :=
  Fin.sum_univ_add (a := 64) (b := 64) f

/-- The sum down the 5000 rows of a tile, kept as a one-row array: lane j holds the sum over the rows of column j. -/
theorem colsum_k0_apply (src : FVec Ideal S5000x64 .f32) (h : S5000x64.Reduces [0] S64) (hφ : FKind.Formats .f32)
    (hacc : (0x00000000#32 : BitVec 32) = FKind.add.neutral .f32 hφ) (hc : S64.ShapeCasts S1x64) (j : Fin 64) :
    shapeCast S1x64 (multiReduction (F := Ideal) .add [0] S64 src 0x00000000#32 h hφ hacc) hc (ix2 (0 : Fin 1) j)
      = ∑ r : Fin 5000, src (ix2 r j) := by
  refine (shapeCast_a_1a_apply _ hc 0 j).trans ?_
  refine (Ideal.multiReduction_add_single src _ h hφ hacc (ix1 j)).trans ?_
  refine Finset.sum_congr rfl fun r _ => congrArg src ?_
  funext a
  apply Fin.ext
  match a with
  | ⟨0, _⟩ => rfl
  | ⟨1, _⟩ => rfl

/-- One element of a tile of the first layer, at row r and output lane j: the mean of the neighbours' features (their
    sum times the reciprocal degree) against the first 64 rows of the stacked weights, plus the node's own features
    against the last 64 rows, plus the bias — in the order the kernel computes: the product first, then the bias. -/
theorem k0_pay4_apply (v3 : Vec Ideal S5000x64 .f32) (v5 : Vec Ideal S5000x1 .f32) (v9 : Vec Ideal S5000x64 .f32)
    (v12 : Vec Ideal S128x64 .f32) (v16 : Vec Ideal S1x64 .f32) (r : Fin 5000) (j : Fin 64) :
    k0_pay4 (F := Ideal) v3 v5 v9 v12 v16 (ix2 r j)
      = ((∑ k : Fin 64, (v3 (ix2 r k) * v5 (ix2 r (0 : Fin 1))) * v12 (ix2 (⟨k.val, by omega⟩ : Fin 128) j))
          + ∑ k : Fin 64, v9 (ix2 r k) * v12 (ix2 (⟨64 + k.val, by omega⟩ : Fin 128) j))
        + v16 (ix2 (0 : Fin 1) j) := by
  unfold k0_pay4
  refine (addf_apply _ _ _).trans ?_
  refine congrArg₂ (· + ·) ?_ ?_
  · refine (matmul_k0_apply _ _ r j).trans ?_
    refine (sum_fin128_split _).trans ?_
    refine congrArg₂ (· + ·) (Finset.sum_congr rfl fun k _ => ?_) (Finset.sum_congr rfl fun k _ => ?_)
    · beta_reduce
      refine congrArg₂ (· * ·) ?_ ?_
      · refine (truncf_apply (φ := .f32) (ψ := .bf16) _ _ _).trans ?_
        refine (concat_k0_left _ _ _ r k).trans ?_
        refine (mulf_apply _ _ _).trans ?_
        refine congrArg₂ (· * ·) ?_ ?_
        · exact congrFun (shapeCast_self _ _) _
        · refine (broadcastTo_a1_ab_apply _ _ r k).trans ?_
          exact congrFun (shapeCast_self _ _) _
      · refine (truncf_apply (φ := .f32) (ψ := .bf16) _ _ _).trans ?_
        exact congrFun (shapeCast_self _ _) _
    · beta_reduce
      refine congrArg₂ (· * ·) ?_ ?_
      · refine (truncf_apply (φ := .f32) (ψ := .bf16) _ _ _).trans ?_
        exact concat_k0_right _ _ _ r k
      · refine (truncf_apply (φ := .f32) (ψ := .bf16) _ _ _).trans ?_
        exact congrFun (shapeCast_self _ _) _
  · refine (broadcastTo_1b_ab_apply _ _ r j).trans ?_
    exact congrFun (shapeCast_self _ _) _

/-- The running column sum after a tile: what it held plus the sum of the tile's column. -/
theorem k0_pay5_apply (v3 : Vec Ideal S5000x64 .f32) (v5 : Vec Ideal S5000x1 .f32) (v9 : Vec Ideal S5000x64 .f32)
    (v12 : Vec Ideal S128x64 .f32) (v16 : Vec Ideal S1x64 .f32) (v21 : Vec Ideal S1x64 .f32) (j : Fin 64) :
    k0_pay5 (F := Ideal) v3 v5 v9 v12 v16 v21 (ix2 (0 : Fin 1) j)
      = v21 (ix2 (0 : Fin 1) j) + ∑ r : Fin 5000, k0_pay4 (F := Ideal) v3 v5 v9 v12 v16 (ix2 r j) := by
  unfold k0_pay5
  generalize k0_pay4 (F := Ideal) v3 v5 v9 v12 v16 = P
  refine (congrFun (shapeCast_self _ _) _).trans ?_
  refine (addf_apply _ _ _).trans ?_
  exact congrArg (v21 (ix2 (0 : Fin 1) j) + ·) (colsum_k0_apply P _ _ _ _ j)

/-- The running column sum of squares after a tile: what it held plus the sum of the squares of the tile's column. -/
theorem k0_pay6_apply (v3 : Vec Ideal S5000x64 .f32) (v5 : Vec Ideal S5000x1 .f32) (v9 : Vec Ideal S5000x64 .f32)
    (v12 : Vec Ideal S128x64 .f32) (v16 : Vec Ideal S1x64 .f32) (v28 : Vec Ideal S1x64 .f32) (j : Fin 64) :
    k0_pay6 (F := Ideal) v3 v5 v9 v12 v16 v28 (ix2 (0 : Fin 1) j)
      = v28 (ix2 (0 : Fin 1) j) + ∑ r : Fin 5000,
          k0_pay4 (F := Ideal) v3 v5 v9 v12 v16 (ix2 r j) * k0_pay4 (F := Ideal) v3 v5 v9 v12 v16 (ix2 r j) := by
  unfold k0_pay6
  generalize k0_pay4 (F := Ideal) v3 v5 v9 v12 v16 = P
  refine (addf_apply _ _ _).trans ?_
  refine congrArg (v28 (ix2 (0 : Fin 1) j) + ·) ?_
  refine (colsum_k0_apply (mulf P P) _ _ _ _ j).trans ?_
  exact Finset.sum_congr rfl fun r _ => mulf_apply _ _ _

end Cert.Val

end
-- ==== Proof.Val.R0Val.lean ====
/- The first launch's large output as ONE array function. Its grid has 20 points; point t takes rows
   [5000 t, 5000 t + 5000) of the neighbour sums, of the node features and of the reciprocal degrees, and the whole
   stacked weights and bias row, and stores the layer's rows for them. The blocks tile the array, so after the run the
   output array holds the layer at every row. -/
import proofs.«400542_j69810398429749_3_alg».proof.Proof.KI.R0
import proofs.«400542_j69810398429749_3_alg».proof.Proof.KI.R0Pieces
import proofs.«400542_j69810398429749_3_alg».proof.Proof.Val.Pay0
import proofs.«400542_j69810398429749_3_alg».proof.Proof.Val.Spec
import Idealize.ShloMosaic.Lib.Pipeline.Value
import Idealize.ShloMosaic.Lib.ValueIdx

set_option maxRecDepth 16384

noncomputable section

namespace Cert.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

/-- Row p of point t's tile is row 5000 t + p of the arrays. -/
theorem row0_lt (t : Fin cfg0.N) (p : Fin 5000) : t.val * 5000 + p.val < 100000 := by
  have h : t.val < 20 := lt_of_lt_of_eq t.isLt (show cfg0.N = 20 from N_0)
  have := p.isLt
  omega
abbrev grow0 (t : Fin cfg0.N) (p : Fin 5000) : Fin 100000 := ⟨t.val * 5000 + p.val, row0_lt t p⟩

/-- The five input blocks of point t, at their literal types. -/
abbrev blk0_0 (c : Dev nD) (t : Fin cfg0.N) : Vec Ideal S5000x64 .f32 := iblk0 V c 0 t
abbrev blk0_1 (c : Dev nD) (t : Fin cfg0.N) : Vec Ideal S5000x64 .f32 := iblk0 V c 1 t
abbrev blk0_2 (c : Dev nD) (t : Fin cfg0.N) : Vec Ideal S5000x1 .f32 := iblk0 V c 2 t
abbrev blk0_3 (c : Dev nD) (t : Fin cfg0.N) : Vec Ideal S128x64 .f32 := iblk0 V c 3 t
abbrev blk0_4 (c : Dev nD) (t : Fin cfg0.N) : Vec Ideal S1x64 .f32 := iblk0 V c 4 t

/-- The printed index maps over the 20 points: the three row-tiled operands' and the large output's block index is
    (t, 0); the weights', the bias row's and the two small outputs' is (0, 0). -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The neighbour sums' block reads rows [5000 t, 5000 t + 5000) of the array. -/
theorem blk0_0_apply (c : Dev nD) (t : Fin cfg0.N) (p : Fin 5000) (q : Fin 64) :
    blk0_0 V c t (ix2 p q) = V c main_v22 (ix2 (grow0 t p) q) := by
  obtain ⟨e0, e1, -⟩ := idx_facts0 t
  show V c main_v22 (((cfg0.win 0).blk t).view.emb (ix2 p q)) = _
  refine congrArg (V c main_v22) (funext fun a => Fin.ext ?_)
  match a with
  | ⟨0, _⟩ => show win0_0.index t (0 : Fin 2) * 5000 + 1 * p.val = t.val * 5000 + p.val; omega
  | ⟨1, _⟩ => show win0_0.index t (1 : Fin 2) * 64 + 1 * q.val = q.val; omega

/-- The node features' block reads the same rows of the feature array. -/
theorem blk0_1_apply (c : Dev nD) (t : Fin cfg0.N) (p : Fin 5000) (q : Fin 64) :
    blk0_1 V c t (ix2 p q) = V c main_arg0 (ix2 (grow0 t p) q) := by
  obtain ⟨-, -, e0, e1, -⟩ := idx_facts0 t
  show V c main_arg0 (((cfg0.win 1).blk t).view.emb (ix2 p q)) = _
  refine congrArg (V c main_arg0) (funext fun a => Fin.ext ?_)
  match a with
  | ⟨0, _⟩ => show win0_1.index t (0 : Fin 2) * 5000 + 1 * p.val = t.val * 5000 + p.val; omega
  | ⟨1, _⟩ => show win0_1.index t (1 : Fin 2) * 64 + 1 * q.val = q.val; omega

/-- The reciprocal degrees' block reads the same rows of the one-column array. -/
theorem blk0_2_apply (c : Dev nD) (t : Fin cfg0.N) (p : Fin 5000) :
    blk0_2 V c t (ix2 p (0 : Fin 1)) = V c main_v12 (ix2 (grow0 t p) (0 : Fin 1)) := by
  obtain ⟨-, -, -, -, e0, e1, -⟩ := idx_facts0 t
  show V c main_v12 (((cfg0.win 2).blk t).view.emb (ix2 p (0 : Fin 1))) = _
  refine congrArg (V c main_v12) (funext fun a => Fin.ext ?_)
  match a with
  | ⟨0, _⟩ => show win0_2.index t (0 : Fin 2) * 5000 + 1 * p.val = t.val * 5000 + p.val; omega
  | ⟨1, _⟩ => show win0_2.index t (1 : Fin 2) * 1 + 1 * 0 = 0; omega

/-- The stacked weights' block is the whole array. -/
theorem blk0_3_apply (c : Dev nD) (t : Fin cfg0.N) (k : Fin 128) (j : Fin 64) :
    blk0_3 V c t (ix2 k j) = V c main_v25 (ix2 k j) := by
  obtain ⟨-, -, -, -, -, -, e0, e1, -⟩ := idx_facts0 t
  show V c main_v25 (((cfg0.win 3).blk t).view.emb (ix2 k j)) = _
  refine congrArg (V c main_v25) (funext fun a => Fin.ext ?_)
  match a with
  | ⟨0, _⟩ => show win0_3.index t (0 : Fin 2) * 128 + 1 * k.val = k.val; omega
  | ⟨1, _⟩ => show win0_3.index t (1 : Fin 2) * 64 + 1 * j.val = j.val; omega

/-- The bias row's block is the whole row. -/
theorem blk0_4_apply (c : Dev nD) (t : Fin cfg0.N) (j : Fin 64) :
    blk0_4 V c t (ix2 (0 : Fin 1) j) = V c main_v26 (ix2 (0 : Fin 1) j) := by
  obtain ⟨-, -, -, -, -, -, -, -, e0, e1, -⟩ := idx_facts0 t
  show V c main_v26 (((cfg0.win 4).blk t).view.emb (ix2 (0 : Fin 1) j)) = _
  refine congrArg (V c main_v26) (funext fun a => Fin.ext ?_)
  match a with
  | ⟨0, _⟩ => show win0_4.index t (0 : Fin 2) * 1 + 1 * 0 = 0; omega
  | ⟨1, _⟩ => show win0_4.index t (1 : Fin 2) * 64 + 1 * j.val = j.val; omega

/-- One tile: the payload of point t's blocks at (p, j) is the layer at row 5000 t + p, lane j. -/
theorem pay4_tile0 (c : Dev nD) (t : Fin cfg0.N) (p : Fin 5000) (j : Fin 64) :
    k0_pay4 (F := Ideal) (blk0_0 V c t) (blk0_2 V c t) (blk0_1 V c t) (blk0_3 V c t) (blk0_4 V c t) (ix2 p j)
      = layerArr (V c main_v22) (V c main_v12) (V c main_arg0) (V c main_v25) (V c main_v26) (ix2 (grow0 t p) j) := by
  refine (k0_pay4_apply (blk0_0 V c t) (blk0_2 V c t) (blk0_1 V c t) (blk0_3 V c t) (blk0_4 V c t) p j).trans ?_
  refine Eq.trans ?_ (layerArr_apply (V c main_v22) (V c main_v12) (V c main_arg0) (V c main_v25) (V c main_v26) (grow0 t p) j).symm
  unfold layerRow
  refine congrArg₂ (· + ·) (congrArg₂ (· + ·) (Finset.sum_congr rfl fun k _ => ?_) (Finset.sum_congr rfl fun k _ => ?_)) (blk0_4_apply V c t j)
  · exact congrArg₂ (· * ·) (congrArg₂ (· * ·) (blk0_0_apply V c t p k) (blk0_2_apply V c t p)) (blk0_3_apply V c t (lo k) j)
  · exact congrArg₂ (· * ·) (blk0_1_apply V c t p k) (blk0_3_apply V c t (hi k) j)

/-- What the large output's staging buffer holds after point t, whichever control case t is in: the tile's payload. -/
theorem out5_eq0 (c : Dev nD) (t : Fin cfg0.N) :
    (outsAt0 V c t.val t.isLt).1 = k0_pay4 (F := Ideal) (blk0_0 V c t) (blk0_2 V c t) (blk0_1 V c t) (blk0_3 V c t) (blk0_4 V c t) := by
  by_cases h0 : t.val = 0
  · rw [outsAt0_A V c t h0]; dsimp only
    exact out0_A_5_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => absurd ((hcond0_1 t).mp h) (by omega)) (blk0_0 V c t) (blk0_1 V c t) (blk0_2 V c t) (blk0_3 V c t) (blk0_4 V c t)
  · by_cases h1 : t.val = 19
    · rw [outsAt0_C V c t h0 h1]; dsimp only
      exact out0_C_5_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (blk0_0 V c t) (blk0_1 V c t) (blk0_2 V c t) (blk0_3 V c t) (blk0_4 V c t) (outsAt0 V c (t.val - 1) (Nat.lt_of_le_of_lt (Nat.sub_le _ _) t.isLt)).2.2.2.1 (outsAt0 V c (t.val - 1) (Nat.lt_of_le_of_lt (Nat.sub_le _ _) t.isLt)).2.2.2.2
    · rw [outsAt0_B V c t h0 h1]; dsimp only
      exact out0_B_5_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (blk0_0 V c t) (blk0_1 V c t) (blk0_2 V c t) (blk0_3 V c t) (blk0_4 V c t) (outsAt0 V c (t.val - 1) (Nat.lt_of_le_of_lt (Nat.sub_le _ _) t.isLt)).2.2.2.1 (outsAt0 V c (t.val - 1) (Nat.lt_of_le_of_lt (Nat.sub_le _ _) t.isLt)).2.2.2.2

/-- What point `t` writes back is block `t` of the layer of the operand arrays as the launch finds them. -/
theorem flushed0_5_eq (c : Dev nD) (t : Fin cfg0.N) :
    (dat0 V c).flushed 5 t = ((cfg0.win 5).blk t).view.read (Elt Ideal) (layerArr (V c main_v22) (V c main_v12) (V c main_arg0) (V c main_v25) (V c main_v26)) := by
  show (cfg0.win 5).cut (grid0.coords t) ((dat0 V c).after 5 t) = _
  rw [after0_5, out5_eq0 V c t]
  obtain ⟨-, -, -, -, -, -, -, -, -, -, e0, e1⟩ := idx_facts0 t
  funext i
  obtain ⟨p, q, rfl⟩ : ∃ (p : Fin 5000) (q : Fin 64), i = ix2 p q := ⟨i 0, i 1, eq_ix2 i⟩
  refine (pay4_tile0 V c t p q).trans ?_
  show layerArr (V c main_v22) (V c main_v12) (V c main_arg0) (V c main_v25) (V c main_v26) _ = layerArr (V c main_v22) (V c main_v12) (V c main_arg0) (V c main_v25) (V c main_v26) (((cfg0.win 5).blk t).view.emb (ix2 p q))
  refine congrArg (layerArr (V c main_v22) (V c main_v12) (V c main_arg0) (V c main_v25) (V c main_v26)) (funext fun a => Fin.ext ?_)
  match a with
  | ⟨0, _⟩ => show t.val * 5000 + p.val = win0_5.index t (0 : Fin 2) * 5000 + 1 * p.val; omega
  | ⟨1, _⟩ => show q.val = win0_5.index t (1 : Fin 2) * 64 + 1 * q.val; omega

/-- An index of the output array is in point `t`'s block iff each coordinate is in the block's range on its axis. -/
theorem mem_blk0_5 (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v27_0).slice (win0_5.rect t)).set ↔ _
  rw [View.set_slice_whole, Rect.mem_set_unit]
  exact Iff.rfl

/-- Every block index 0 … 19 is some point's. -/
theorem idx_onto0_5 : ∀ q0 : Fin 20, ∃ t : Fin cfg0.N, win0_5.index t = ![q0.val, 0] :=
  (by decide +kernel : ∀ q0 : Fin 20, ∃ t : Fin grid0.N, win0_5.index t = ![q0.val, 0])

/-- The twenty blocks cover the output array: row R lies in the block of point R / 5000. -/
theorem cover0_5_arr (i : S100000x64.Idx) : ∃ t : Fin cfg0.N, (cfg0.win 5).flush t = true ∧ i ∈ ((cfg0.win 5).blk t).view.set := by
  have hi0 : (i 0).val < 100000 := idx2_lt0 i
  have hi1 : (i 1).val < 64 := idx2_lt1 i
  obtain ⟨t, ht⟩ := idx_onto0_5 ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk0_5]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 64 ≤ (i 1).val ∧ (i 1).val < win0_5.index t (1 : Fin 2) * 64 + 64; omega

/-- THE LARGE OUTPUT ARRAY after the launch: the layer of the operand arrays as the launch finds them. -/
theorem final0_5 (c : Dev nD) : (dat0 V c).arrAt 5 cfg0.N = layerArr (V c main_v22) (V c main_v12) (V c main_arg0) (V c main_v25) (V c main_v26) :=
  (dat0 V c).arrAt_eq_of_cover 5 (layerArr (V c main_v22) (V c main_v12) (V c main_arg0) (V c main_v25) (V c main_v26)) (fun t _ => flushed0_5_eq V c t) cover0_5_arr

end Cert.Val

end
-- ==== Proof.Val.R0Acc2.lean ====
/- The first launch's two small outputs: the column sums and the column sums of squares of the layer over all
   100000 rows. Each accumulator starts at zero at the first tile and gains one tile's column sums per point; the
   last point copies both to the outputs, whose one block is the whole [1, 64] array. -/
import proofs.«400542_j69810398429749_3_alg».proof.Proof.Val.R0Val
import proofs.«400542_j69810398429749_3_alg».proof.Proof.Val.Pay01
import proofs.«400542_j69810398429749_3_alg».proof.Proof.Math.Glue

set_option maxRecDepth 16384

noncomputable section

namespace Cert.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

/-- The layer's lane j at global row n (zero past the array, where nothing is summed). -/
def rowF0 (c : Dev nD) (j : Fin 64) (n : ℕ) : EReal :=
  if h : n < 100000 then layerArr (V c main_v22) (V c main_v12) (V c main_arg0) (V c main_v25) (V c main_v26) (ix2 (⟨n, h⟩ : Fin 100000) j) else 0
/-- Its square. -/
def sqF0 (c : Dev nD) (j : Fin 64) (n : ℕ) : EReal := rowF0 V c j n * rowF0 V c j n

theorem rowF0_grow (c : Dev nD) (j : Fin 64) (t : Fin cfg0.N) (p : Fin 5000) :
    rowF0 V c j (t.val * 5000 + p.val) = layerArr (V c main_v22) (V c main_v12) (V c main_arg0) (V c main_v25) (V c main_v26) (ix2 (grow0 t p) j) := dif_pos (row0_lt t p)

/-- One step of the first accumulator at point t: what it held plus the tile's column sum. -/
theorem pay5_step0 (c : Dev nD) (t : Fin cfg0.N) (prev : Vec Ideal S1x64 .f32) (j : Fin 64) :
    k0_pay5 (F := Ideal) (blk0_0 V c t) (blk0_2 V c t) (blk0_1 V c t) (blk0_3 V c t) (blk0_4 V c t) prev (ix2 (0 : Fin 1) j)
      = prev (ix2 (0 : Fin 1) j) + ∑ r : Fin 5000, rowF0 V c j (t.val * 5000 + r.val) := by
  refine (k0_pay5_apply (blk0_0 V c t) (blk0_2 V c t) (blk0_1 V c t) (blk0_3 V c t) (blk0_4 V c t) prev j).trans ?_
  refine congrArg (prev (ix2 (0 : Fin 1) j) + ·) (Finset.sum_congr rfl fun r _ => ?_)
  exact (pay4_tile0 V c t r j).trans (rowF0_grow V c j t r).symm

/-- One step of the second accumulator at point t: what it held plus the tile's column sum of squares. -/
theorem pay6_step0 (c : Dev nD) (t : Fin cfg0.N) (prev : Vec Ideal S1x64 .f32) (j : Fin 64) :
    k0_pay1 (F := Ideal) (k0_pay6 (F := Ideal) (blk0_0 V c t) (blk0_2 V c t) (blk0_1 V c t) (blk0_3 V c t) (blk0_4 V c t) prev) (ix2 (0 : Fin 1) j)
      = prev (ix2 (0 : Fin 1) j) + ∑ r : Fin 5000, sqF0 V c j (t.val * 5000 + r.val) := by
  refine (congrFun (k0_pay1_eq _) (ix2 (0 : Fin 1) j)).trans ?_
  refine (k0_pay6_apply (blk0_0 V c t) (blk0_2 V c t) (blk0_1 V c t) (blk0_3 V c t) (blk0_4 V c t) prev j).trans ?_
  refine congrArg (prev (ix2 (0 : Fin 1) j) + ·) (Finset.sum_congr rfl fun r _ => ?_)
  have e := (pay4_tile0 V c t r j).trans (rowF0_grow V c j t r).symm
  exact congrArg₂ (· * ·) e e

/-- The first accumulator after point n: the column sums of the first n + 1 tiles. -/
theorem scr0_eq0 (c : Dev nD) (j : Fin 64) : ∀ (n : ℕ) (hn : n < cfg0.N),
    (outsAt0 V c n hn).2.2.2.1 (ix2 (0 : Fin 1) j) = ∑ t ∈ Finset.range (n + 1), ∑ r : Fin 5000, rowF0 V c j (t * 5000 + r.val) := by
  intro n
  induction n with
  | zero =>
    intro hn
    rw [Finset.sum_range_one]
    rw [show outsAt0 V c 0 hn = outsAt0 V c (⟨0, hn⟩ : Fin cfg0.N).val (⟨0, hn⟩ : Fin cfg0.N).isLt from rfl, outsAt0_A V c ⟨0, hn⟩ rfl]; dsimp only
    refine (congrFun (sout0_A_0_eq (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr rfl) (fun h => absurd ((hcond0_1 ⟨0, hn⟩).mp h) (show ¬((0 : ℕ) = 19) by decide)) (blk0_0 V c ⟨0, hn⟩) (blk0_1 V c ⟨0, hn⟩) (blk0_2 V c ⟨0, hn⟩) (blk0_3 V c ⟨0, hn⟩) (blk0_4 V c ⟨0, hn⟩)) (ix2 (0 : Fin 1) j)).trans ?_
    refine (pay5_step0 V c ⟨0, hn⟩ _ j).trans ?_
    refine (congrArg (· + _) (congrFun k0_pay2_eq (ix2 (0 : Fin 1) j))).trans ?_
    exact zero_add _
  | succ n ih =>
    intro hn
    have ihn := ih (Nat.lt_of_succ_lt hn)
    rw [Finset.sum_range_succ, ← ihn]
    by_cases h1 : n + 1 = 19
    · rw [show outsAt0 V c (n + 1) hn = outsAt0 V c (⟨n + 1, hn⟩ : Fin cfg0.N).val (⟨n + 1, hn⟩ : Fin cfg0.N).isLt from rfl, outsAt0_C V c ⟨n + 1, hn⟩ (Nat.succ_ne_zero n) h1]; dsimp only
      refine (congrFun (sout0_C_0_eq (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h1) (blk0_0 V c ⟨n + 1, hn⟩) (blk0_1 V c ⟨n + 1, hn⟩) (blk0_2 V c ⟨n + 1, hn⟩) (blk0_3 V c ⟨n + 1, hn⟩) (blk0_4 V c ⟨n + 1, hn⟩) (outsAt0 V c n (Nat.lt_of_succ_lt hn)).2.2.2.1 (outsAt0 V c n (Nat.lt_of_succ_lt hn)).2.2.2.2) (ix2 (0 : Fin 1) j)).trans ?_
      exact pay5_step0 V c ⟨n + 1, hn⟩ _ j
    · rw [show outsAt0 V c (n + 1) hn = outsAt0 V c (⟨n + 1, hn⟩ : Fin cfg0.N).val (⟨n + 1, hn⟩ : Fin cfg0.N).isLt from rfl, outsAt0_B V c ⟨n + 1, hn⟩ (Nat.succ_ne_zero n) h1]; dsimp only
      refine (congrFun (sout0_B_0_eq (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => absurd ((hcond0_0 ⟨n + 1, hn⟩).mp h) (Nat.succ_ne_zero n)) (fun h => h1 ((hcond0_1 ⟨n + 1, hn⟩).mp h)) (blk0_0 V c ⟨n + 1, hn⟩) (blk0_1 V c ⟨n + 1, hn⟩) (blk0_2 V c ⟨n + 1, hn⟩) (blk0_3 V c ⟨n + 1, hn⟩) (blk0_4 V c ⟨n + 1, hn⟩) (outsAt0 V c n (Nat.lt_of_succ_lt hn)).2.2.2.1 (outsAt0 V c n (Nat.lt_of_succ_lt hn)).2.2.2.2) (ix2 (0 : Fin 1) j)).trans ?_
      exact pay5_step0 V c ⟨n + 1, hn⟩ _ j

/-- The second accumulator after point n: the column sums of squares of the first n + 1 tiles. -/
theorem scr1_eq0 (c : Dev nD) (j : Fin 64) : ∀ (n : ℕ) (hn : n < cfg0.N),
    (outsAt0 V c n hn).2.2.2.2 (ix2 (0 : Fin 1) j) = ∑ t ∈ Finset.range (n + 1), ∑ r : Fin 5000, sqF0 V c j (t * 5000 + r.val) := by
  intro n
  induction n with
  | zero =>
    intro hn
    rw [Finset.sum_range_one]
    rw [show outsAt0 V c 0 hn = outsAt0 V c (⟨0, hn⟩ : Fin cfg0.N).val (⟨0, hn⟩ : Fin cfg0.N).isLt from rfl, outsAt0_A V c ⟨0, hn⟩ rfl]; dsimp only
    refine (congrFun (sout0_A_1_eq (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr rfl) (fun h => absurd ((hcond0_1 ⟨0, hn⟩).mp h) (show ¬((0 : ℕ) = 19) by decide)) (blk0_0 V c ⟨0, hn⟩) (blk0_1 V c ⟨0, hn⟩) (blk0_2 V c ⟨0, hn⟩) (blk0_3 V c ⟨0, hn⟩) (blk0_4 V c ⟨0, hn⟩)) (ix2 (0 : Fin 1) j)).trans ?_
    refine (pay6_step0 V c ⟨0, hn⟩ _ j).trans ?_
    refine (congrArg (· + _) (congrFun k0_pay3_eq (ix2 (0 : Fin 1) j))).trans ?_
    exact zero_add _
  | succ n ih =>
    intro hn
    have ihn := ih (Nat.lt_of_succ_lt hn)
    rw [Finset.sum_range_succ, ← ihn]
    by_cases h1 : n + 1 = 19
    · rw [show outsAt0 V c (n + 1) hn = outsAt0 V c (⟨n + 1, hn⟩ : Fin cfg0.N).val (⟨n + 1, hn⟩ : Fin cfg0.N).isLt from rfl, outsAt0_C V c ⟨n + 1, hn⟩ (Nat.succ_ne_zero n) h1]; dsimp only
      refine (congrFun (sout0_C_1_eq (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h1) (blk0_0 V c ⟨n + 1, hn⟩) (blk0_1 V c ⟨n + 1, hn⟩) (blk0_2 V c ⟨n + 1, hn⟩) (blk0_3 V c ⟨n + 1, hn⟩) (blk0_4 V c ⟨n + 1, hn⟩) (outsAt0 V c n (Nat.lt_of_succ_lt hn)).2.2.2.1 (outsAt0 V c n (Nat.lt_of_succ_lt hn)).2.2.2.2) (ix2 (0 : Fin 1) j)).trans ?_
      exact pay6_step0 V c ⟨n + 1, hn⟩ _ j
    · rw [show outsAt0 V c (n + 1) hn = outsAt0 V c (⟨n + 1, hn⟩ : Fin cfg0.N).val (⟨n + 1, hn⟩ : Fin cfg0.N).isLt from rfl, outsAt0_B V c ⟨n + 1, hn⟩ (Nat.succ_ne_zero n) h1]; dsimp only
      refine (congrFun (sout0_B_1_eq (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => absurd ((hcond0_0 ⟨n + 1, hn⟩).mp h) (Nat.succ_ne_zero n)) (fun h => h1 ((hcond0_1 ⟨n + 1, hn⟩).mp h)) (blk0_0 V c ⟨n + 1, hn⟩) (blk0_1 V c ⟨n + 1, hn⟩) (blk0_2 V c ⟨n + 1, hn⟩) (blk0_3 V c ⟨n + 1, hn⟩) (blk0_4 V c ⟨n + 1, hn⟩) (outsAt0 V c n (Nat.lt_of_succ_lt hn)).2.2.2.1 (outsAt0 V c n (Nat.lt_of_succ_lt hn)).2.2.2.2) (ix2 (0 : Fin 1) j)).trans ?_
      exact pay6_step0 V c ⟨n + 1, hn⟩ _ j

/-- The last grid point. -/
def t19 : Fin cfg0.N := ⟨19, by have : cfg0.N = 20 := N_0; omega⟩

/-- After the last point the first accumulator holds the column sums over all 100000 rows, -/
theorem scr0_last0 (c : Dev nD) (j : Fin 64) (t : Fin cfg0.N) (h19 : t.val = 19) :
    (outsAt0 V c t.val t.isLt).2.2.2.1 (ix2 (0 : Fin 1) j) = ∑ n : Fin 100000, layerArr (V c main_v22) (V c main_v12) (V c main_arg0) (V c main_v25) (V c main_v26) (ix2 n j) := by
  refine (scr0_eq0 V c j t.val t.isLt).trans ?_
  rw [h19]
  exact (Cert.MathLib.sum_range_tiles_20_5000 (rowF0 V c j)).trans (Finset.sum_congr rfl fun m _ => dif_pos m.isLt)

/-- and the second the column sums of squares. -/
theorem scr1_last0 (c : Dev nD) (j : Fin 64) (t : Fin cfg0.N) (h19 : t.val = 19) :
    (outsAt0 V c t.val t.isLt).2.2.2.2 (ix2 (0 : Fin 1) j) = ∑ n : Fin 100000, layerArr (V c main_v22) (V c main_v12) (V c main_arg0) (V c main_v25) (V c main_v26) (ix2 n j) * layerArr (V c main_v22) (V c main_v12) (V c main_arg0) (V c main_v25) (V c main_v26) (ix2 n j) := by
  refine (scr1_eq0 V c j t.val t.isLt).trans ?_
  rw [h19]
  exact (Cert.MathLib.sum_range_tiles_20_5000 (sqF0 V c j)).trans (Finset.sum_congr rfl fun m _ => by unfold sqF0 rowF0; rw [dif_pos m.isLt])

/-- At the last point the body copies the accumulators to the two small outputs: the same payloads. -/
theorem out6_eq0 (c : Dev nD) (t : Fin cfg0.N) (h19 : t.val = 19) : (outsAt0 V c t.val t.isLt).2.1 = (outsAt0 V c t.val t.isLt).2.2.2.1 := by
  have h0 : ¬t.val = 0 := by omega
  rw [outsAt0_C V c t h0 h19]; dsimp only
  exact (out0_C_6_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h19) (blk0_0 V c t) (blk0_1 V c t) (blk0_2 V c t) (blk0_3 V c t) (blk0_4 V c t) (outsAt0 V c (t.val - 1) (Nat.lt_of_le_of_lt (Nat.sub_le _ _) t.isLt)).2.2.2.1 (outsAt0 V c (t.val - 1) (Nat.lt_of_le_of_lt (Nat.sub_le _ _) t.isLt)).2.2.2.2).trans
    (sout0_C_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h19) (blk0_0 V c t) (blk0_1 V c t) (blk0_2 V c t) (blk0_3 V c t) (blk0_4 V c t) (outsAt0 V c (t.val - 1) (Nat.lt_of_le_of_lt (Nat.sub_le _ _) t.isLt)).2.2.2.1 (outsAt0 V c (t.val - 1) (Nat.lt_of_le_of_lt (Nat.sub_le _ _) t.isLt)).2.2.2.2).symm
theorem out7_eq0 (c : Dev nD) (t : Fin cfg0.N) (h19 : t.val = 19) : (outsAt0 V c t.val t.isLt).2.2.1 = (outsAt0 V c t.val t.isLt).2.2.2.2 := by
  have h0 : ¬t.val = 0 := by omega
  rw [outsAt0_C V c t h0 h19]; dsimp only
  exact (out0_C_7_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h19) (blk0_0 V c t) (blk0_1 V c t) (blk0_2 V c t) (blk0_3 V c t) (blk0_4 V c t) (outsAt0 V c (t.val - 1) (Nat.lt_of_le_of_lt (Nat.sub_le _ _) t.isLt)).2.2.2.1 (outsAt0 V c (t.val - 1) (Nat.lt_of_le_of_lt (Nat.sub_le _ _) t.isLt)).2.2.2.2).trans
    (sout0_C_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h19) (blk0_0 V c t) (blk0_1 V c t) (blk0_2 V c t) (blk0_3 V c t) (blk0_4 V c t) (outsAt0 V c (t.val - 1) (Nat.lt_of_le_of_lt (Nat.sub_le _ _) t.isLt)).2.2.2.1 (outsAt0 V c (t.val - 1) (Nat.lt_of_le_of_lt (Nat.sub_le _ _) t.isLt)).2.2.2.2).symm

/-- The index maps of the two small outputs: block (0, 0) at every point. -/
theorem idx_facts0_67 : ∀ t : Fin cfg0.N, win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- A point that writes a small output back is the last one. -/
theorem val19_of_flush6 (t : Fin cfg0.N) (hf : (cfg0.win 6).flush t = true) : t.val = 19 := by
  have h := (flush0_6 t).mp hf
  have hN : t.val < 20 := lt_of_lt_of_eq t.isLt (show cfg0.N = 20 from N_0)
  omega
theorem val19_of_flush7 (t : Fin cfg0.N) (hf : (cfg0.win 7).flush t = true) : t.val = 19 := by
  have h := (flush0_7 t).mp hf
  have hN : t.val < 20 := lt_of_lt_of_eq t.isLt (show cfg0.N = 20 from N_0)
  omega

/-- The column sums, and the column sums of squares, of the layer as [1, 64] arrays. -/
def colSum0 (c : Dev nD) : S1x64.Idx → EReal :=
  fun i => ∑ n : Fin 100000, layerArr (V c main_v22) (V c main_v12) (V c main_arg0) (V c main_v25) (V c main_v26) (ix2 n (⟨(i 1).val, idx2_lt1 i⟩ : Fin 64))
def colSq0 (c : Dev nD) : S1x64.Idx → EReal :=
  fun i => ∑ n : Fin 100000, layerArr (V c main_v22) (V c main_v12) (V c main_arg0) (V c main_v25) (V c main_v26) (ix2 n (⟨(i 1).val, idx2_lt1 i⟩ : Fin 64)) * layerArr (V c main_v22) (V c main_v12) (V c main_arg0) (V c main_v25) (V c main_v26) (ix2 n (⟨(i 1).val, idx2_lt1 i⟩ : Fin 64))

theorem colSum0_apply (c : Dev nD) (q : Fin 64) :
    colSum0 V c (ix2 (0 : Fin 1) q) = ∑ n : Fin 100000, layerArr (V c main_v22) (V c main_v12) (V c main_arg0) (V c main_v25) (V c main_v26) (ix2 n q) := rfl
theorem colSq0_apply (c : Dev nD) (q : Fin 64) :
    colSq0 V c (ix2 (0 : Fin 1) q) = ∑ n : Fin 100000, layerArr (V c main_v22) (V c main_v12) (V c main_arg0) (V c main_v25) (V c main_v26) (ix2 n q) * layerArr (V c main_v22) (V c main_v12) (V c main_arg0) (V c main_v25) (V c main_v26) (ix2 n q) := rfl

/-- What the last point writes back to output 6 is the column sums. -/
theorem flushed0_6_eq (c : Dev nD) (t : Fin cfg0.N) (hf : (cfg0.win 6).flush t = true) :
    (dat0 V c).flushed 6 t = ((cfg0.win 6).blk t).view.read (Elt Ideal) (colSum0 V c) := by
  have h19 := val19_of_flush6 t hf
  show (cfg0.win 6).cut (grid0.coords t) ((dat0 V c).after 6 t) = _
  rw [after0_6, out6_eq0 V c t h19]
  obtain ⟨e0, e1, -⟩ := idx_facts0_67 t
  funext i
  obtain ⟨p, q, rfl⟩ : ∃ (p : Fin 1) (q : Fin 64), i = ix2 p q := ⟨i 0, i 1, eq_ix2 i⟩
  obtain rfl : p = 0 := Subsingleton.elim _ _
  refine ((scr0_last0 V c q t h19).trans (colSum0_apply V c q).symm).trans ?_
  generalize colSum0 V c = G
  show G (ix2 (0 : Fin 1) q) = G (((cfg0.win 6).blk t).view.emb (ix2 (0 : Fin 1) q))
  refine congrArg G (funext fun a => Fin.ext ?_)
  match a with
  | ⟨0, _⟩ => show 0 = win0_6.index t (0 : Fin 2) * 1 + 1 * 0; omega
  | ⟨1, _⟩ => show q.val = win0_6.index t (1 : Fin 2) * 64 + 1 * q.val; omega

/-- What the last point writes back to output 7 is the column sums of squares. -/
theorem flushed0_7_eq (c : Dev nD) (t : Fin cfg0.N) (hf : (cfg0.win 7).flush t = true) :
    (dat0 V c).flushed 7 t = ((cfg0.win 7).blk t).view.read (Elt Ideal) (colSq0 V c) := by
  have h19 := val19_of_flush7 t hf
  show (cfg0.win 7).cut (grid0.coords t) ((dat0 V c).after 7 t) = _
  rw [after0_7, out7_eq0 V c t h19]
  obtain ⟨-, -, e0, e1⟩ := idx_facts0_67 t
  funext i
  obtain ⟨p, q, rfl⟩ : ∃ (p : Fin 1) (q : Fin 64), i = ix2 p q := ⟨i 0, i 1, eq_ix2 i⟩
  obtain rfl : p = 0 := Subsingleton.elim _ _
  refine ((scr1_last0 V c q t h19).trans (colSq0_apply V c q).symm).trans ?_
  generalize colSq0 V c = G
  show G (ix2 (0 : Fin 1) q) = G (((cfg0.win 7).blk t).view.emb (ix2 (0 : Fin 1) q))
  refine congrArg G (funext fun a => Fin.ext ?_)
  match a with
  | ⟨0, _⟩ => show 0 = win0_7.index t (0 : Fin 2) * 1 + 1 * 0; omega
  | ⟨1, _⟩ => show q.val = win0_7.index t (1 : Fin 2) * 64 + 1 * q.val; omega

/-- Membership in a small output's one block, coordinate by coordinate. -/
theorem mem_blk0_6 (t : Fin cfg0.N) (i : S1x64.Idx) :
    i ∈ ((cfg0.win 6).blk t).view.set ↔ ∀ a : Fin 2, win0_6.index t a * S1x64.size a ≤ (i a).val ∧ (i a).val < win0_6.index t a * S1x64.size a + S1x64.size a := by
  show i ∈ ((View.whole main_v27_1).slice (win0_6.rect t)).set ↔ _
  rw [View.set_slice_whole, Rect.mem_set_unit]
  exact Iff.rfl
theorem mem_blk0_7 (t : Fin cfg0.N) (i : S1x64.Idx) :
    i ∈ ((cfg0.win 7).blk t).view.set ↔ ∀ a : Fin 2, win0_7.index t a * S1x64.size a ≤ (i a).val ∧ (i a).val < win0_7.index t a * S1x64.size a + S1x64.size a := by
  show i ∈ ((View.whole main_v27_2).slice (win0_7.rect t)).set ↔ _
  rw [View.set_slice_whole, Rect.mem_set_unit]
  exact Iff.rfl

/-- The last point's block is the whole small array. -/
theorem cover0_6_arr (i : S1x64.Idx) : ∃ t : Fin cfg0.N, (cfg0.win 6).flush t = true ∧ i ∈ ((cfg0.win 6).blk t).view.set := by
  have hi0 : (i 0).val < 1 := idx2_lt0 i
  have hi1 : (i 1).val < 64 := idx2_lt1 i
  obtain ⟨e0, e1, -⟩ := idx_facts0_67 t19
  refine ⟨t19, (flush0_6 t19).mpr rfl, ?_⟩
  rw [mem_blk0_6]
  intro a
  match a with
  | ⟨0, _⟩ => show win0_6.index t19 (0 : Fin 2) * 1 ≤ (i 0).val ∧ (i 0).val < win0_6.index t19 (0 : Fin 2) * 1 + 1; omega
  | ⟨1, _⟩ => show win0_6.index t19 (1 : Fin 2) * 64 ≤ (i 1).val ∧ (i 1).val < win0_6.index t19 (1 : Fin 2) * 64 + 64; omega
theorem cover0_7_arr (i : S1x64.Idx) : ∃ t : Fin cfg0.N, (cfg0.win 7).flush t = true ∧ i ∈ ((cfg0.win 7).blk t).view.set := by
  have hi0 : (i 0).val < 1 := idx2_lt0 i
  have hi1 : (i 1).val < 64 := idx2_lt1 i
  obtain ⟨-, -, e0, e1⟩ := idx_facts0_67 t19
  refine ⟨t19, (flush0_7 t19).mpr rfl, ?_⟩
  rw [mem_blk0_7]
  intro a
  match a with
  | ⟨0, _⟩ => show win0_7.index t19 (0 : Fin 2) * 1 ≤ (i 0).val ∧ (i 0).val < win0_7.index t19 (0 : Fin 2) * 1 + 1; omega
  | ⟨1, _⟩ => show win0_7.index t19 (1 : Fin 2) * 64 ≤ (i 1).val ∧ (i 1).val < win0_7.index t19 (1 : Fin 2) * 64 + 64; omega

/-- The three output arrays after the launch, at their literal types. -/
abbrev arr0_5 (c : Dev nD) : S100000x64.Idx → EReal := (dat0 V c).arrAt 5 cfg0.N
abbrev arr0_6 (c : Dev nD) : S1x64.Idx → EReal := (dat0 V c).arrAt 6 cfg0.N
abbrev arr0_7 (c : Dev nD) : S1x64.Idx → EReal := (dat0 V c).arrAt 7 cfg0.N

/-- THE COLUMN-SUM OUTPUT after the launch: lane j holds the sum of the large output's column j over all rows. -/
theorem final0_6 (c : Dev nD) (j : Fin 64) :
    arr0_6 V c (ix2 (0 : Fin 1) j) = ∑ n : Fin 100000, arr0_5 V c (ix2 n j) := by
  show arr0_6 V c (ix2 (0 : Fin 1) j) = ∑ n : Fin 100000, (arr0_5 V c) (ix2 n j)
  rw [show arr0_5 V c = layerArr (V c main_v22) (V c main_v12) (V c main_arg0) (V c main_v25) (V c main_v26) from final0_5 V c]
  exact (congrFun ((dat0 V c).arrAt_eq_of_cover 6 (colSum0 V c) (fun t hf => flushed0_6_eq V c t hf) cover0_6_arr) (ix2 (0 : Fin 1) j)).trans (colSum0_apply V c j)

/-- THE SUM-OF-SQUARES OUTPUT after the launch: lane j holds the sum of the squares of the large output's column j. -/
theorem final0_7 (c : Dev nD) (j : Fin 64) :
    arr0_7 V c (ix2 (0 : Fin 1) j) = ∑ n : Fin 100000, arr0_5 V c (ix2 n j) * arr0_5 V c (ix2 n j) := by
  show arr0_7 V c (ix2 (0 : Fin 1) j) = ∑ n : Fin 100000, (arr0_5 V c) (ix2 n j) * (arr0_5 V c) (ix2 n j)
  rw [show arr0_5 V c = layerArr (V c main_v22) (V c main_v12) (V c main_arg0) (V c main_v25) (V c main_v26) from final0_5 V c]
  exact (congrFun ((dat0 V c).arrAt_eq_of_cover 7 (colSq0 V c) (fun t hf => flushed0_7_eq V c t hf) cover0_7_arr) (ix2 (0 : Fin 1) j)).trans (colSq0_apply V c j)

end Cert.Val

end
-- ==== Proof.KI.R2Pieces.lean ====
/- Region 2 (the pooling call): what each control case leaves in the accumulators and, at the last point, in the two
   outputs, as the body's named payloads of the point's input blocks and of the accumulators' previous contents — one
   lemma per list of pieces the runs found. A whole-buffer store's one piece reads back as its payload; a load of a
   whole buffer reads its contents; a load after a covering store reads that store's payload. -/
import proofs.«400542_j69810398429749_3_alg».proof.Proof.KI.R2
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- The zero offsets of a whole-buffer rectangle of rank 2. -/
theorem hz2 : (![0, 0] : Fin 2 → Nat) = fun _ => 0 := funext fun a => by fin_cases a <;> rfl

/-- Case A leaves in the first accumulator the per-graph sums' update of the tile over the zero block the case first stored. -/
theorem sout2_A_0_eq (c : Dev nD) (i : grid2.Coords) (arg1 : Memref sig .tc .vmem S2000x64 .f32) (harg1 : arg1.IsWhole) (arg2 : Memref sig .tc .vmem S2000x64 .f32) (harg2 : arg2.IsWhole) (arg3 : Memref sig .tc .vmem S2000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2000x1 .i32) (harg6 : arg6.IsWhole) (arg7 : Memref sig .tc .vmem S256x64 .f32) (harg7 : arg7.IsWhole) (arg8 : Memref sig .tc .vmem S1x256 .f32) (harg8 : arg8.IsWhole) (arg9 : Memref sig .tc .vmem S256x64 .f32) (harg9 : arg9.IsWhole) (arg10 : Memref sig .tc .vmem S1x256 .f32) (harg10 : arg10.IsWhole) (hc0 : cond2_0 i) (hc1 : ¬cond2_1 i)
    (x0 : Vec F S2000x64 .f32) (x1 : Vec F S2000x64 .f32) (x2 : Vec F S2000x1 .f32) (x3 : Vec F S128x64 .f32) (x4 : Vec F S1x64 .f32) (x5 : Vec F S2000x1 .i32) :
    sout2_A_0 c i arg1 harg1 arg2 harg2 arg3 harg3 arg4 harg4 arg5 harg5 arg6 harg6 arg7 harg7 arg8 harg8 arg9 harg9 arg10 harg10 hc0 hc1 x0 x1 x2 x3 x4 x5 = k2_pay1 (k2_pay7 x0 x2 x1 x3 x4 x5 (k2_pay3 (F := F))) := by
  unfold sout2_A_0
  rw [View.read_writes_eq_canon _ _ _ (scover2_A_0 c i arg1 harg1 arg2 harg2 arg3 harg3 arg4 harg4 arg5 harg5 arg6 harg6 arg7 harg7 arg8 harg8 arg9 harg9 arg10 harg10 hc0 hc1 x0 x1 x2 x3 x4 x5)]
  unfold kernelRun2_A
  dsimp only
  sl_unfold_words
  simp only [View.canon_unit_zero (S := S256x64) hz2, View.canon_unit_zero (S := S1x256) hz2, View.canon_cons_unit_zero (S := S256x64) hz2, View.canon_cons_unit_zero (S := S1x256) hz2, View.readCov_unit_zero (S := S256x64) _ hz2, View.readCov_unit_zero (S := S1x256) _ hz2, View.readAt_eq_ld, harg1.read_unread, harg2.read_unread, harg3.read_unread, harg4.read_unread, harg5.read_unread, harg6.read_unread, harg7.read_unread, harg8.read_unread, harg9.read_unread, harg10.read_unread, View.ld_unit_zero (S := S2000x64) hz2, View.ld_unit_zero (S := S2000x1) hz2, View.ld_unit_zero (S := S128x64) hz2, View.ld_unit_zero (S := S1x64) hz2, View.ld_unit_zero (S := S256x64) hz2, View.ld_unit_zero (S := S1x256) hz2]

/-- Case A leaves in the second accumulator the tile's per-graph row counts added to the zero row the case first stored. -/
theorem sout2_A_1_eq (c : Dev nD) (i : grid2.Coords) (arg1 : Memref sig .tc .vmem S2000x64 .f32) (harg1 : arg1.IsWhole) (arg2 : Memref sig .tc .vmem S2000x64 .f32) (harg2 : arg2.IsWhole) (arg3 : Memref sig .tc .vmem S2000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2000x1 .i32) (harg6 : arg6.IsWhole) (arg7 : Memref sig .tc .vmem S256x64 .f32) (harg7 : arg7.IsWhole) (arg8 : Memref sig .tc .vmem S1x256 .f32) (harg8 : arg8.IsWhole) (arg9 : Memref sig .tc .vmem S256x64 .f32) (harg9 : arg9.IsWhole) (arg10 : Memref sig .tc .vmem S1x256 .f32) (harg10 : arg10.IsWhole) (hc0 : cond2_0 i) (hc1 : ¬cond2_1 i)
    (x0 : Vec F S2000x64 .f32) (x1 : Vec F S2000x64 .f32) (x2 : Vec F S2000x1 .f32) (x3 : Vec F S128x64 .f32) (x4 : Vec F S1x64 .f32) (x5 : Vec F S2000x1 .i32) :
    sout2_A_1 c i arg1 harg1 arg2 harg2 arg3 harg3 arg4 harg4 arg5 harg5 arg6 harg6 arg7 harg7 arg8 harg8 arg9 harg9 arg10 harg10 hc0 hc1 x0 x1 x2 x3 x4 x5 = k2_pay2 (k2_pay6 x5) (k2_pay4 (F := F)) := by
  unfold sout2_A_1
  rw [View.read_writes_eq_canon _ _ _ (scover2_A_1 c i arg1 harg1 arg2 harg2 arg3 harg3 arg4 harg4 arg5 harg5 arg6 harg6 arg7 harg7 arg8 harg8 arg9 harg9 arg10 harg10 hc0 hc1 x0 x1 x2 x3 x4 x5)]
  unfold kernelRun2_A
  dsimp only
  sl_unfold_words
  simp only [View.canon_unit_zero (S := S256x64) hz2, View.canon_unit_zero (S := S1x256) hz2, View.canon_cons_unit_zero (S := S256x64) hz2, View.canon_cons_unit_zero (S := S1x256) hz2, View.readCov_unit_zero (S := S256x64) _ hz2, View.readCov_unit_zero (S := S1x256) _ hz2, View.readAt_eq_ld, harg1.read_unread, harg2.read_unread, harg3.read_unread, harg4.read_unread, harg5.read_unread, harg6.read_unread, harg7.read_unread, harg8.read_unread, harg9.read_unread, harg10.read_unread, View.ld_unit_zero (S := S2000x64) hz2, View.ld_unit_zero (S := S2000x1) hz2, View.ld_unit_zero (S := S128x64) hz2, View.ld_unit_zero (S := S1x64) hz2, View.ld_unit_zero (S := S256x64) hz2, View.ld_unit_zero (S := S1x256) hz2]

/-- Case B leaves in the first accumulator the per-graph sums' update of the tile over what the point before left there. -/
theorem sout2_B_0_eq (c : Dev nD) (i : grid2.Coords) (arg1 : Memref sig .tc .vmem S2000x64 .f32) (harg1 : arg1.IsWhole) (arg2 : Memref sig .tc .vmem S2000x64 .f32) (harg2 : arg2.IsWhole) (arg3 : Memref sig .tc .vmem S2000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2000x1 .i32) (harg6 : arg6.IsWhole) (arg7 : Memref sig .tc .vmem S256x64 .f32) (harg7 : arg7.IsWhole) (arg8 : Memref sig .tc .vmem S1x256 .f32) (harg8 : arg8.IsWhole) (arg9 : Memref sig .tc .vmem S256x64 .f32) (harg9 : arg9.IsWhole) (arg10 : Memref sig .tc .vmem S1x256 .f32) (harg10 : arg10.IsWhole) (hc0 : ¬cond2_0 i) (hc1 : ¬cond2_1 i)
    (x0 : Vec F S2000x64 .f32) (x1 : Vec F S2000x64 .f32) (x2 : Vec F S2000x1 .f32) (x3 : Vec F S128x64 .f32) (x4 : Vec F S1x64 .f32) (x5 : Vec F S2000x1 .i32) (xs0 : Vec F S256x64 .f32) (xs1 : Vec F S1x256 .f32) :
    sout2_B_0 c i arg1 harg1 arg2 harg2 arg3 harg3 arg4 harg4 arg5 harg5 arg6 harg6 arg7 harg7 arg8 harg8 arg9 harg9 arg10 harg10 hc0 hc1 x0 x1 x2 x3 x4 x5 xs0 xs1 = k2_pay1 (k2_pay7 x0 x2 x1 x3 x4 x5 xs0) := by
  unfold sout2_B_0
  rw [View.read_writes_eq_canon _ _ _ (scover2_B_0 c i arg1 harg1 arg2 harg2 arg3 harg3 arg4 harg4 arg5 harg5 arg6 harg6 arg7 harg7 arg8 harg8 arg9 harg9 arg10 harg10 hc0 hc1 x0 x1 x2 x3 x4 x5 xs0 xs1)]
  unfold kernelRun2_B
  dsimp only
  sl_unfold_words
  simp only [View.canon_unit_zero (S := S256x64) hz2, View.canon_unit_zero (S := S1x256) hz2, View.canon_cons_unit_zero (S := S256x64) hz2, View.canon_cons_unit_zero (S := S1x256) hz2, View.readCov_unit_zero (S := S256x64) _ hz2, View.readCov_unit_zero (S := S1x256) _ hz2, View.readAt_eq_ld, harg1.read_unread, harg2.read_unread, harg3.read_unread, harg4.read_unread, harg5.read_unread, harg6.read_unread, harg7.read_unread, harg8.read_unread, harg9.read_unread, harg10.read_unread, View.ld_unit_zero (S := S2000x64) hz2, View.ld_unit_zero (S := S2000x1) hz2, View.ld_unit_zero (S := S128x64) hz2, View.ld_unit_zero (S := S1x64) hz2, View.ld_unit_zero (S := S256x64) hz2, View.ld_unit_zero (S := S1x256) hz2]

/-- Case B leaves in the second accumulator the tile's per-graph row counts added to what the point before left there. -/
theorem sout2_B_1_eq (c : Dev nD) (i : grid2.Coords) (arg1 : Memref sig .tc .vmem S2000x64 .f32) (harg1 : arg1.IsWhole) (arg2 : Memref sig .tc .vmem S2000x64 .f32) (harg2 : arg2.IsWhole) (arg3 : Memref sig .tc .vmem S2000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2000x1 .i32) (harg6 : arg6.IsWhole) (arg7 : Memref sig .tc .vmem S256x64 .f32) (harg7 : arg7.IsWhole) (arg8 : Memref sig .tc .vmem S1x256 .f32) (harg8 : arg8.IsWhole) (arg9 : Memref sig .tc .vmem S256x64 .f32) (harg9 : arg9.IsWhole) (arg10 : Memref sig .tc .vmem S1x256 .f32) (harg10 : arg10.IsWhole) (hc0 : ¬cond2_0 i) (hc1 : ¬cond2_1 i)
    (x0 : Vec F S2000x64 .f32) (x1 : Vec F S2000x64 .f32) (x2 : Vec F S2000x1 .f32) (x3 : Vec F S128x64 .f32) (x4 : Vec F S1x64 .f32) (x5 : Vec F S2000x1 .i32) (xs0 : Vec F S256x64 .f32) (xs1 : Vec F S1x256 .f32) :
    sout2_B_1 c i arg1 harg1 arg2 harg2 arg3 harg3 arg4 harg4 arg5 harg5 arg6 harg6 arg7 harg7 arg8 harg8 arg9 harg9 arg10 harg10 hc0 hc1 x0 x1 x2 x3 x4 x5 xs0 xs1 = k2_pay2 (k2_pay6 x5) xs1 := by
  unfold sout2_B_1
  rw [View.read_writes_eq_canon _ _ _ (scover2_B_1 c i arg1 harg1 arg2 harg2 arg3 harg3 arg4 harg4 arg5 harg5 arg6 harg6 arg7 harg7 arg8 harg8 arg9 harg9 arg10 harg10 hc0 hc1 x0 x1 x2 x3 x4 x5 xs0 xs1)]
  unfold kernelRun2_B
  dsimp only
  sl_unfold_words
  simp only [View.canon_unit_zero (S := S256x64) hz2, View.canon_unit_zero (S := S1x256) hz2, View.canon_cons_unit_zero (S := S256x64) hz2, View.canon_cons_unit_zero (S := S1x256) hz2, View.readCov_unit_zero (S := S256x64) _ hz2, View.readCov_unit_zero (S := S1x256) _ hz2, View.readAt_eq_ld, harg1.read_unread, harg2.read_unread, harg3.read_unread, harg4.read_unread, harg5.read_unread, harg6.read_unread, harg7.read_unread, harg8.read_unread, harg9.read_unread, harg10.read_unread, View.ld_unit_zero (S := S2000x64) hz2, View.ld_unit_zero (S := S2000x1) hz2, View.ld_unit_zero (S := S128x64) hz2, View.ld_unit_zero (S := S1x64) hz2, View.ld_unit_zero (S := S256x64) hz2, View.ld_unit_zero (S := S1x256) hz2]

/-- Case C leaves in the first accumulator the per-graph sums' update of the tile over what the point before left there. -/
theorem sout2_C_0_eq (c : Dev nD) (i : grid2.Coords) (arg1 : Memref sig .tc .vmem S2000x64 .f32) (harg1 : arg1.IsWhole) (arg2 : Memref sig .tc .vmem S2000x64 .f32) (harg2 : arg2.IsWhole) (arg3 : Memref sig .tc .vmem S2000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2000x1 .i32) (harg6 : arg6.IsWhole) (arg7 : Memref sig .tc .vmem S256x64 .f32) (harg7 : arg7.IsWhole) (arg8 : Memref sig .tc .vmem S1x256 .f32) (harg8 : arg8.IsWhole) (arg9 : Memref sig .tc .vmem S256x64 .f32) (harg9 : arg9.IsWhole) (arg10 : Memref sig .tc .vmem S1x256 .f32) (harg10 : arg10.IsWhole) (hc0 : ¬cond2_0 i) (hc1 : cond2_1 i)
    (x0 : Vec F S2000x64 .f32) (x1 : Vec F S2000x64 .f32) (x2 : Vec F S2000x1 .f32) (x3 : Vec F S128x64 .f32) (x4 : Vec F S1x64 .f32) (x5 : Vec F S2000x1 .i32) (xs0 : Vec F S256x64 .f32) (xs1 : Vec F S1x256 .f32) :
    sout2_C_0 c i arg1 harg1 arg2 harg2 arg3 harg3 arg4 harg4 arg5 harg5 arg6 harg6 arg7 harg7 arg8 harg8 arg9 harg9 arg10 harg10 hc0 hc1 x0 x1 x2 x3 x4 x5 xs0 xs1 = k2_pay1 (k2_pay7 x0 x2 x1 x3 x4 x5 xs0) := by
  unfold sout2_C_0
  rw [View.read_writes_eq_canon _ _ _ (scover2_C_0 c i arg1 harg1 arg2 harg2 arg3 harg3 arg4 harg4 arg5 harg5 arg6 harg6 arg7 harg7 arg8 harg8 arg9 harg9 arg10 harg10 hc0 hc1 x0 x1 x2 x3 x4 x5 xs0 xs1)]
  unfold kernelRun2_C
  dsimp only
  sl_unfold_words
  simp only [View.canon_unit_zero (S := S256x64) hz2, View.canon_unit_zero (S := S1x256) hz2, View.canon_cons_unit_zero (S := S256x64) hz2, View.canon_cons_unit_zero (S := S1x256) hz2, View.readCov_unit_zero (S := S256x64) _ hz2, View.readCov_unit_zero (S := S1x256) _ hz2, View.readAt_eq_ld, harg1.read_unread, harg2.read_unread, harg3.read_unread, harg4.read_unread, harg5.read_unread, harg6.read_unread, harg7.read_unread, harg8.read_unread, harg9.read_unread, harg10.read_unread, View.ld_unit_zero (S := S2000x64) hz2, View.ld_unit_zero (S := S2000x1) hz2, View.ld_unit_zero (S := S128x64) hz2, View.ld_unit_zero (S := S1x64) hz2, View.ld_unit_zero (S := S256x64) hz2, View.ld_unit_zero (S := S1x256) hz2]

/-- Case C leaves in the second accumulator the tile's per-graph row counts added to what the point before left there. -/
theorem sout2_C_1_eq (c : Dev nD) (i : grid2.Coords) (arg1 : Memref sig .tc .vmem S2000x64 .f32) (harg1 : arg1.IsWhole) (arg2 : Memref sig .tc .vmem S2000x64 .f32) (harg2 : arg2.IsWhole) (arg3 : Memref sig .tc .vmem S2000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2000x1 .i32) (harg6 : arg6.IsWhole) (arg7 : Memref sig .tc .vmem S256x64 .f32) (harg7 : arg7.IsWhole) (arg8 : Memref sig .tc .vmem S1x256 .f32) (harg8 : arg8.IsWhole) (arg9 : Memref sig .tc .vmem S256x64 .f32) (harg9 : arg9.IsWhole) (arg10 : Memref sig .tc .vmem S1x256 .f32) (harg10 : arg10.IsWhole) (hc0 : ¬cond2_0 i) (hc1 : cond2_1 i)
    (x0 : Vec F S2000x64 .f32) (x1 : Vec F S2000x64 .f32) (x2 : Vec F S2000x1 .f32) (x3 : Vec F S128x64 .f32) (x4 : Vec F S1x64 .f32) (x5 : Vec F S2000x1 .i32) (xs0 : Vec F S256x64 .f32) (xs1 : Vec F S1x256 .f32) :
    sout2_C_1 c i arg1 harg1 arg2 harg2 arg3 harg3 arg4 harg4 arg5 harg5 arg6 harg6 arg7 harg7 arg8 harg8 arg9 harg9 arg10 harg10 hc0 hc1 x0 x1 x2 x3 x4 x5 xs0 xs1 = k2_pay2 (k2_pay6 x5) xs1 := by
  unfold sout2_C_1
  rw [View.read_writes_eq_canon _ _ _ (scover2_C_1 c i arg1 harg1 arg2 harg2 arg3 harg3 arg4 harg4 arg5 harg5 arg6 harg6 arg7 harg7 arg8 harg8 arg9 harg9 arg10 harg10 hc0 hc1 x0 x1 x2 x3 x4 x5 xs0 xs1)]
  unfold kernelRun2_C
  dsimp only
  sl_unfold_words
  simp only [View.canon_unit_zero (S := S256x64) hz2, View.canon_unit_zero (S := S1x256) hz2, View.canon_cons_unit_zero (S := S256x64) hz2, View.canon_cons_unit_zero (S := S1x256) hz2, View.readCov_unit_zero (S := S256x64) _ hz2, View.readCov_unit_zero (S := S1x256) _ hz2, View.readAt_eq_ld, harg1.read_unread, harg2.read_unread, harg3.read_unread, harg4.read_unread, harg5.read_unread, harg6.read_unread, harg7.read_unread, harg8.read_unread, harg9.read_unread, harg10.read_unread, View.ld_unit_zero (S := S2000x64) hz2, View.ld_unit_zero (S := S2000x1) hz2, View.ld_unit_zero (S := S128x64) hz2, View.ld_unit_zero (S := S1x64) hz2, View.ld_unit_zero (S := S256x64) hz2, View.ld_unit_zero (S := S1x256) hz2]

/-- Case C stores into output 6 what it has just left in the first accumulator (a load of it after its one covering store). -/
theorem out2_C_6_eq (c : Dev nD) (i : grid2.Coords) (arg1 : Memref sig .tc .vmem S2000x64 .f32) (harg1 : arg1.IsWhole) (arg2 : Memref sig .tc .vmem S2000x64 .f32) (harg2 : arg2.IsWhole) (arg3 : Memref sig .tc .vmem S2000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2000x1 .i32) (harg6 : arg6.IsWhole) (arg7 : Memref sig .tc .vmem S256x64 .f32) (harg7 : arg7.IsWhole) (arg8 : Memref sig .tc .vmem S1x256 .f32) (harg8 : arg8.IsWhole) (arg9 : Memref sig .tc .vmem S256x64 .f32) (harg9 : arg9.IsWhole) (arg10 : Memref sig .tc .vmem S1x256 .f32) (harg10 : arg10.IsWhole) (hc0 : ¬cond2_0 i) (hc1 : cond2_1 i)
    (x0 : Vec F S2000x64 .f32) (x1 : Vec F S2000x64 .f32) (x2 : Vec F S2000x1 .f32) (x3 : Vec F S128x64 .f32) (x4 : Vec F S1x64 .f32) (x5 : Vec F S2000x1 .i32) (xs0 : Vec F S256x64 .f32) (xs1 : Vec F S1x256 .f32) :
    out2_C_6 c i arg1 harg1 arg2 harg2 arg3 harg3 arg4 harg4 arg5 harg5 arg6 harg6 arg7 harg7 arg8 harg8 arg9 harg9 arg10 harg10 hc0 hc1 x0 x1 x2 x3 x4 x5 xs0 xs1 = k2_pay1 (k2_pay7 x0 x2 x1 x3 x4 x5 xs0) := by
  unfold out2_C_6
  rw [View.read_writes_eq_canon _ _ _ (cover2_C_6 c i arg1 harg1 arg2 harg2 arg3 harg3 arg4 harg4 arg5 harg5 arg6 harg6 arg7 harg7 arg8 harg8 arg9 harg9 arg10 harg10 hc0 hc1 x0 x1 x2 x3 x4 x5 xs0 xs1)]
  unfold kernelRun2_C
  dsimp only
  sl_unfold_words
  simp only [View.canon_unit_zero (S := S256x64) hz2, View.canon_unit_zero (S := S1x256) hz2, View.canon_cons_unit_zero (S := S256x64) hz2, View.canon_cons_unit_zero (S := S1x256) hz2, View.readCov_unit_zero (S := S256x64) _ hz2, View.readCov_unit_zero (S := S1x256) _ hz2, View.readAt_eq_ld, harg1.read_unread, harg2.read_unread, harg3.read_unread, harg4.read_unread, harg5.read_unread, harg6.read_unread, harg7.read_unread, harg8.read_unread, harg9.read_unread, harg10.read_unread, View.ld_unit_zero (S := S2000x64) hz2, View.ld_unit_zero (S := S2000x1) hz2, View.ld_unit_zero (S := S128x64) hz2, View.ld_unit_zero (S := S1x64) hz2, View.ld_unit_zero (S := S256x64) hz2, View.ld_unit_zero (S := S1x256) hz2]

/-- Case C stores into output 7 what it has just left in the second accumulator (a load of it after its one covering store). -/
theorem out2_C_7_eq (c : Dev nD) (i : grid2.Coords) (arg1 : Memref sig .tc .vmem S2000x64 .f32) (harg1 : arg1.IsWhole) (arg2 : Memref sig .tc .vmem S2000x64 .f32) (harg2 : arg2.IsWhole) (arg3 : Memref sig .tc .vmem S2000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2000x1 .i32) (harg6 : arg6.IsWhole) (arg7 : Memref sig .tc .vmem S256x64 .f32) (harg7 : arg7.IsWhole) (arg8 : Memref sig .tc .vmem S1x256 .f32) (harg8 : arg8.IsWhole) (arg9 : Memref sig .tc .vmem S256x64 .f32) (harg9 : arg9.IsWhole) (arg10 : Memref sig .tc .vmem S1x256 .f32) (harg10 : arg10.IsWhole) (hc0 : ¬cond2_0 i) (hc1 : cond2_1 i)
    (x0 : Vec F S2000x64 .f32) (x1 : Vec F S2000x64 .f32) (x2 : Vec F S2000x1 .f32) (x3 : Vec F S128x64 .f32) (x4 : Vec F S1x64 .f32) (x5 : Vec F S2000x1 .i32) (xs0 : Vec F S256x64 .f32) (xs1 : Vec F S1x256 .f32) :
    out2_C_7 c i arg1 harg1 arg2 harg2 arg3 harg3 arg4 harg4 arg5 harg5 arg6 harg6 arg7 harg7 arg8 harg8 arg9 harg9 arg10 harg10 hc0 hc1 x0 x1 x2 x3 x4 x5 xs0 xs1 = k2_pay2 (k2_pay6 x5) xs1 := by
  unfold out2_C_7
  rw [View.read_writes_eq_canon _ _ _ (cover2_C_7 c i arg1 harg1 arg2 harg2 arg3 harg3 arg4 harg4 arg5 harg5 arg6 harg6 arg7 harg7 arg8 harg8 arg9 harg9 arg10 harg10 hc0 hc1 x0 x1 x2 x3 x4 x5 xs0 xs1)]
  unfold kernelRun2_C
  dsimp only
  sl_unfold_words
  simp only [View.canon_unit_zero (S := S256x64) hz2, View.canon_unit_zero (S := S1x256) hz2, View.canon_cons_unit_zero (S := S256x64) hz2, View.canon_cons_unit_zero (S := S1x256) hz2, View.readCov_unit_zero (S := S256x64) _ hz2, View.readCov_unit_zero (S := S1x256) _ hz2, View.readAt_eq_ld, harg1.read_unread, harg2.read_unread, harg3.read_unread, harg4.read_unread, harg5.read_unread, harg6.read_unread, harg7.read_unread, harg8.read_unread, harg9.read_unread, harg10.read_unread, View.ld_unit_zero (S := S2000x64) hz2, View.ld_unit_zero (S := S2000x1) hz2, View.ld_unit_zero (S := S128x64) hz2, View.ld_unit_zero (S := S1x64) hz2, View.ld_unit_zero (S := S256x64) hz2, View.ld_unit_zero (S := S1x256) hz2]

end Cert.KernelIdeal.Hand

end
-- ==== Proof.Val.Pay2.lean ====
/- Kernel 2's payloads (the second layer fused with the per-graph pooling), read at an index at the ideal
   values: the one-hot row mask of a 2000-row tile against the 256 graph numbers, the tile's per-graph row
   counts, and the update of the per-graph sums by the masked layer rows. -/
import proofs.«400542_j69810398429749_3_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Val

open Idealize.ShloMosaic Idealize.SL.Sem Idealize.ShloMosaic.ValueIdx
open Cert.KernelIdeal Cert.KernelIdeal.Gen

/-! ## The stores' payloads that are copies, sums and zeros -/

/-- The pooled sums are stored as they were carried. -/
theorem k2_pay1_eq (v35 : FVec Ideal S256x64 .f32) : k2_pay1 (F := Ideal) v35 = v35 := by
  unfold k2_pay1
  exact shapeCast_self _ _

/-- The counts are stored as the running counts plus the tile's. -/
theorem k2_pay2_eq (v33 : FVec Ideal S1x256 .f32) (v39 : Vec Ideal S1x256 .f32) :
    k2_pay2 (F := Ideal) v33 v39 = fun i => v39 i + v33 i := by
  unfold k2_pay2
  exact shapeCast_self _ _

/-- The pooled sums start at zero. -/
theorem k2_pay3_eq : k2_pay3 (F := Ideal) = fun _ => 0 := by
  unfold k2_pay3
  refine (shapeCast_self _ _).trans ?_
  funext i
  exact Ideal.ofBits_zero_f32

/-- The counts start at zero. -/
theorem k2_pay4_eq : k2_pay4 (F := Ideal) = fun _ => 0 := by
  unfold k2_pay4
  refine (shapeCast_self _ _).trans ?_
  funext i
  exact Ideal.ofBits_zero_f32

/-! ## The one-hot mask -/

/-- The word comparison `eq`, widened to 32 bits and read as a signed integer at the ideal values, is one
    when the two words are equal and zero otherwise. -/
theorem p2_onehot_word (a b : BitVec 32) :
    (FloatOps.sitofp (F := Ideal) .f32 ((IntOp.cmpi .eq a b).setWidth 32) : EReal) = if b = a then 1 else 0 := by
  by_cases h : b = a
  · subst h
    rw [if_pos rfl]
    have hc : IntOp.cmpi .eq b b = 1#1 := by simp [IntOp.cmpi]
    rw [hc]
    show ((((1#1 : BitVec 1).setWidth 32).toInt : ℝ) : EReal) = 1
    have h1 : ((1#1 : BitVec 1).setWidth 32).toInt = 1 := by decide
    rw [h1]
    simp
  · rw [if_neg h]
    have hc : IntOp.cmpi .eq a b = 0#1 := by
      have hbeq : (a == b) = false := beq_eq_false_iff_ne.mpr (fun e => h e.symm)
      show BitVec.ofBool (a == b) = 0#1
      rw [hbeq]
      rfl
    rw [hc]
    show ((((0#1 : BitVec 1).setWidth 32).toInt : ℝ) : EReal) = 0
    have h0 : ((0#1 : BitVec 1).setWidth 32).toInt = 0 := by decide
    rw [h0]
    simp

/-- The mask at row `r` and graph number `g`: one when the row's graph-id word is the word of `g`, zero otherwise. -/
theorem k2_pay5_apply (v22 : Vec Ideal S2000x1 .i32) (r : Fin 2000) (g : Fin 256) :
    k2_pay5 (F := Ideal) v22 (ix2 r g) = if v22 (ix2 r (0 : Fin 1)) = BitVec.ofNat 32 g.val then 1 else 0 := by
  unfold k2_pay5
  rw [shapeCast_self]
  have hb : broadcastTo S2000x256 v22 broadcasts_S2000x1_S2000x256 (ix2 r g) = v22 (ix2 r (0 : Fin 1)) :=
    broadcastTo_apply v22 broadcasts_S2000x1_S2000x256 (ix2 r g) (ix2 r (0 : Fin 1)) (fun a => by
      match a with
      | ⟨0, _⟩ => rfl
      | ⟨1, _⟩ => rfl)
  show FloatOps.sitofp .f32 ((IntOp.cmpi .eq (iota .tc S2000x256 32 [1] iota_S2000x256_d1_w32 (ix2 r g))
    (broadcastTo S2000x256 v22 broadcasts_S2000x1_S2000x256 (ix2 r g))).setWidth 32) = _
  rw [hb]
  have hi : iota .tc S2000x256 32 [1] iota_S2000x256_d1_w32 (ix2 r g) = BitVec.ofNat 32 g.val := by
    show BitVec.ofNat 32 (0 * 256 + g.val) = _
    rw [Nat.zero_mul, Nat.zero_add]
  rw [hi]
  exact p2_onehot_word _ _

/-! ## The tile's per-graph row counts -/

/-- A sum over the rows of a 2000 × 256 vector, read at a column, is the sum of that column. -/
theorem p2_colsum (src : FVec Ideal S2000x256 .f32) (hφ : FKind.Formats .f32)
    (hacc : (0x00000000#32 : BitVec 32) = FKind.add.neutral .f32 hφ) (g : Fin 256) :
    multiReduction (F := Ideal) .add [0] S256 src 0x00000000#32 reduces_S2000x256_S256 hφ hacc (ix1 g)
      = ∑ r : Fin 2000, src (ix2 r g) := by
  refine (Ideal.multiReduction_add_single src 0x00000000#32 reduces_S2000x256_S256 hφ hacc (ix1 g)).trans ?_
  refine Finset.sum_congr rfl fun r _ => congrArg src ?_
  funext a
  match a with
  | ⟨0, _⟩ => rfl
  | ⟨1, _⟩ => rfl

/-- The tile's count for graph number `g` is the sum of the mask's column `g`. -/
theorem k2_pay6_apply (v22 : Vec Ideal S2000x1 .i32) (g : Fin 256) :
    k2_pay6 (F := Ideal) v22 (ix2 (0 : Fin 1) g) = ∑ r : Fin 2000, k2_pay5 (F := Ideal) v22 (ix2 r g) := by
  unfold k2_pay6
  refine (shapeCast_a_1a_apply _ shapeCasts_S256_S1x256 (0 : Fin 1) g).trans ?_
  exact p2_colsum (k2_pay5 (F := Ideal) v22) _ _ g

/-! ## Layout and contraction lemmas for the sums' update -/

/-- A column `[a, 1]` broadcast to `[a, b]` reads, at `(p, c)`, the column at row `p`. -/
theorem p2_broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Two 2000 × 64 vectors side by side: a column below 64 reads the left one. -/
theorem p2_concat_left {α : Type} (x y : S2000x64.Idx → α) (r : Fin 2000) (k : Fin 64) :
    concatenate S2000x128 1 [⟨S2000x64, x⟩, ⟨S2000x64, y⟩] concatenates_S2000x64_S2000x64_S2000x128_d1
      (ix2 r (⟨k.val, by omega⟩ : Fin 128)) = x (ix2 r k) :=
  concatenate_pair_apply_left 1 x y concatenates_S2000x64_S2000x64_S2000x128_d1 _ rfl (ix2 r k) (fun b => by
    match b with
    | ⟨0, _⟩ => rfl
    | ⟨1, _⟩ => rfl)

/-- Two 2000 × 64 vectors side by side: column `64 + k` reads the right one at column `k`. -/
theorem p2_concat_right {α : Type} (x y : S2000x64.Idx → α) (r : Fin 2000) (k : Fin 64) :
    concatenate S2000x128 1 [⟨S2000x64, x⟩, ⟨S2000x64, y⟩] concatenates_S2000x64_S2000x64_S2000x128_d1
      (ix2 r (⟨64 + k.val, by omega⟩ : Fin 128)) = y (ix2 r k) :=
  concatenate_pair_apply_right 1 x y concatenates_S2000x64_S2000x64_S2000x128_d1 _ rfl rfl (ix2 r k) (fun b hb => by
    match b with
    | ⟨0, _⟩ => rfl
    | ⟨1, _⟩ => exact absurd rfl hb) (by
    show k.val + 64 = 64 + k.val
    omega)

/-- A sum over 128 positions is the sum over the first 64 plus the sum over the last 64. -/
theorem p2_sum128 (f : Fin 128 → EReal) :
    ∑ k : Fin 128, f k = (∑ k : Fin 64, f (⟨k.val, by omega⟩ : Fin 128)) + ∑ k : Fin 64, f (⟨64 + k.val, by omega⟩ : Fin 128) :=
  Fin.sum_univ_add (a := 64) (b := 64) (fun i : Fin (64 + 64) => f i)

/-! ### The layer's contraction: rows by the 128 stacked weights' rows -/

theorem p2_lhs_in_0 (i : S2000x64.Idx) (q : dot_S2000x128_S128x64_S2000x64_1_0_0_1_n_n.contr.Idx) :
    (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
theorem p2_lhs_in_1 (i : S2000x64.Idx) (q : dot_S2000x128_S128x64_S2000x64_1_0_0_1_n_n.contr.Idx) :
    (dot_S2000x128_S128x64_S2000x64_1_0_0_1_n_n.lhsIdx i q 1).val = (q ⟨0, by decide⟩).val :=
  dot_S2000x128_S128x64_S2000x64_1_0_0_1_n_n.lhsIdx_val_of_single rfl i q
theorem p2_rhs_in_0 (i : S2000x64.Idx) (q : dot_S2000x128_S128x64_S2000x64_1_0_0_1_n_n.contr.Idx) :
    (dot_S2000x128_S128x64_S2000x64_1_0_0_1_n_n.rhsIdx i q 0).val = (q ⟨0, by decide⟩).val :=
  dot_S2000x128_S128x64_S2000x64_1_0_0_1_n_n.rhsIdx_val_of_single rfl i q
theorem p2_rhs_in_1 (i : S2000x64.Idx) (q : dot_S2000x128_S128x64_S2000x64_1_0_0_1_n_n.contr.Idx) :
    (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- The layer's matrix product into a zero accumulator, at row `r` and feature `j`: the sum over the 128
    stacked positions of the row's entry times the weight's. -/
theorem p2_mm_in (lhs : FVec Ideal S2000x128 .bf16) (rhs : FVec Ideal S128x64 .bf16) (r : Fin 2000) (j : Fin 64) :
    matmul dot_S2000x128_S128x64_S2000x64_1_0_0_1_n_n none lhs rhs (constant (F := Ideal) S2000x64 .f32 0x00000000#32) (ix2 r j)
      = ∑ k : Fin 128, lhs (ix2 r k) * rhs (ix2 k j) := by
  refine (Ideal.matmul_constant_zero_apply dot_S2000x128_S128x64_S2000x64_1_0_0_1_n_n none lhs rhs (ix2 r j)).trans ?_
  rw [← Equiv.sum_comp (contrEquiv1 dot_S2000x128_S128x64_S2000x64_1_0_0_1_n_n 128 rfl rfl).symm]
  refine Finset.sum_congr rfl fun k _ => ?_
  have hk := contrEquiv1_symm_val dot_S2000x128_S128x64_S2000x64_1_0_0_1_n_n 128 rfl rfl k
  have el : dot_S2000x128_S128x64_S2000x64_1_0_0_1_n_n.lhsIdx (ix2 r j) ((contrEquiv1 dot_S2000x128_S128x64_S2000x64_1_0_0_1_n_n 128 rfl rfl).symm k) = ix2 r k := funext fun a => Fin.ext (by
    match a with
    | ⟨0, _⟩ => exact p2_lhs_in_0 _ _
    | ⟨1, _⟩ => exact (p2_lhs_in_1 _ _).trans hk)
  have er : dot_S2000x128_S128x64_S2000x64_1_0_0_1_n_n.rhsIdx (ix2 r j) ((contrEquiv1 dot_S2000x128_S128x64_S2000x64_1_0_0_1_n_n 128 rfl rfl).symm k) = ix2 k j := funext fun a => Fin.ext (by
    match a with
    | ⟨0, _⟩ => exact (p2_rhs_in_0 _ _).trans hk
    | ⟨1, _⟩ => exact p2_rhs_in_1 _ _)
  rw [el, er]

/-! ### The pooling contraction: over the tile's 2000 rows, on axis 0 of both operands -/

theorem p2_lhs_out_0 (i : S256x64.Idx) (q : dot_S2000x256_S2000x64_S256x64_0_0_1_1_n_n.contr.Idx) :
    (dot_S2000x256_S2000x64_S256x64_0_0_1_1_n_n.lhsIdx i q 0).val = (q ⟨0, by decide⟩).val :=
  dot_S2000x256_S2000x64_S256x64_0_0_1_1_n_n.lhsIdx_val_of_single rfl i q
theorem p2_lhs_out_1 (i : S256x64.Idx) (q : dot_S2000x256_S2000x64_S256x64_0_0_1_1_n_n.contr.Idx) :
    (dot_S2000x256_S2000x64_S256x64_0_0_1_1_n_n.lhsIdx i q 1).val = (i 0).val := by
  unfold DotDims.lhsIdx
  rw [dif_neg (show ¬(1 : Fin S2000x256.rank) ∈ dot_S2000x256_S2000x64_S256x64_0_0_1_1_n_n.lhsBatch by decide), dif_pos (show (1 : Fin S2000x256.rank) ∈ dot_S2000x256_S2000x64_S256x64_0_0_1_1_n_n.lhsNonContracting by decide)]
  rfl
theorem p2_rhs_out_0 (i : S256x64.Idx) (q : dot_S2000x256_S2000x64_S256x64_0_0_1_1_n_n.contr.Idx) :
    (dot_S2000x256_S2000x64_S256x64_0_0_1_1_n_n.rhsIdx i q 0).val = (q ⟨0, by decide⟩).val :=
  dot_S2000x256_S2000x64_S256x64_0_0_1_1_n_n.rhsIdx_val_of_single rfl i q
theorem p2_rhs_out_1 (i : S256x64.Idx) (q : dot_S2000x256_S2000x64_S256x64_0_0_1_1_n_n.contr.Idx) :
    (dot_S2000x256_S2000x64_S256x64_0_0_1_1_n_n.rhsIdx i q 1).val = (i 1).val := by
  unfold DotDims.rhsIdx
  rw [dif_neg (show ¬(1 : Fin S2000x64.rank) ∈ dot_S2000x256_S2000x64_S256x64_0_0_1_1_n_n.rhsBatch by decide), dif_pos (show (1 : Fin S2000x64.rank) ∈ dot_S2000x256_S2000x64_S256x64_0_0_1_1_n_n.rhsNonContracting by decide)]
  rfl

/-- The pooling product into a zero accumulator, at graph number `g` and feature `j`: the sum over the tile's
    rows of the left operand at `(row, g)` times the right at `(row, j)`. -/
theorem p2_mm_out (lhs : FVec Ideal S2000x256 .bf16) (rhs : FVec Ideal S2000x64 .bf16) (g : Fin 256) (j : Fin 64) :
    matmul dot_S2000x256_S2000x64_S256x64_0_0_1_1_n_n none lhs rhs (constant (F := Ideal) S256x64 .f32 0x00000000#32) (ix2 g j)
      = ∑ k : Fin 2000, lhs (ix2 k g) * rhs (ix2 k j) := by
  refine (Ideal.matmul_constant_zero_apply dot_S2000x256_S2000x64_S256x64_0_0_1_1_n_n none lhs rhs (ix2 g j)).trans ?_
  rw [← Equiv.sum_comp (contrEquiv1 dot_S2000x256_S2000x64_S256x64_0_0_1_1_n_n 2000 rfl rfl).symm]
  refine Finset.sum_congr rfl fun k _ => ?_
  have hk := contrEquiv1_symm_val dot_S2000x256_S2000x64_S256x64_0_0_1_1_n_n 2000 rfl rfl k
  have el : dot_S2000x256_S2000x64_S256x64_0_0_1_1_n_n.lhsIdx (ix2 g j) ((contrEquiv1 dot_S2000x256_S2000x64_S256x64_0_0_1_1_n_n 2000 rfl rfl).symm k) = ix2 k g := funext fun a => Fin.ext (by
    match a with
    | ⟨0, _⟩ => exact (p2_lhs_out_0 _ _).trans hk
    | ⟨1, _⟩ => exact p2_lhs_out_1 _ _)
  have er : dot_S2000x256_S2000x64_S256x64_0_0_1_1_n_n.rhsIdx (ix2 g j) ((contrEquiv1 dot_S2000x256_S2000x64_S256x64_0_0_1_1_n_n 2000 rfl rfl).symm k) = ix2 k j := funext fun a => Fin.ext (by
    match a with
    | ⟨0, _⟩ => exact (p2_rhs_out_0 _ _).trans hk
    | ⟨1, _⟩ => exact p2_rhs_out_1 _ _)
  rw [el, er]

/-! ## The layer's rows and the sums' update -/

/-- Layer 2 at row `r` and feature `j` in extended-real arithmetic: the degree-scaled aggregated row against the
    weights' first 64 rows, plus the node's own row against the last 64, plus the bias. -/
def row2 (v3 : Vec Ideal S2000x64 .f32) (v5 : Vec Ideal S2000x1 .f32) (v9 : Vec Ideal S2000x64 .f32)
    (v13 : Vec Ideal S128x64 .f32) (v17 : Vec Ideal S1x64 .f32) (r : Fin 2000) (j : Fin 64) : EReal :=
  ((∑ k : Fin 64, (v3 (ix2 r k) * v5 (ix2 r (0 : Fin 1))) * v13 (ix2 (⟨k.val, by omega⟩ : Fin 128) j))
    + ∑ k : Fin 64, v9 (ix2 r k) * v13 (ix2 (⟨64 + k.val, by omega⟩ : Fin 128) j)) + v17 (ix2 (0 : Fin 1) j)

/-- The layer's tile as the kernel computes it, before the pooling product. -/
def p2_layer (v3 : Vec Ideal S2000x64 .f32) (v5 : Vec Ideal S2000x1 .f32) (v9 : Vec Ideal S2000x64 .f32)
    (v13 : Vec Ideal S128x64 .f32) (v17 : Vec Ideal S1x64 .f32) : FVec Ideal S2000x64 .f32 :=
  addf (matmul dot_S2000x128_S128x64_S2000x64_1_0_0_1_n_n none
      (truncf .bf16 (concatenate S2000x128 1 [⟨S2000x64, mulf (shapeCast S2000x64 v3 shapeCasts_S2000x64_S2000x64)
          (broadcastTo S2000x64 (shapeCast S2000x1 v5 shapeCasts_S2000x1_S2000x1) broadcasts_S2000x1_S2000x64)⟩,
        ⟨S2000x64, shapeCast S2000x64 v9 shapeCasts_S2000x64_S2000x64⟩] concatenates_S2000x64_S2000x64_S2000x128_d1) bitsLt_bf16_f32)
      (truncf .bf16 (shapeCast S128x64 v13 shapeCasts_S128x64_S128x64) bitsLt_bf16_f32)
      (constant S2000x64 .f32 0x00000000#32))
    (broadcastTo S2000x64 (shapeCast S1x64 v17 shapeCasts_S1x64_S1x64) broadcasts_S1x64_S2000x64)

/-- The update's payload is the accumulator plus the pooling product of the mask with the layer's tile. -/
theorem k2_pay7_eq (v3 : Vec Ideal S2000x64 .f32) (v5 : Vec Ideal S2000x1 .f32) (v9 : Vec Ideal S2000x64 .f32)
    (v13 : Vec Ideal S128x64 .f32) (v17 : Vec Ideal S1x64 .f32) (v22 : Vec Ideal S2000x1 .i32) (v34 : Vec Ideal S256x64 .f32) :
    k2_pay7 (F := Ideal) v3 v5 v9 v13 v17 v22 v34
      = addf v34 (matmul dot_S2000x256_S2000x64_S256x64_0_0_1_1_n_n none (truncf .bf16 (k2_pay5 (F := Ideal) v22) bitsLt_bf16_f32)
          (truncf .bf16 (p2_layer v3 v5 v9 v13 v17) bitsLt_bf16_f32) (constant S256x64 .f32 0x00000000#32)) := rfl

/-- The layer's tile at row `r` and feature `j` is `row2`. -/
theorem p2_layer_apply (v3 : Vec Ideal S2000x64 .f32) (v5 : Vec Ideal S2000x1 .f32) (v9 : Vec Ideal S2000x64 .f32)
    (v13 : Vec Ideal S128x64 .f32) (v17 : Vec Ideal S1x64 .f32) (r : Fin 2000) (j : Fin 64) :
    p2_layer v3 v5 v9 v13 v17 (ix2 r j) = row2 v3 v5 v9 v13 v17 r j := by
  unfold p2_layer row2
  rw [shapeCast_self v3, shapeCast_self v5, shapeCast_self v9, shapeCast_self v13, shapeCast_self v17]
  refine congrArg₂ (· + ·) ?_ (broadcastTo_1b_ab_apply v17 broadcasts_S1x64_S2000x64 r j)
  refine (p2_mm_in _ _ r j).trans ?_
  rw [p2_sum128]
  refine congrArg₂ (· + ·) (Finset.sum_congr rfl fun k _ => ?_) (Finset.sum_congr rfl fun k _ => ?_)
  · refine congrArg₂ (· * ·) ?_ rfl
    refine (p2_concat_left _ _ r k).trans ?_
    exact congrArg (v3 (ix2 r k) * ·) (p2_broadcastTo_a1_ab_apply v5 broadcasts_S2000x1_S2000x64 r k)
  · refine congrArg₂ (· * ·) ?_ rfl
    exact p2_concat_right _ _ r k

/-- The per-graph sums after the tile: the accumulator plus, over the tile's rows, the mask times the layer's row. -/
theorem k2_pay7_apply (v3 : Vec Ideal S2000x64 .f32) (v5 : Vec Ideal S2000x1 .f32) (v9 : Vec Ideal S2000x64 .f32)
    (v13 : Vec Ideal S128x64 .f32) (v17 : Vec Ideal S1x64 .f32) (v22 : Vec Ideal S2000x1 .i32) (v34 : Vec Ideal S256x64 .f32)
    (g : Fin 256) (j : Fin 64) :
    k2_pay7 (F := Ideal) v3 v5 v9 v13 v17 v22 v34 (ix2 g j)
      = v34 (ix2 g j) + ∑ r : Fin 2000, k2_pay5 (F := Ideal) v22 (ix2 r g) * row2 v3 v5 v9 v13 v17 r j := by
  rw [k2_pay7_eq]
  refine congrArg (v34 (ix2 g j) + ·) ?_
  refine (p2_mm_out _ _ g j).trans ?_
  refine Finset.sum_congr rfl fun r _ => ?_
  exact congrArg (k2_pay5 (F := Ideal) v22 (ix2 r g) * ·) (p2_layer_apply v3 v5 v9 v13 v17 r j)

end Cert.Val

end
-- ==== Proof.Val.R2Val.lean ====
/- The third launch's first result (the per-graph sums of the second layer's rows) as ONE array function. Its grid
   has 50 points; point t takes rows [2000 t, 2000 t + 2000) of the neighbour sums, of the node features, of the
   reciprocal degrees and of the graph numbers, and the whole stacked weights and bias row; it adds to a 256 × 64
   accumulator, for each graph number g and lane j, the sum over the tile's rows whose graph number is g of the
   layer's row at lane j. The accumulator starts at zero at the first point and is copied to the output at the last,
   whose one block is the whole array: so the output holds, at (g, j), the sum over ALL 100000 rows with graph
   number g of the layer at lane j. -/
import proofs.«400542_j69810398429749_3_alg».proof.Proof.KI.R2
import proofs.«400542_j69810398429749_3_alg».proof.Proof.KI.R2Pieces
import proofs.«400542_j69810398429749_3_alg».proof.Proof.Val.Pay2
import proofs.«400542_j69810398429749_3_alg».proof.Proof.Val.Spec
import proofs.«400542_j69810398429749_3_alg».proof.Proof.Math.Glue
import Idealize.ShloMosaic.Lib.Pipeline.Value
import Idealize.ShloMosaic.Lib.ValueIdx

set_option maxRecDepth 16384

noncomputable section

open scoped BigOperators

namespace Cert.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

/-- Row p of point t's tile is row 2000 t + p of the arrays. -/
theorem tileRow2_lt (t : Fin cfg2.N) (p : Fin 2000) : t.val * 2000 + p.val < 100000 := by
  have h : t.val < 50 := lt_of_lt_of_eq t.isLt (show cfg2.N = 50 from N_2)
  have := p.isLt
  omega
abbrev grow2 (t : Fin cfg2.N) (p : Fin 2000) : Fin 100000 := ⟨t.val * 2000 + p.val, tileRow2_lt t p⟩

/-- The six input blocks of point t, at their literal types. -/
abbrev blk2_0 (c : Dev nD) (t : Fin cfg2.N) : Vec Ideal S2000x64 .f32 := iblk2 V c 0 t
abbrev blk2_1 (c : Dev nD) (t : Fin cfg2.N) : Vec Ideal S2000x64 .f32 := iblk2 V c 1 t
abbrev blk2_2 (c : Dev nD) (t : Fin cfg2.N) : Vec Ideal S2000x1 .f32 := iblk2 V c 2 t
abbrev blk2_3 (c : Dev nD) (t : Fin cfg2.N) : Vec Ideal S128x64 .f32 := iblk2 V c 3 t
abbrev blk2_4 (c : Dev nD) (t : Fin cfg2.N) : Vec Ideal S1x64 .f32 := iblk2 V c 4 t
abbrev blk2_5 (c : Dev nD) (t : Fin cfg2.N) : Vec Ideal S2000x1 .i32 := iblk2 V c 5 t

/-- The printed index maps over the 50 points: the four row-tiled operands' block index is (t, 0); the weights', the
    bias row's and the first output's is (0, 0). -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = 0 ∧ win2_6.index t (1 : Fin 2) = 0 :=
  (by decide +kernel : ∀ t : Fin grid2.N, _)

/-- The neighbour sums' block reads rows [2000 t, 2000 t + 2000) of the array. -/
theorem blk2_0_apply (c : Dev nD) (t : Fin cfg2.N) (p : Fin 2000) (q : Fin 64) :
    blk2_0 V c t (ix2 p q) = V c main_v58 (ix2 (grow2 t p) q) := by
  obtain ⟨e0, e1, -⟩ := idx_facts2 t
  show V c main_v58 (((cfg2.win 0).blk t).view.emb (ix2 p q)) = _
  refine congrArg (V c main_v58) (funext fun a => Fin.ext ?_)
  match a with
  | ⟨0, _⟩ => show win2_0.index t (0 : Fin 2) * 2000 + 1 * p.val = t.val * 2000 + p.val; omega
  | ⟨1, _⟩ => show win2_0.index t (1 : Fin 2) * 64 + 1 * q.val = q.val; omega

/-- The node features' block reads the same rows of the feature array. -/
theorem blk2_1_apply (c : Dev nD) (t : Fin cfg2.N) (p : Fin 2000) (q : Fin 64) :
    blk2_1 V c t (ix2 p q) = V c main_v48 (ix2 (grow2 t p) q) := by
  obtain ⟨-, -, e0, e1, -⟩ := idx_facts2 t
  show V c main_v48 (((cfg2.win 1).blk t).view.emb (ix2 p q)) = _
  refine congrArg (V c main_v48) (funext fun a => Fin.ext ?_)
  match a with
  | ⟨0, _⟩ => show win2_1.index t (0 : Fin 2) * 2000 + 1 * p.val = t.val * 2000 + p.val; omega
  | ⟨1, _⟩ => show win2_1.index t (1 : Fin 2) * 64 + 1 * q.val = q.val; omega

/-- The reciprocal degrees' block reads the same rows of the one-column array. -/
theorem blk2_2_apply (c : Dev nD) (t : Fin cfg2.N) (p : Fin 2000) :
    blk2_2 V c t (ix2 p (0 : Fin 1)) = V c main_v12 (ix2 (grow2 t p) (0 : Fin 1)) := by
  obtain ⟨-, -, -, -, e0, e1, -⟩ := idx_facts2 t
  show V c main_v12 (((cfg2.win 2).blk t).view.emb (ix2 p (0 : Fin 1))) = _
  refine congrArg (V c main_v12) (funext fun a => Fin.ext ?_)
  match a with
  | ⟨0, _⟩ => show win2_2.index t (0 : Fin 2) * 2000 + 1 * p.val = t.val * 2000 + p.val; omega
  | ⟨1, _⟩ => show win2_2.index t (1 : Fin 2) * 1 + 1 * 0 = 0; omega

/-- The stacked weights' block is the whole array. -/
theorem blk2_3_apply (c : Dev nD) (t : Fin cfg2.N) (k : Fin 128) (j : Fin 64) :
    blk2_3 V c t (ix2 k j) = V c main_v61 (ix2 k j) := by
  obtain ⟨-, -, -, -, -, -, e0, e1, -⟩ := idx_facts2 t
  show V c main_v61 (((cfg2.win 3).blk t).view.emb (ix2 k j)) = _
  refine congrArg (V c main_v61) (funext fun a => Fin.ext ?_)
  match a with
  | ⟨0, _⟩ => show win2_3.index t (0 : Fin 2) * 128 + 1 * k.val = k.val; omega
  | ⟨1, _⟩ => show win2_3.index t (1 : Fin 2) * 64 + 1 * j.val = j.val; omega

/-- The bias row's block is the whole row. -/
theorem blk2_4_apply (c : Dev nD) (t : Fin cfg2.N) (j : Fin 64) :
    blk2_4 V c t (ix2 (0 : Fin 1) j) = V c main_v62 (ix2 (0 : Fin 1) j) := by
  obtain ⟨-, -, -, -, -, -, -, -, e0, e1, -⟩ := idx_facts2 t
  show V c main_v62 (((cfg2.win 4).blk t).view.emb (ix2 (0 : Fin 1) j)) = _
  refine congrArg (V c main_v62) (funext fun a => Fin.ext ?_)
  match a with
  | ⟨0, _⟩ => show win2_4.index t (0 : Fin 2) * 1 + 1 * 0 = 0; omega
  | ⟨1, _⟩ => show win2_4.index t (1 : Fin 2) * 64 + 1 * j.val = j.val; omega

/-- The graph numbers' block reads rows [2000 t, 2000 t + 2000) of the one-column array of words. -/
theorem blk2_5_apply (c : Dev nD) (t : Fin cfg2.N) (p : Fin 2000) :
    blk2_5 V c t (ix2 p (0 : Fin 1)) = V c main_v63 (ix2 (grow2 t p) (0 : Fin 1)) := by
  obtain ⟨-, -, -, -, -, -, -, -, -, -, e0, e1, -⟩ := idx_facts2 t
  show V c main_v63 (((cfg2.win 5).blk t).view.emb (ix2 p (0 : Fin 1))) = _
  refine congrArg (V c main_v63) (funext fun a => Fin.ext ?_)
  match a with
  | ⟨0, _⟩ => show win2_5.index t (0 : Fin 2) * 2000 + 1 * p.val = t.val * 2000 + p.val; omega
  | ⟨1, _⟩ => show win2_5.index t (1 : Fin 2) * 1 + 1 * 0 = 0; omega

/-- One row of a tile: the layer's row p of point t's blocks, at lane j, is the layer of the arrays at row 2000 t + p. -/
theorem row2_tile (c : Dev nD) (t : Fin cfg2.N) (p : Fin 2000) (j : Fin 64) :
    row2 (blk2_0 V c t) (blk2_2 V c t) (blk2_1 V c t) (blk2_3 V c t) (blk2_4 V c t) p j
      = layerArr (V c main_v58) (V c main_v12) (V c main_v48) (V c main_v61) (V c main_v62) (ix2 (grow2 t p) j) := by
  refine Eq.trans ?_ (layerArr_apply (V c main_v58) (V c main_v12) (V c main_v48) (V c main_v61) (V c main_v62) (grow2 t p) j).symm
  unfold row2 layerRow
  refine congrArg₂ (· + ·) (congrArg₂ (· + ·) (Finset.sum_congr rfl fun k _ => ?_) (Finset.sum_congr rfl fun k _ => ?_)) (blk2_4_apply V c t j)
  · exact congrArg₂ (· * ·) (congrArg₂ (· * ·) (blk2_0_apply V c t p k) (blk2_2_apply V c t p)) (blk2_3_apply V c t (lo k) j)
  · exact congrArg₂ (· * ·) (blk2_1_apply V c t p k) (blk2_3_apply V c t (hi k) j)

/-- Row n's contribution to the sum for graph number g at lane j (zero past the last row: the tiles are counted by
    a natural number). -/
def term2 (c : Dev nD) (g : Fin 256) (j : Fin 64) (n : ℕ) : EReal :=
  if h : n < 100000 then
    (if V c main_v63 (ix2 (⟨n, h⟩ : Fin 100000) (0 : Fin 1)) = BitVec.ofNat 32 g.val then (1 : EReal) else 0)
      * layerArr (V c main_v58) (V c main_v12) (V c main_v48) (V c main_v61) (V c main_v62) (ix2 (⟨n, h⟩ : Fin 100000) j)
  else 0

/-- One tile: over the tile's rows, the mask times the layer's row is the rows' contributions. -/
theorem tile2_eq (c : Dev nD) (t : Fin cfg2.N) (g : Fin 256) (j : Fin 64) :
    ∑ r : Fin 2000, k2_pay5 (F := Ideal) (blk2_5 V c t) (ix2 r g) * row2 (blk2_0 V c t) (blk2_2 V c t) (blk2_1 V c t) (blk2_3 V c t) (blk2_4 V c t) r j
      = ∑ r : Fin 2000, term2 V c g j (t.val * 2000 + r.val) := by
  refine Finset.sum_congr rfl fun r _ => ?_
  unfold term2
  rw [dif_pos (tileRow2_lt t r)]
  refine congrArg₂ (· * ·) ?_ (row2_tile V c t r j)
  refine (k2_pay5_apply (blk2_5 V c t) r g).trans ?_
  exact if_congr (by rw [blk2_5_apply V c t r]) rfl rfl

/-! ## The first accumulator along the grid -/

/-- At the first point the accumulator is left at the update of the zero block. -/
theorem acc2_A (c : Dev nD) (t : Fin cfg2.N) (h0 : t.val % 50 = 0) (h1 : ¬t.val % 50 = 49) :
    (outsAt2 V c t.val t.isLt).2.2.1 = k2_pay1 (F := Ideal) (k2_pay7 (blk2_0 V c t) (blk2_2 V c t) (blk2_1 V c t) (blk2_3 V c t) (blk2_4 V c t) (blk2_5 V c t) (k2_pay3 (F := Ideal))) := by
  rw [outsAt2_A V c t h0 h1]; dsimp only
  exact sout2_A_0_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) ((hcond2_0 t).mpr h0) (fun h => h1 ((hcond2_1 t).mp h)) (blk2_0 V c t) (blk2_1 V c t) (blk2_2 V c t) (blk2_3 V c t) (blk2_4 V c t) (blk2_5 V c t)

/-- At a point strictly between the first and the last it is left at the update of what the point before left. -/
theorem acc2_B (c : Dev nD) (t : Fin cfg2.N) (h0 : ¬t.val % 50 = 0) (h1 : ¬t.val % 50 = 49) :
    (outsAt2 V c t.val t.isLt).2.2.1 = k2_pay1 (F := Ideal) (k2_pay7 (blk2_0 V c t) (blk2_2 V c t) (blk2_1 V c t) (blk2_3 V c t) (blk2_4 V c t) (blk2_5 V c t) (outsAt2 V c (t.val - 1) (Nat.lt_of_le_of_lt (Nat.sub_le _ _) t.isLt)).2.2.1) := by
  rw [outsAt2_B V c t h0 h1]; dsimp only
  exact sout2_B_0_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) (fun h => h1 ((hcond2_1 t).mp h)) (blk2_0 V c t) (blk2_1 V c t) (blk2_2 V c t) (blk2_3 V c t) (blk2_4 V c t) (blk2_5 V c t) (outsAt2 V c (t.val - 1) (Nat.lt_of_le_of_lt (Nat.sub_le _ _) t.isLt)).2.2.1 (outsAt2 V c (t.val - 1) (Nat.lt_of_le_of_lt (Nat.sub_le _ _) t.isLt)).2.2.2

/-- At the last point too, -/
theorem acc2_C (c : Dev nD) (t : Fin cfg2.N) (h0 : ¬t.val % 50 = 0) (h1 : t.val % 50 = 49) :
    (outsAt2 V c t.val t.isLt).2.2.1 = k2_pay1 (F := Ideal) (k2_pay7 (blk2_0 V c t) (blk2_2 V c t) (blk2_1 V c t) (blk2_3 V c t) (blk2_4 V c t) (blk2_5 V c t) (outsAt2 V c (t.val - 1) (Nat.lt_of_le_of_lt (Nat.sub_le _ _) t.isLt)).2.2.1) := by
  rw [outsAt2_C V c t h0 h1]; dsimp only
  exact sout2_C_0_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) ((hcond2_1 t).mpr h1) (blk2_0 V c t) (blk2_1 V c t) (blk2_2 V c t) (blk2_3 V c t) (blk2_4 V c t) (blk2_5 V c t) (outsAt2 V c (t.val - 1) (Nat.lt_of_le_of_lt (Nat.sub_le _ _) t.isLt)).2.2.1 (outsAt2 V c (t.val - 1) (Nat.lt_of_le_of_lt (Nat.sub_le _ _) t.isLt)).2.2.2

/-- and there the first output's staging buffer is left at the same contents. -/
theorem out6_C (c : Dev nD) (t : Fin cfg2.N) (h0 : ¬t.val % 50 = 0) (h1 : t.val % 50 = 49) :
    (outsAt2 V c t.val t.isLt).1 = k2_pay1 (F := Ideal) (k2_pay7 (blk2_0 V c t) (blk2_2 V c t) (blk2_1 V c t) (blk2_3 V c t) (blk2_4 V c t) (blk2_5 V c t) (outsAt2 V c (t.val - 1) (Nat.lt_of_le_of_lt (Nat.sub_le _ _) t.isLt)).2.2.1) := by
  rw [outsAt2_C V c t h0 h1]; dsimp only
  exact out2_C_6_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) ((hcond2_1 t).mpr h1) (blk2_0 V c t) (blk2_1 V c t) (blk2_2 V c t) (blk2_3 V c t) (blk2_4 V c t) (blk2_5 V c t) (outsAt2 V c (t.val - 1) (Nat.lt_of_le_of_lt (Nat.sub_le _ _) t.isLt)).2.2.1 (outsAt2 V c (t.val - 1) (Nat.lt_of_le_of_lt (Nat.sub_le _ _) t.isLt)).2.2.2

/-- The first point leaves the first tile's sums (the zero block adds nothing). -/
theorem acc2_first (c : Dev nD) (t : Fin cfg2.N) (h0 : t.val % 50 = 0) (h1 : ¬t.val % 50 = 49) (g : Fin 256) (j : Fin 64) :
    (outsAt2 V c t.val t.isLt).2.2.1 (ix2 g j) = ∑ r : Fin 2000, term2 V c g j (t.val * 2000 + r.val) := by
  rw [acc2_A V c t h0 h1, k2_pay1_eq]
  refine (k2_pay7_apply _ _ _ _ _ _ _ g j).trans ?_
  rw [k2_pay3_eq, ← tile2_eq V c t g j]
  exact zero_add _

/-- Every later point adds its tile's sums to what the point before left. -/
theorem acc2_step (c : Dev nD) (t : Fin cfg2.N) (h0 : ¬t.val % 50 = 0) (g : Fin 256) (j : Fin 64) :
    (outsAt2 V c t.val t.isLt).2.2.1 (ix2 g j)
      = (outsAt2 V c (t.val - 1) (Nat.lt_of_le_of_lt (Nat.sub_le _ _) t.isLt)).2.2.1 (ix2 g j) + ∑ r : Fin 2000, term2 V c g j (t.val * 2000 + r.val) := by
  by_cases h1 : t.val % 50 = 49
  · rw [acc2_C V c t h0 h1, k2_pay1_eq]
    refine (k2_pay7_apply _ _ _ _ _ _ _ g j).trans ?_
    rw [tile2_eq V c t g j]
  · rw [acc2_B V c t h0 h1, k2_pay1_eq]
    refine (k2_pay7_apply _ _ _ _ _ _ _ g j).trans ?_
    rw [tile2_eq V c t g j]

/-- So after point n the accumulator holds the sums over the first n + 1 tiles — by induction on the point. -/
theorem acc2_eq (c : Dev nD) (g : Fin 256) (j : Fin 64) : ∀ (n : ℕ) (h : n < cfg2.N),
    (outsAt2 V c n h).2.2.1 (ix2 g j) = ∑ t ∈ Finset.range (n + 1), ∑ r : Fin 2000, term2 V c g j (t * 2000 + r.val)
  | 0, h => by
    rw [Finset.sum_range_one]
    exact acc2_first V c ⟨0, h⟩ (Nat.zero_mod _) (by dsimp only; omega) g j
  | n + 1, h => by
    have hB : ¬(⟨n + 1, h⟩ : Fin cfg2.N).val % 50 = 0 := by
      have hN : n + 1 < 50 := lt_of_lt_of_eq h (show cfg2.N = 50 from N_2)
      dsimp only; omega
    rw [Finset.sum_range_succ, ← acc2_eq c g j n (Nat.lt_of_succ_lt h)]
    exact acc2_step V c ⟨n + 1, h⟩ hB g j

/-! ## The first output array -/

/-- The per-graph sums of the layer over all rows, as contents of the first output array. -/
def pool2 (c : Dev nD) : (⟨2, ![256, 64]⟩ : Shape).Idx → EReal := fun i =>
  ∑ n : Fin 100000, (if V c main_v63 (ix2 n (0 : Fin 1)) = BitVec.ofNat 32 (i 0).val then (1 : EReal) else 0)
    * layerArr (V c main_v58) (V c main_v12) (V c main_v48) (V c main_v61) (V c main_v62) (ix2 n (⟨(i 1).val, idx2_lt1 i⟩ : Fin 64))

/-- They are, at (g, j), the sum over the rows of the mask for g times the layer at lane j. -/
theorem pool2_apply (c : Dev nD) (g : Fin 256) (j : Fin 64) :
    pool2 V c (ix2 g j) = ∑ n : Fin 100000, (if V c main_v63 (ix2 n (0 : Fin 1)) = BitVec.ofNat 32 g.val then (1 : EReal) else 0)
      * layerArr (V c main_v58) (V c main_v12) (V c main_v48) (V c main_v61) (V c main_v62) (ix2 n j) := rfl

/-- The first output's one block is its whole array: read through it, any contents of the array are themselves. -/
theorem read_blk2_6 (t : Fin cfg2.N) (G : (⟨2, ![256, 64]⟩ : Shape).Idx → EReal) (g : Fin 256) (j : Fin 64) :
    ((cfg2.win 6).blk t).view.read (Elt Ideal) G (ix2 g j) = G (ix2 g j) := by
  obtain ⟨-, -, -, -, -, -, -, -, -, -, -, -, e0, e1⟩ := idx_facts2 t
  show G (((cfg2.win 6).blk t).view.emb (ix2 g j)) = _
  refine congrArg G (funext fun a => Fin.ext ?_)
  match a with
  | ⟨0, _⟩ => show win2_6.index t (0 : Fin 2) * 256 + 1 * g.val = g.val; omega
  | ⟨1, _⟩ => show win2_6.index t (1 : Fin 2) * 64 + 1 * j.val = j.val; omega

/-- The one write-back, at the last point, writes them: the output's one block is the whole array. -/
theorem flushed2_6_eq (c : Dev nD) (t : Fin cfg2.N) (hf : (cfg2.win 6).flush t = true) :
    (dat2 V c).flushed 6 t = ((cfg2.win 6).blk t).view.read (Elt Ideal) (pool2 V c) := by
  have hN : t.val < 50 := lt_of_lt_of_eq t.isLt (show cfg2.N = 50 from N_2)
  have h1 : t.val % 50 = 49 := (flush2_6 t).mp hf
  have h0 : ¬t.val % 50 = 0 := by omega
  show (cfg2.win 6).cut (grid2.coords t) ((dat2 V c).after 6 t) = _
  rw [after2_6, out6_C V c t h0 h1, ← acc2_C V c t h0 h1]
  funext i
  obtain ⟨g, j, rfl⟩ : ∃ (g : Fin 256) (j : Fin 64), i = ix2 g j := ⟨i 0, i 1, eq_ix2 i⟩
  refine (acc2_eq V c g j t.val t.isLt).trans ?_
  rw [show t.val + 1 = 50 from by omega, Cert.MathLib.sum_range_tiles_50_2000 (term2 V c g j)]
  refine Eq.trans ?_ (read_blk2_6 t (pool2 V c) g j).symm
  refine Eq.trans ?_ (pool2_apply V c g j).symm
  refine Finset.sum_congr rfl fun n _ => ?_
  unfold term2
  exact (dif_pos n.isLt).trans rfl

/-- An index of the first output array is in point t's block iff each coordinate is in the block's range. -/
theorem mem_blk2_6 (t : Fin cfg2.N) (i : S256x64.Idx) :
    i ∈ ((cfg2.win 6).blk t).view.set ↔ ∀ a : Fin 2, win2_6.index t a * S256x64.size a ≤ (i a).val ∧ (i a).val < win2_6.index t a * S256x64.size a + S256x64.size a := by
  show i ∈ ((View.whole main_v64_0).slice (win2_6.rect t)).set ↔ _
  rw [View.set_slice_whole, Rect.mem_set_unit]
  exact Iff.rfl

/-- The last point's block covers the whole array. -/
theorem cover2_6_arr (i : S256x64.Idx) : ∃ t : Fin cfg2.N, (cfg2.win 6).flush t = true ∧ i ∈ ((cfg2.win 6).blk t).view.set := by
  have hi0 : (i 0).val < 256 := idx2_lt0 i
  have hi1 : (i 1).val < 64 := idx2_lt1 i
  have h49 : 49 < cfg2.N := by rw [show cfg2.N = 50 from N_2]; decide
  obtain ⟨-, -, -, -, -, -, -, -, -, -, -, -, e0, e1⟩ := idx_facts2 ⟨49, h49⟩
  refine ⟨⟨49, h49⟩, (flush2_6 ⟨49, h49⟩).mpr rfl, ?_⟩
  rw [mem_blk2_6]
  intro a
  match a with
  | ⟨0, _⟩ => show win2_6.index ⟨49, h49⟩ (0 : Fin 2) * 256 ≤ (i 0).val ∧ (i 0).val < win2_6.index ⟨49, h49⟩ (0 : Fin 2) * 256 + 256; omega
  | ⟨1, _⟩ => show win2_6.index ⟨49, h49⟩ (1 : Fin 2) * 64 ≤ (i 1).val ∧ (i 1).val < win2_6.index ⟨49, h49⟩ (1 : Fin 2) * 64 + 64; omega

/-- THE FIRST OUTPUT ARRAY after the launch: at (g, j), the sum over the rows whose graph-number word is g's of the
    layer of the operand arrays, as the launch finds them, at lane j. -/
theorem final2_6 (c : Dev nD) (g : Fin 256) (j : Fin 64) :
    (dat2 V c).arrAt 6 cfg2.N (ix2 g j)
      = ∑ n : Fin 100000, (if V c main_v63 (ix2 n (0 : Fin 1)) = BitVec.ofNat 32 g.val then (1 : EReal) else 0)
          * layerArr (V c main_v58) (V c main_v12) (V c main_v48) (V c main_v61) (V c main_v62) (ix2 n j) :=
  congrFun ((dat2 V c).arrAt_eq_of_cover 6 (pool2 V c) (flushed2_6_eq V c) cover2_6_arr) (ix2 g j)

end Cert.Val

end
-- ==== Proof.Val.R2CntMath.lean ====
/- The per-graph node counts of the pooling call, as mathematics over its 50 tiles of 2000 rows: what one tile adds
   to a graph's count, the running counts after each tile as a sum over the rows seen so far, the rows of a tile's
   graph-id block as rows of the whole graph-id column, and the cover of the counts' array by the block written
   back at the last point. -/
import proofs.«400542_j69810398429749_3_alg».proof.Proof.KI.R2Base
import proofs.«400542_j69810398429749_3_alg».proof.Proof.Val.Pay2
import proofs.«400542_j69810398429749_3_alg».proof.Proof.Math.Glue
import Idealize.ShloMosaic.Lib.Pipeline.Value
import Idealize.ShloMosaic.Lib.ValueIdx

set_option maxRecDepth 16384

noncomputable section

open scoped BigOperators

namespace Cert.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand Cert.MathLib

/-! ## One tile -/

/-- The counts after a tile, at graph number `g`: the counts before plus the number of the tile's rows whose
    graph-id word is the word of `g`. -/
theorem p2_cnt_step (ids : Vec Ideal S2000x1 .i32) (prev : Vec Ideal S1x256 .f32) (g : Fin 256) :
    k2_pay2 (F := Ideal) (k2_pay6 (F := Ideal) ids) prev (ix2 (0 : Fin 1) g)
      = prev (ix2 (0 : Fin 1) g)
        + ∑ r : Fin 2000, (if ids (ix2 r (0 : Fin 1)) = BitVec.ofNat 32 g.val then (1 : EReal) else 0) := by
  rw [k2_pay2_eq]
  show prev (ix2 (0 : Fin 1) g) + k2_pay6 (F := Ideal) ids (ix2 (0 : Fin 1) g) = _
  rw [k2_pay6_apply]
  exact congrArg (prev (ix2 (0 : Fin 1) g) + ·) (Finset.sum_congr rfl fun r _ => k2_pay5_apply ids r g)

/-! ## The fifty tiles -/

/-- Whether row `m` of a column of 100000 graph-id words carries the word of `g`, as 1 or 0; 0 past the column. -/
def p2_hit (A : (⟨2, ![100000, 1]⟩ : Shape).Idx → BitVec 32) (g : Fin 256) (m : ℕ) : EReal :=
  if h : m < 100000 then (if A (ix2 (⟨m, h⟩ : Fin 100000) (0 : Fin 1)) = BitVec.ofNat 32 g.val then 1 else 0) else 0

/-- A family indexed by a position below 50 does not depend on the spelling of the position. -/
theorem p2_fam_congr {α : Type} (f : (n : ℕ) → n < 50 → α) (a b : ℕ) (h : a = b) (ha : a < 50) (hb : b < 50) :
    f a ha = f b hb := by
  subst h; rfl

/-- THE CHAIN. Counts that start from zero at tile 0 and add one tile's rows per step hold, after tile `n`, the
    number of rows of the first `n + 1` tiles that carry the graph's word; the tiles' graph-id blocks being the
    consecutive 2000-row pieces of one column `A`. -/
theorem p2_cnt_chain (cnt : (n : ℕ) → n < 50 → Vec Ideal S1x256 .f32) (ids : (n : ℕ) → n < 50 → Vec Ideal S2000x1 .i32)
    (A : (⟨2, ![100000, 1]⟩ : Shape).Idx → BitVec 32)
    (h0 : cnt 0 (by decide) = k2_pay2 (F := Ideal) (k2_pay6 (F := Ideal) (ids 0 (by decide))) (k2_pay4 (F := Ideal)))
    (hs : ∀ (n : ℕ) (hn : n < 50), n ≠ 0 →
      cnt n hn = k2_pay2 (F := Ideal) (k2_pay6 (F := Ideal) (ids n hn)) (cnt (n - 1) (by omega)))
    (hids : ∀ (n : ℕ) (hn : n < 50) (r : Fin 2000),
      ids n hn (ix2 r (0 : Fin 1)) = A (ix2 (⟨n * 2000 + r.val, by have := r.isLt; omega⟩ : Fin 100000) (0 : Fin 1)))
    (g : Fin 256) (n : ℕ) (hn : n < 50) :
    cnt n hn (ix2 (0 : Fin 1) g) = ∑ t ∈ Finset.range (n + 1), ∑ r : Fin 2000, p2_hit A g (t * 2000 + r.val) := by
  have htile : ∀ (t : ℕ) (ht : t < 50),
      ∑ r : Fin 2000, (if ids t ht (ix2 r (0 : Fin 1)) = BitVec.ofNat 32 g.val then (1 : EReal) else 0)
        = ∑ r : Fin 2000, p2_hit A g (t * 2000 + r.val) := fun t ht =>
    Finset.sum_congr rfl fun r _ => by
      have hlt : t * 2000 + r.val < 100000 := by have := r.isLt; omega
      rw [hids t ht r]
      unfold p2_hit
      rw [dif_pos hlt]
  induction n with
  | zero =>
    rw [h0, p2_cnt_step, htile 0 (by decide), k2_pay4_eq, Finset.sum_range_one]
    exact zero_add _
  | succ k ih =>
    rw [hs (k + 1) hn (Nat.succ_ne_zero k), p2_cnt_step, htile (k + 1) hn,
      p2_fam_congr cnt (k + 1 - 1) k (by omega) (by omega) (by omega), ih (by omega),
      Finset.sum_range_succ _ (k + 1)]

/-- After the last tile the counts are the sums over the whole column. -/
theorem p2_cnt_total (cnt : (n : ℕ) → n < 50 → Vec Ideal S1x256 .f32) (ids : (n : ℕ) → n < 50 → Vec Ideal S2000x1 .i32)
    (A : (⟨2, ![100000, 1]⟩ : Shape).Idx → BitVec 32)
    (h0 : cnt 0 (by decide) = k2_pay2 (F := Ideal) (k2_pay6 (F := Ideal) (ids 0 (by decide))) (k2_pay4 (F := Ideal)))
    (hs : ∀ (n : ℕ) (hn : n < 50), n ≠ 0 →
      cnt n hn = k2_pay2 (F := Ideal) (k2_pay6 (F := Ideal) (ids n hn)) (cnt (n - 1) (by omega)))
    (hids : ∀ (n : ℕ) (hn : n < 50) (r : Fin 2000),
      ids n hn (ix2 r (0 : Fin 1)) = A (ix2 (⟨n * 2000 + r.val, by have := r.isLt; omega⟩ : Fin 100000) (0 : Fin 1)))
    (g : Fin 256) :
    cnt 49 (by decide) (ix2 (0 : Fin 1) g)
      = ∑ m : Fin 100000, (if A (ix2 m (0 : Fin 1)) = BitVec.ofNat 32 g.val then (1 : EReal) else 0) := by
  rw [p2_cnt_chain cnt ids A h0 hs hids g 49 (by decide), sum_range_tiles_50_2000 (p2_hit A g)]
  refine Finset.sum_congr rfl fun m _ => ?_
  unfold p2_hit
  rw [dif_pos m.isLt]

/-! ## The graph-id window's blocks and the counts' window -/

variable (V : (c : Dev nD) → (b : Ref sig .tc) → Buf (Elt Ideal) ((c : Thread nD τ).loc b))

/-- The printed index maps over the 50 points: the graph-id block's index is (t, 0), the counts' block's is (0, 0). -/
theorem c7_idx_facts : ∀ t : Fin cfg2.N, win2_5.index t (0 : Fin 2) = t.val ∧ win2_5.index t (1 : Fin 2) = 0
    ∧ win2_7.index t (0 : Fin 2) = 0 ∧ win2_7.index t (1 : Fin 2) = 0 :=
  (by decide +kernel : ∀ t : Fin grid2.N, _)

/-- Row `r` of the graph-id block at point `t` is row `2000 t + r` of the graph-id column as the region finds it. -/
theorem c7_ids_rows (c : Dev nD) (t : Fin cfg2.N) (r : Fin 2000) :
    iblk2 V c 5 t (ix2 r (0 : Fin 1))
      = V c main_v63 (ix2 (⟨t.val * 2000 + r.val, by
          have hT : t.val < 50 := lt_of_lt_of_eq t.isLt (show cfg2.N = 50 from N_2)
          have := r.isLt; omega⟩ : Fin 100000) (0 : Fin 1)) := by
  obtain ⟨e0, e1, _, _⟩ := c7_idx_facts t
  show V c main_v63 (((cfg2.win 5).blk t).view.emb (ix2 r (0 : Fin 1))) = _
  refine congrArg (V c main_v63) (funext fun a => Fin.ext ?_)
  match a with
  | ⟨0, _⟩ => show win2_5.index t (0 : Fin 2) * 2000 + 1 * r.val = t.val * 2000 + r.val; omega
  | ⟨1, _⟩ => show win2_5.index t (1 : Fin 2) * 1 + 1 * 0 = 0; omega

/-- An index of the counts' array is in point `t`'s block iff each coordinate is in the block's range on its axis. -/
theorem c7_mem_blk (t : Fin cfg2.N) (i : S1x256.Idx) :
    i ∈ ((cfg2.win 7).blk t).view.set ↔ ∀ a : Fin 2, win2_7.index t a * S1x256.size a ≤ (i a).val ∧ (i a).val < win2_7.index t a * S1x256.size a + S1x256.size a := by
  show i ∈ ((View.whole main_v64_1).slice (win2_7.rect t)).set ↔ _
  rw [View.set_slice_whole, Rect.mem_set_unit]
  exact Iff.rfl

/-- The last point. -/
def c7_last : Fin cfg2.N := ⟨49, lt_of_lt_of_eq (by decide : 49 < 50) (show cfg2.N = 50 from N_2).symm⟩

/-- The one block written back at the last point covers the counts' array. -/
theorem c7_cover (i : S1x256.Idx) : ∃ t : Fin cfg2.N, (cfg2.win 7).flush t = true ∧ i ∈ ((cfg2.win 7).blk t).view.set := by
  have hi0 : (i 0).val < 1 := idx2_lt0 i
  have hi1 : (i 1).val < 256 := idx2_lt1 i
  obtain ⟨_, _, q0, q1⟩ := c7_idx_facts c7_last
  refine ⟨c7_last, (flush2_7 c7_last).mpr (by show 49 % 50 = 49; decide), ?_⟩
  rw [c7_mem_blk]
  intro a
  match a with
  | ⟨0, _⟩ => show win2_7.index c7_last (0 : Fin 2) * 1 ≤ (i 0).val ∧ (i 0).val < win2_7.index c7_last (0 : Fin 2) * 1 + 1; omega
  | ⟨1, _⟩ => show win2_7.index c7_last (1 : Fin 2) * 256 ≤ (i 1).val ∧ (i 1).val < win2_7.index c7_last (1 : Fin 2) * 256 + 256; omega

end Cert.Val

end
-- ==== Proof.Val.R2Cnt.lean ====
/- The per-graph node counts the pooling call leaves in its second output array: the running counts carried in the
   call's second accumulator from point to point, written back once at the last point, are the counts over the whole
   graph-id column. -/
import proofs.«400542_j69810398429749_3_alg».proof.Proof.KI.R2
import proofs.«400542_j69810398429749_3_alg».proof.Proof.KI.R2Pieces
import proofs.«400542_j69810398429749_3_alg».proof.Proof.Val.R2CntMath
import Idealize.ShloMosaic.Lib.Pipeline.Value
import Idealize.ShloMosaic.Lib.ValueIdx

set_option maxRecDepth 16384

noncomputable section

open scoped BigOperators

namespace Cert.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand Cert.MathLib

variable (V : (c : Dev nD) → (b : Ref sig .tc) → Buf (Elt Ideal) ((c : Thread nD τ).loc b))

theorem c7_lt_N2 {n : ℕ} (hn : n < 50) : n < cfg2.N := lt_of_lt_of_eq hn (show cfg2.N = 50 from N_2).symm

/-- The second accumulator (the running counts) after the point at position `n`. -/
def c7_cnt (c : Dev nD) : (n : ℕ) → n < 50 → Vec Ideal S1x256 .f32 :=
  fun n hn => (outsAt2 V c n (c7_lt_N2 hn)).2.2.2

/-- The graph-id block of the point at position `n`. -/
def c7_ids (c : Dev nD) : (n : ℕ) → n < 50 → Vec Ideal S2000x1 .i32 :=
  fun n hn => iblk2 V c 5 ⟨n, c7_lt_N2 hn⟩

/-- The running counts, spelled out. -/
theorem c7_cnt_def (c : Dev nD) (n : ℕ) (hn : n < 50) :
    c7_cnt V c n hn = (outsAt2 V c n (c7_lt_N2 hn)).2.2.2 := rfl

/-- The first point starts the counts at zero and adds its tile. -/
theorem c7_cnt_zero (c : Dev nD) :
    c7_cnt V c 0 (by decide) = k2_pay2 (F := Ideal) (k2_pay6 (F := Ideal) (c7_ids V c 0 (by decide))) (k2_pay4 (F := Ideal)) := by
  have e := congrArg (fun p => p.2.2.2) (outsAt2_A V c ⟨0, c7_lt_N2 (by decide)⟩ (Nat.zero_mod _) (by decide))
  dsimp only at e
  rw [c7_cnt_def V c 0 (by decide)]
  unfold c7_ids
  exact e.trans (sout2_A_1_eq ..)

/-- Every later point adds its tile to what the point before left. -/
theorem c7_cnt_succ (c : Dev nD) (n : ℕ) (hn : n < 50) (h0 : n ≠ 0) :
    c7_cnt V c n hn = k2_pay2 (F := Ideal) (k2_pay6 (F := Ideal) (c7_ids V c n hn)) (c7_cnt V c (n - 1) (by omega)) := by
  have hm0 : ¬ (⟨n, c7_lt_N2 hn⟩ : Fin cfg2.N).val % 50 = 0 := by show ¬ n % 50 = 0; omega
  rw [c7_cnt_def V c n hn, c7_cnt_def V c (n - 1) (by omega)]
  unfold c7_ids
  by_cases h1 : n = 49
  · have hm1 : (⟨n, c7_lt_N2 hn⟩ : Fin cfg2.N).val % 50 = 49 := by show n % 50 = 49; omega
    have e := congrArg (fun p => p.2.2.2) (outsAt2_C V c ⟨n, c7_lt_N2 hn⟩ hm0 hm1)
    dsimp only at e
    exact e.trans (sout2_C_1_eq ..)
  · have hm1 : ¬ (⟨n, c7_lt_N2 hn⟩ : Fin cfg2.N).val % 50 = 49 := by show ¬ n % 50 = 49; omega
    have e := congrArg (fun p => p.2.2.2) (outsAt2_B V c ⟨n, c7_lt_N2 hn⟩ hm0 hm1)
    dsimp only at e
    exact e.trans (sout2_B_1_eq ..)

/-- At the last point the counts' output block is what the point leaves in the second accumulator. -/
theorem c7_out_last (c : Dev nD) (t : Fin cfg2.N) (h1 : t.val % 50 = 49) :
    (outsAt2 V c t.val t.isLt).2.1 = (outsAt2 V c t.val t.isLt).2.2.2 := by
  have h0 : ¬ t.val % 50 = 0 := by omega
  have e7 := congrArg (fun p => p.2.1) (outsAt2_C V c t h0 h1)
  have e1 := congrArg (fun p => p.2.2.2) (outsAt2_C V c t h0 h1)
  dsimp only at e7 e1
  exact (e7.trans (out2_C_7_eq ..)).trans (e1.trans (sout2_C_1_eq ..)).symm

/-- The number of rows of the whole graph-id column, as the region finds it, that carry the word of `g`. -/
def c7_tot (c : Dev nD) (g : Fin 256) : EReal :=
  ∑ n : Fin 100000, (if V c main_v63 (ix2 n (0 : Fin 1)) = BitVec.ofNat 32 g.val then (1 : EReal) else 0)

/-- The counts of the whole graph-id column, graph number by graph number, as a [1, 256] array. -/
def c7_arr (c : Dev nD) : S1x256.Idx → EReal :=
  fun i => c7_tot V c (⟨(i 1).val, idx2_lt1 i⟩ : Fin 256)

theorem c7_arr_apply (c : Dev nD) (u : Fin 1) (g : Fin 256) : c7_arr V c (ix2 u g) = c7_tot V c g := rfl

/-- The second accumulator after the last point holds the counts of the whole column. -/
theorem c7_cnt_last (c : Dev nD) (g : Fin 256) :
    c7_cnt V c 49 (by decide) (ix2 (0 : Fin 1) g) = c7_tot V c g :=
  p2_cnt_total (c7_cnt V c) (c7_ids V c) (V c main_v63) (c7_cnt_zero V c) (fun n hn h0 => c7_cnt_succ V c n hn h0)
    (fun n hn r => c7_ids_rows V c ⟨n, c7_lt_N2 hn⟩ r) g

/-- The total, spelled out as the sum it is. -/
theorem c7_tot_eq (c : Dev nD) (g : Fin 256) :
    c7_tot V c g = ∑ n : Fin 100000, (if V c main_v63 (ix2 n (0 : Fin 1)) = BitVec.ofNat 32 g.val then (1 : EReal) else 0) := rfl

-- from here on the total is an opaque number: nothing below may open a sum over 100000 rows
attribute [irreducible] c7_tot

/-- What the last point writes back is the counts' array read through its block. -/
theorem c7_flushed_eq (c : Dev nD) (t : Fin cfg2.N) (hf : (cfg2.win 7).flush t = true) :
    (dat2 V c).flushed 7 t = ((cfg2.win 7).blk t).view.read (Elt Ideal) (c7_arr V c) := by
  have h1 : t.val % 50 = 49 := (flush2_7 t).mp hf
  have hT : t.val < 50 := lt_of_lt_of_eq t.isLt (show cfg2.N = 50 from N_2)
  have h49 : t.val = 49 := by omega
  obtain ⟨_, _, q0, q1⟩ := c7_idx_facts t
  show (cfg2.win 7).cut (grid2.coords t) ((dat2 V c).after 7 t) = _
  rw [after2_7, c7_out_last V c t h1]
  funext j
  obtain ⟨u, g, rfl⟩ : ∃ (u : Fin 1) (g : Fin 256), j = ix2 u g := ⟨j 0, j 1, eq_ix2 j⟩
  have hu : u = 0 := Fin.ext (by have := u.isLt; omega)
  subst hu
  have e : (outsAt2 V c t.val t.isLt).2.2.2 = c7_cnt V c 49 (by decide) :=
    (c7_cnt_def V c t.val hT).symm.trans (p2_fam_congr (c7_cnt V c) t.val 49 h49 hT (by decide))
  refine (congrFun e (ix2 (0 : Fin 1) g)).trans ((c7_cnt_last V c g).trans ((c7_arr_apply V c 0 g).symm.trans ?_))
  rw [View.read_apply]
  show c7_arr V c _ = c7_arr V c (((cfg2.win 7).blk t).view.emb (ix2 (0 : Fin 1) g))
  refine congrArg (c7_arr V c) (funext fun a => Fin.ext ?_)
  match a with
  | ⟨0, _⟩ => show 0 = win2_7.index t (0 : Fin 2) * 1 + 1 * 0; omega
  | ⟨1, _⟩ => show g.val = win2_7.index t (1 : Fin 2) * 256 + 1 * g.val; omega

set_option maxRecDepth 65536 in
/-- THE COUNTS' ARRAY after the launch: at graph number `g`, the number of rows of the graph-id column, as the launch
    finds it, whose word is the word of `g`. -/
theorem final2_7 (c : Dev nD) (g : Fin 256) :
    (dat2 V c).arrAt 7 cfg2.N (ix2 (0 : Fin 1) g)
      = ∑ n : Fin 100000, (if V c main_v63 (ix2 n (0 : Fin 1)) = BitVec.ofNat 32 g.val then (1 : EReal) else 0) := by
  have hG : (dat2 V c).arrAt 7 cfg2.N = c7_arr V c :=
    (dat2 V c).arrAt_eq_of_cover 7 (c7_arr V c) (fun t hf => c7_flushed_eq V c t hf) c7_cover
  rw [hG, c7_arr_apply, c7_tot_eq]

end Cert.Val

end
-- ==== Proof.Ref.PoolCount.lean ====
/- The node count of each graph in the reference: an accumulating scatter of ones at the graph ids, read as a sum
   over the nodes whose id, taken as a signed integer, is the graph's number. The scatter's landing index is decoded
   for its dimension numbers: the start is the id itself, there is no window coordinate, and an id outside 0..255 is dropped. -/
import proofs.«400542_j69810398429749_3_alg».proof.Proof.RefRead
import Idealize.ShloMosaic.Lib.ValueIdx
import Idealize.ShloMosaic.Lib.Pipeline.Value
import Idealize.ShloMosaic.PureOps.Ideal.Laws

noncomputable section

open scoped BigOperators

namespace Cert.RefSide

open Cert.ReferenceIdeal Cert.ReferenceIdeal.Read Idealize.ShloMosaic Idealize.ShloMosaic.ValueIdx

/-- A rank-one index applied to any axis has the coordinate's value. -/
theorem ix1_val {m : Nat} (n : Fin m) (b : Fin (⟨1, ![m]⟩ : Shape).rank) : ((ix1 n : (⟨1, ![m]⟩ : Shape).Idx) b).val = n.val := by
  obtain rfl : b = 0 := Subsingleton.elim _ _
  rfl

/-- A sum over a rank-one index set is the sum over its coordinate. -/
theorem sum_idx1 {M : Type*} [AddCommMonoid M] {m : Nat} (f : (⟨1, ![m]⟩ : Shape).Idx → M) :
    ∑ i, f i = ∑ a : Fin m, f (ix1 a) := by
  let e : (⟨1, ![m]⟩ : Shape).Idx ≃ Fin m :=
    { toFun := fun i => i 0, invFun := fun a => ix1 a, left_inv := fun i => (eq_ix1 i).symm, right_inv := fun _ => rfl }
  rw [← Equiv.sum_comp e.symm f]
  rfl

theorem count_siIdx (n : Fin 100000) (c : Fin scatter_S256_S100000x1_S100000_n_0_0_1.scatterDimsToOperandDims.length) :
    ((scatter_S256_S100000x1_S100000_n_0_0_1.siIdx (ix1 n : S100000.Idx) c) 0).val = n.val := by
  unfold ScatterDims.siIdx
  rw [dif_neg (show ¬ ((0 : Fin S100000x1.rank).val = scatter_S256_S100000x1_S100000_n_0_0_1.indexVectorDim) by decide)]
  unfold ScatterDims.siCoord
  exact ix1_val n _

theorem count_read (x2 : (⟨S100000, .i32⟩ : BufTy).Contents (Elt Ideal)) (n : Fin 100000)
    (c : Fin scatter_S256_S100000x1_S100000_n_0_0_1.scatterDimsToOperandDims.length) :
    val_main_v86 (F := Ideal) x2 (scatter_S256_S100000x1_S100000_n_0_0_1.siIdx (ix1 n : S100000.Idx) c) = x2 (ix1 n) := by
  rw [val_main_v86_apply]
  refine congrArg x2 (funext fun b => Fin.ext ?_)
  obtain rfl : b = 0 := Subsingleton.elim _ _
  show ((scatter_S256_S100000x1_S100000_n_0_0_1.siIdx (ix1 n : S100000.Idx) c) 0).val = n.val
  exact count_siIdx n c

theorem count_start (x2 : (⟨S100000, .i32⟩ : BufTy).Contents (Elt Ideal)) (n : Fin 100000) (a : Fin S256.rank) :
    scatter_S256_S100000x1_S100000_n_0_0_1.start (ix1 n) (val_main_v86 (F := Ideal) x2) a = (x2 (ix1 n)).toInt := by
  obtain rfl : a = 0 := Subsingleton.elim _ _
  unfold ScatterDims.start
  rw [dif_pos (show (0 : Fin S256.rank) ∈ scatter_S256_S100000x1_S100000_n_0_0_1.scatterDimsToOperandDims by decide)]
  rw [count_read]

theorem count_window (n : Fin 100000) (a : Fin S256.rank) :
    scatter_S256_S100000x1_S100000_n_0_0_1.window (ix1 n : S100000.Idx) a = 0 := by
  obtain rfl : a = 0 := Subsingleton.elim _ _
  unfold ScatterDims.window
  rw [dif_neg (show ¬ (0 : Fin S256.rank) ∈ scatter_S256_S100000x1_S100000_n_0_0_1.sKept by decide)]

/-- The update of node n lands on graph g exactly when n's graph id, read as a signed integer, is g. -/
theorem count_hit (x2 : (⟨S100000, .i32⟩ : BufTy).Contents (Elt Ideal)) (n : Fin 100000) (g : Fin 256) :
    scatter_S256_S100000x1_S100000_n_0_0_1.resultIdx? (ix1 n) (val_main_v86 (F := Ideal) x2) = some (ix1 g)
      ↔ (x2 (ix1 n)).toInt = (g.val : ℤ) := by
  have hg := g.isLt
  have hsz : ∀ a : Fin S256.rank, S256.size a = 256 := fun a => by
    obtain rfl : a = 0 := Subsingleton.elim _ _
    rfl
  constructor
  · intro h
    unfold ScatterDims.resultIdx? at h
    split at h
    · rename_i hr
      have h0 := (hr 0).1
      have hv := congrArg Fin.val (congrFun (Option.some.inj h) 0)
      rw [count_start, count_window] at h0
      simp only [count_start, count_window] at hv
      have hv' : ((x2 (ix1 n)).toInt + ((0 : ℕ) : ℤ)).toNat = g.val := hv
      omega
    · cases h
  · intro h
    unfold ScatterDims.resultIdx?
    rw [dif_pos (fun a => by rw [count_start, count_window, h, hsz a]; constructor <;> omega)]
    refine congrArg some (funext fun a => Fin.ext ?_)
    obtain rfl : a = 0 := Subsingleton.elim _ _
    show (scatter_S256_S100000x1_S100000_n_0_0_1.start (ix1 n) (val_main_v86 (F := Ideal) x2) 0
      + ((scatter_S256_S100000x1_S100000_n_0_0_1.window (ix1 n : S100000.Idx) 0 : ℕ) : ℤ)).toNat = g.val
    rw [count_start, count_window, h]
    omega

/-- The number of nodes of graph g, as the reference accumulates it: zero plus one for each node whose graph id is g. -/
theorem pool_count_apply (x2 : (⟨S100000, .i32⟩ : BufTy).Contents (Elt Ideal)) (g : Fin 256) :
    val_main_v87 (F := Ideal) x2 (ix1 g)
      = Ideal.ofBits .f32 0x00000000#32
        + ∑ n ∈ Finset.univ.filter (fun n : Fin 100000 => (x2 (ix1 n)).toInt = (g.val : ℤ)), Ideal.ofBits .f32 0x3F800000#32 := by
  unfold val_main_v87
  show Ideal.hostScatterAdd scatter_S256_S100000x1_S100000_n_0_0_1 (val_main_v85 (F := Ideal)) (val_main_v86 (F := Ideal) x2)
    (val_main_v84 (F := Ideal)) (ix1 g) = _
  unfold Ideal.hostScatterAdd
  show val_main_v85 (F := Ideal) (ix1 g) + _ = _
  rw [val_main_v85_apply, val_main_cst_16_apply, Ideal.ofBits_def]
  refine congrArg (Ideal.ofBits .f32 0x00000000#32 + ·) ?_
  rw [Finset.sum_filter, sum_idx1, ← Finset.sum_filter]
  refine Finset.sum_congr (Finset.filter_congr fun n _ => count_hit x2 n g) fun n _ => ?_
  rw [val_main_v84_apply, val_main_cst_15_apply, Ideal.ofBits_def]

end Cert.RefSide
-- ==== Proof.Ref.PoolSum.lean ====
/- The per-graph feature sums in the reference: an accumulating scatter of the second layer's rows at the graph ids,
   read as a sum over the nodes whose id, taken as a signed integer, is the graph's number. The scatter's landing index is
   decoded for its dimension numbers: on the graph axis the start is the id and there is no window coordinate, on the
   feature axis the start is zero and the window coordinate is the feature; a row whose id is outside 0..255 is dropped. -/
import proofs.«400542_j69810398429749_3_alg».proof.Proof.RefRead
import Idealize.ShloMosaic.Lib.ValueIdx
import Idealize.ShloMosaic.Lib.Pipeline.Value
import Idealize.ShloMosaic.PureOps.Ideal.Laws

noncomputable section

open scoped BigOperators

namespace Cert.RefSide

open Cert.ReferenceIdeal Cert.ReferenceIdeal.Read Idealize.ShloMosaic Idealize.ShloMosaic.ValueIdx

/-- A rank-two index at its first axis has the first coordinate's value … -/
theorem ix2_val0 {m0 m1 : Nat} (n : Fin m0) (k : Fin m1) (b : Fin (⟨2, ![m0, m1]⟩ : Shape).rank) (hb : b = 0) :
    ((ix2 n k : (⟨2, ![m0, m1]⟩ : Shape).Idx) b).val = n.val := by
  subst hb; rfl
/-- … and at its second axis the second's. -/
theorem ix2_val1 {m0 m1 : Nat} (n : Fin m0) (k : Fin m1) (b : Fin (⟨2, ![m0, m1]⟩ : Shape).rank) (hb : b = 1) :
    ((ix2 n k : (⟨2, ![m0, m1]⟩ : Shape).Idx) b).val = k.val := by
  subst hb; rfl

theorem sum_siIdx (n : Fin 100000) (k : Fin 64) (c : Fin scatter_S256x64_S100000x1_S100000x64_1_0_0_1.scatterDimsToOperandDims.length) :
    ((scatter_S256x64_S100000x1_S100000x64_1_0_0_1.siIdx (ix2 n k : S100000x64.Idx) c) 0).val = n.val := by
  unfold ScatterDims.siIdx
  rw [dif_neg (show ¬ ((0 : Fin S100000x1.rank).val = scatter_S256x64_S100000x1_S100000x64_1_0_0_1.indexVectorDim) by decide)]
  unfold ScatterDims.siCoord
  exact ix2_val0 n k _ (by decide)

theorem sum_read (x2 : (⟨S100000, .i32⟩ : BufTy).Contents (Elt Ideal)) (n : Fin 100000) (k : Fin 64)
    (c : Fin scatter_S256x64_S100000x1_S100000x64_1_0_0_1.scatterDimsToOperandDims.length) :
    val_main_v89 (F := Ideal) x2 (scatter_S256x64_S100000x1_S100000x64_1_0_0_1.siIdx (ix2 n k : S100000x64.Idx) c) = x2 (ix1 n) := by
  rw [val_main_v89_apply]
  refine congrArg x2 (funext fun b => Fin.ext ?_)
  obtain rfl : b = 0 := Subsingleton.elim _ _
  show ((scatter_S256x64_S100000x1_S100000x64_1_0_0_1.siIdx (ix2 n k : S100000x64.Idx) c) 0).val = n.val
  exact sum_siIdx n k c

theorem sum_start0 (x2 : (⟨S100000, .i32⟩ : BufTy).Contents (Elt Ideal)) (n : Fin 100000) (k : Fin 64) :
    scatter_S256x64_S100000x1_S100000x64_1_0_0_1.start (ix2 n k) (val_main_v89 (F := Ideal) x2) 0 = (x2 (ix1 n)).toInt := by
  unfold ScatterDims.start
  rw [dif_pos (show (0 : Fin S256x64.rank) ∈ scatter_S256x64_S100000x1_S100000x64_1_0_0_1.scatterDimsToOperandDims by decide)]
  rw [sum_read]

theorem sum_start1 (x2 : (⟨S100000, .i32⟩ : BufTy).Contents (Elt Ideal)) (n : Fin 100000) (k : Fin 64) :
    scatter_S256x64_S100000x1_S100000x64_1_0_0_1.start (ix2 n k) (val_main_v89 (F := Ideal) x2) 1 = 0 := by
  unfold ScatterDims.start
  rw [dif_neg (show ¬ (1 : Fin S256x64.rank) ∈ scatter_S256x64_S100000x1_S100000x64_1_0_0_1.scatterDimsToOperandDims by decide)]

theorem sum_window0 (n : Fin 100000) (k : Fin 64) :
    scatter_S256x64_S100000x1_S100000x64_1_0_0_1.window (ix2 n k : S100000x64.Idx) 0 = 0 := by
  unfold ScatterDims.window
  rw [dif_neg (show ¬ (0 : Fin S256x64.rank) ∈ scatter_S256x64_S100000x1_S100000x64_1_0_0_1.sKept by decide)]

theorem sum_window1 (n : Fin 100000) (k : Fin 64) :
    scatter_S256x64_S100000x1_S100000x64_1_0_0_1.window (ix2 n k : S100000x64.Idx) 1 = k.val := by
  unfold ScatterDims.window
  rw [dif_pos (show (1 : Fin S256x64.rank) ∈ scatter_S256x64_S100000x1_S100000x64_1_0_0_1.sKept by decide)]
  exact ix2_val1 n k _ (by decide)

/-- The update row of node n, at feature k, lands on graph g and feature j exactly when n's graph id, read as a
    signed integer, is g and k is j. -/
theorem sum_hit (x2 : (⟨S100000, .i32⟩ : BufTy).Contents (Elt Ideal)) (n : Fin 100000) (k : Fin 64) (g : Fin 256) (j : Fin 64) :
    scatter_S256x64_S100000x1_S100000x64_1_0_0_1.resultIdx? (ix2 n k) (val_main_v89 (F := Ideal) x2) = some (ix2 g j)
      ↔ (x2 (ix1 n)).toInt = (g.val : ℤ) ∧ k = j := by
  have hg := g.isLt
  have hj := j.isLt
  have hk := k.isLt
  constructor
  · intro h
    unfold ScatterDims.resultIdx? at h
    split at h
    · rename_i hr
      have h0 := (hr 0).1
      have hv0 := congrArg Fin.val (congrFun (Option.some.inj h) 0)
      have hv1 := congrArg Fin.val (congrFun (Option.some.inj h) 1)
      rw [sum_start0, sum_window0] at h0
      have hv0' : (scatter_S256x64_S100000x1_S100000x64_1_0_0_1.start (ix2 n k) (val_main_v89 (F := Ideal) x2) 0
        + ((scatter_S256x64_S100000x1_S100000x64_1_0_0_1.window (ix2 n k : S100000x64.Idx) 0 : ℕ) : ℤ)).toNat = g.val := hv0
      have hv1' : (scatter_S256x64_S100000x1_S100000x64_1_0_0_1.start (ix2 n k) (val_main_v89 (F := Ideal) x2) 1
        + ((scatter_S256x64_S100000x1_S100000x64_1_0_0_1.window (ix2 n k : S100000x64.Idx) 1 : ℕ) : ℤ)).toNat = j.val := hv1
      rw [sum_start0, sum_window0] at hv0'
      rw [sum_start1, sum_window1] at hv1'
      exact ⟨by omega, Fin.ext (by omega)⟩
    · cases h
  · rintro ⟨h, rfl⟩
    unfold ScatterDims.resultIdx?
    rw [dif_pos (fun a => by
      match a with
      | ⟨0, _⟩ =>
        show 0 ≤ scatter_S256x64_S100000x1_S100000x64_1_0_0_1.start (ix2 n k) (val_main_v89 (F := Ideal) x2) 0
            + ((scatter_S256x64_S100000x1_S100000x64_1_0_0_1.window (ix2 n k : S100000x64.Idx) 0 : ℕ) : ℤ)
          ∧ scatter_S256x64_S100000x1_S100000x64_1_0_0_1.start (ix2 n k) (val_main_v89 (F := Ideal) x2) 0
            + ((scatter_S256x64_S100000x1_S100000x64_1_0_0_1.window (ix2 n k : S100000x64.Idx) 0 : ℕ) : ℤ) < ((256 : ℕ) : ℤ)
        rw [sum_start0, sum_window0, h]; constructor <;> omega
      | ⟨1, _⟩ =>
        show 0 ≤ scatter_S256x64_S100000x1_S100000x64_1_0_0_1.start (ix2 n k) (val_main_v89 (F := Ideal) x2) 1
            + ((scatter_S256x64_S100000x1_S100000x64_1_0_0_1.window (ix2 n k : S100000x64.Idx) 1 : ℕ) : ℤ)
          ∧ scatter_S256x64_S100000x1_S100000x64_1_0_0_1.start (ix2 n k) (val_main_v89 (F := Ideal) x2) 1
            + ((scatter_S256x64_S100000x1_S100000x64_1_0_0_1.window (ix2 n k : S100000x64.Idx) 1 : ℕ) : ℤ) < ((64 : ℕ) : ℤ)
        rw [sum_start1, sum_window1]; constructor <;> omega)]
    refine congrArg some (funext fun a => Fin.ext ?_)
    match a with
    | ⟨0, _⟩ =>
      show (scatter_S256x64_S100000x1_S100000x64_1_0_0_1.start (ix2 n k) (val_main_v89 (F := Ideal) x2) 0
        + ((scatter_S256x64_S100000x1_S100000x64_1_0_0_1.window (ix2 n k : S100000x64.Idx) 0 : ℕ) : ℤ)).toNat = g.val
      rw [sum_start0, sum_window0, h]; omega
    | ⟨1, _⟩ =>
      show (scatter_S256x64_S100000x1_S100000x64_1_0_0_1.start (ix2 n k) (val_main_v89 (F := Ideal) x2) 1
        + ((scatter_S256x64_S100000x1_S100000x64_1_0_0_1.window (ix2 n k : S100000x64.Idx) 1 : ℕ) : ℤ)).toNat = k.val
      rw [sum_start1, sum_window1]; omega

/-- The per-graph sum of the second layer, as the reference accumulates it: zero plus the layer's value at
    feature j for each node whose graph id is g. -/
theorem pool_sum_apply
    (x0 : (⟨S100000x64, .f32⟩ : BufTy).Contents (Elt Ideal)) (x1 : (⟨S2x1600000, .i32⟩ : BufTy).Contents (Elt Ideal))
    (x2 : (⟨S100000, .i32⟩ : BufTy).Contents (Elt Ideal))
    (x3 x4 : (⟨S64x64, .f32⟩ : BufTy).Contents (Elt Ideal)) (x5 x6 x7 : (⟨S64, .f32⟩ : BufTy).Contents (Elt Ideal))
    (x8 x9 : (⟨S64x64, .f32⟩ : BufTy).Contents (Elt Ideal)) (x10 : (⟨S64, .f32⟩ : BufTy).Contents (Elt Ideal))
    (g : Fin 256) (j : Fin 64) :
    val_main_v90 (F := Ideal) x0 x1 x2 x3 x4 x5 x6 x7 x8 x9 x10 (ix2 g j)
      = Ideal.ofBits .f32 0x00000000#32
        + ∑ n ∈ Finset.univ.filter (fun n : Fin 100000 => (x2 (ix1 n)).toInt = (g.val : ℤ)),
            val_main_v83 (F := Ideal) x0 x1 x3 x4 x5 x6 x7 x8 x9 x10 (ix2 n j) := by
  unfold val_main_v90
  generalize val_main_v83 (F := Ideal) x0 x1 x3 x4 x5 x6 x7 x8 x9 x10 = upd
  show Ideal.hostScatterAdd scatter_S256x64_S100000x1_S100000x64_1_0_0_1 (val_main_v88 (F := Ideal)) (val_main_v89 (F := Ideal) x2)
    upd (ix2 g j) = _
  unfold Ideal.hostScatterAdd
  show val_main_v88 (F := Ideal) (ix2 g j) + _ = _
  rw [val_main_v88_apply, val_main_cst_17_apply, Ideal.ofBits_def]
  refine congrArg (Ideal.ofBits .f32 0x00000000#32 + ·) ?_
  refine (Finset.sum_filter _ _).trans ?_
  rw [sum_idx2]
  refine Eq.trans ?_ (Finset.sum_filter _ _).symm
  refine Finset.sum_congr rfl fun n _ => ?_
  by_cases hA : (x2 (ix1 n)).toInt = (g.val : ℤ)
  · rw [if_pos hA, Finset.sum_eq_single j]
    · rw [if_pos ((sum_hit x2 n j g j).mpr ⟨hA, rfl⟩)]
    · intro b _ hb
      rw [if_neg]
      intro h
      exact hb ((sum_hit x2 n b g j).mp h).2
    · intro h
      exact absurd (Finset.mem_univ j) h
  · rw [if_neg hA]
    refine Finset.sum_eq_zero fun b _ => ?_
    rw [if_neg]
    intro h
    exact hA ((sum_hit x2 n b g j).mp h).1

/-- For a graph number below 256, a 32-bit word read signed is that number exactly when it is the number's word. -/
theorem word_toInt (g : Fin 256) : (BitVec.ofNat 32 g.val).toInt = (g.val : ℤ) := by
  have hg := g.isLt
  rw [BitVec.toInt_eq_toNat_cond, BitVec.toNat_ofNat]
  have h1 : g.val % 2 ^ 32 = g.val := Nat.mod_eq_of_lt (by omega)
  rw [h1, if_pos (by omega)]

theorem toInt_eq_iff_word (w : BitVec 32) (g : Fin 256) : w.toInt = (g.val : ℤ) ↔ w = BitVec.ofNat 32 g.val := by
  rw [← word_toInt g, BitVec.toInt_inj]

end Cert.RefSide
-- ==== Proof.Val.Chain.lean ====
/- The second half of the run, read as mathematics, and the whole chain closed. After the third launch and the
   last host lines, the program's result is the reference's: the second graph-convolution layer of the hidden
   activation, summed per graph over the nodes carrying that graph's id and divided by the per-graph node count
   floored at one. The first half (the hidden activation) comes from the module before this one; the two halves
   meet at the array the third launch reads as its node features. -/
import proofs.«400542_j69810398429749_3_alg».proof.Defs
import proofs.«400542_j69810398429749_3_alg».proof.Proof.Val.Fold
import proofs.«400542_j69810398429749_3_alg».proof.Proof.Val.ChainA
import proofs.«400542_j69810398429749_3_alg».proof.Proof.Val.PoolStage
import proofs.«400542_j69810398429749_3_alg».proof.Proof.Val.LayerStages
import proofs.«400542_j69810398429749_3_alg».proof.Proof.Val.R0Val
import proofs.«400542_j69810398429749_3_alg».proof.Proof.Val.R0Acc2
import proofs.«400542_j69810398429749_3_alg».proof.Proof.Val.R2Val
import proofs.«400542_j69810398429749_3_alg».proof.Proof.Val.R2Cnt
import proofs.«400542_j69810398429749_3_alg».proof.Proof.KI.HostIdx
import proofs.«400542_j69810398429749_3_alg».proof.Proof.Ref.PoolCount
import proofs.«400542_j69810398429749_3_alg».proof.Proof.Ref.PoolSum

set_option maxRecDepth 65536

noncomputable section

open scoped BigOperators

namespace Cert.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand Cert.KernelIdeal.HostVals Cert.MathLib

/-! ## The two stages over any arrays -/

/-- The second layer over the third host stretch's operation terms: the layer's array function of the neighbour
    sum of the hidden activation, the inverse in-degree column, the hidden activation itself, the stacked
    transposed weights and the bias row is the reference's second layer, element by element. -/
theorem layer2_core
    (x0 : (⟨S100000x64, .f32⟩ : BufTy).Contents (Elt Ideal)) (x1 : (⟨S2x1600000, .i32⟩ : BufTy).Contents (Elt Ideal))
    (x3 x4 : (⟨S64x64, .f32⟩ : BufTy).Contents (Elt Ideal)) (x5 x6 x7 : (⟨S64, .f32⟩ : BufTy).Contents (Elt Ideal))
    (x8 x9 : (⟨S64x64, .f32⟩ : BufTy).Contents (Elt Ideal)) (x10 : (⟨S64, .f32⟩ : BufTy).Contents (Elt Ideal))
    (n : Fin 100000) (j : Fin 64) :
    layerArr (aggK (F := Ideal) (Cert.ReferenceIdeal.Read.val_main_v56 (F := Ideal) x0 x1 x3 x4 x5 x6 x7) (srcK (F := Ideal) x1) (dstK (F := Ideal) x1))
        (invDegK (F := Ideal) (dstK (F := Ideal) x1)) (Cert.ReferenceIdeal.Read.val_main_v56 (F := Ideal) x0 x1 x3 x4 x5 x6 x7)
        (wcatK (F := Ideal) x8 x9) (shapeCast S1x64 x10 shapeCasts_S64_S1x64) (ix2 n j)
      = Cert.ReferenceIdeal.Read.val_main_v83 (F := Ideal) x0 x1 x3 x4 x5 x6 x7 x8 x9 x10 (ix2 n j) := by
  rw [aggK_eq_ref70]
  exact layer2_bridge x0 x1 x3 x4 x5 x6 x7 x8 x9 x10 _ _ _
    (fun n => by rw [invDegK_apply, degK_eq_ref72])
    (fun k j => wcatK_lo _ _ k j) (fun k j => wcatK_hi _ _ k j) (fun j => row64_apply _ j) n j

/-- Both stages: if `P` holds, graph by graph, the sum of that layer over the nodes whose graph-id word is the
    graph's, and `Cn` the number of those nodes, then the quotient of the sums by the counts floored at one is
    the reference's mean pool. -/
theorem pool_core
    (x0 : (⟨S100000x64, .f32⟩ : BufTy).Contents (Elt Ideal)) (x1 : (⟨S2x1600000, .i32⟩ : BufTy).Contents (Elt Ideal))
    (x2 : (⟨S100000, .i32⟩ : BufTy).Contents (Elt Ideal))
    (x3 x4 : (⟨S64x64, .f32⟩ : BufTy).Contents (Elt Ideal)) (x5 x6 x7 : (⟨S64, .f32⟩ : BufTy).Contents (Elt Ideal))
    (x8 x9 : (⟨S64x64, .f32⟩ : BufTy).Contents (Elt Ideal)) (x10 : (⟨S64, .f32⟩ : BufTy).Contents (Elt Ideal))
    (P : (⟨S256x64, .f32⟩ : BufTy).Contents (Elt Ideal)) (Cn : (⟨S1x256, .f32⟩ : BufTy).Contents (Elt Ideal))
    (hP : ∀ (g : Fin 256) (j : Fin 64), P (ix2 g j)
      = ∑ n : Fin 100000, (if (shapeCast S100000x1 x2 shapeCasts_S100000_S100000x1) (ix2 n (0 : Fin 1)) = BitVec.ofNat 32 g.val then (1 : EReal) else 0)
          * layerArr (aggK (F := Ideal) (Cert.ReferenceIdeal.Read.val_main_v56 (F := Ideal) x0 x1 x3 x4 x5 x6 x7) (srcK (F := Ideal) x1) (dstK (F := Ideal) x1))
        (invDegK (F := Ideal) (dstK (F := Ideal) x1)) (Cert.ReferenceIdeal.Read.val_main_v56 (F := Ideal) x0 x1 x3 x4 x5 x6 x7)
        (wcatK (F := Ideal) x8 x9) (shapeCast S1x64 x10 shapeCasts_S64_S1x64) (ix2 n j))
    (hC : ∀ g : Fin 256, Cn (ix2 (0 : Fin 1) g)
      = ∑ n : Fin 100000, (if (shapeCast S100000x1 x2 shapeCasts_S100000_S100000x1) (ix2 n (0 : Fin 1)) = BitVec.ofNat 32 g.val then (1 : EReal) else 0)) :
    Host.divf (F := Ideal) P
        (broadcastInDim S256x64 ![0, 1] bcast_S256x1_S256x64_0_1
          (maximumf (F := Ideal) (shapeCast S256x1 Cn shapeCasts_S1x256_S256x1)
            (broadcastInDim S256x1 ![] bcast_S_S256x1 (constant (F := Ideal) S_ .f32 0x3F800000#32))))
      = Cert.ReferenceIdeal.Read.val_main_v95 (F := Ideal) x0 x1 x2 x3 x4 x5 x6 x7 x8 x9 x10 := by
  refine pool_stage x0 x1 x2 x3 x4 x5 x6 x7 x8 x9 x10 (fun g => Cert.RefSide.pool_count_apply x2 g)
    (fun g j => Cert.RefSide.pool_sum_apply x0 x1 x2 x3 x4 x5 x6 x7 x8 x9 x10 g j) P Cn (fun g j => ?_) (fun g => ?_)
  · rw [hP g j]
    refine Finset.sum_congr rfl fun n _ => ?_
    rw [idcol_apply, layer2_core]
  · rw [hC g]
    refine Finset.sum_congr rfl fun n _ => ?_
    rw [idcol_apply]

section Program

variable (m : (ℓ : Loc nD τ sig) → Buf (Elt Ideal) ℓ) (c : Dev nD)

/-! ## The arrays, each named at its literal type -/

/-- The program's remaining arguments on core `c`, as launched. -/
abbrev arg2 : (⟨S100000, .i32⟩ : BufTy).Contents (Elt Ideal) := m ((c : Thread nD τ).loc main_arg2)
abbrev arg8 : (⟨S64x64, .f32⟩ : BufTy).Contents (Elt Ideal) := m ((c : Thread nD τ).loc main_arg8)
abbrev arg9 : (⟨S64x64, .f32⟩ : BufTy).Contents (Elt Ideal) := m ((c : Thread nD τ).loc main_arg9)
abbrev arg10 : (⟨S64, .f32⟩ : BufTy).Contents (Elt Ideal) := m ((c : Thread nD τ).loc main_arg10)

/-- What the third launch leaves in its two output arrays: the per-graph sums and the per-graph counts. -/
abbrev poolOut : (⟨S256x64, .f32⟩ : BufTy).Contents (Elt Ideal) := (dat2 (Hand.V5 m) c).arrAt 6 cfg2.N
abbrev cntOut : (⟨S1x256, .f32⟩ : BufTy).Contents (Elt Ideal) := (dat2 (Hand.V5 m) c).arrAt 7 cfg2.N

/-! ## The second half of the chain -/

/-- The third launch's operand arrays are the third host stretch's operation terms of the hidden activation and
    the argument arrays, once the features it reads are known to be the reference's hidden activation. -/
theorem ops2_of_fold
    (hA : (Hand.V5 m c main_v48 : (⟨S100000x64, .f32⟩ : BufTy).Contents (Elt Ideal))
      = Cert.ReferenceIdeal.Read.val_main_v56 (F := Ideal) (arg0 m c) (arg1 m c) (arg3 m c) (arg4 m c) (arg5 m c) (arg6 m c) (arg7 m c)) :
    layerArr (Hand.V5 m c main_v58 : (⟨S100000x64, .f32⟩ : BufTy).Contents (Elt Ideal))
        (Hand.V5 m c main_v12 : (⟨S100000x1, .f32⟩ : BufTy).Contents (Elt Ideal))
        (Hand.V5 m c main_v48 : (⟨S100000x64, .f32⟩ : BufTy).Contents (Elt Ideal))
        (Hand.V5 m c main_v61 : (⟨S128x64, .f32⟩ : BufTy).Contents (Elt Ideal))
        (Hand.V5 m c main_v62 : (⟨S1x64, .f32⟩ : BufTy).Contents (Elt Ideal))
      = layerArr (aggK (F := Ideal) (Cert.ReferenceIdeal.Read.val_main_v56 (F := Ideal) (arg0 m c) (arg1 m c) (arg3 m c) (arg4 m c) (arg5 m c) (arg6 m c) (arg7 m c)) (srcK (F := Ideal) (arg1 m c)) (dstK (F := Ideal) (arg1 m c)))
          (invDegK (F := Ideal) (dstK (F := Ideal) (arg1 m c))) (Cert.ReferenceIdeal.Read.val_main_v56 (F := Ideal) (arg0 m c) (arg1 m c) (arg3 m c) (arg4 m c) (arg5 m c) (arg6 m c) (arg7 m c))
          (wcatK (F := Ideal) (arg8 m c) (arg9 m c)) (shapeCast S1x64 (arg10 m c) shapeCasts_S64_S1x64) := by
  have e58 : (Hand.V5 m c main_v58 : (⟨S100000x64, .f32⟩ : BufTy).Contents (Elt Ideal))
      = aggK (F := Ideal) (Hand.V5 m c main_v48 : (⟨S100000x64, .f32⟩ : BufTy).Contents (Elt Ideal)) (srcK (F := Ideal) (arg1 m c)) (dstK (F := Ideal) (arg1 m c)) :=
    (fold5_v58 m c).trans
      (congrArg (fun a => aggK (F := Ideal) a (srcK (F := Ideal) (arg1 m c)) (dstK (F := Ideal) (arg1 m c))) (fold5_v48 m c).symm)
  have e12 : (Hand.V5 m c main_v12 : (⟨S100000x1, .f32⟩ : BufTy).Contents (Elt Ideal)) = invDegK (F := Ideal) (dstK (F := Ideal) (arg1 m c)) := fold5_v12 m c
  have e61 : (Hand.V5 m c main_v61 : (⟨S128x64, .f32⟩ : BufTy).Contents (Elt Ideal)) = wcatK (F := Ideal) (arg8 m c) (arg9 m c) := fold5_v61 m c
  have e62 : (Hand.V5 m c main_v62 : (⟨S1x64, .f32⟩ : BufTy).Contents (Elt Ideal)) = shapeCast S1x64 (arg10 m c) shapeCasts_S64_S1x64 := fold5_v62 m c
  rw [e58, e12, e61, e62, hA]

/-- THE SECOND HALF OF THE CHAIN. If the features the third launch reads are the reference's hidden activation,
    then — the launch leaving in its first output array the per-graph masked sums of its layer, and given that
    it leaves in its second the per-graph counts — the program's result is the reference's mean pool of the
    program's arguments. -/
theorem chainB
    (hA : (Hand.V5 m c main_v48 : (⟨S100000x64, .f32⟩ : BufTy).Contents (Elt Ideal))
      = Cert.ReferenceIdeal.Read.val_main_v56 (F := Ideal) (arg0 m c) (arg1 m c) (arg3 m c) (arg4 m c) (arg5 m c) (arg6 m c) (arg7 m c))
    (h7 : ∀ g : Fin 256, (dat2 (Hand.V5 m) c).arrAt 7 cfg2.N (ix2 (0 : Fin 1) g)
      = ∑ n : Fin 100000, (if Hand.V5 m c main_v63 (ix2 n (0 : Fin 1)) = BitVec.ofNat 32 g.val then (1 : EReal) else 0)) :
    (Hand.W7 m c (Proc.devRef .tc main_v69) : (⟨S256x64, .f32⟩ : BufTy).Contents (Elt Ideal))
      = Cert.ReferenceIdeal.Read.val_main_v95 (F := Ideal) (arg0 m c) (arg1 m c) (arg2 m c) (arg3 m c) (arg4 m c) (arg5 m c) (arg6 m c) (arg7 m c) (arg8 m c) (arg9 m c) (arg10 m c) := by
  have eid : (Hand.V5 m c main_v63 : (⟨S100000x1, .i32⟩ : BufTy).Contents (Elt Ideal)) = shapeCast S100000x1 (arg2 m c) shapeCasts_S100000_S100000x1 := fold5_v63 m c
  have eL := ops2_of_fold m c hA
  refine (fold7_v69 m c).trans ?_
  refine pool_core (arg0 m c) (arg1 m c) (arg2 m c) (arg3 m c) (arg4 m c) (arg5 m c) (arg6 m c) (arg7 m c) (arg8 m c) (arg9 m c) (arg10 m c) (poolOut m c) (cntOut m c) (fun g j => ?_) (fun g => ?_)
  · -- the per-graph sums: what the launch leaves, summand by summand
    refine (final2_6 (Hand.V5 m) c g j).trans ?_
    refine Finset.sum_congr (M := EReal) rfl fun n _ => ?_
    rw [eL, eid]
  · -- the per-graph counts
    refine (h7 g).trans ?_
    refine Finset.sum_congr (M := EReal) rfl fun n _ => ?_
    rw [eid]

end Program

/-- THE WHOLE CHAIN, the third launch's per-graph counts taken as given: on memories that agree on the arguments,
    under the precondition, the program's result on every core is the reference's. -/
theorem kernel_value_of (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (c : Dev Cert.KernelIdeal.nD)
    (f27 : ∀ g : Fin 256, (dat2 (Hand.V5 m) c).arrAt 7 cfg2.N (ix2 (0 : Fin 1) g)
      = ∑ n : Fin 100000, (if Hand.V5 m c main_v63 (ix2 n (0 : Fin 1)) = BitVec.ofNat 32 g.val then (1 : EReal) else 0)) :
    Cert.KernelIdeal.Hand.W7 m c (Proc.devRef .tc Cert.KernelIdeal.main_v69) = Cert.ReferenceIdeal.Value.res_main_v95 m' c := by
  obtain ⟨e0, e1, e2, e3, e4, e5, e6, e7, e8, e9, e10⟩ := hagree c
  -- the first half: the features the third launch reads are the reference's hidden activation
  have hA := chainA m c hpre (final0_5 (Hand.V1 m) c) (final0_6 (Hand.V1 m) c) (final0_7 (Hand.V1 m) c)
  refine Eq.trans ?_ (Cert.ReferenceIdeal.Read.val_main_v95_eq (F := Ideal) m' c).symm
  rw [e0, e1, e2, e3, e4, e5, e6, e7, e8, e9, e10]
  exact chainB m c hA f27

/-- THE WHOLE CHAIN: on memories that agree on the arguments, under the precondition, the program's result on
    every core is the reference's. -/
theorem kernel_value (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (c : Dev Cert.KernelIdeal.nD) :
    Cert.KernelIdeal.Hand.W7 m c (Proc.devRef .tc Cert.KernelIdeal.main_v69) = Cert.ReferenceIdeal.Value.res_main_v95 m' c :=
  kernel_value_of m m' hpre hagree c (final2_7 (Hand.V5 m) c)

end Cert.Val

end
-- ==== Proof.lean ====
/- A two-layer GraphSAGE encoder with a batch normalisation between the layers and a per-graph mean pool at the end,
   as three Pallas launches (layer 1 fused with the column sums the normalisation needs; the normalisation and
   rectification on a lane-dense view; layer 2 fused with the pooling through a one-hot matrix product) among host
   lines, against its plain jnp reference.

   The three frames. The two kernel programs run their seven segments (host lines, launch, host lines, launch, host
   lines, launch, host lines) one after the other; each launch's frame is its proof data and body obligation — the
   first and third launch carry two accumulators in scratch across their grid points, zeroed at the first point and
   copied out at the last —, and no segment writes an argument. The reference is host lines only: its generated run.

   The idealization. Its one rewrite drops a round trip through bf16 of the one-hot mask before the count's lane
   sum: at the ideal instance a change of float format is the identity.

   The equality over the extended reals. Layer by layer, on every admitted input:
   * the neighbour sums and the clamped degrees are the same operations of the same arguments in both programs;
   * a row of a layer: the kernel multiplies by the reciprocal 1 / d of the clamped degree d ≥ 1 and adds the bias last,
     the reference divides by d and adds the bias between the two products: equal for every d ≠ 0;
   * the normalisation: the kernel's var = Σh²/N − (Σh/N)², scale = γ·rsqrt(var + ε), shift = β − mean·scale against
     the reference's var = Σ(h − mean)²/N and (h − mean)·rsqrt(var + ε)·γ + β: equal because every entry of h is a
     real (the inputs are finite, the neighbour sums are finite sums of inputs, the degrees are at least 1) and N is
     the number of rows;
   * the pool: a one-hot mask times a row, summed over a tile and accumulated over the tiles, is the sum of the rows
     whose graph id is g, which is what the reference's scatter-add holds at g; the counts likewise; both programs
     divide the sums by max (count, 1). -/
import proofs.«400542_j69810398429749_3_alg».proof.Defs
import proofs.«400542_j69810398429749_3_alg».proof.Proof.Gen.Kernel
import proofs.«400542_j69810398429749_3_alg».proof.Proof.Gen.KernelIdeal
import proofs.«400542_j69810398429749_3_alg».proof.Proof.Gen.ReferenceIdeal
import proofs.«400542_j69810398429749_3_alg».proof.Proof.Gen.Pre_finite_inputs
import proofs.«400542_j69810398429749_3_alg».proof.Proof.K.Run
import proofs.«400542_j69810398429749_3_alg».proof.Proof.KI.Run
import proofs.«400542_j69810398429749_3_alg».proof.Proof.RefRead
import proofs.«400542_j69810398429749_3_alg».proof.Proof.Val.Chain
import Idealize.ShloMosaic.Adequacy
import Idealize.ShloMosaic.Init

noncomputable section

namespace Cert.Proof

open Idealize.ShloMosaic Idealize.SL.Sem

/-- The word-level program runs and leaves its arguments as launched. -/
theorem frame_k : Cert.frame_Kernel := fun m ρ _ => Cert.Kernel.Hand.frame m ρ

/-- So does the idealized program. -/
theorem frame_ki : Cert.frame_KernelIdeal := fun m ρ _ => Cert.KernelIdeal.Hand.frame m ρ

/-- The reference is host lines only: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the ideal pass: a widening of a narrowing is the identity at the ideal instance. -/
theorem preserves : Cert.preserves_Kernel_KernelIdeal :=
  IdealRules.truncf_extf.statement Cert.KernelIdeal.S2000x256 .f32 .bf16

/-- Both idealized programs end with the reference's composed value of the arguments. -/
theorem algebraic : Cert.algebraic_KernelIdeal_ReferenceIdeal := by
  intro m ρ m' ρ' hpre hagree
  refine ⟨fun c => Cert.ReferenceIdeal.Value.res_main_v95 m' c, ?_, ?_⟩
  · refine (θ_run Cert.KernelIdeal.defs _ _).mono (fun r h c => ⟨?_, ?_⟩) (Cert.KernelIdeal.Hand.run_all m ρ)
    · exact (h c _ (Cert.KernelIdeal.Hand.mem_uc Cert.KernelIdeal.main_v69 (by decide))).trans (Cert.Val.kernel_value m m' hpre hagree c)
    · exact ⟨(h c _ (Cert.KernelIdeal.Hand.mem_uc Cert.KernelIdeal.main_arg0 (by decide))).trans (Cert.KernelIdeal.Hand.W7_main_arg0 m c),
        (h c _ (Cert.KernelIdeal.Hand.mem_uc Cert.KernelIdeal.main_arg1 (by decide))).trans (Cert.KernelIdeal.Hand.W7_main_arg1 m c),
        (h c _ (Cert.KernelIdeal.Hand.mem_uc Cert.KernelIdeal.main_arg2 (by decide))).trans (Cert.KernelIdeal.Hand.W7_main_arg2 m c),
        (h c _ (Cert.KernelIdeal.Hand.mem_uc Cert.KernelIdeal.main_arg3 (by decide))).trans (Cert.KernelIdeal.Hand.W7_main_arg3 m c),
        (h c _ (Cert.KernelIdeal.Hand.mem_uc Cert.KernelIdeal.main_arg4 (by decide))).trans (Cert.KernelIdeal.Hand.W7_main_arg4 m c),
        (h c _ (Cert.KernelIdeal.Hand.mem_uc Cert.KernelIdeal.main_arg5 (by decide))).trans (Cert.KernelIdeal.Hand.W7_main_arg5 m c),
        (h c _ (Cert.KernelIdeal.Hand.mem_uc Cert.KernelIdeal.main_arg6 (by decide))).trans (Cert.KernelIdeal.Hand.W7_main_arg6 m c),
        (h c _ (Cert.KernelIdeal.Hand.mem_uc Cert.KernelIdeal.main_arg7 (by decide))).trans (Cert.KernelIdeal.Hand.W7_main_arg7 m c),
        (h c _ (Cert.KernelIdeal.Hand.mem_uc Cert.KernelIdeal.main_arg8 (by decide))).trans (Cert.KernelIdeal.Hand.W7_main_arg8 m c),
        (h c _ (Cert.KernelIdeal.Hand.mem_uc Cert.KernelIdeal.main_arg9 (by decide))).trans (Cert.KernelIdeal.Hand.W7_main_arg9 m c),
        (h c _ (Cert.KernelIdeal.Hand.mem_uc Cert.KernelIdeal.main_arg10 (by decide))).trans (Cert.KernelIdeal.Hand.W7_main_arg10 m c)⟩
  · exact Cert.ReferenceIdeal.Value.run (F := Ideal) m' ρ'

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
